-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v196)) (v1 : (c : Dev Cert.KernelIdeal.nD) → Buf (Elt Ideal) ((c.tc : Thread Cert.KernelIdeal.nD Cert.KernelIdeal.τ).loc Cert.KernelIdeal.main_v193)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v196) = v0 c
          ∧ r.2.mem ((c.tc : Thread Cert.KernelIdeal.nD Cert.KernelIdeal.τ).loc Cert.KernelIdeal.main_v193) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v340) = v0 c
          ∧ r.2.mem ((c.tc : Thread Cert.ReferenceIdeal.nD Cert.ReferenceIdeal.τ).loc Cert.ReferenceIdeal.main_v331) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x200 : Shape := ⟨2, ![100000, 200]⟩
abbrev S400x200 : Shape := ⟨2, ![400, 200]⟩
abbrev S200x200 : Shape := ⟨2, ![200, 200]⟩
abbrev S1x200 : Shape := ⟨2, ![1, 200]⟩
abbrev S2x800000 : Shape := ⟨2, ![2, 800000]⟩
abbrev S800000 : Shape := ⟨1, ![800000]⟩
abbrev S8192 : Shape := ⟨1, ![8192]⟩
abbrev S_ : Shape := ⟨0, ![]⟩
abbrev S1x800000 : Shape := ⟨2, ![1, 800000]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S400x200 : S_.BroadcastsInDim S400x200 (![] : Fin 0 → Fin S400x200.rank)
  reducesTo_S400x200_S_d0_1 : S400x200.ReducesTo [0, 1] S_
  bcast_S_S200x200 : S_.BroadcastsInDim S200x200 (![] : Fin 0 → Fin S200x200.rank)
  reducesTo_S200x200_S_d0_1 : S200x200.ReducesTo [0, 1] S_
  bcast_S_S1x200 : S_.BroadcastsInDim S1x200 (![] : Fin 0 → Fin S1x200.rank)
  reducesTo_S1x200_S_d0_1 : S1x200.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_
  bcast_S_S8192 : S_.BroadcastsInDim S8192 (![] : Fin 0 → Fin S8192.rank)
  reducesTo_S8192_S_d0 : S8192.ReducesTo [0] S_

variable [Facts]

def fn_part4 {F : FTy → Type} [FloatOps F] (main_arg13 : IVec S800000 32) (main_arg14 : IVec S8192 32) (main_v58 : IVec S_ 1) (main_v68 : IVec S_ 1) : IVec S_ 1 :=
  let main_v69 : IVec S_ 1 := andi main_v58 main_v68
  let main_c_25 : IVec S_ 32 := constantI S_ 32 0#32
  let main_v70 : IVec S800000 32 := broadcastInDim S800000 ![] bcast_S_S800000 main_c_25
  let main_v71 : IVec S800000 1 := cmpi .sge main_arg13 main_v70
  let main_c_26 : IVec S_ 32 := constantI S_ 32 401#32
  let main_v72 : IVec S800000 32 := broadcastInDim S800000 ![] bcast_S_S800000 main_c_26
  let main_v73 : IVec S800000 1 := cmpi .slt main_arg13 main_v72
  let main_v74 : IVec S800000 1 := andi main_v71 main_v73
  let main_c_27 : IVec S_ 1 := constantI S_ 1 1#1
  let main_v75 : IVec S_ 1 := (fun x v => Host.reduce IntOp.andi x v reducesTo_S800000_S_d0 h_S_) main_v74 main_c_27
  let main_v76 : IVec S_ 1 := andi main_v69 main_v75
  let main_c_28 : IVec S_ 32 := constantI S_ 32 0#32
  let main_v77 : IVec S8192 32 := broadcastInDim S8192 ![] bcast_S_S8192 main_c_28
  let main_v78 : IVec S8192 1 := cmpi .sge main_arg14 main_v77
  let main_c_29 : IVec S_ 32 := constantI S_ 32 100000#32
  let main_v79 : IVec S8192 32 := broadcastInDim S8192 ![] bcast_S_S8192 main_c_29
  let main_v80 : IVec S8192 1 := cmpi .slt main_arg14 main_v79
  let main_v81 : IVec S8192 1 := andi main_v78 main_v80
  let main_c_30 : IVec S_ 1 := constantI S_ 1 1#1
  let main_v82 : IVec S_ 1 := (fun x v => Host.reduce IntOp.andi x v reducesTo_S8192_S_d0 h_S_) main_v81 main_c_30
  let main_v83 : IVec S_ 1 := andi main_v76 main_v82
  main_v83

def fn_part3 {F : FTy → Type} [FloatOps F] (main_arg11 : FVec F S1x200 .f32) (main_arg12 : IVec S2x800000 32) (main_arg13 : IVec S800000 32) (main_arg14 : IVec S8192 32) (main_v48 : IVec S_ 1) (main_v49 : FVec F S200x200 .f32) (main_v50 : FVec F S200x200 .f32) : IVec S_ 1 :=
  let main_v51 : IVec S200x200 1 := cmpf .olt main_v49 main_v50
  let main_c_19 : IVec S_ 1 := constantI S_ 1 1#1
  let main_v52 : IVec S_ 1 := (fun x v => Host.reduce IntOp.andi x v reducesTo_S200x200_S_d0_1 h_S_) main_v51 main_c_19
  let main_v53 : IVec S_ 1 := andi main_v48 main_v52
  let main_v54 : FVec F S1x200 .f32 := Host.absf main_arg11
  let main_cst_20 : FVec F S_ .f32 := constant S_ .f32 0x7F800000#32
  let main_v55 : FVec F S1x200 .f32 := broadcastInDim S1x200 ![] bcast_S_S1x200 main_cst_20
  let main_v56 : IVec S1x200 1 := cmpf .olt main_v54 main_v55
  let main_c_21 : IVec S_ 1 := constantI S_ 1 1#1
  let main_v57 : IVec S_ 1 := (fun x v => Host.reduce IntOp.andi x v reducesTo_S1x200_S_d0_1 h_S_) main_v56 main_c_21
  let main_v58 : IVec S_ 1 := andi main_v53 main_v57
  let main_v59 : IVec S1x800000 32 := (extractStridedSlice S1x800000 ![0, 0] · slices_S2x800000_S1x800000_0_0) main_arg12
  let main_v60 : IVec S800000 32 := shapeCast S800000 main_v59 shapeCasts_S1x800000_S800000
  let main_c_22 : IVec S_ 32 := constantI S_ 32 0#32
  let main_v61 : IVec S800000 32 := broadcastInDim S800000 ![] bcast_S_S800000 main_c_22
  let main_v62 : IVec S800000 1 := cmpi .sge main_v60 main_v61
  let main_v63 : IVec S1x800000 32 := (extractStridedSlice S1x800000 ![0, 0] · slices_S2x800000_S1x800000_0_0) main_arg12
  let main_v64 : IVec S800000 32 := shapeCast S800000 main_v63 shapeCasts_S1x800000_S800000
  let main_c_23 : IVec S_ 32 := constantI S_ 32 100000#32
  let main_v65 : IVec S800000 32 := broadcastInDim S800000 ![] bcast_S_S800000 main_c_23
  let main_v66 : IVec S800000 1 := cmpi .slt main_v64 main_v65
  let main_v67 : IVec S800000 1 := andi main_v62 main_v66
  let main_c_24 : IVec S_ 1 := constantI S_ 1 1#1
  let main_v68 : IVec S_ 1 := (fun x v => Host.reduce IntOp.andi x v reducesTo_S800000_S_d0 h_S_) main_v67 main_c_24
  fn_part4 (F := F) main_arg13 main_arg14 main_v58 main_v68

def fn_part2 {F : FTy → Type} [FloatOps F] (main_arg7 : FVec F S200x200 .f32) (main_arg8 : FVec F S200x200 .f32) (main_arg9 : FVec F S200x200 .f32) (main_arg10 : FVec F S200x200 .f32) (main_arg11 : FVec F S1x200 .f32) (main_arg12 : IVec S2x800000 32) (main_arg13 : IVec S800000 32) (main_arg14 : IVec S8192 32) (main_v33 : IVec S_ 1) : IVec S_ 1 :=
  let main_v34 : FVec F S200x200 .f32 := Host.absf main_arg7
  let main_cst_12 : FVec F S_ .f32 := constant S_ .f32 0x7F800000#32
  let main_v35 : FVec F S200x200 .f32 := broadcastInDim S200x200 ![] bcast_S_S200x200 main_cst_12
  let main_v36 : IVec S200x200 1 := cmpf .olt main_v34 main_v35
  let main_c_13 : IVec S_ 1 := constantI S_ 1 1#1
  let main_v37 : IVec S_ 1 := (fun x v => Host.reduce IntOp.andi x v reducesTo_S200x200_S_d0_1 h_S_) main_v36 main_c_13
  let main_v38 : IVec S_ 1 := andi main_v33 main_v37
  let main_v39 : FVec F S200x200 .f32 := Host.absf main_arg8
  let main_cst_14 : FVec F S_ .f32 := constant S_ .f32 0x7F800000#32
  let main_v40 : FVec F S200x200 .f32 := broadcastInDim S200x200 ![] bcast_S_S200x200 main_cst_14
  let main_v41 : IVec S200x200 1 := cmpf .olt main_v39 main_v40
  let main_c_15 : IVec S_ 1 := constantI S_ 1 1#1
  let main_v42 : IVec S_ 1 := (fun x v => Host.reduce IntOp.andi x v reducesTo_S200x200_S_d0_1 h_S_) main_v41 main_c_15
  let main_v43 : IVec S_ 1 := andi main_v38 main_v42
  let main_v44 : FVec F S200x200 .f32 := Host.absf main_arg9
  let main_cst_16 : FVec F S_ .f32 := constant S_ .f32 0x7F800000#32
  let main_v45 : FVec F S200x200 .f32 := broadcastInDim S200x200 ![] bcast_S_S200x200 main_cst_16
  let main_v46 : IVec S200x200 1 := cmpf .olt main_v44 main_v45
  let main_c_17 : IVec S_ 1 := constantI S_ 1 1#1
  let main_v47 : IVec S_ 1 := (fun x v => Host.reduce IntOp.andi x v reducesTo_S200x200_S_d0_1 h_S_) main_v46 main_c_17
  let main_v48 : IVec S_ 1 := andi main_v43 main_v47
  let main_v49 : FVec F S200x200 .f32 := Host.absf main_arg10
  let main_cst_18 : FVec F S_ .f32 := constant S_ .f32 0x7F800000#32
  let main_v50 : FVec F S200x200 .f32 := broadcastInDim S200x200 ![] bcast_S_S200x200 main_cst_18
  fn_part3 (F := F) main_arg11 main_arg12 main_arg13 main_arg14 main_v48 main_v49 main_v50

def fn_part1 {F : FTy → Type} [FloatOps F] (main_arg4 : FVec F S200x200 .f32) (main_arg5 : FVec F S200x200 .f32) (main_arg6 : FVec F S1x200 .f32) (main_arg7 : FVec F S200x200 .f32) (main_arg8 : FVec F S200x200 .f32) (main_arg9 : FVec F S200x200 .f32) (main_arg10 : FVec F S200x200 .f32) (main_arg11 : FVec F S1x200 .f32) (main_arg12 : IVec S2x800000 32) (main_arg13 : IVec S800000 32) (main_arg14 : IVec S8192 32) (main_v13 : IVec S_ 1) (main_v16 : IVec S200x200 1) : IVec S_ 1 :=
  let main_c_5 : IVec S_ 1 := constantI S_ 1 1#1
  let main_v17 : IVec S_ 1 := (fun x v => Host.reduce IntOp.andi x v reducesTo_S200x200_S_d0_1 h_S_) main_v16 main_c_5
  let main_v18 : IVec S_ 1 := andi main_v13 main_v17
  let main_v19 : FVec F S200x200 .f32 := Host.absf main_arg4
  let main_cst_6 : FVec F S_ .f32 := constant S_ .f32 0x7F800000#32
  let main_v20 : FVec F S200x200 .f32 := broadcastInDim S200x200 ![] bcast_S_S200x200 main_cst_6
  let main_v21 : IVec S200x200 1 := cmpf .olt main_v19 main_v20
  let main_c_7 : IVec S_ 1 := constantI S_ 1 1#1
  let main_v22 : IVec S_ 1 := (fun x v => Host.reduce IntOp.andi x v reducesTo_S200x200_S_d0_1 h_S_) main_v21 main_c_7
  let main_v23 : IVec S_ 1 := andi main_v18 main_v22
  let main_v24 : FVec F S200x200 .f32 := Host.absf main_arg5
  let main_cst_8 : FVec F S_ .f32 := constant S_ .f32 0x7F800000#32
  let main_v25 : FVec F S200x200 .f32 := broadcastInDim S200x200 ![] bcast_S_S200x200 main_cst_8
  let main_v26 : IVec S200x200 1 := cmpf .olt main_v24 main_v25
  let main_c_9 : IVec S_ 1 := constantI S_ 1 1#1
  let main_v27 : IVec S_ 1 := (fun x v => Host.reduce IntOp.andi x v reducesTo_S200x200_S_d0_1 h_S_) main_v26 main_c_9
  let main_v28 : IVec S_ 1 := andi main_v23 main_v27
  let main_v29 : FVec F S1x200 .f32 := Host.absf main_arg6
  let main_cst_10 : FVec F S_ .f32 := constant S_ .f32 0x7F800000#32
  let main_v30 : FVec F S1x200 .f32 := broadcastInDim S1x200 ![] bcast_S_S1x200 main_cst_10
  let main_v31 : IVec S1x200 1 := cmpf .olt main_v29 main_v30
  let main_c_11 : IVec S_ 1 := constantI S_ 1 1#1
  let main_v32 : IVec S_ 1 := (fun x v => Host.reduce IntOp.andi x v reducesTo_S1x200_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x200 .f32) (main_arg1 : FVec F S400x200 .f32) (main_arg2 : FVec F S200x200 .f32) (main_arg3 : FVec F S200x200 .f32) (main_arg4 : FVec F S200x200 .f32) (main_arg5 : FVec F S200x200 .f32) (main_arg6 : FVec F S1x200 .f32) (main_arg7 : FVec F S200x200 .f32) (main_arg8 : FVec F S200x200 .f32) (main_arg9 : FVec F S200x200 .f32) (main_arg10 : FVec F S200x200 .f32) (main_arg11 : FVec F S1x200 .f32) (main_arg12 : IVec S2x800000 32) (main_arg13 : IVec S800000 32) (main_arg14 : IVec S8192 32) : IVec S_ 1 :=
  let main_v0 : FVec F S100000x200 .f32 := Host.absf main_arg0
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S400x200 .f32 := Host.absf main_arg1
  let main_cst_0 : FVec F S_ .f32 := constant S_ .f32 0x7F800000#32
  let main_v5 : FVec F S400x200 .f32 := broadcastInDim S400x200 ![] bcast_S_S400x200 main_cst_0
  let main_v6 : IVec S400x200 1 := cmpf .olt main_v4 main_v5
  let main_c_1 : IVec S_ 1 := constantI S_ 1 1#1
  let main_v7 : IVec S_ 1 := (fun x v => Host.reduce IntOp.andi x v reducesTo_S400x200_S_d0_1 h_S_) main_v6 main_c_1
  let main_v8 : IVec S_ 1 := andi main_v3 main_v7
  let main_v9 : FVec F S200x200 .f32 := Host.absf main_arg2
  let main_cst_2 : FVec F S_ .f32 := constant S_ .f32 0x7F800000#32
  let main_v10 : FVec F S200x200 .f32 := broadcastInDim S200x200 ![] bcast_S_S200x200 main_cst_2
  let main_v11 : IVec S200x200 1 := cmpf .olt main_v9 main_v10
  let main_c_3 : IVec S_ 1 := constantI S_ 1 1#1
  let main_v12 : IVec S_ 1 := (fun x v => Host.reduce IntOp.andi x v reducesTo_S200x200_S_d0_1 h_S_) main_v11 main_c_3
  let main_v13 : IVec S_ 1 := andi main_v8 main_v12
  let main_v14 : FVec F S200x200 .f32 := Host.absf main_arg3
  let main_cst_4 : FVec F S_ .f32 := constant S_ .f32 0x7F800000#32
  let main_v15 : FVec F S200x200 .f32 := broadcastInDim S200x200 ![] bcast_S_S200x200 main_cst_4
  let main_v16 : IVec S200x200 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x200 : Shape := ⟨2, ![100000, 200]⟩
abbrev S400x200 : Shape := ⟨2, ![400, 200]⟩
abbrev S200x200 : Shape := ⟨2, ![200, 200]⟩
abbrev S1x200 : Shape := ⟨2, ![1, 200]⟩
abbrev S2x800000 : Shape := ⟨2, ![2, 800000]⟩
abbrev S800000 : Shape := ⟨1, ![800000]⟩
abbrev S8192 : Shape := ⟨1, ![8192]⟩
abbrev S401x200 : Shape := ⟨2, ![401, 200]⟩
abbrev S2x400000 : Shape := ⟨2, ![2, 400000]⟩
abbrev S400000 : Shape := ⟨1, ![400000]⟩
abbrev S1x400000 : Shape := ⟨2, ![1, 400000]⟩
abbrev S_ : Shape := ⟨0, ![]⟩
abbrev S100000 : Shape := ⟨1, ![100000]⟩
abbrev S400000x1 : Shape := ⟨2, ![400000, 1]⟩
abbrev S1 : Shape := ⟨1, ![1]⟩
abbrev S1x1 : Shape := ⟨2, ![1, 1]⟩
abbrev S400000x200 : Shape := ⟨2, ![400000, 200]⟩
abbrev S2000x200 : Shape := ⟨2, ![2000, 200]⟩
abbrev S200 : Shape := ⟨1, ![200]⟩
abbrev S8192x1 : Shape := ⟨2, ![8192, 1]⟩
abbrev S8192x200 : Shape := ⟨2, ![8192, 200]⟩

abbrev nBuf : Space → Nat
  | .hbm => 466
  | .vmem => 40
  | .smem => 0
  | _ => 0

abbrev hbmTy0_0 (i : Nat) : BufTy := match i % 128 with
  | 0 => ⟨S100000x200, .f32⟩
  | 1 => ⟨S400x200, .f32⟩
  | 2 => ⟨S200x200, .f32⟩
  | 3 => ⟨S200x200, .f32⟩
  | 4 => ⟨S200x200, .f32⟩
  | 5 => ⟨S200x200, .f32⟩
  | 6 => ⟨S1x200, .f32⟩
  | 7 => ⟨S200x200, .f32⟩
  | 8 => ⟨S200x200, .f32⟩
  | 9 => ⟨S200x200, .f32⟩
  | 10 => ⟨S200x200, .f32⟩
  | 11 => ⟨S1x200, .f32⟩
  | 12 => ⟨S2x800000, .i32⟩
  | 13 => ⟨S800000, .i32⟩
  | 14 => ⟨S8192, .i32⟩
  | 15 => ⟨S401x200, .f32⟩
  | 16 => ⟨S2x400000, .i32⟩
  | 17 => ⟨S2x400000, .i32⟩
  | 18 => ⟨S400000, .i32⟩
  | 19 => ⟨S400000, .i32⟩
  | 20 => ⟨S1x400000, .i32⟩
  | 21 => ⟨S400000, .i32⟩
  | 22 => ⟨S1x400000, .i32⟩
  | 23 => ⟨S400000, .i32⟩
  | 24 => ⟨S1x400000, .i32⟩
  | 25 => ⟨S400000, .i32⟩
  | 26 => ⟨S1x400000, .i32⟩
  | 27 => ⟨S400000, .i32⟩
  | 28 => ⟨S_, .f32⟩
  | 29 => ⟨S400000, .f32⟩
  | 30 => ⟨S_, .f32⟩
  | 31 => ⟨S100000, .f32⟩
  | 32 => ⟨S400000x1, .i32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S400000, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000, .f32⟩
  | 62 => ⟨S400000, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S1, .i32⟩
  | 72 => ⟨S_, .i32⟩
  | 73 => ⟨S400000x1, .i32⟩
  | 74 => ⟨S400000x1, .i1⟩
  | 75 => ⟨S1x1, .i32⟩
  | 76 => ⟨S400000x1, .i32⟩
  | 77 => ⟨S400000x1, .i1⟩
  | 78 => ⟨S400000x1, .i1⟩
  | 79 => ⟨S_, .i1⟩
  | 80 => ⟨S400000, .i1⟩
  | 81 => ⟨S400000x200, .f32⟩
  | 82 => ⟨S400000x200, .i1⟩
  | 83 => ⟨S_, .f32⟩
  | 84 => ⟨S400000x200, .f32⟩
  | 85 => ⟨S400000x200, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S1, .i32⟩
  | 95 => ⟨S_, .i32⟩
  | 96 => ⟨S400000x1, .i32⟩
  | 97 => ⟨S400000x1, .i1⟩
  | 98 => ⟨S1x1, .i32⟩
  | 99 => ⟨S400000x1, .i32⟩
  | 100 => ⟨S400000x1, .i1⟩
  | 101 => ⟨S400000x1, .i1⟩
  | 102 => ⟨S_, .i1⟩
  | 103 => ⟨S400000, .i1⟩
  | 104 => ⟨S400000x200, .f32⟩
  | 105 => ⟨S400000x200, .i1⟩
  | 106 => ⟨S_, .f32⟩
  | 107 => ⟨S400000x200, .f32⟩
  | 108 => ⟨S400000x200, .f32⟩
  | 109 => ⟨S400000x200, .f32⟩
  | 110 => ⟨S400000x1, .f32⟩
  | 111 => ⟨S400000x200, .f32⟩
  | 112 => ⟨S400000x200, .f32⟩
  | 113 => ⟨S_, .f32⟩
  | 114 => ⟨S100000x200, .f32⟩
  | 115 => ⟨S400000x1, .i32⟩
  | 116 => ⟨S100000x200, .f32⟩
  | 117 => ⟨S1x400000, .i32⟩
  | 118 => ⟨S400000, .i32⟩
  | 119 => ⟨S1x400000, .i32⟩
  | 120 => ⟨S400000, .i32⟩
  | 121 => ⟨S1x400000, .i32⟩
  | 122 => ⟨S400000, .i32⟩
  | 123 => ⟨S1x400000, .i32⟩
  | 124 => ⟨S400000, .i32⟩
  | 125 => ⟨S_, .f32⟩
  | 126 => ⟨S400000, .f32⟩
  | 127 => ⟨S_, .f32⟩
  | _ => ⟨S100000x200, .f32⟩

abbrev hbmTy0_1 (i : Nat) : BufTy := match i % 128 with
  | 0 => ⟨S100000, .f32⟩
  | 1 => ⟨S400000x1, .i32⟩
  | 2 => ⟨S100000, .f32⟩
  | 3 => ⟨S_, .f32⟩
  | 4 => ⟨S100000, .f32⟩
  | 5 => ⟨S100000, .i1⟩
  | 6 => ⟨S_, .f32⟩
  | 7 => ⟨S100000, .f32⟩
  | 8 => ⟨S100000, .f32⟩
  | 9 => ⟨S_, .f32⟩
  | 10 => ⟨S_, .f32⟩
  | 11 => ⟨S100000, .f32⟩
  | 12 => ⟨S100000, .f32⟩
  | 13 => ⟨S_, .i32⟩
  | 14 => ⟨S400000, .i32⟩
  | 15 => ⟨S400000, .i1⟩
  | 16 => ⟨S_, .i32⟩
  | 17 => ⟨S400000, .i32⟩
  | 18 => ⟨S400000, .i32⟩
  | 19 => ⟨S400000, .i32⟩
  | 20 => ⟨S400000x1, .i32⟩
  | 21 => ⟨S400000, .f32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S400000, .f32⟩
  | 31 => ⟨S400000, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S1, .i32⟩
  | 41 => ⟨S_, .i32⟩
  | 42 => ⟨S400000x1, .i32⟩
  | 43 => ⟨S400000x1, .i1⟩
  | 44 => ⟨S1x1, .i32⟩
  | 45 => ⟨S400000x1, .i32⟩
  | 46 => ⟨S400000x1, .i1⟩
  | 47 => ⟨S400000x1, .i1⟩
  | 48 => ⟨S_, .i1⟩
  | 49 => ⟨S400000, .i1⟩
  | 50 => ⟨S400000x200, .f32⟩
  | 51 => ⟨S400000x200, .i1⟩
  | 52 => ⟨S_, .f32⟩
  | 53 => ⟨S400000x200, .f32⟩
  | 54 => ⟨S400000x200, .f32⟩
  | 55 => ⟨S_, .i32⟩
  | 56 => ⟨S400000, .i32⟩
  | 57 => ⟨S400000, .i1⟩
  | 58 => ⟨S_, .i32⟩
  | 59 => ⟨S400000, .i32⟩
  | 60 => ⟨S400000, .i32⟩
  | 61 => ⟨S400000, .i32⟩
  | 62 => ⟨S400000x1, .i32⟩
  | 63 => ⟨S1, .i32⟩
  | 64 => ⟨S_, .i32⟩
  | 65 => ⟨S400000x1, .i32⟩
  | 66 => ⟨S400000x1, .i1⟩
  | 67 => ⟨S1x1, .i32⟩
  | 68 => ⟨S400000x1, .i32⟩
  | 69 => ⟨S400000x1, .i1⟩
  | 70 => ⟨S400000x1, .i1⟩
  | 71 => ⟨S_, .i1⟩
  | 72 => ⟨S400000, .i1⟩
  | 73 => ⟨S400000x200, .f32⟩
  | 74 => ⟨S400000x200, .i1⟩
  | 75 => ⟨S_, .f32⟩
  | 76 => ⟨S400000x200, .f32⟩
  | 77 => ⟨S400000x200, .f32⟩
  | 78 => ⟨S400000x200, .f32⟩
  | 79 => ⟨S400000x1, .f32⟩
  | 80 => ⟨S400000x200, .f32⟩
  | 81 => ⟨S400000x200, .f32⟩
  | 82 => ⟨S_, .f32⟩
  | 83 => ⟨S100000x200, .f32⟩
  | 84 => ⟨S400000x1, .i32⟩
  | 85 => ⟨S100000x200, .f32⟩
  | 86 => ⟨S1x200, .f32⟩
  | 87 => ⟨S100000x200, .f32⟩
  | 88 => ⟨S1x200, .f32⟩
  | 89 => ⟨S1x200, .f32⟩
  | 90 => ⟨S_, .f32⟩
  | 91 => ⟨S1x200, .f32⟩
  | 92 => ⟨S1x200, .f32⟩
  | 93 => ⟨S_, .f32⟩
  | 94 => ⟨S1x200, .f32⟩
  | 95 => ⟨S1x200, .f32⟩
  | 96 => ⟨S1x200, .f32⟩
  | 97 => ⟨S1x200, .f32⟩
  | 98 => ⟨S100000x200, .f32⟩
  | 99 => ⟨S401x200, .f32⟩
  | 100 => ⟨S400x200, .f32⟩
  | 101 => ⟨S401x200, .f32⟩
  | 102 => ⟨S2x400000, .i32⟩
  | 103 => ⟨S2x400000, .i32⟩
  | 104 => ⟨S400000, .i32⟩
  | 105 => ⟨S400000, .i32⟩
  | 106 => ⟨S1x400000, .i32⟩
  | 107 => ⟨S400000, .i32⟩
  | 108 => ⟨S1x400000, .i32⟩
  | 109 => ⟨S400000, .i32⟩
  | 110 => ⟨S1x400000, .i32⟩
  | 111 => ⟨S400000, .i32⟩
  | 112 => ⟨S1x400000, .i32⟩
  | 113 => ⟨S400000, .i32⟩
  | 114 => ⟨S_, .f32⟩
  | 115 => ⟨S400000, .f32⟩
  | 116 => ⟨S_, .f32⟩
  | 117 => ⟨S100000, .f32⟩
  | 118 => ⟨S400000x1, .i32⟩
  | 119 => ⟨S100000, .f32⟩
  | 120 => ⟨S_, .f32⟩
  | 121 => ⟨S100000, .f32⟩
  | 122 => ⟨S100000, .i1⟩
  | 123 => ⟨S_, .f32⟩
  | 124 => ⟨S100000, .f32⟩
  | 125 => ⟨S100000, .f32⟩
  | 126 => ⟨S_, .f32⟩
  | 127 => ⟨S_, .f32⟩
  | _ => ⟨S100000x200, .f32⟩

abbrev hbmTy0_2 (i : Nat) : BufTy := match i % 128 with
  | 0 => ⟨S100000, .f32⟩
  | 1 => ⟨S100000, .f32⟩
  | 2 => ⟨S_, .i32⟩
  | 3 => ⟨S400000, .i32⟩
  | 4 => ⟨S400000, .i1⟩
  | 5 => ⟨S_, .i32⟩
  | 6 => ⟨S400000, .i32⟩
  | 7 => ⟨S400000, .i32⟩
  | 8 => ⟨S400000, .i32⟩
  | 9 => ⟨S400000x1, .i32⟩
  | 10 => ⟨S400000, .f32⟩
  | 11 => ⟨S_, .i32⟩
  | 12 => ⟨S400000, .i32⟩
  | 13 => ⟨S400000, .i1⟩
  | 14 => ⟨S_, .i32⟩
  | 15 => ⟨S400000, .i32⟩
  | 16 => ⟨S400000, .i32⟩
  | 17 => ⟨S400000, .i32⟩
  | 18 => ⟨S400000x1, .i32⟩
  | 19 => ⟨S400000, .f32⟩
  | 20 => ⟨S400000, .f32⟩
  | 21 => ⟨S_, .i32⟩
  | 22 => ⟨S400000, .i32⟩
  | 23 => ⟨S400000, .i1⟩
  | 24 => ⟨S_, .i32⟩
  | 25 => ⟨S400000, .i32⟩
  | 26 => ⟨S400000, .i32⟩
  | 27 => ⟨S400000, .i32⟩
  | 28 => ⟨S400000x1, .i32⟩
  | 29 => ⟨S1, .i32⟩
  | 30 => ⟨S_, .i32⟩
  | 31 => ⟨S400000x1, .i32⟩
  | 32 => ⟨S400000x1, .i1⟩
  | 33 => ⟨S1x1, .i32⟩
  | 34 => ⟨S400000x1, .i32⟩
  | 35 => ⟨S400000x1, .i1⟩
  | 36 => ⟨S400000x1, .i1⟩
  | 37 => ⟨S_, .i1⟩
  | 38 => ⟨S400000, .i1⟩
  | 39 => ⟨S400000x200, .f32⟩
  | 40 => ⟨S400000x200, .i1⟩
  | 41 => ⟨S_, .f32⟩
  | 42 => ⟨S400000x200, .f32⟩
  | 43 => ⟨S400000x200, .f32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S1, .i32⟩
  | 53 => ⟨S_, .i32⟩
  | 54 => ⟨S400000x1, .i32⟩
  | 55 => ⟨S400000x1, .i1⟩
  | 56 => ⟨S1x1, .i32⟩
  | 57 => ⟨S400000x1, .i32⟩
  | 58 => ⟨S400000x1, .i1⟩
  | 59 => ⟨S400000x1, .i1⟩
  | 60 => ⟨S_, .i1⟩
  | 61 => ⟨S400000, .i1⟩
  | 62 => ⟨S400000x200, .f32⟩
  | 63 => ⟨S400000x200, .i1⟩
  | 64 => ⟨S_, .f32⟩
  | 65 => ⟨S400000x200, .f32⟩
  | 66 => ⟨S400000x200, .f32⟩
  | 67 => ⟨S400000x200, .f32⟩
  | 68 => ⟨S400000x1, .f32⟩
  | 69 => ⟨S400000x200, .f32⟩
  | 70 => ⟨S400000x200, .f32⟩
  | 71 => ⟨S_, .f32⟩
  | 72 => ⟨S100000x200, .f32⟩
  | 73 => ⟨S400000x1, .i32⟩
  | 74 => ⟨S100000x200, .f32⟩
  | 75 => ⟨S1x400000, .i32⟩
  | 76 => ⟨S400000, .i32⟩
  | 77 => ⟨S1x400000, .i32⟩
  | 78 => ⟨S400000, .i32⟩
  | 79 => ⟨S1x400000, .i32⟩
  | 80 => ⟨S400000, .i32⟩
  | 81 => ⟨S1x400000, .i32⟩
  | 82 => ⟨S400000, .i32⟩
  | 83 => ⟨S_, .f32⟩
  | 84 => ⟨S400000, .f32⟩
  | 85 => ⟨S_, .f32⟩
  | 86 => ⟨S100000, .f32⟩
  | 87 => ⟨S400000x1, .i32⟩
  | 88 => ⟨S100000, .f32⟩
  | 89 => ⟨S_, .f32⟩
  | 90 => ⟨S100000, .f32⟩
  | 91 => ⟨S100000, .i1⟩
  | 92 => ⟨S_, .f32⟩
  | 93 => ⟨S100000, .f32⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S400000, .i32⟩
  | 101 => ⟨S400000, .i1⟩
  | 102 => ⟨S_, .i32⟩
  | 103 => ⟨S400000, .i32⟩
  | 104 => ⟨S400000, .i32⟩
  | 105 => ⟨S400000, .i32⟩
  | 106 => ⟨S400000x1, .i32⟩
  | 107 => ⟨S400000, .f32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000, .f32⟩
  | 117 => ⟨S400000, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S1, .i32⟩
  | 127 => ⟨S_, .i32⟩
  | _ => ⟨S100000x200, .f32⟩

abbrev hbmTy0_3 (i : Nat) : BufTy := match i % 128 with
  | 0 => ⟨S400000x1, .i32⟩
  | 1 => ⟨S400000x1, .i1⟩
  | 2 => ⟨S1x1, .i32⟩
  | 3 => ⟨S400000x1, .i32⟩
  | 4 => ⟨S400000x1, .i1⟩
  | 5 => ⟨S400000x1, .i1⟩
  | 6 => ⟨S_, .i1⟩
  | 7 => ⟨S400000, .i1⟩
  | 8 => ⟨S400000x200, .f32⟩
  | 9 => ⟨S400000x200, .i1⟩
  | 10 => ⟨S_, .f32⟩
  | 11 => ⟨S400000x200, .f32⟩
  | 12 => ⟨S400000x200, .f32⟩
  | 13 => ⟨S_, .i32⟩
  | 14 => ⟨S400000, .i32⟩
  | 15 => ⟨S400000, .i1⟩
  | 16 => ⟨S_, .i32⟩
  | 17 => ⟨S400000, .i32⟩
  | 18 => ⟨S400000, .i32⟩
  | 19 => ⟨S400000, .i32⟩
  | 20 => ⟨S400000x1, .i32⟩
  | 21 => ⟨S1, .i32⟩
  | 22 => ⟨S_, .i32⟩
  | 23 => ⟨S400000x1, .i32⟩
  | 24 => ⟨S400000x1, .i1⟩
  | 25 => ⟨S1x1, .i32⟩
  | 26 => ⟨S400000x1, .i32⟩
  | 27 => ⟨S400000x1, .i1⟩
  | 28 => ⟨S400000x1, .i1⟩
  | 29 => ⟨S_, .i1⟩
  | 30 => ⟨S400000, .i1⟩
  | 31 => ⟨S400000x200, .f32⟩
  | 32 => ⟨S400000x200, .i1⟩
  | 33 => ⟨S_, .f32⟩
  | 34 => ⟨S400000x200, .f32⟩
  | 35 => ⟨S400000x200, .f32⟩
  | 36 => ⟨S400000x200, .f32⟩
  | 37 => ⟨S400000x1, .f32⟩
  | 38 => ⟨S400000x200, .f32⟩
  | 39 => ⟨S400000x200, .f32⟩
  | 40 => ⟨S_, .f32⟩
  | 41 => ⟨S100000x200, .f32⟩
  | 42 => ⟨S400000x1, .i32⟩
  | 43 => ⟨S100000x200, .f32⟩
  | 44 => ⟨S1x200, .f32⟩
  | 45 => ⟨S100000x200, .f32⟩
  | 46 => ⟨S1x200, .f32⟩
  | 47 => ⟨S1x200, .f32⟩
  | 48 => ⟨S_, .f32⟩
  | 49 => ⟨S1x200, .f32⟩
  | 50 => ⟨S1x200, .f32⟩
  | 51 => ⟨S_, .f32⟩
  | 52 => ⟨S1x200, .f32⟩
  | 53 => ⟨S1x200, .f32⟩
  | 54 => ⟨S1x200, .f32⟩
  | 55 => ⟨S1x200, .f32⟩
  | 56 => ⟨S100000x200, .f32⟩
  | 57 => ⟨S401x200, .f32⟩
  | 58 => ⟨S400x200, .f32⟩
  | 59 => ⟨S_, .i32⟩
  | 60 => ⟨S8192, .i32⟩
  | 61 => ⟨S8192, .i1⟩
  | 62 => ⟨S_, .i32⟩
  | 63 => ⟨S8192, .i32⟩
  | 64 => ⟨S8192, .i32⟩
  | 65 => ⟨S8192, .i32⟩
  | 66 => ⟨S8192x1, .i32⟩
  | 67 => ⟨S1, .i32⟩
  | 68 => ⟨S_, .i32⟩
  | 69 => ⟨S8192x1, .i32⟩
  | 70 => ⟨S8192x1, .i1⟩
  | 71 => ⟨S1x1, .i32⟩
  | 72 => ⟨S8192x1, .i32⟩
  | 73 => ⟨S8192x1, .i1⟩
  | 74 => ⟨S8192x1, .i1⟩
  | 75 => ⟨S_, .i1⟩
  | 76 => ⟨S8192, .i1⟩
  | 77 => ⟨S8192x200, .f32⟩
  | 78 => ⟨S8192x200, .i1⟩
  | 79 => ⟨S_, .f32⟩
  | 80 => ⟨S8192x200, .f32⟩
  | 81 => ⟨S8192x200, .f32⟩
  | _ => ⟨S100000x200, .f32⟩

abbrev hbmTy (i : Nat) : BufTy := match i / 128 with
  | 0 => hbmTy0_0 i
  | 1 => hbmTy0_1 i
  | 2 => hbmTy0_2 i
  | 3 => hbmTy0_3 i
  | _ => ⟨S100000x200, .f32⟩

abbrev bufTy : (tb : Table) → Fin (tcTables nBuf tb) → BufTy
  | .hbm, ⟨i, _⟩ => hbmTy i
  | .local _ .vmem, ⟨0, _⟩ => ⟨S2000x200, .f32⟩
  | .local _ .vmem, ⟨1, _⟩ => ⟨S2000x200, .f32⟩
  | .local _ .vmem, ⟨2, _⟩ => ⟨S2000x200, .f32⟩
  | .local _ .vmem, ⟨3, _⟩ => ⟨S2000x200, .f32⟩
  | .local _ .vmem, ⟨4, _⟩ => ⟨S2000x200, .f32⟩
  | .local _ .vmem, ⟨5, _⟩ => ⟨S2000x200, .f32⟩
  | .local _ .vmem, ⟨6, _⟩ => ⟨S1x200, .f32⟩
  | .local _ .vmem, ⟨7, _⟩ => ⟨S200x200, .f32⟩
  | .local _ .vmem, ⟨8, _⟩ => ⟨S200x200, .f32⟩
  | .local _ .vmem, ⟨9, _⟩ => ⟨S200x200, .f32⟩
  | .local _ .vmem, ⟨10, _⟩ => ⟨S2000x200, .f32⟩
  | .local _ .vmem, ⟨11, _⟩ => ⟨S2000x200, .f32⟩
  | .local _ .vmem, ⟨12, _⟩ => ⟨S1x200, .f32⟩
  | .local _ .vmem, ⟨13, _⟩ => ⟨S1x200, .f32⟩
  | .local _ .vmem, ⟨14, _⟩ => ⟨S2000x200, .f32⟩
  | .local _ .vmem, ⟨15, _⟩ => ⟨S2000x200, .f32⟩
  | .local _ .vmem, ⟨16, _⟩ => ⟨S1x200, .f32⟩
  | .local _ .vmem, ⟨17, _⟩ => ⟨S1x200, .f32⟩
  | .local _ .vmem, ⟨18, _⟩ => ⟨S2000x200, .f32⟩
  | .local _ .vmem, ⟨19, _⟩ => ⟨S2000x200, .f32⟩
  | .local _ .vmem, ⟨20, _⟩ => ⟨S2000x200, .f32⟩
  | .local _ .vmem, ⟨21, _⟩ => ⟨S2000x200, .f32⟩
  | .local _ .vmem, ⟨22, _⟩ => ⟨S2000x200, .f32⟩
  | .local _ .vmem, ⟨23, _⟩ => ⟨S2000x200, .f32⟩
  | .local _ .vmem, ⟨24, _⟩ => ⟨S2000x200, .f32⟩
  | .local _ .vmem, ⟨25, _⟩ => ⟨S2000x200, .f32⟩
  | .local _ .vmem, ⟨26, _⟩ => ⟨S1x200, .f32⟩
  | .local _ .vmem, ⟨27, _⟩ => ⟨S200x200, .f32⟩
  | .local _ .vmem, ⟨28, _⟩ => ⟨S200x200, .f32⟩
  | .local _ .vmem, ⟨29, _⟩ => ⟨S200x200, .f32⟩
  | .local _ .vmem, ⟨30, _⟩ => ⟨S2000x200, .f32⟩
  | .local _ .vmem, ⟨31, _⟩ => ⟨S2000x200, .f32⟩
  | .local _ .vmem, ⟨32, _⟩ => ⟨S1x200, .f32⟩
  | .local _ .vmem, ⟨33, _⟩ => ⟨S1x200, .f32⟩
  | .local _ .vmem, ⟨34, _⟩ => ⟨S2000x200, .f32⟩
  | .local _ .vmem, ⟨35, _⟩ => ⟨S2000x200, .f32⟩
  | .local _ .vmem, ⟨36, _⟩ => ⟨S1x200, .f32⟩
  | .local _ .vmem, ⟨37, _⟩ => ⟨S1x200, .f32⟩
  | .local _ .vmem, ⟨38, _⟩ => ⟨S2000x200, .f32⟩
  | .local _ .vmem, ⟨39, _⟩ => ⟨S2000x200, .f32⟩
  | _, _ => ⟨S100000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v37 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_cst_7 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_cst_8 : Ref sig .tc := ⟨.hbm, 125, rfl⟩
abbrev main_v54 : Ref sig .tc := ⟨.hbm, 126, rfl⟩
abbrev main_cst_9 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_cst_10 : Ref sig .tc := ⟨.hbm, 131, rfl⟩
abbrev main_v58 : Ref sig .tc := ⟨.hbm, 132, rfl⟩
abbrev main_v59 : Ref sig .tc := ⟨.hbm, 133, rfl⟩
abbrev main_cst_11 : Ref sig .tc := ⟨.hbm, 134, rfl⟩
abbrev main_v60 : Ref sig .tc := ⟨.hbm, 135, rfl⟩
abbrev main_v61 : Ref sig .tc := ⟨.hbm, 136, rfl⟩
abbrev main_cst_12 : Ref sig .tc := ⟨.hbm, 137, rfl⟩
abbrev main_call3_v0 : Ref sig .tc := ⟨.hbm, 138, rfl⟩
abbrev main_call3_v1 : Ref sig .tc := ⟨.hbm, 139, rfl⟩
abbrev main_v62 : Ref sig .tc := ⟨.hbm, 140, rfl⟩
abbrev main_c_13 : Ref sig .tc := ⟨.hbm, 141, rfl⟩
abbrev main_v63 : Ref sig .tc := ⟨.hbm, 142, rfl⟩
abbrev main_v64 : Ref sig .tc := ⟨.hbm, 143, rfl⟩
abbrev main_c_14 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_c_15 : Ref sig .tc := ⟨.hbm, 150, rfl⟩
abbrev main_v70 : Ref sig .tc := ⟨.hbm, 151, rfl⟩
abbrev main_v71 : Ref sig .tc := ⟨.hbm, 152, rfl⟩
abbrev main_c_16 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_call4_c : Ref sig .tc := ⟨.hbm, 160, rfl⟩
abbrev main_call4_v0 : Ref sig .tc := ⟨.hbm, 161, rfl⟩
abbrev main_call4_v1 : Ref sig .tc := ⟨.hbm, 162, rfl⟩
abbrev main_call4_c_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_c_1 : Ref sig .tc := ⟨.hbm, 168, rfl⟩
abbrev main_call4_c_2 : Ref sig .tc := ⟨.hbm, 169, rfl⟩
abbrev main_call4_v6 : Ref sig .tc := ⟨.hbm, 170, rfl⟩
abbrev main_call4_v7 : Ref sig .tc := ⟨.hbm, 171, rfl⟩
abbrev main_call4_v8 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_call4_c_3 : Ref sig .tc := ⟨.hbm, 176, rfl⟩
abbrev main_call4_v12 : Ref sig .tc := ⟨.hbm, 177, rfl⟩
abbrev main_call4_v13 : Ref sig .tc := ⟨.hbm, 178, rfl⟩
abbrev main_call4_v14 : Ref sig .tc := ⟨.hbm, 179, rfl⟩
abbrev main_call4_cst : Ref sig .tc := ⟨.hbm, 180, rfl⟩
abbrev main_call4_v15 : Ref sig .tc := ⟨.hbm, 181, rfl⟩
abbrev main_v78 : Ref sig .tc := ⟨.hbm, 182, rfl⟩
abbrev main_call5_c : Ref sig .tc := ⟨.hbm, 183, rfl⟩
abbrev main_call5_v0 : Ref sig .tc := ⟨.hbm, 184, rfl⟩
abbrev main_call5_v1 : Ref sig .tc := ⟨.hbm, 185, rfl⟩
abbrev main_call5_c_0 : Ref sig .tc := ⟨.hbm, 186, rfl⟩
abbrev main_call5_v2 : Ref sig .tc := ⟨.hbm, 187, rfl⟩
abbrev main_call5_v3 : Ref sig .tc := ⟨.hbm, 188, rfl⟩
abbrev main_call5_v4 : Ref sig .tc := ⟨.hbm, 189, rfl⟩
abbrev main_call5_v5 : Ref sig .tc := ⟨.hbm, 190, rfl⟩
abbrev main_call5_c_1 : Ref sig .tc := ⟨.hbm, 191, rfl⟩
abbrev main_call5_c_2 : Ref sig .tc := ⟨.hbm, 192, rfl⟩
abbrev main_call5_v6 : Ref sig .tc := ⟨.hbm, 193, rfl⟩
abbrev main_call5_v7 : Ref sig .tc := ⟨.hbm, 194, rfl⟩
abbrev main_call5_v8 : Ref sig .tc := ⟨.hbm, 195, rfl⟩
abbrev main_call5_v9 : Ref sig .tc := ⟨.hbm, 196, rfl⟩
abbrev main_call5_v10 : Ref sig .tc := ⟨.hbm, 197, rfl⟩
abbrev main_call5_v11 : Ref sig .tc := ⟨.hbm, 198, rfl⟩
abbrev main_call5_c_3 : Ref sig .tc := ⟨.hbm, 199, rfl⟩
abbrev main_call5_v12 : Ref sig .tc := ⟨.hbm, 200, rfl⟩
abbrev main_call5_v13 : Ref sig .tc := ⟨.hbm, 201, rfl⟩
abbrev main_call5_v14 : Ref sig .tc := ⟨.hbm, 202, rfl⟩
abbrev main_call5_cst : Ref sig .tc := ⟨.hbm, 203, rfl⟩
abbrev main_call5_v15 : Ref sig .tc := ⟨.hbm, 204, rfl⟩
abbrev main_v79 : Ref sig .tc := ⟨.hbm, 205, rfl⟩
abbrev main_v80 : Ref sig .tc := ⟨.hbm, 206, rfl⟩
abbrev main_v81 : Ref sig .tc := ⟨.hbm, 207, rfl⟩
abbrev main_v82 : Ref sig .tc := ⟨.hbm, 208, rfl⟩
abbrev main_v83 : Ref sig .tc := ⟨.hbm, 209, rfl⟩
abbrev main_cst_17 : Ref sig .tc := ⟨.hbm, 210, rfl⟩
abbrev main_v84 : Ref sig .tc := ⟨.hbm, 211, rfl⟩
abbrev main_v85 : Ref sig .tc := ⟨.hbm, 212, rfl⟩
abbrev main_v86 : Ref sig .tc := ⟨.hbm, 213, rfl⟩
abbrev main_v87 : Ref sig .tc := ⟨.hbm, 214, rfl⟩
abbrev main_v88_0 : Ref sig .tc := ⟨.hbm, 215, rfl⟩
abbrev main_v88_1 : Ref sig .tc := ⟨.hbm, 216, rfl⟩
abbrev main_v88_2 : Ref sig .tc := ⟨.hbm, 217, rfl⟩
abbrev main_cst_18 : Ref sig .tc := ⟨.hbm, 218, rfl⟩
abbrev main_v89 : Ref sig .tc := ⟨.hbm, 219, rfl⟩
abbrev main_v90 : Ref sig .tc := ⟨.hbm, 220, rfl⟩
abbrev main_cst_19 : Ref sig .tc := ⟨.hbm, 221, rfl⟩
abbrev main_v91 : Ref sig .tc := ⟨.hbm, 222, rfl⟩
abbrev main_v92 : Ref sig .tc := ⟨.hbm, 223, rfl⟩
abbrev main_v93 : Ref sig .tc := ⟨.hbm, 224, rfl⟩
abbrev main_v94 : Ref sig .tc := ⟨.hbm, 225, rfl⟩
abbrev main_v95 : Ref sig .tc := ⟨.hbm, 226, rfl⟩
abbrev main_v96 : Ref sig .tc := ⟨.hbm, 227, rfl⟩
abbrev main_v97 : Ref sig .tc := ⟨.hbm, 228, rfl⟩
abbrev main_v98 : Ref sig .tc := ⟨.hbm, 229, rfl⟩
abbrev main_v99 : Ref sig .tc := ⟨.hbm, 230, rfl⟩
abbrev main_v100 : Ref sig .tc := ⟨.hbm, 231, rfl⟩
abbrev main_v101 : Ref sig .tc := ⟨.hbm, 232, rfl⟩
abbrev main_v102 : Ref sig .tc := ⟨.hbm, 233, rfl⟩
abbrev main_v103 : Ref sig .tc := ⟨.hbm, 234, rfl⟩
abbrev main_v104 : Ref sig .tc := ⟨.hbm, 235, rfl⟩
abbrev main_v105 : Ref sig .tc := ⟨.hbm, 236, rfl⟩
abbrev main_v106 : Ref sig .tc := ⟨.hbm, 237, rfl⟩
abbrev main_v107 : Ref sig .tc := ⟨.hbm, 238, rfl⟩
abbrev main_v108 : Ref sig .tc := ⟨.hbm, 239, rfl⟩
abbrev main_v109 : Ref sig .tc := ⟨.hbm, 240, rfl⟩
abbrev main_v110 : Ref sig .tc := ⟨.hbm, 241, rfl⟩
abbrev main_cst_20 : Ref sig .tc := ⟨.hbm, 242, rfl⟩
abbrev main_v111 : Ref sig .tc := ⟨.hbm, 243, rfl⟩
abbrev main_cst_21 : Ref sig .tc := ⟨.hbm, 244, rfl⟩
abbrev main_v112 : Ref sig .tc := ⟨.hbm, 245, rfl⟩
abbrev main_v113 : Ref sig .tc := ⟨.hbm, 246, rfl⟩
abbrev main_v114 : Ref sig .tc := ⟨.hbm, 247, rfl⟩
abbrev main_cst_22 : Ref sig .tc := ⟨.hbm, 248, rfl⟩
abbrev main_v115 : Ref sig .tc := ⟨.hbm, 249, rfl⟩
abbrev main_v116 : Ref sig .tc := ⟨.hbm, 250, rfl⟩
abbrev main_cst_23 : Ref sig .tc := ⟨.hbm, 251, rfl⟩
abbrev main_v117 : Ref sig .tc := ⟨.hbm, 252, rfl⟩
abbrev main_v118 : Ref sig .tc := ⟨.hbm, 253, rfl⟩
abbrev main_cst_24 : Ref sig .tc := ⟨.hbm, 254, rfl⟩
abbrev main_call6_v0 : Ref sig .tc := ⟨.hbm, 255, rfl⟩
abbrev main_call6_v1 : Ref sig .tc := ⟨.hbm, 256, rfl⟩
abbrev main_v119 : Ref sig .tc := ⟨.hbm, 257, rfl⟩
abbrev main_c_25 : Ref sig .tc := ⟨.hbm, 258, rfl⟩
abbrev main_v120 : Ref sig .tc := ⟨.hbm, 259, rfl⟩
abbrev main_v121 : Ref sig .tc := ⟨.hbm, 260, rfl⟩
abbrev main_c_26 : Ref sig .tc := ⟨.hbm, 261, rfl⟩
abbrev main_v122 : Ref sig .tc := ⟨.hbm, 262, rfl⟩
abbrev main_v123 : Ref sig .tc := ⟨.hbm, 263, rfl⟩
abbrev main_v124 : Ref sig .tc := ⟨.hbm, 264, rfl⟩
abbrev main_v125 : Ref sig .tc := ⟨.hbm, 265, rfl⟩
abbrev main_v126 : Ref sig .tc := ⟨.hbm, 266, rfl⟩
abbrev main_c_27 : Ref sig .tc := ⟨.hbm, 267, rfl⟩
abbrev main_v127 : Ref sig .tc := ⟨.hbm, 268, rfl⟩
abbrev main_v128 : Ref sig .tc := ⟨.hbm, 269, rfl⟩
abbrev main_c_28 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩
abbrev main_v134 : Ref sig .tc := ⟨.hbm, 276, rfl⟩
abbrev main_call7_c : Ref sig .tc := ⟨.hbm, 277, rfl⟩
abbrev main_call7_v0 : Ref sig .tc := ⟨.hbm, 278, rfl⟩
abbrev main_call7_v1 : Ref sig .tc := ⟨.hbm, 279, rfl⟩
abbrev main_call7_c_0 : Ref sig .tc := ⟨.hbm, 280, rfl⟩
abbrev main_call7_v2 : Ref sig .tc := ⟨.hbm, 281, rfl⟩
abbrev main_call7_v3 : Ref sig .tc := ⟨.hbm, 282, rfl⟩
abbrev main_call7_v4 : Ref sig .tc := ⟨.hbm, 283, rfl⟩
abbrev main_call7_v5 : Ref sig .tc := ⟨.hbm, 284, rfl⟩
abbrev main_call7_c_1 : Ref sig .tc := ⟨.hbm, 285, rfl⟩
abbrev main_call7_c_2 : Ref sig .tc := ⟨.hbm, 286, rfl⟩
abbrev main_call7_v6 : Ref sig .tc := ⟨.hbm, 287, rfl⟩
abbrev main_call7_v7 : Ref sig .tc := ⟨.hbm, 288, rfl⟩
abbrev main_call7_v8 : Ref sig .tc := ⟨.hbm, 289, rfl⟩
abbrev main_call7_v9 : Ref sig .tc := ⟨.hbm, 290, rfl⟩
abbrev main_call7_v10 : Ref sig .tc := ⟨.hbm, 291, rfl⟩
abbrev main_call7_v11 : Ref sig .tc := ⟨.hbm, 292, rfl⟩
abbrev main_call7_c_3 : Ref sig .tc := ⟨.hbm, 293, rfl⟩
abbrev main_call7_v12 : Ref sig .tc := ⟨.hbm, 294, rfl⟩
abbrev main_call7_v13 : Ref sig .tc := ⟨.hbm, 295, rfl⟩
abbrev main_call7_v14 : Ref sig .tc := ⟨.hbm, 296, rfl⟩
abbrev main_call7_cst : Ref sig .tc := ⟨.hbm, 297, rfl⟩
abbrev main_call7_v15 : Ref sig .tc := ⟨.hbm, 298, rfl⟩
abbrev main_v135 : Ref sig .tc := ⟨.hbm, 299, rfl⟩
abbrev main_call8_c : Ref sig .tc := ⟨.hbm, 300, rfl⟩
abbrev main_call8_v0 : Ref sig .tc := ⟨.hbm, 301, rfl⟩
abbrev main_call8_v1 : Ref sig .tc := ⟨.hbm, 302, rfl⟩
abbrev main_call8_c_0 : Ref sig .tc := ⟨.hbm, 303, rfl⟩
abbrev main_call8_v2 : Ref sig .tc := ⟨.hbm, 304, rfl⟩
abbrev main_call8_v3 : Ref sig .tc := ⟨.hbm, 305, rfl⟩
abbrev main_call8_v4 : Ref sig .tc := ⟨.hbm, 306, rfl⟩
abbrev main_call8_v5 : Ref sig .tc := ⟨.hbm, 307, rfl⟩
abbrev main_call8_c_1 : Ref sig .tc := ⟨.hbm, 308, rfl⟩
abbrev main_call8_c_2 : Ref sig .tc := ⟨.hbm, 309, rfl⟩
abbrev main_call8_v6 : Ref sig .tc := ⟨.hbm, 310, rfl⟩
abbrev main_call8_v7 : Ref sig .tc := ⟨.hbm, 311, rfl⟩
abbrev main_call8_v8 : Ref sig .tc := ⟨.hbm, 312, rfl⟩
abbrev main_call8_v9 : Ref sig .tc := ⟨.hbm, 313, rfl⟩
abbrev main_call8_v10 : Ref sig .tc := ⟨.hbm, 314, rfl⟩
abbrev main_call8_v11 : Ref sig .tc := ⟨.hbm, 315, rfl⟩
abbrev main_call8_c_3 : Ref sig .tc := ⟨.hbm, 316, rfl⟩
abbrev main_call8_v12 : Ref sig .tc := ⟨.hbm, 317, rfl⟩
abbrev main_call8_v13 : Ref sig .tc := ⟨.hbm, 318, rfl⟩
abbrev main_call8_v14 : Ref sig .tc := ⟨.hbm, 319, rfl⟩
abbrev main_call8_cst : Ref sig .tc := ⟨.hbm, 320, rfl⟩
abbrev main_call8_v15 : Ref sig .tc := ⟨.hbm, 321, rfl⟩
abbrev main_v136 : Ref sig .tc := ⟨.hbm, 322, rfl⟩
abbrev main_v137 : Ref sig .tc := ⟨.hbm, 323, rfl⟩
abbrev main_v138 : Ref sig .tc := ⟨.hbm, 324, rfl⟩
abbrev main_v139 : Ref sig .tc := ⟨.hbm, 325, rfl⟩
abbrev main_v140 : Ref sig .tc := ⟨.hbm, 326, rfl⟩
abbrev main_cst_29 : Ref sig .tc := ⟨.hbm, 327, rfl⟩
abbrev main_v141 : Ref sig .tc := ⟨.hbm, 328, rfl⟩
abbrev main_v142 : Ref sig .tc := ⟨.hbm, 329, rfl⟩
abbrev main_v143 : Ref sig .tc := ⟨.hbm, 330, rfl⟩
abbrev main_v144 : Ref sig .tc := ⟨.hbm, 331, rfl⟩
abbrev main_v145 : Ref sig .tc := ⟨.hbm, 332, rfl⟩
abbrev main_v146 : Ref sig .tc := ⟨.hbm, 333, rfl⟩
abbrev main_v147 : Ref sig .tc := ⟨.hbm, 334, rfl⟩
abbrev main_v148 : Ref sig .tc := ⟨.hbm, 335, rfl⟩
abbrev main_v149 : Ref sig .tc := ⟨.hbm, 336, rfl⟩
abbrev main_v150 : Ref sig .tc := ⟨.hbm, 337, rfl⟩
abbrev main_v151 : Ref sig .tc := ⟨.hbm, 338, rfl⟩
abbrev main_cst_30 : Ref sig .tc := ⟨.hbm, 339, rfl⟩
abbrev main_v152 : Ref sig .tc := ⟨.hbm, 340, rfl⟩
abbrev main_cst_31 : Ref sig .tc := ⟨.hbm, 341, rfl⟩
abbrev main_v153 : Ref sig .tc := ⟨.hbm, 342, rfl⟩
abbrev main_v154 : Ref sig .tc := ⟨.hbm, 343, rfl⟩
abbrev main_v155 : Ref sig .tc := ⟨.hbm, 344, rfl⟩
abbrev main_cst_32 : Ref sig .tc := ⟨.hbm, 345, rfl⟩
abbrev main_v156 : Ref sig .tc := ⟨.hbm, 346, rfl⟩
abbrev main_v157 : Ref sig .tc := ⟨.hbm, 347, rfl⟩
abbrev main_cst_33 : Ref sig .tc := ⟨.hbm, 348, rfl⟩
abbrev main_v158 : Ref sig .tc := ⟨.hbm, 349, rfl⟩
abbrev main_v159 : Ref sig .tc := ⟨.hbm, 350, rfl⟩
abbrev main_cst_34 : Ref sig .tc := ⟨.hbm, 351, rfl⟩
abbrev main_call9_v0 : Ref sig .tc := ⟨.hbm, 352, rfl⟩
abbrev main_call9_v1 : Ref sig .tc := ⟨.hbm, 353, rfl⟩
abbrev main_v160 : Ref sig .tc := ⟨.hbm, 354, rfl⟩
abbrev main_c_35 : Ref sig .tc := ⟨.hbm, 355, rfl⟩
abbrev main_v161 : Ref sig .tc := ⟨.hbm, 356, rfl⟩
abbrev main_v162 : Ref sig .tc := ⟨.hbm, 357, rfl⟩
abbrev main_c_36 : Ref sig .tc := ⟨.hbm, 358, rfl⟩
abbrev main_v163 : Ref sig .tc := ⟨.hbm, 359, rfl⟩
abbrev main_v164 : Ref sig .tc := ⟨.hbm, 360, rfl⟩
abbrev main_v165 : Ref sig .tc := ⟨.hbm, 361, rfl⟩
abbrev main_v166 : Ref sig .tc := ⟨.hbm, 362, rfl⟩
abbrev main_v167 : Ref sig .tc := ⟨.hbm, 363, rfl⟩
abbrev main_c_37 : Ref sig .tc := ⟨.hbm, 364, rfl⟩
abbrev main_v168 : Ref sig .tc := ⟨.hbm, 365, rfl⟩
abbrev main_v169 : Ref sig .tc := ⟨.hbm, 366, rfl⟩
abbrev main_c_38 : Ref sig .tc := ⟨.hbm, 367, rfl⟩
abbrev main_v170 : Ref sig .tc := ⟨.hbm, 368, rfl⟩
abbrev main_v171 : Ref sig .tc := ⟨.hbm, 369, rfl⟩
abbrev main_v172 : Ref sig .tc := ⟨.hbm, 370, rfl⟩
abbrev main_v173 : Ref sig .tc := ⟨.hbm, 371, rfl⟩
abbrev main_v174 : Ref sig .tc := ⟨.hbm, 372, rfl⟩
abbrev main_v175 : Ref sig .tc := ⟨.hbm, 373, rfl⟩
abbrev main_call10_c : Ref sig .tc := ⟨.hbm, 374, rfl⟩
abbrev main_call10_v0 : Ref sig .tc := ⟨.hbm, 375, rfl⟩
abbrev main_call10_v1 : Ref sig .tc := ⟨.hbm, 376, rfl⟩
abbrev main_call10_c_0 : Ref sig .tc := ⟨.hbm, 377, rfl⟩
abbrev main_call10_v2 : Ref sig .tc := ⟨.hbm, 378, rfl⟩
abbrev main_call10_v3 : Ref sig .tc := ⟨.hbm, 379, rfl⟩
abbrev main_call10_v4 : Ref sig .tc := ⟨.hbm, 380, rfl⟩
abbrev main_call10_v5 : Ref sig .tc := ⟨.hbm, 381, rfl⟩
abbrev main_call10_c_1 : Ref sig .tc := ⟨.hbm, 382, rfl⟩
abbrev main_call10_c_2 : Ref sig .tc := ⟨.hbm, 383, rfl⟩
abbrev main_call10_v6 : Ref sig .tc := ⟨.hbm, 384, rfl⟩
abbrev main_call10_v7 : Ref sig .tc := ⟨.hbm, 385, rfl⟩
abbrev main_call10_v8 : Ref sig .tc := ⟨.hbm, 386, rfl⟩
abbrev main_call10_v9 : Ref sig .tc := ⟨.hbm, 387, rfl⟩
abbrev main_call10_v10 : Ref sig .tc := ⟨.hbm, 388, rfl⟩
abbrev main_call10_v11 : Ref sig .tc := ⟨.hbm, 389, rfl⟩
abbrev main_call10_c_3 : Ref sig .tc := ⟨.hbm, 390, rfl⟩
abbrev main_call10_v12 : Ref sig .tc := ⟨.hbm, 391, rfl⟩
abbrev main_call10_v13 : Ref sig .tc := ⟨.hbm, 392, rfl⟩
abbrev main_call10_v14 : Ref sig .tc := ⟨.hbm, 393, rfl⟩
abbrev main_call10_cst : Ref sig .tc := ⟨.hbm, 394, rfl⟩
abbrev main_call10_v15 : Ref sig .tc := ⟨.hbm, 395, rfl⟩
abbrev main_v176 : Ref sig .tc := ⟨.hbm, 396, rfl⟩
abbrev main_call11_c : Ref sig .tc := ⟨.hbm, 397, rfl⟩
abbrev main_call11_v0 : Ref sig .tc := ⟨.hbm, 398, rfl⟩
abbrev main_call11_v1 : Ref sig .tc := ⟨.hbm, 399, rfl⟩
abbrev main_call11_c_0 : Ref sig .tc := ⟨.hbm, 400, rfl⟩
abbrev main_call11_v2 : Ref sig .tc := ⟨.hbm, 401, rfl⟩
abbrev main_call11_v3 : Ref sig .tc := ⟨.hbm, 402, rfl⟩
abbrev main_call11_v4 : Ref sig .tc := ⟨.hbm, 403, rfl⟩
abbrev main_call11_v5 : Ref sig .tc := ⟨.hbm, 404, rfl⟩
abbrev main_call11_c_1 : Ref sig .tc := ⟨.hbm, 405, rfl⟩
abbrev main_call11_c_2 : Ref sig .tc := ⟨.hbm, 406, rfl⟩
abbrev main_call11_v6 : Ref sig .tc := ⟨.hbm, 407, rfl⟩
abbrev main_call11_v7 : Ref sig .tc := ⟨.hbm, 408, rfl⟩
abbrev main_call11_v8 : Ref sig .tc := ⟨.hbm, 409, rfl⟩
abbrev main_call11_v9 : Ref sig .tc := ⟨.hbm, 410, rfl⟩
abbrev main_call11_v10 : Ref sig .tc := ⟨.hbm, 411, rfl⟩
abbrev main_call11_v11 : Ref sig .tc := ⟨.hbm, 412, rfl⟩
abbrev main_call11_c_3 : Ref sig .tc := ⟨.hbm, 413, rfl⟩
abbrev main_call11_v12 : Ref sig .tc := ⟨.hbm, 414, rfl⟩
abbrev main_call11_v13 : Ref sig .tc := ⟨.hbm, 415, rfl⟩
abbrev main_call11_v14 : Ref sig .tc := ⟨.hbm, 416, rfl⟩
abbrev main_call11_cst : Ref sig .tc := ⟨.hbm, 417, rfl⟩
abbrev main_call11_v15 : Ref sig .tc := ⟨.hbm, 418, rfl⟩
abbrev main_v177 : Ref sig .tc := ⟨.hbm, 419, rfl⟩
abbrev main_v178 : Ref sig .tc := ⟨.hbm, 420, rfl⟩
abbrev main_v179 : Ref sig .tc := ⟨.hbm, 421, rfl⟩
abbrev main_v180 : Ref sig .tc := ⟨.hbm, 422, rfl⟩
abbrev main_v181 : Ref sig .tc := ⟨.hbm, 423, rfl⟩
abbrev main_cst_39 : Ref sig .tc := ⟨.hbm, 424, rfl⟩
abbrev main_v182 : Ref sig .tc := ⟨.hbm, 425, rfl⟩
abbrev main_v183 : Ref sig .tc := ⟨.hbm, 426, rfl⟩
abbrev main_v184 : Ref sig .tc := ⟨.hbm, 427, rfl⟩
abbrev main_v185 : Ref sig .tc := ⟨.hbm, 428, rfl⟩
abbrev main_v186_0 : Ref sig .tc := ⟨.hbm, 429, rfl⟩
abbrev main_v186_1 : Ref sig .tc := ⟨.hbm, 430, rfl⟩
abbrev main_v186_2 : Ref sig .tc := ⟨.hbm, 431, rfl⟩
abbrev main_cst_40 : Ref sig .tc := ⟨.hbm, 432, rfl⟩
abbrev main_v187 : Ref sig .tc := ⟨.hbm, 433, rfl⟩
abbrev main_v188 : Ref sig .tc := ⟨.hbm, 434, rfl⟩
abbrev main_cst_41 : Ref sig .tc := ⟨.hbm, 435, rfl⟩
abbrev main_v189 : Ref sig .tc := ⟨.hbm, 436, rfl⟩
abbrev main_v190 : Ref sig .tc := ⟨.hbm, 437, rfl⟩
abbrev main_v191 : Ref sig .tc := ⟨.hbm, 438, rfl⟩
abbrev main_v192 : Ref sig .tc := ⟨.hbm, 439, rfl⟩
abbrev main_v193 : Ref sig .tc := ⟨.hbm, 440, rfl⟩
abbrev main_v194 : Ref sig .tc := ⟨.hbm, 441, rfl⟩
abbrev main_v195 : Ref sig .tc := ⟨.hbm, 442, rfl⟩
abbrev main_call12_c : Ref sig .tc := ⟨.hbm, 443, rfl⟩
abbrev main_call12_v0 : Ref sig .tc := ⟨.hbm, 444, rfl⟩
abbrev main_call12_v1 : Ref sig .tc := ⟨.hbm, 445, rfl⟩
abbrev main_call12_c_0 : Ref sig .tc := ⟨.hbm, 446, rfl⟩
abbrev main_call12_v2 : Ref sig .tc := ⟨.hbm, 447, rfl⟩
abbrev main_call12_v3 : Ref sig .tc := ⟨.hbm, 448, rfl⟩
abbrev main_call12_v4 : Ref sig .tc := ⟨.hbm, 449, rfl⟩
abbrev main_call12_v5 : Ref sig .tc := ⟨.hbm, 450, rfl⟩
abbrev main_call12_c_1 : Ref sig .tc := ⟨.hbm, 451, rfl⟩
abbrev main_call12_c_2 : Ref sig .tc := ⟨.hbm, 452, rfl⟩
abbrev main_call12_v6 : Ref sig .tc := ⟨.hbm, 453, rfl⟩
abbrev main_call12_v7 : Ref sig .tc := ⟨.hbm, 454, rfl⟩
abbrev main_call12_v8 : Ref sig .tc := ⟨.hbm, 455, rfl⟩
abbrev main_call12_v9 : Ref sig .tc := ⟨.hbm, 456, rfl⟩
abbrev main_call12_v10 : Ref sig .tc := ⟨.hbm, 457, rfl⟩
abbrev main_call12_v11 : Ref sig .tc := ⟨.hbm, 458, rfl⟩
abbrev main_call12_c_3 : Ref sig .tc := ⟨.hbm, 459, rfl⟩
abbrev main_call12_v12 : Ref sig .tc := ⟨.hbm, 460, rfl⟩
abbrev main_call12_v13 : Ref sig .tc := ⟨.hbm, 461, rfl⟩
abbrev main_call12_v14 : Ref sig .tc := ⟨.hbm, 462, rfl⟩
abbrev main_call12_cst : Ref sig .tc := ⟨.hbm, 463, rfl⟩
abbrev main_call12_v15 : Ref sig .tc := ⟨.hbm, 464, rfl⟩
abbrev main_v196 : Ref sig .tc := ⟨.hbm, 465, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg9_0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc2_sem8_0 : DmaSem sig := 32
abbrev cc2_sem9_0 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem3_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S200x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x200 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x200 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x200 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x200 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S200x200 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S200x200 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S200x200 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x200 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x200 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x200 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x200 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x200 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x200 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x200 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  concatenates_S400x200_S1x200_S401x200_d0 : Shape.Concatenates [S400x200, S1x200] S401x200 0
  slices_S2x800000_S2x400000_0_0 : S2x800000.Slices ![0, 0] S2x400000
  slices_S2x800000_S2x400000_0_400000 : S2x800000.Slices ![0, 400000] S2x400000
  slices_S800000_S400000_0 : S800000.Slices ![0] S400000
  slices_S800000_S400000_400000 : S800000.Slices ![400000] S400000
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x200_0 : S400000.BroadcastsInDim S400000x200 (![0] : Fin 1 → Fin S400000x200.rank)
  bcast_S_S400000x200 : S_.BroadcastsInDim S400000x200 (![] : Fin 0 → Fin S400000x200.rank)
  bcast_S400000x1_S400000x200_0_1 : S400000x1.BroadcastsInDim S400000x200 (![0, 1] : Fin 2 → Fin S400000x200.rank)
  bcast_S_S100000x200 : S_.BroadcastsInDim S100000x200 (![] : Fin 0 → Fin S100000x200.rank)
  slices_S401x200_S1x200_400_0 : S401x200.Slices ![400, 0] S1x200
  inb_S1x200_S1x200_0_0 : ∀ a, (![0, 0] : Fin 2 → Nat) a + S1x200.size a ≤ S1x200.size a
  h_S1x200 : 0 < S1x200.numel
  inb_S2000x200_S2000x200_0_0 : ∀ a, (![0, 0] : Fin 2 → Nat) a + S2000x200.size a ≤ S2000x200.size a
  h_S2000x200 : 0 < S2000x200.numel
  shapeCasts_S2000x200_S2000x200 : S2000x200.ShapeCasts S2000x200
  bitsLt_bf16_f32 : FTy.bits .bf16 < FTy.bits .f32
  shapeCasts_S1x200_S1x200 : S1x200.ShapeCasts S1x200
  broadcasts_S1x200_S2000x200 : S1x200.Broadcasts S2000x200
  inb_S200x200_S200x200_0_0 : ∀ a, (![0, 0] : Fin 2 → Nat) a + S200x200.size a ≤ S200x200.size a
  h_S200x200 : 0 < S200x200.numel
  reduces_S2000x200_S200 : S2000x200.Reduces [0] S200
  shapeCasts_S200_S1x200 : S200.ShapeCasts S1x200
  bcast_S_S1x200 : S_.BroadcastsInDim S1x200 (![] : Fin 0 → Fin S1x200.rank)
  slices_S401x200_S400x200_0_0 : S401x200.Slices ![0, 0] S400x200
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x200_0 : S8192.BroadcastsInDim S8192x200 (![0] : Fin 1 → Fin S8192x200.rank)
  bcast_S_S8192x200 : S_.BroadcastsInDim S8192x200 (![] : Fin 0 → Fin S8192x200.rank)
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S100000x200_S400000x1_S400000x200_1_0_n_n_0_1_1200_wf : GatherDims.WF S100000x200 S400000x1 S400000x200 [1] [0] [] [0] [] 1 ![1, 200]
  gather_S401x200_S400000x1_S400000x200_1_0_n_n_0_1_1200_wf : GatherDims.WF S401x200 S400000x1 S400000x200 [1] [0] [] [0] [] 1 ![1, 200]
  scatter_S100000x200_S400000x1_S400000x200_1_0_0_1_wf : ScatterDims.WF S100000x200 S400000x1 S400000x200 [1] [0] [0] 1
  dot_S2000x200_S200x200_S2000x200_1_0_0_1_n_n_wf : DotDims.WF S2000x200 S200x200 S2000x200 [1] [0] [0] [1] [] []
  dot_S401x200_S200x200_S401x200_1_0_0_1_n_n_wf : DotDims.WF S401x200 S200x200 S401x200 [1] [0] [0] [1] [] []
  gather_S100000x200_S8192x1_S8192x200_1_0_n_n_0_1_1200_wf : GatherDims.WF S100000x200 S8192x1 S8192x200 [1] [0] [] [0] [] 1 ![1, 200]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x200.size a ≤ S100000x200.size a
  hwx0_0 : ∀ i : grid0.Coords, EltTy.bits .f32 = 32 ∨ (Rect.block (s := S100000x200) S2000x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x200.size a ≤ S100000x200.size a
  hwx0_1 : ∀ i : grid0.Coords, EltTy.bits .f32 = 32 ∨ (Rect.block (s := S100000x200) S2000x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x200.size a ≤ S100000x200.size a
  hwx0_2 : ∀ i : grid0.Coords, EltTy.bits .f32 = 32 ∨ (Rect.block (s := S100000x200) S2000x200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x200.size a ≤ S1x200.size a
  hwx0_3 : ∀ i : grid0.Coords, EltTy.bits .f32 = 32 ∨ (Rect.block (s := S1x200) S1x200.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S200x200.size a ≤ S200x200.size a
  hwx0_4 : ∀ i : grid0.Coords, EltTy.bits .f32 = 32 ∨ (Rect.block (s := S200x200) S200x200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S200x200.size a ≤ S200x200.size a
  hwx0_5 : ∀ i : grid0.Coords, EltTy.bits .f32 = 32 ∨ (Rect.block (s := S200x200) S200x200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200x200.size a ≤ S200x200.size a
  hwx0_6 : ∀ i : grid0.Coords, EltTy.bits .f32 = 32 ∨ (Rect.block (s := S200x200) S200x200.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x200.size a ≤ S100000x200.size a
  hwx0_7 : ∀ i : grid0.Coords, EltTy.bits .f32 = 32 ∨ (Rect.block (s := S100000x200) S2000x200.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x200.size a ≤ S1x200.size a
  hwx0_8 : ∀ i : grid0.Coords, EltTy.bits .f32 = 32 ∨ (Rect.block (s := S1x200) S1x200.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x200.size a ≤ S1x200.size a
  hwx0_9 : ∀ i : grid0.Coords, EltTy.bits .f32 = 32 ∨ (Rect.block (s := S1x200) S1x200.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x200.size a ≤ S100000x200.size a
  hwx1_0 : ∀ i : grid1.Coords, EltTy.bits .f32 = 32 ∨ (Rect.block (s := S100000x200) S2000x200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x200.size a ≤ S1x200.size a
  hwx1_1 : ∀ i : grid1.Coords, EltTy.bits .f32 = 32 ∨ (Rect.block (s := S1x200) S1x200.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x200.size a ≤ S1x200.size a
  hwx1_2 : ∀ i : grid1.Coords, EltTy.bits .f32 = 32 ∨ (Rect.block (s := S1x200) S1x200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x200.size a ≤ S100000x200.size a
  hwx1_3 : ∀ i : grid1.Coords, EltTy.bits .f32 = 32 ∨ (Rect.block (s := S100000x200) S2000x200.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x200.size a ≤ S100000x200.size a
  hwx2_0 : ∀ i : grid2.Coords, EltTy.bits .f32 = 32 ∨ (Rect.block (s := S100000x200) S2000x200.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x200.size a ≤ S100000x200.size a
  hwx2_1 : ∀ i : grid2.Coords, EltTy.bits .f32 = 32 ∨ (Rect.block (s := S100000x200) S2000x200.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x200.size a ≤ S100000x200.size a
  hwx2_2 : ∀ i : grid2.Coords, EltTy.bits .f32 = 32 ∨ (Rect.block (s := S100000x200) S2000x200.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x200.size a ≤ S1x200.size a
  hwx2_3 : ∀ i : grid2.Coords, EltTy.bits .f32 = 32 ∨ (Rect.block (s := S1x200) S1x200.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S200x200.size a ≤ S200x200.size a
  hwx2_4 : ∀ i : grid2.Coords, EltTy.bits .f32 = 32 ∨ (Rect.block (s := S200x200) S200x200.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S200x200.size a ≤ S200x200.size a
  hwx2_5 : ∀ i : grid2.Coords, EltTy.bits .f32 = 32 ∨ (Rect.block (s := S200x200) S200x200.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S200x200.size a ≤ S200x200.size a
  hwx2_6 : ∀ i : grid2.Coords, EltTy.bits .f32 = 32 ∨ (Rect.block (s := S200x200) S200x200.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x200.size a ≤ S100000x200.size a
  hwx2_7 : ∀ i : grid2.Coords, EltTy.bits .f32 = 32 ∨ (Rect.block (s := S100000x200) S2000x200.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x200.size a ≤ S1x200.size a
  hwx2_8 : ∀ i : grid2.Coords, EltTy.bits .f32 = 32 ∨ (Rect.block (s := S1x200) S1x200.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x200.size a ≤ S1x200.size a
  hwx2_9 : ∀ i : grid2.Coords, EltTy.bits .f32 = 32 ∨ (Rect.block (s := S1x200) S1x200.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x200.size a ≤ S100000x200.size a
  hwx3_0 : ∀ i : grid3.Coords, EltTy.bits .f32 = 32 ∨ (Rect.block (s := S100000x200) S2000x200.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x200.size a ≤ S1x200.size a
  hwx3_1 : ∀ i : grid3.Coords, EltTy.bits .f32 = 32 ∨ (Rect.block (s := S1x200) S1x200.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x200.size a ≤ S1x200.size a
  hwx3_2 : ∀ i : grid3.Coords, EltTy.bits .f32 = 32 ∨ (Rect.block (s := S1x200) S1x200.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x200.size a ≤ S100000x200.size a
  hwx3_3 : ∀ i : grid3.Coords, EltTy.bits .f32 = 32 ∨ (Rect.block (s := S100000x200) S2000x200.size (cc3_transform_3 i) (hinb3_3 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x200_S400000x1_S400000x200_1_0_n_n_0_1_1200 : GatherDims S100000x200 S400000x1 S400000x200 where
  offsetDims := [1]
  collapsedSliceDims := [0]
  operandBatchingDims := []
  startIndicesBatchingDims := []
  startIndexMap := [0]
  indexVectorDim := 1
  sliceSizes := ![1, 200]
  wf := gather_S100000x200_S400000x1_S400000x200_1_0_n_n_0_1_1200_wf
def gather_S401x200_S400000x1_S400000x200_1_0_n_n_0_1_1200 : GatherDims S401x200 S400000x1 S400000x200 where
  offsetDims := [1]
  collapsedSliceDims := [0]
  operandBatchingDims := []
  startIndicesBatchingDims := []
  startIndexMap := [0]
  indexVectorDim := 1
  sliceSizes := ![1, 200]
  wf := gather_S401x200_S400000x1_S400000x200_1_0_n_n_0_1_1200_wf
def scatter_S100000x200_S400000x1_S400000x200_1_0_0_1 : ScatterDims S100000x200 S400000x1 S400000x200 where
  updateWindowDims := [1]
  insertedWindowDims := [0]
  scatterDimsToOperandDims := [0]
  indexVectorDim := 1
  wf := scatter_S100000x200_S400000x1_S400000x200_1_0_0_1_wf
def dot_S2000x200_S200x200_S2000x200_1_0_0_1_n_n : DotDims S2000x200 S200x200 S2000x200 where
  lhsContracting := [1]
  rhsContracting := [0]
  lhsNonContracting := [0]
  rhsNonContracting := [1]
  lhsBatch := []
  rhsBatch := []
  wf := dot_S2000x200_S200x200_S2000x200_1_0_0_1_n_n_wf
def dot_S401x200_S200x200_S401x200_1_0_0_1_n_n : DotDims S401x200 S200x200 S401x200 where
  lhsContracting := [1]
  rhsContracting := [0]
  lhsNonContracting := [0]
  rhsNonContracting := [1]
  lhsBatch := []
  rhsBatch := []
  wf := dot_S401x200_S200x200_S401x200_1_0_0_1_n_n_wf
def gather_S100000x200_S8192x1_S8192x200_1_0_n_n_0_1_1200 : GatherDims S100000x200 S8192x1 S8192x200 where
  offsetDims := [1]
  collapsedSliceDims := [0]
  operandBatchingDims := []
  startIndicesBatchingDims := []
  startIndexMap := [0]
  indexVectorDim := 1
  sliceSizes := ![1, 200]
  wf := gather_S100000x200_S8192x1_S8192x200_1_0_n_n_0_1_1200_wf

abbrev win0_0 : Pipeline.Window sig grid0 :=
  Pipeline.Window.ofSpec (Memref.whole main_v45) S2000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v86) S2000x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v87) S1x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S200x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S200x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S200x200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v88_0) S2000x200.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v88_1) S1x200.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v88_2) S1x200.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v88_0) S2000x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v90) S1x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v94) S1x200.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v95) S2000x200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v143) S2000x200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v184) S2000x200.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v95) S2000x200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v185) S1x200.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S200x200.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S200x200.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S200x200.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v186_0) S2000x200.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v186_1) S1x200.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v186_2) S1x200.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v186_0) S2000x200.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v188) S1x200.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v192) S1x200.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v193) S2000x200.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x200 : Shape := ⟨2, ![100000, 200]⟩
abbrev S400x200 : Shape := ⟨2, ![400, 200]⟩
abbrev S200x200 : Shape := ⟨2, ![200, 200]⟩
abbrev S1x200 : Shape := ⟨2, ![1, 200]⟩
abbrev S2x800000 : Shape := ⟨2, ![2, 800000]⟩
abbrev S800000 : Shape := ⟨1, ![800000]⟩
abbrev S8192 : Shape := ⟨1, ![8192]⟩
abbrev S401x200 : Shape := ⟨2, ![401, 200]⟩
abbrev S2x400000 : Shape := ⟨2, ![2, 400000]⟩
abbrev S400000 : Shape := ⟨1, ![400000]⟩
abbrev S1x400000 : Shape := ⟨2, ![1, 400000]⟩
abbrev S_ : Shape := ⟨0, ![]⟩
abbrev S100000 : Shape := ⟨1, ![100000]⟩
abbrev S400000x1 : Shape := ⟨2, ![400000, 1]⟩
abbrev S400000x200 : Shape := ⟨2, ![400000, 200]⟩
abbrev S200 : Shape := ⟨1, ![200]⟩
abbrev S8192x1 : Shape := ⟨2, ![8192, 1]⟩
abbrev S8192x200 : Shape := ⟨2, ![8192, 200]⟩

abbrev nBuf : Space → Nat
  | .hbm => 474
  | .vmem => 0
  | .smem => 0
  | _ => 0

abbrev hbmTy0_0 (i : Nat) : BufTy := match i % 128 with
  | 0 => ⟨S100000x200, .f32⟩
  | 1 => ⟨S400x200, .f32⟩
  | 2 => ⟨S200x200, .f32⟩
  | 3 => ⟨S200x200, .f32⟩
  | 4 => ⟨S200x200, .f32⟩
  | 5 => ⟨S200x200, .f32⟩
  | 6 => ⟨S1x200, .f32⟩
  | 7 => ⟨S200x200, .f32⟩
  | 8 => ⟨S200x200, .f32⟩
  | 9 => ⟨S200x200, .f32⟩
  | 10 => ⟨S200x200, .f32⟩
  | 11 => ⟨S1x200, .f32⟩
  | 12 => ⟨S2x800000, .i32⟩
  | 13 => ⟨S800000, .i32⟩
  | 14 => ⟨S8192, .i32⟩
  | 15 => ⟨S401x200, .f32⟩
  | 16 => ⟨S2x400000, .i32⟩
  | 17 => ⟨S2x400000, .i32⟩
  | 18 => ⟨S400000, .i32⟩
  | 19 => ⟨S400000, .i32⟩
  | 20 => ⟨S1x400000, .i32⟩
  | 21 => ⟨S400000, .i32⟩
  | 22 => ⟨S1x400000, .i32⟩
  | 23 => ⟨S400000, .i32⟩
  | 24 => ⟨S1x400000, .i32⟩
  | 25 => ⟨S400000, .i32⟩
  | 26 => ⟨S1x400000, .i32⟩
  | 27 => ⟨S400000, .i32⟩
  | 28 => ⟨S_, .f32⟩
  | 29 => ⟨S400000, .f32⟩
  | 30 => ⟨S_, .f32⟩
  | 31 => ⟨S100000, .f32⟩
  | 32 => ⟨S400000x1, .i32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S100000, .f32⟩
  | 41 => ⟨S_, .f32⟩
  | 42 => ⟨S100000, .f32⟩
  | 43 => ⟨S100000, .i1⟩
  | 44 => ⟨S_, .f32⟩
  | 45 => ⟨S_, .f32⟩
  | 46 => ⟨S100000, .f32⟩
  | 47 => ⟨S100000, .f32⟩
  | 48 => ⟨S100000, .f32⟩
  | 49 => ⟨S100000, .f32⟩
  | 50 => ⟨S100000, .f32⟩
  | 51 => ⟨S_, .f32⟩
  | 52 => ⟨S_, .f32⟩
  | 53 => ⟨S100000, .f32⟩
  | 54 => ⟨S100000, .f32⟩
  | 55 => ⟨S_, .f32⟩
  | 56 => ⟨S100000, .f32⟩
  | 57 => ⟨S100000, .i1⟩
  | 58 => ⟨S_, .f32⟩
  | 59 => ⟨S100000, .f32⟩
  | 60 => ⟨S100000, .f32⟩
  | 61 => ⟨S_, .f32⟩
  | 62 => ⟨S_, .f32⟩
  | 63 => ⟨S100000, .f32⟩
  | 64 => ⟨S100000, .f32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000, .f32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S400000, .f32⟩
  | 83 => ⟨S400000, .f32⟩
  | 84 => ⟨S_, .i32⟩
  | 85 => ⟨S400000, .i32⟩
  | 86 => ⟨S400000, .i1⟩
  | 87 => ⟨S_, .i32⟩
  | 88 => ⟨S400000, .i32⟩
  | 89 => ⟨S400000, .i32⟩
  | 90 => ⟨S400000, .i32⟩
  | 91 => ⟨S400000x1, .i32⟩
  | 92 => ⟨S400000x200, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S400000x200, .f32⟩
  | 102 => ⟨S400000x200, .f32⟩
  | 103 => ⟨S400000x200, .f32⟩
  | 104 => ⟨S400000x1, .f32⟩
  | 105 => ⟨S400000x200, .f32⟩
  | 106 => ⟨S400000x200, .f32⟩
  | 107 => ⟨S_, .f32⟩
  | 108 => ⟨S100000x200, .f32⟩
  | 109 => ⟨S400000x1, .i32⟩
  | 110 => ⟨S100000x200, .f32⟩
  | 111 => ⟨S1x400000, .i32⟩
  | 112 => ⟨S400000, .i32⟩
  | 113 => ⟨S1x400000, .i32⟩
  | 114 => ⟨S400000, .i32⟩
  | 115 => ⟨S1x400000, .i32⟩
  | 116 => ⟨S400000, .i32⟩
  | 117 => ⟨S1x400000, .i32⟩
  | 118 => ⟨S400000, .i32⟩
  | 119 => ⟨S_, .f32⟩
  | 120 => ⟨S400000, .f32⟩
  | 121 => ⟨S_, .f32⟩
  | 122 => ⟨S100000, .f32⟩
  | 123 => ⟨S400000x1, .i32⟩
  | 124 => ⟨S100000, .f32⟩
  | 125 => ⟨S_, .f32⟩
  | 126 => ⟨S100000, .f32⟩
  | 127 => ⟨S100000, .i1⟩
  | _ => ⟨S100000x200, .f32⟩

abbrev hbmTy0_1 (i : Nat) : BufTy := match i % 128 with
  | 0 => ⟨S_, .f32⟩
  | 1 => ⟨S100000, .f32⟩
  | 2 => ⟨S100000, .f32⟩
  | 3 => ⟨S100000, .f32⟩
  | 4 => ⟨S_, .f32⟩
  | 5 => ⟨S100000, .f32⟩
  | 6 => ⟨S100000, .i1⟩
  | 7 => ⟨S_, .f32⟩
  | 8 => ⟨S_, .f32⟩
  | 9 => ⟨S100000, .f32⟩
  | 10 => ⟨S100000, .f32⟩
  | 11 => ⟨S100000, .f32⟩
  | 12 => ⟨S100000, .f32⟩
  | 13 => ⟨S100000, .f32⟩
  | 14 => ⟨S_, .f32⟩
  | 15 => ⟨S_, .f32⟩
  | 16 => ⟨S100000, .f32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000, .f32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000, .f32⟩
  | 46 => ⟨S400000, .f32⟩
  | 47 => ⟨S_, .i32⟩
  | 48 => ⟨S400000, .i32⟩
  | 49 => ⟨S400000, .i1⟩
  | 50 => ⟨S_, .i32⟩
  | 51 => ⟨S400000, .i32⟩
  | 52 => ⟨S400000, .i32⟩
  | 53 => ⟨S400000, .i32⟩
  | 54 => ⟨S400000x1, .i32⟩
  | 55 => ⟨S400000x200, .f32⟩
  | 56 => ⟨S_, .i32⟩
  | 57 => ⟨S400000, .i32⟩
  | 58 => ⟨S400000, .i1⟩
  | 59 => ⟨S_, .i32⟩
  | 60 => ⟨S400000, .i32⟩
  | 61 => ⟨S400000, .i32⟩
  | 62 => ⟨S400000, .i32⟩
  | 63 => ⟨S400000x1, .i32⟩
  | 64 => ⟨S400000x200, .f32⟩
  | 65 => ⟨S400000x200, .f32⟩
  | 66 => ⟨S400000x200, .f32⟩
  | 67 => ⟨S400000x1, .f32⟩
  | 68 => ⟨S400000x200, .f32⟩
  | 69 => ⟨S400000x200, .f32⟩
  | 70 => ⟨S_, .f32⟩
  | 71 => ⟨S100000x200, .f32⟩
  | 72 => ⟨S400000x1, .i32⟩
  | 73 => ⟨S100000x200, .f32⟩
  | 74 => ⟨S1x200, .f32⟩
  | 75 => ⟨S200, .f32⟩
  | 76 => ⟨S1x200, .f32⟩
  | 77 => ⟨S100000x200, .f32⟩
  | 78 => ⟨S100000x200, .f32⟩
  | 79 => ⟨S100000x200, .f32⟩
  | 80 => ⟨S100000x200, .f32⟩
  | 81 => ⟨S100000x200, .f32⟩
  | 82 => ⟨S_, .f32⟩
  | 83 => ⟨S100000x200, .f32⟩
  | 84 => ⟨S100000x200, .f32⟩
  | 85 => ⟨S_, .f32⟩
  | 86 => ⟨S200, .f32⟩
  | 87 => ⟨S_, .f32⟩
  | 88 => ⟨S200, .f32⟩
  | 89 => ⟨S200, .f32⟩
  | 90 => ⟨S1x200, .f32⟩
  | 91 => ⟨S100000x200, .f32⟩
  | 92 => ⟨S100000x200, .f32⟩
  | 93 => ⟨S100000x200, .f32⟩
  | 94 => ⟨S_, .f32⟩
  | 95 => ⟨S200, .f32⟩
  | 96 => ⟨S_, .f32⟩
  | 97 => ⟨S200, .f32⟩
  | 98 => ⟨S200, .f32⟩
  | 99 => ⟨S1x200, .f32⟩
  | 100 => ⟨S100000x200, .f32⟩
  | 101 => ⟨S100000x200, .f32⟩
  | 102 => ⟨S_, .f32⟩
  | 103 => ⟨S200, .f32⟩
  | 104 => ⟨S200, .f32⟩
  | 105 => ⟨S200, .f32⟩
  | 106 => ⟨S1x200, .f32⟩
  | 107 => ⟨S100000x200, .f32⟩
  | 108 => ⟨S100000x200, .f32⟩
  | 109 => ⟨S100000x200, .f32⟩
  | 110 => ⟨S401x200, .f32⟩
  | 111 => ⟨S400x200, .f32⟩
  | 112 => ⟨S401x200, .f32⟩
  | 113 => ⟨S2x400000, .i32⟩
  | 114 => ⟨S2x400000, .i32⟩
  | 115 => ⟨S400000, .i32⟩
  | 116 => ⟨S400000, .i32⟩
  | 117 => ⟨S1x400000, .i32⟩
  | 118 => ⟨S400000, .i32⟩
  | 119 => ⟨S1x400000, .i32⟩
  | 120 => ⟨S400000, .i32⟩
  | 121 => ⟨S1x400000, .i32⟩
  | 122 => ⟨S400000, .i32⟩
  | 123 => ⟨S1x400000, .i32⟩
  | 124 => ⟨S400000, .i32⟩
  | 125 => ⟨S_, .f32⟩
  | 126 => ⟨S400000, .f32⟩
  | 127 => ⟨S_, .f32⟩
  | _ => ⟨S100000x200, .f32⟩

abbrev hbmTy0_2 (i : Nat) : BufTy := match i % 128 with
  | 0 => ⟨S100000, .f32⟩
  | 1 => ⟨S400000x1, .i32⟩
  | 2 => ⟨S100000, .f32⟩
  | 3 => ⟨S_, .f32⟩
  | 4 => ⟨S100000, .f32⟩
  | 5 => ⟨S100000, .i1⟩
  | 6 => ⟨S_, .f32⟩
  | 7 => ⟨S100000, .f32⟩
  | 8 => ⟨S100000, .f32⟩
  | 9 => ⟨S100000, .f32⟩
  | 10 => ⟨S_, .f32⟩
  | 11 => ⟨S100000, .f32⟩
  | 12 => ⟨S100000, .i1⟩
  | 13 => ⟨S_, .f32⟩
  | 14 => ⟨S_, .f32⟩
  | 15 => ⟨S100000, .f32⟩
  | 16 => ⟨S100000, .f32⟩
  | 17 => ⟨S100000, .f32⟩
  | 18 => ⟨S100000, .f32⟩
  | 19 => ⟨S100000, .f32⟩
  | 20 => ⟨S_, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000, .f32⟩
  | 43 => ⟨S_, .i32⟩
  | 44 => ⟨S400000, .i32⟩
  | 45 => ⟨S400000, .i1⟩
  | 46 => ⟨S_, .i32⟩
  | 47 => ⟨S400000, .i32⟩
  | 48 => ⟨S400000, .i32⟩
  | 49 => ⟨S400000, .i32⟩
  | 50 => ⟨S400000x1, .i32⟩
  | 51 => ⟨S400000, .f32⟩
  | 52 => ⟨S400000, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x200, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S400000x200, .f32⟩
  | 71 => ⟨S400000x200, .f32⟩
  | 72 => ⟨S400000x200, .f32⟩
  | 73 => ⟨S400000x1, .f32⟩
  | 74 => ⟨S400000x200, .f32⟩
  | 75 => ⟨S400000x200, .f32⟩
  | 76 => ⟨S_, .f32⟩
  | 77 => ⟨S100000x200, .f32⟩
  | 78 => ⟨S400000x1, .i32⟩
  | 79 => ⟨S100000x200, .f32⟩
  | 80 => ⟨S1x400000, .i32⟩
  | 81 => ⟨S400000, .i32⟩
  | 82 => ⟨S1x400000, .i32⟩
  | 83 => ⟨S400000, .i32⟩
  | 84 => ⟨S1x400000, .i32⟩
  | 85 => ⟨S400000, .i32⟩
  | 86 => ⟨S1x400000, .i32⟩
  | 87 => ⟨S400000, .i32⟩
  | 88 => ⟨S_, .f32⟩
  | 89 => ⟨S400000, .f32⟩
  | 90 => ⟨S_, .f32⟩
  | 91 => ⟨S100000, .f32⟩
  | 92 => ⟨S400000x1, .i32⟩
  | 93 => ⟨S100000, .f32⟩
  | 94 => ⟨S_, .f32⟩
  | 95 => ⟨S100000, .f32⟩
  | 96 => ⟨S100000, .i1⟩
  | 97 => ⟨S_, .f32⟩
  | 98 => ⟨S100000, .f32⟩
  | 99 => ⟨S100000, .f32⟩
  | 100 => ⟨S100000, .f32⟩
  | 101 => ⟨S_, .f32⟩
  | 102 => ⟨S100000, .f32⟩
  | 103 => ⟨S100000, .i1⟩
  | 104 => ⟨S_, .f32⟩
  | 105 => ⟨S_, .f32⟩
  | 106 => ⟨S100000, .f32⟩
  | 107 => ⟨S100000, .f32⟩
  | 108 => ⟨S100000, .f32⟩
  | 109 => ⟨S100000, .f32⟩
  | 110 => ⟨S100000, .f32⟩
  | 111 => ⟨S_, .f32⟩
  | 112 => ⟨S_, .f32⟩
  | 113 => ⟨S100000, .f32⟩
  | 114 => ⟨S100000, .f32⟩
  | 115 => ⟨S_, .f32⟩
  | 116 => ⟨S100000, .f32⟩
  | 117 => ⟨S100000, .i1⟩
  | 118 => ⟨S_, .f32⟩
  | 119 => ⟨S100000, .f32⟩
  | 120 => ⟨S100000, .f32⟩
  | 121 => ⟨S_, .f32⟩
  | 122 => ⟨S_, .f32⟩
  | 123 => ⟨S100000, .f32⟩
  | 124 => ⟨S100000, .f32⟩
  | 125 => ⟨S_, .i32⟩
  | 126 => ⟨S400000, .i32⟩
  | 127 => ⟨S400000, .i1⟩
  | _ => ⟨S100000x200, .f32⟩

abbrev hbmTy0_3 (i : Nat) : BufTy := match i % 128 with
  | 0 => ⟨S_, .i32⟩
  | 1 => ⟨S400000, .i32⟩
  | 2 => ⟨S400000, .i32⟩
  | 3 => ⟨S400000, .i32⟩
  | 4 => ⟨S400000x1, .i32⟩
  | 5 => ⟨S400000, .f32⟩
  | 6 => ⟨S_, .i32⟩
  | 7 => ⟨S400000, .i32⟩
  | 8 => ⟨S400000, .i1⟩
  | 9 => ⟨S_, .i32⟩
  | 10 => ⟨S400000, .i32⟩
  | 11 => ⟨S400000, .i32⟩
  | 12 => ⟨S400000, .i32⟩
  | 13 => ⟨S400000x1, .i32⟩
  | 14 => ⟨S400000, .f32⟩
  | 15 => ⟨S400000, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x200, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000x200, .f32⟩
  | 34 => ⟨S400000x200, .f32⟩
  | 35 => ⟨S400000x200, .f32⟩
  | 36 => ⟨S400000x1, .f32⟩
  | 37 => ⟨S400000x200, .f32⟩
  | 38 => ⟨S400000x200, .f32⟩
  | 39 => ⟨S_, .f32⟩
  | 40 => ⟨S100000x200, .f32⟩
  | 41 => ⟨S400000x1, .i32⟩
  | 42 => ⟨S100000x200, .f32⟩
  | 43 => ⟨S1x200, .f32⟩
  | 44 => ⟨S200, .f32⟩
  | 45 => ⟨S1x200, .f32⟩
  | 46 => ⟨S100000x200, .f32⟩
  | 47 => ⟨S100000x200, .f32⟩
  | 48 => ⟨S100000x200, .f32⟩
  | 49 => ⟨S100000x200, .f32⟩
  | 50 => ⟨S100000x200, .f32⟩
  | 51 => ⟨S_, .f32⟩
  | 52 => ⟨S100000x200, .f32⟩
  | 53 => ⟨S100000x200, .f32⟩
  | 54 => ⟨S_, .f32⟩
  | 55 => ⟨S200, .f32⟩
  | 56 => ⟨S_, .f32⟩
  | 57 => ⟨S200, .f32⟩
  | 58 => ⟨S200, .f32⟩
  | 59 => ⟨S1x200, .f32⟩
  | 60 => ⟨S100000x200, .f32⟩
  | 61 => ⟨S100000x200, .f32⟩
  | 62 => ⟨S100000x200, .f32⟩
  | 63 => ⟨S_, .f32⟩
  | 64 => ⟨S200, .f32⟩
  | 65 => ⟨S_, .f32⟩
  | 66 => ⟨S200, .f32⟩
  | 67 => ⟨S200, .f32⟩
  | 68 => ⟨S1x200, .f32⟩
  | 69 => ⟨S100000x200, .f32⟩
  | 70 => ⟨S100000x200, .f32⟩
  | 71 => ⟨S_, .f32⟩
  | 72 => ⟨S200, .f32⟩
  | 73 => ⟨S200, .f32⟩
  | 74 => ⟨S200, .f32⟩
  | 75 => ⟨S1x200, .f32⟩
  | 76 => ⟨S100000x200, .f32⟩
  | 77 => ⟨S100000x200, .f32⟩
  | 78 => ⟨S100000x200, .f32⟩
  | 79 => ⟨S401x200, .f32⟩
  | 80 => ⟨S400x200, .f32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S8192x200, .f32⟩
  | _ => ⟨S100000x200, .f32⟩

abbrev hbmTy (i : Nat) : BufTy := match i / 128 with
  | 0 => hbmTy0_0 i
  | 1 => hbmTy0_1 i
  | 2 => hbmTy0_2 i
  | 3 => hbmTy0_3 i
  | _ => ⟨S100000x200, .f32⟩

abbrev bufTy : (tb : Table) → Fin (tcTables nBuf tb) → BufTy
  | .hbm, ⟨i, _⟩ => hbmTy i
  | _, _ => ⟨S100000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_v27 : Ref sig .tc := ⟨.hbm, 54, rfl⟩
abbrev main_cst_7 : Ref sig .tc := ⟨.hbm, 55, rfl⟩
abbrev main_v28 : Ref sig .tc := ⟨.hbm, 56, rfl⟩
abbrev main_v29 : Ref sig .tc := ⟨.hbm, 57, rfl⟩
abbrev main_cst_8 : Ref sig .tc := ⟨.hbm, 58, rfl⟩
abbrev main_v30 : Ref sig .tc := ⟨.hbm, 59, rfl⟩
abbrev main_v31 : Ref sig .tc := ⟨.hbm, 60, rfl⟩
abbrev main_cst_9 : Ref sig .tc := ⟨.hbm, 61, rfl⟩
abbrev main_call2_v0 : Ref sig .tc := ⟨.hbm, 62, rfl⟩
abbrev main_call2_v1 : Ref sig .tc := ⟨.hbm, 63, rfl⟩
abbrev main_v32 : Ref sig .tc := ⟨.hbm, 64, rfl⟩
abbrev main_c : Ref sig .tc := ⟨.hbm, 65, rfl⟩
abbrev main_v33 : Ref sig .tc := ⟨.hbm, 66, rfl⟩
abbrev main_v34 : Ref sig .tc := ⟨.hbm, 67, rfl⟩
abbrev main_c_10 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_11 : Ref sig .tc := ⟨.hbm, 74, rfl⟩
abbrev main_v40 : Ref sig .tc := ⟨.hbm, 75, rfl⟩
abbrev main_v41 : Ref sig .tc := ⟨.hbm, 76, rfl⟩
abbrev main_c_12 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_13 : Ref sig .tc := ⟨.hbm, 84, rfl⟩
abbrev main_v48 : Ref sig .tc := ⟨.hbm, 85, rfl⟩
abbrev main_v49 : Ref sig .tc := ⟨.hbm, 86, rfl⟩
abbrev main_c_14 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_c_15 : Ref sig .tc := ⟨.hbm, 93, rfl⟩
abbrev main_v55 : Ref sig .tc := ⟨.hbm, 94, rfl⟩
abbrev main_v56 : Ref sig .tc := ⟨.hbm, 95, rfl⟩
abbrev main_c_16 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_17 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_18 : Ref sig .tc := ⟨.hbm, 119, rfl⟩
abbrev main_v78 : Ref sig .tc := ⟨.hbm, 120, rfl⟩
abbrev main_cst_19 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_20 : Ref sig .tc := ⟨.hbm, 125, rfl⟩
abbrev main_v82 : Ref sig .tc := ⟨.hbm, 126, rfl⟩
abbrev main_v83 : Ref sig .tc := ⟨.hbm, 127, rfl⟩
abbrev main_cst_21 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_22 : Ref sig .tc := ⟨.hbm, 132, rfl⟩
abbrev main_v87 : Ref sig .tc := ⟨.hbm, 133, rfl⟩
abbrev main_v88 : Ref sig .tc := ⟨.hbm, 134, rfl⟩
abbrev main_cst_23 : Ref sig .tc := ⟨.hbm, 135, rfl⟩
abbrev main_cst_24 : Ref sig .tc := ⟨.hbm, 136, rfl⟩
abbrev main_call3_v0 : Ref sig .tc := ⟨.hbm, 137, rfl⟩
abbrev main_call3_v1 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_25 : Ref sig .tc := ⟨.hbm, 142, rfl⟩
abbrev main_call4_v0 : Ref sig .tc := ⟨.hbm, 143, rfl⟩
abbrev main_call4_v1 : Ref sig .tc := ⟨.hbm, 144, rfl⟩
abbrev main_v92 : Ref sig .tc := ⟨.hbm, 145, rfl⟩
abbrev main_cst_26 : Ref sig .tc := ⟨.hbm, 146, rfl⟩
abbrev main_v93 : Ref sig .tc := ⟨.hbm, 147, rfl⟩
abbrev main_v94 : Ref sig .tc := ⟨.hbm, 148, rfl⟩
abbrev main_cst_27 : Ref sig .tc := ⟨.hbm, 149, rfl⟩
abbrev main_v95 : Ref sig .tc := ⟨.hbm, 150, rfl⟩
abbrev main_v96 : Ref sig .tc := ⟨.hbm, 151, rfl⟩
abbrev main_cst_28 : Ref sig .tc := ⟨.hbm, 152, rfl⟩
abbrev main_call5_v0 : Ref sig .tc := ⟨.hbm, 153, rfl⟩
abbrev main_call5_v1 : Ref sig .tc := ⟨.hbm, 154, rfl⟩
abbrev main_v97 : Ref sig .tc := ⟨.hbm, 155, rfl⟩
abbrev main_c_29 : Ref sig .tc := ⟨.hbm, 156, rfl⟩
abbrev main_v98 : Ref sig .tc := ⟨.hbm, 157, rfl⟩
abbrev main_v99 : Ref sig .tc := ⟨.hbm, 158, rfl⟩
abbrev main_c_30 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_c_31 : Ref sig .tc := ⟨.hbm, 165, rfl⟩
abbrev main_v105 : Ref sig .tc := ⟨.hbm, 166, rfl⟩
abbrev main_v106 : Ref sig .tc := ⟨.hbm, 167, rfl⟩
abbrev main_c_32 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_c_33 : Ref sig .tc := ⟨.hbm, 175, rfl⟩
abbrev main_v113 : Ref sig .tc := ⟨.hbm, 176, rfl⟩
abbrev main_v114 : Ref sig .tc := ⟨.hbm, 177, rfl⟩
abbrev main_c_34 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_c_35 : Ref sig .tc := ⟨.hbm, 184, rfl⟩
abbrev main_v120 : Ref sig .tc := ⟨.hbm, 185, rfl⟩
abbrev main_v121 : Ref sig .tc := ⟨.hbm, 186, rfl⟩
abbrev main_c_36 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_cst_37 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_cst_38 : Ref sig .tc := ⟨.hbm, 210, rfl⟩
abbrev main_v143 : Ref sig .tc := ⟨.hbm, 211, rfl⟩
abbrev main_v144 : Ref sig .tc := ⟨.hbm, 212, rfl⟩
abbrev main_cst_39 : Ref sig .tc := ⟨.hbm, 213, rfl⟩
abbrev main_v145 : Ref sig .tc := ⟨.hbm, 214, rfl⟩
abbrev main_cst_40 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_cst_41 : Ref sig .tc := ⟨.hbm, 222, rfl⟩
abbrev main_v152 : Ref sig .tc := ⟨.hbm, 223, rfl⟩
abbrev main_cst_42 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_cst_43 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_cst_44 : Ref sig .tc := ⟨.hbm, 253, rfl⟩
abbrev main_v180 : Ref sig .tc := ⟨.hbm, 254, rfl⟩
abbrev main_cst_45 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_cst_46 : Ref sig .tc := ⟨.hbm, 259, rfl⟩
abbrev main_v184 : Ref sig .tc := ⟨.hbm, 260, rfl⟩
abbrev main_v185 : Ref sig .tc := ⟨.hbm, 261, rfl⟩
abbrev main_cst_47 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_cst_48 : Ref sig .tc := ⟨.hbm, 266, rfl⟩
abbrev main_v189 : Ref sig .tc := ⟨.hbm, 267, rfl⟩
abbrev main_v190 : Ref sig .tc := ⟨.hbm, 268, rfl⟩
abbrev main_cst_49 : Ref sig .tc := ⟨.hbm, 269, rfl⟩
abbrev main_cst_50 : Ref sig .tc := ⟨.hbm, 270, rfl⟩
abbrev main_call6_v0 : Ref sig .tc := ⟨.hbm, 271, rfl⟩
abbrev main_call6_v1 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_cst_51 : Ref sig .tc := ⟨.hbm, 276, rfl⟩
abbrev main_call7_v0 : Ref sig .tc := ⟨.hbm, 277, rfl⟩
abbrev main_call7_v1 : Ref sig .tc := ⟨.hbm, 278, rfl⟩
abbrev main_v194 : Ref sig .tc := ⟨.hbm, 279, rfl⟩
abbrev main_cst_52 : Ref sig .tc := ⟨.hbm, 280, rfl⟩
abbrev main_v195 : Ref sig .tc := ⟨.hbm, 281, rfl⟩
abbrev main_v196 : Ref sig .tc := ⟨.hbm, 282, rfl⟩
abbrev main_cst_53 : Ref sig .tc := ⟨.hbm, 283, rfl⟩
abbrev main_v197 : Ref sig .tc := ⟨.hbm, 284, rfl⟩
abbrev main_v198 : Ref sig .tc := ⟨.hbm, 285, rfl⟩
abbrev main_cst_54 : Ref sig .tc := ⟨.hbm, 286, rfl⟩
abbrev main_call8_v0 : Ref sig .tc := ⟨.hbm, 287, rfl⟩
abbrev main_call8_v1 : Ref sig .tc := ⟨.hbm, 288, rfl⟩
abbrev main_v199 : Ref sig .tc := ⟨.hbm, 289, rfl⟩
abbrev main_c_55 : Ref sig .tc := ⟨.hbm, 290, rfl⟩
abbrev main_v200 : Ref sig .tc := ⟨.hbm, 291, rfl⟩
abbrev main_v201 : Ref sig .tc := ⟨.hbm, 292, rfl⟩
abbrev main_c_56 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_c_57 : Ref sig .tc := ⟨.hbm, 299, rfl⟩
abbrev main_v207 : Ref sig .tc := ⟨.hbm, 300, rfl⟩
abbrev main_v208 : Ref sig .tc := ⟨.hbm, 301, rfl⟩
abbrev main_c_58 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_c_59 : Ref sig .tc := ⟨.hbm, 309, rfl⟩
abbrev main_v215 : Ref sig .tc := ⟨.hbm, 310, rfl⟩
abbrev main_v216 : Ref sig .tc := ⟨.hbm, 311, rfl⟩
abbrev main_c_60 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_v221 : Ref sig .tc := ⟨.hbm, 317, rfl⟩
abbrev main_c_61 : Ref sig .tc := ⟨.hbm, 318, rfl⟩
abbrev main_v222 : Ref sig .tc := ⟨.hbm, 319, rfl⟩
abbrev main_v223 : Ref sig .tc := ⟨.hbm, 320, rfl⟩
abbrev main_c_62 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_cst_63 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_cst_64 : Ref sig .tc := ⟨.hbm, 344, rfl⟩
abbrev main_v245 : Ref sig .tc := ⟨.hbm, 345, rfl⟩
abbrev main_cst_65 : Ref sig .tc := ⟨.hbm, 346, rfl⟩
abbrev main_v246 : Ref sig .tc := ⟨.hbm, 347, rfl⟩
abbrev main_v247 : Ref sig .tc := ⟨.hbm, 348, rfl⟩
abbrev main_v248 : Ref sig .tc := ⟨.hbm, 349, rfl⟩
abbrev main_cst_66 : Ref sig .tc := ⟨.hbm, 350, rfl⟩
abbrev main_v249 : Ref sig .tc := ⟨.hbm, 351, rfl⟩
abbrev main_v250 : Ref sig .tc := ⟨.hbm, 352, rfl⟩
abbrev main_cst_67 : Ref sig .tc := ⟨.hbm, 353, rfl⟩
abbrev main_v251 : Ref sig .tc := ⟨.hbm, 354, rfl⟩
abbrev main_v252 : Ref sig .tc := ⟨.hbm, 355, rfl⟩
abbrev main_v253 : Ref sig .tc := ⟨.hbm, 356, rfl⟩
abbrev main_cst_68 : Ref sig .tc := ⟨.hbm, 357, rfl⟩
abbrev main_v254 : Ref sig .tc := ⟨.hbm, 358, rfl⟩
abbrev main_v255 : Ref sig .tc := ⟨.hbm, 359, rfl⟩
abbrev main_cst_69 : Ref sig .tc := ⟨.hbm, 360, rfl⟩
abbrev main_cst_70 : Ref sig .tc := ⟨.hbm, 361, rfl⟩
abbrev main_call9_v0 : Ref sig .tc := ⟨.hbm, 362, rfl⟩
abbrev main_call9_v1 : Ref sig .tc := ⟨.hbm, 363, rfl⟩
abbrev main_v256 : Ref sig .tc := ⟨.hbm, 364, rfl⟩
abbrev main_v257 : Ref sig .tc := ⟨.hbm, 365, rfl⟩
abbrev main_v258 : Ref sig .tc := ⟨.hbm, 366, rfl⟩
abbrev main_cst_71 : Ref sig .tc := ⟨.hbm, 367, rfl⟩
abbrev main_call10_v0 : Ref sig .tc := ⟨.hbm, 368, rfl⟩
abbrev main_call10_v1 : Ref sig .tc := ⟨.hbm, 369, rfl⟩
abbrev main_v259 : Ref sig .tc := ⟨.hbm, 370, rfl⟩
abbrev main_cst_72 : Ref sig .tc := ⟨.hbm, 371, rfl⟩
abbrev main_v260 : Ref sig .tc := ⟨.hbm, 372, rfl⟩
abbrev main_v261 : Ref sig .tc := ⟨.hbm, 373, rfl⟩
abbrev main_cst_73 : Ref sig .tc := ⟨.hbm, 374, rfl⟩
abbrev main_v262 : Ref sig .tc := ⟨.hbm, 375, rfl⟩
abbrev main_v263 : Ref sig .tc := ⟨.hbm, 376, rfl⟩
abbrev main_cst_74 : Ref sig .tc := ⟨.hbm, 377, rfl⟩
abbrev main_call11_v0 : Ref sig .tc := ⟨.hbm, 378, rfl⟩
abbrev main_call11_v1 : Ref sig .tc := ⟨.hbm, 379, rfl⟩
abbrev main_v264 : Ref sig .tc := ⟨.hbm, 380, rfl⟩
abbrev main_c_75 : Ref sig .tc := ⟨.hbm, 381, rfl⟩
abbrev main_v265 : Ref sig .tc := ⟨.hbm, 382, rfl⟩
abbrev main_v266 : Ref sig .tc := ⟨.hbm, 383, rfl⟩
abbrev main_c_76 : Ref sig .tc := ⟨.hbm, 384, rfl⟩
abbrev main_v267 : Ref sig .tc := ⟨.hbm, 385, rfl⟩
abbrev main_v268 : Ref sig .tc := ⟨.hbm, 386, rfl⟩
abbrev main_v269 : Ref sig .tc := ⟨.hbm, 387, rfl⟩
abbrev main_v270 : Ref sig .tc := ⟨.hbm, 388, rfl⟩
abbrev main_v271 : Ref sig .tc := ⟨.hbm, 389, rfl⟩
abbrev main_c_77 : Ref sig .tc := ⟨.hbm, 390, rfl⟩
abbrev main_v272 : Ref sig .tc := ⟨.hbm, 391, rfl⟩
abbrev main_v273 : Ref sig .tc := ⟨.hbm, 392, rfl⟩
abbrev main_c_78 : Ref sig .tc := ⟨.hbm, 393, rfl⟩
abbrev main_v274 : Ref sig .tc := ⟨.hbm, 394, rfl⟩
abbrev main_v275 : Ref sig .tc := ⟨.hbm, 395, rfl⟩
abbrev main_v276 : Ref sig .tc := ⟨.hbm, 396, rfl⟩
abbrev main_v277 : Ref sig .tc := ⟨.hbm, 397, rfl⟩
abbrev main_v278 : Ref sig .tc := ⟨.hbm, 398, rfl⟩
abbrev main_v279 : Ref sig .tc := ⟨.hbm, 399, rfl⟩
abbrev main_c_79 : Ref sig .tc := ⟨.hbm, 400, rfl⟩
abbrev main_v280 : Ref sig .tc := ⟨.hbm, 401, rfl⟩
abbrev main_v281 : Ref sig .tc := ⟨.hbm, 402, rfl⟩
abbrev main_c_80 : Ref sig .tc := ⟨.hbm, 403, rfl⟩
abbrev main_v282 : Ref sig .tc := ⟨.hbm, 404, rfl⟩
abbrev main_v283 : Ref sig .tc := ⟨.hbm, 405, rfl⟩
abbrev main_v284 : Ref sig .tc := ⟨.hbm, 406, rfl⟩
abbrev main_v285 : Ref sig .tc := ⟨.hbm, 407, rfl⟩
abbrev main_v286 : Ref sig .tc := ⟨.hbm, 408, rfl⟩
abbrev main_c_81 : Ref sig .tc := ⟨.hbm, 409, rfl⟩
abbrev main_v287 : Ref sig .tc := ⟨.hbm, 410, rfl⟩
abbrev main_v288 : Ref sig .tc := ⟨.hbm, 411, rfl⟩
abbrev main_c_82 : Ref sig .tc := ⟨.hbm, 412, rfl⟩
abbrev main_v289 : Ref sig .tc := ⟨.hbm, 413, rfl⟩
abbrev main_v290 : Ref sig .tc := ⟨.hbm, 414, rfl⟩
abbrev main_v291 : Ref sig .tc := ⟨.hbm, 415, rfl⟩
abbrev main_v292 : Ref sig .tc := ⟨.hbm, 416, rfl⟩
abbrev main_v293 : Ref sig .tc := ⟨.hbm, 417, rfl⟩
abbrev main_v294 : Ref sig .tc := ⟨.hbm, 418, rfl⟩
abbrev main_v295 : Ref sig .tc := ⟨.hbm, 419, rfl⟩
abbrev main_v296 : Ref sig .tc := ⟨.hbm, 420, rfl⟩
abbrev main_v297 : Ref sig .tc := ⟨.hbm, 421, rfl⟩
abbrev main_v298 : Ref sig .tc := ⟨.hbm, 422, rfl⟩
abbrev main_cst_83 : Ref sig .tc := ⟨.hbm, 423, rfl⟩
abbrev main_v299 : Ref sig .tc := ⟨.hbm, 424, rfl⟩
abbrev main_v300 : Ref sig .tc := ⟨.hbm, 425, rfl⟩
abbrev main_v301 : Ref sig .tc := ⟨.hbm, 426, rfl⟩
abbrev main_v302 : Ref sig .tc := ⟨.hbm, 427, rfl⟩
abbrev main_v303 : Ref sig .tc := ⟨.hbm, 428, rfl⟩
abbrev main_v304 : Ref sig .tc := ⟨.hbm, 429, rfl⟩
abbrev main_v305 : Ref sig .tc := ⟨.hbm, 430, rfl⟩
abbrev main_v306 : Ref sig .tc := ⟨.hbm, 431, rfl⟩
abbrev main_v307 : Ref sig .tc := ⟨.hbm, 432, rfl⟩
abbrev main_v308 : Ref sig .tc := ⟨.hbm, 433, rfl⟩
abbrev main_v309 : Ref sig .tc := ⟨.hbm, 434, rfl⟩
abbrev main_cst_84 : Ref sig .tc := ⟨.hbm, 435, rfl⟩
abbrev main_v310 : Ref sig .tc := ⟨.hbm, 436, rfl⟩
abbrev main_v311 : Ref sig .tc := ⟨.hbm, 437, rfl⟩
abbrev main_cst_85 : Ref sig .tc := ⟨.hbm, 438, rfl⟩
abbrev main_v312 : Ref sig .tc := ⟨.hbm, 439, rfl⟩
abbrev main_cst_86 : Ref sig .tc := ⟨.hbm, 440, rfl⟩
abbrev main_v313 : Ref sig .tc := ⟨.hbm, 441, rfl⟩
abbrev main_v314 : Ref sig .tc := ⟨.hbm, 442, rfl⟩
abbrev main_v315 : Ref sig .tc := ⟨.hbm, 443, rfl⟩
abbrev main_v316 : Ref sig .tc := ⟨.hbm, 444, rfl⟩
abbrev main_v317 : Ref sig .tc := ⟨.hbm, 445, rfl⟩
abbrev main_v318 : Ref sig .tc := ⟨.hbm, 446, rfl⟩
abbrev main_cst_87 : Ref sig .tc := ⟨.hbm, 447, rfl⟩
abbrev main_v319 : Ref sig .tc := ⟨.hbm, 448, rfl⟩
abbrev main_cst_88 : Ref sig .tc := ⟨.hbm, 449, rfl⟩
abbrev main_v320 : Ref sig .tc := ⟨.hbm, 450, rfl⟩
abbrev main_v321 : Ref sig .tc := ⟨.hbm, 451, rfl⟩
abbrev main_v322 : Ref sig .tc := ⟨.hbm, 452, rfl⟩
abbrev main_v323 : Ref sig .tc := ⟨.hbm, 453, rfl⟩
abbrev main_v324 : Ref sig .tc := ⟨.hbm, 454, rfl⟩
abbrev main_cst_89 : Ref sig .tc := ⟨.hbm, 455, rfl⟩
abbrev main_v325 : Ref sig .tc := ⟨.hbm, 456, rfl⟩
abbrev main_v326 : Ref sig .tc := ⟨.hbm, 457, rfl⟩
abbrev main_v327 : Ref sig .tc := ⟨.hbm, 458, rfl⟩
abbrev main_v328 : Ref sig .tc := ⟨.hbm, 459, rfl⟩
abbrev main_v329 : Ref sig .tc := ⟨.hbm, 460, rfl⟩
abbrev main_v330 : Ref sig .tc := ⟨.hbm, 461, rfl⟩
abbrev main_v331 : Ref sig .tc := ⟨.hbm, 462, rfl⟩
abbrev main_v332 : Ref sig .tc := ⟨.hbm, 463, rfl⟩
abbrev main_v333 : Ref sig .tc := ⟨.hbm, 464, rfl⟩
abbrev main_c_90 : Ref sig .tc := ⟨.hbm, 465, rfl⟩
abbrev main_v334 : Ref sig .tc := ⟨.hbm, 466, rfl⟩
abbrev main_v335 : Ref sig .tc := ⟨.hbm, 467, rfl⟩
abbrev main_c_91 : Ref sig .tc := ⟨.hbm, 468, rfl⟩
abbrev main_v336 : Ref sig .tc := ⟨.hbm, 469, rfl⟩
abbrev main_v337 : Ref sig .tc := ⟨.hbm, 470, rfl⟩
abbrev main_v338 : Ref sig .tc := ⟨.hbm, 471, rfl⟩
abbrev main_v339 : Ref sig .tc := ⟨.hbm, 472, rfl⟩
abbrev main_v340 : Ref sig .tc := ⟨.hbm, 473, rfl⟩

abbrev nD : Nat := 1
abbrev τ : Topo := Topo.v7x

variable {F : FTy → Type} [FloatOps F]

class Facts₀ : Prop where
  concatenates_S400x200_S1x200_S401x200_d0 : Shape.Concatenates [S400x200, S1x200] S401x200 0
  slices_S2x800000_S2x400000_0_0 : S2x800000.Slices ![0, 0] S2x400000
  slices_S2x800000_S2x400000_0_400000 : S2x800000.Slices ![0, 400000] S2x400000
  slices_S800000_S400000_0 : S800000.Slices ![0] S400000
  slices_S800000_S400000_400000 : S800000.Slices ![400000] S400000
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S400000x1_S400000x200_0_1 : S400000x1.BroadcastsInDim S400000x200 (![0, 1] : Fin 2 → Fin S400000x200.rank)
  bcast_S_S100000x200 : S_.BroadcastsInDim S100000x200 (![] : Fin 0 → Fin S100000x200.rank)
  slices_S401x200_S1x200_400_0 : S401x200.Slices ![400, 0] S1x200
  shapeCasts_S1x200_S200 : S1x200.ShapeCasts S200
  bcast_S200_S1x200_1 : S200.BroadcastsInDim S1x200 (![1] : Fin 1 → Fin S1x200.rank)
  bcast_S1x200_S100000x200_0_1 : S1x200.BroadcastsInDim S100000x200 (![0, 1] : Fin 2 → Fin S100000x200.rank)
  reducesTo_S100000x200_S200_d0 : S100000x200.ReducesTo [0] S200
  h_S_ : 0 < S_.numel
  bcast_S_S200 : S_.BroadcastsInDim S200 (![] : Fin 0 → Fin S200.rank)
  slices_S401x200_S400x200_0_0 : S401x200.Slices ![0, 0] S400x200
  bcast_S_S8192 : S_.BroadcastsInDim S8192 (![] : Fin 0 → Fin S8192.rank)
  bcast_S8192_S8192x1_0 : S8192.BroadcastsInDim S8192x1 (![0] : Fin 1 → Fin S8192x1.rank)
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S100000x200_S400000x1_S400000x200_1_0_n_n_0_1_1200_wf : GatherDims.WF S100000x200 S400000x1 S400000x200 [1] [0] [] [0] [] 1 ![1, 200]
  gather_S401x200_S400000x1_S400000x200_1_0_n_n_0_1_1200_wf : GatherDims.WF S401x200 S400000x1 S400000x200 [1] [0] [] [0] [] 1 ![1, 200]
  dot_S400000x200_S200x200_S400000x200_1_0_0_1_n_n_wf : DotDims.WF S400000x200 S200x200 S400000x200 [1] [0] [0] [1] [] []
  scatter_S100000x200_S400000x1_S400000x200_1_0_0_1_wf : ScatterDims.WF S100000x200 S400000x1 S400000x200 [1] [0] [0] 1
  dot_S100000x200_S200x200_S100000x200_1_0_0_1_n_n_wf : DotDims.WF S100000x200 S200x200 S100000x200 [1] [0] [0] [1] [] []
  dot_S401x200_S200x200_S401x200_1_0_0_1_n_n_wf : DotDims.WF S401x200 S200x200 S401x200 [1] [0] [0] [1] [] []
  gather_S100000x200_S8192x1_S8192x200_1_0_n_n_0_1_1200_wf : GatherDims.WF S100000x200 S8192x1 S8192x200 [1] [0] [] [0] [] 1 ![1, 200]

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x200_S400000x1_S400000x200_1_0_n_n_0_1_1200 : GatherDims S100000x200 S400000x1 S400000x200 where
  offsetDims := [1]
  collapsedSliceDims := [0]
  operandBatchingDims := []
  startIndicesBatchingDims := []
  startIndexMap := [0]
  indexVectorDim := 1
  sliceSizes := ![1, 200]
  wf := gather_S100000x200_S400000x1_S400000x200_1_0_n_n_0_1_1200_wf
def gather_S401x200_S400000x1_S400000x200_1_0_n_n_0_1_1200 : GatherDims S401x200 S400000x1 S400000x200 where
  offsetDims := [1]
  collapsedSliceDims := [0]
  operandBatchingDims := []
  startIndicesBatchingDims := []
  startIndexMap := [0]
  indexVectorDim := 1
  sliceSizes := ![1, 200]
  wf := gather_S401x200_S400000x1_S400000x200_1_0_n_n_0_1_1200_wf
def dot_S400000x200_S200x200_S400000x200_1_0_0_1_n_n : DotDims S400000x200 S200x200 S400000x200 where
  lhsContracting := [1]
  rhsContracting := [0]
  lhsNonContracting := [0]
  rhsNonContracting := [1]
  lhsBatch := []
  rhsBatch := []
  wf := dot_S400000x200_S200x200_S400000x200_1_0_0_1_n_n_wf
def scatter_S100000x200_S400000x1_S400000x200_1_0_0_1 : ScatterDims S100000x200 S400000x1 S400000x200 where
  updateWindowDims := [1]
  insertedWindowDims := [0]
  scatterDimsToOperandDims := [0]
  indexVectorDim := 1
  wf := scatter_S100000x200_S400000x1_S400000x200_1_0_0_1_wf
def dot_S100000x200_S200x200_S100000x200_1_0_0_1_n_n : DotDims S100000x200 S200x200 S100000x200 where
  lhsContracting := [1]
  rhsContracting := [0]
  lhsNonContracting := [0]
  rhsNonContracting := [1]
  lhsBatch := []
  rhsBatch := []
  wf := dot_S100000x200_S200x200_S100000x200_1_0_0_1_n_n_wf
def dot_S401x200_S200x200_S401x200_1_0_0_1_n_n : DotDims S401x200 S200x200 S401x200 where
  lhsContracting := [1]
  rhsContracting := [0]
  lhsNonContracting := [0]
  rhsNonContracting := [1]
  lhsBatch := []
  rhsBatch := []
  wf := dot_S401x200_S200x200_S401x200_1_0_0_1_n_n_wf
def gather_S100000x200_S8192x1_S8192x200_1_0_n_n_0_1_1200 : GatherDims S100000x200 S8192x1 S8192x200 where
  offsetDims := [1]
  collapsedSliceDims := [0]
  operandBatchingDims := []
  startIndicesBatchingDims := []
  startIndexMap := [0]
  indexVectorDim := 1
  sliceSizes := ![1, 200]
  wf := gather_S100000x200_S8192x1_S8192x200_1_0_n_n_0_1_1200_wf

class Facts : Prop extends Facts₀ where

variable [Facts]
-- ==== Proof.KNames.lean ====
/-
  Names for what the idealized kernel program's buffers hold at the entries of its four kernel regions: the rows
  gathered for every edge, the per-edge degree normalisations, the scatter targets, the aggregated messages, the
  self-loop row, and the layer's input array.  Every name is a read of the contents at a boundary of @main.
-/
import proofs.«412919_j56298431316644_2_alg».proof.Proof.Gen.KernelIdeal.Frame
import Idealize.ShloMosaic.PureOps.Ideal

noncomputable section

namespace Cert.KernelIdeal.KN

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## Layer 1, at the first region's entry -/

/-- The layer's input array: the node embeddings as launched. -/
abbrev x1in : Vec Ideal S100000x200 .f32 := W11 m ρ c (Proc.devRef .tc main_arg0)
/-- The relation table with the self-loop row appended. -/
abbrev rel1 : Vec Ideal S401x200 .f32 := W11 m ρ c (Proc.devRef .tc main_v0)
/-- In-edges: the rows of the input gathered by source, the rows of the relation table gathered by type, the
    normalisation of every edge, the target node of every edge, and the aggregate. -/
abbrev xsIn1 : Vec Ideal S400000x200 .f32 := W11 m ρ c (Proc.devRef .tc main_call1_v13)
abbrev rsIn1 : Vec Ideal S400000x200 .f32 := W11 m ρ c (Proc.devRef .tc main_call2_v13)
abbrev nuIn1 : Vec Ideal S400000 .f32 := W11 m ρ c (Proc.devRef .tc main_v36)
abbrev dstIn1 : IVec S400000 32 := W11 m ρ c (Proc.devRef .tc main_v8)
abbrev aggIn1 : Vec Ideal S100000x200 .f32 := W11 m ρ c (Proc.devRef .tc main_v45)
/-- Out-edges, likewise. -/
abbrev xsOut1 : Vec Ideal S400000x200 .f32 := W11 m ρ c (Proc.devRef .tc main_call4_v13)
abbrev rsOut1 : Vec Ideal S400000x200 .f32 := W11 m ρ c (Proc.devRef .tc main_call5_v13)
abbrev nuOut1 : Vec Ideal S400000 .f32 := W11 m ρ c (Proc.devRef .tc main_v77)
abbrev dstOut1 : IVec S400000 32 := W11 m ρ c (Proc.devRef .tc main_v49)
abbrev aggOut1 : Vec Ideal S100000x200 .f32 := W11 m ρ c (Proc.devRef .tc main_v86)
/-- The self-loop row of the relation table. -/
abbrev lrow1 : Vec Ideal S1x200 .f32 := W11 m ρ c (Proc.devRef .tc main_v87)
/-- The layer's three weight matrices, as the first region finds them. -/
abbrev wIn1 : Vec Ideal S200x200 .f32 := W11 m ρ c (Proc.devRef .tc main_arg2)
abbrev wOut1 : Vec Ideal S200x200 .f32 := W11 m ρ c (Proc.devRef .tc main_arg3)
abbrev wLoop1 : Vec Ideal S200x200 .f32 := W11 m ρ c (Proc.devRef .tc main_arg4)
/-- The layer's output: what the second region leaves. -/
abbrev x1out : Vec Ideal S100000x200 .f32 := W14 m ρ c (Proc.devRef .tc main_v95)

/-! ## Layer 2, at the third region's entry -/

abbrev x2in : Vec Ideal S100000x200 .f32 := W25 m ρ c (Proc.devRef .tc main_v95)
abbrev rel2 : Vec Ideal S401x200 .f32 := W25 m ρ c (Proc.devRef .tc main_v98)
abbrev xsIn2 : Vec Ideal S400000x200 .f32 := W25 m ρ c (Proc.devRef .tc main_call7_v13)
abbrev rsIn2 : Vec Ideal S400000x200 .f32 := W25 m ρ c (Proc.devRef .tc main_call8_v13)
abbrev nuIn2 : Vec Ideal S400000 .f32 := W25 m ρ c (Proc.devRef .tc main_v134)
abbrev dstIn2 : IVec S400000 32 := W25 m ρ c (Proc.devRef .tc main_v106)
abbrev aggIn2 : Vec Ideal S100000x200 .f32 := W25 m ρ c (Proc.devRef .tc main_v143)
abbrev xsOut2 : Vec Ideal S400000x200 .f32 := W25 m ρ c (Proc.devRef .tc main_call10_v13)
abbrev rsOut2 : Vec Ideal S400000x200 .f32 := W25 m ρ c (Proc.devRef .tc main_call11_v13)
abbrev nuOut2 : Vec Ideal S400000 .f32 := W25 m ρ c (Proc.devRef .tc main_v175)
abbrev dstOut2 : IVec S400000 32 := W25 m ρ c (Proc.devRef .tc main_v147)
abbrev aggOut2 : Vec Ideal S100000x200 .f32 := W25 m ρ c (Proc.devRef .tc main_v184)
abbrev lrow2 : Vec Ideal S1x200 .f32 := W25 m ρ c (Proc.devRef .tc main_v185)
abbrev wIn2 : Vec Ideal S200x200 .f32 := W25 m ρ c (Proc.devRef .tc main_arg7)
abbrev wOut2 : Vec Ideal S200x200 .f32 := W25 m ρ c (Proc.devRef .tc main_arg8)
abbrev wLoop2 : Vec Ideal S200x200 .f32 := W25 m ρ c (Proc.devRef .tc main_arg9)
abbrev x2out : Vec Ideal S100000x200 .f32 := W28 m ρ c (Proc.devRef .tc main_v193)

/-- The two results of @main. -/
abbrev res1 : Vec Ideal S100000x200 .f32 := W30 m ρ c (Proc.devRef .tc main_v193)
abbrev res0 : Vec Ideal S8192x200 .f32 := W30 m ρ c (Proc.devRef .tc main_v196)

end Cert.KernelIdeal.KN

end
-- ==== Proof.RNames.lean ====
/-
  Names for what the idealized reference program's buffers hold when @main returns: the rows gathered for every edge,
  the per-edge degree normalisations, the scatter targets, the relation tables, and the two layers' outputs.
-/
import proofs.«412919_j56298431316644_2_alg».proof.Proof.RefRun
import Idealize.ShloMosaic.PureOps.Ideal

noncomputable section

namespace Cert.ReferenceIdeal.RN

open Cert.ReferenceIdeal Cert.ReferenceIdeal.Gen Cert.ReferenceIdeal.RRun Idealize.ShloMosaic Idealize.ShloMosaic.TcCoe Idealize.SL.Sem

variable (m : (ℓ : Loc nD τ sig) → Buf (Elt Ideal) ℓ) (c : Dev nD)

/-! ## Layer 1 -/

abbrev x1in : Vec Ideal S100000x200 .f32 := R8 m c (Proc.devRef .tc main_arg0)
abbrev rel1 : Vec Ideal S401x200 .f32 := R8 m c (Proc.devRef .tc main_v0)
abbrev xsIn1 : Vec Ideal S400000x200 .f32 := R8 m c (Proc.devRef .tc main_v54)
abbrev rsIn1 : Vec Ideal S400000x200 .f32 := R8 m c (Proc.devRef .tc main_v61)
abbrev nuIn1 : Vec Ideal S400000 .f32 := R8 m c (Proc.devRef .tc main_v47)
abbrev dstIn1 : IVec S400000 32 := R8 m c (Proc.devRef .tc main_v8)
abbrev xsOut1 : Vec Ideal S400000x200 .f32 := R8 m c (Proc.devRef .tc main_v119)
abbrev rsOut1 : Vec Ideal S400000x200 .f32 := R8 m c (Proc.devRef .tc main_v126)
abbrev nuOut1 : Vec Ideal S400000 .f32 := R8 m c (Proc.devRef .tc main_v112)
abbrev dstOut1 : IVec S400000 32 := R8 m c (Proc.devRef .tc main_v73)
/-- The layer's three weight matrices. -/
abbrev wIn1 : Vec Ideal S200x200 .f32 := R8 m c (Proc.devRef .tc main_arg2)
abbrev wOut1 : Vec Ideal S200x200 .f32 := R8 m c (Proc.devRef .tc main_arg3)
abbrev wLoop1 : Vec Ideal S200x200 .f32 := R8 m c (Proc.devRef .tc main_arg4)
abbrev x1out : Vec Ideal S100000x200 .f32 := R8 m c (Proc.devRef .tc main_v164)

/-! ## Layer 2 -/

abbrev rel2 : Vec Ideal S401x200 .f32 := R8 m c (Proc.devRef .tc main_v167)
abbrev xsIn2 : Vec Ideal S400000x200 .f32 := R8 m c (Proc.devRef .tc main_v221)
abbrev rsIn2 : Vec Ideal S400000x200 .f32 := R8 m c (Proc.devRef .tc main_v228)
abbrev nuIn2 : Vec Ideal S400000 .f32 := R8 m c (Proc.devRef .tc main_v214)
abbrev dstIn2 : IVec S400000 32 := R8 m c (Proc.devRef .tc main_v175)
abbrev xsOut2 : Vec Ideal S400000x200 .f32 := R8 m c (Proc.devRef .tc main_v286)
abbrev rsOut2 : Vec Ideal S400000x200 .f32 := R8 m c (Proc.devRef .tc main_v293)
abbrev nuOut2 : Vec Ideal S400000 .f32 := R8 m c (Proc.devRef .tc main_v279)
abbrev dstOut2 : IVec S400000 32 := R8 m c (Proc.devRef .tc main_v240)
abbrev wIn2 : Vec Ideal S200x200 .f32 := R8 m c (Proc.devRef .tc main_arg7)
abbrev wOut2 : Vec Ideal S200x200 .f32 := R8 m c (Proc.devRef .tc main_arg8)
abbrev wLoop2 : Vec Ideal S200x200 .f32 := R8 m c (Proc.devRef .tc main_arg9)
abbrev x2out : Vec Ideal S100000x200 .f32 := R8 m c (Proc.devRef .tc main_v331)

/-- The first result of @main: the rows of the second layer's output picked by the query indices. -/
abbrev res0 : Vec Ideal S8192x200 .f32 := R8 m c (Proc.devRef .tc main_v340)

end Cert.ReferenceIdeal.RN

end
-- ==== Proof.SpecDefs.lean ====
/-
  The two idealized programs compute one layer of a relational graph convolution twice.  This module states, over
  plain families indexed by `Fin`, the two arrangements of a layer's arithmetic on the extended reals:

  * before the normalisation, the row `n` of the combined message is a sum over the edges that point at `n` and a
    product with a weight matrix; one program sums the per-edge products first and multiplies by the weights afterwards
    (`combK`), the other multiplies every edge's product by the weights and sums afterwards (`combR`);
  * the batch normalisation of a column takes the mean `μ` of the column and either the mean of the squares minus
    `μ²`, multiplied in through a reciprocal square root (`bnK`), or the mean of the squared deviations, divided out
    through a square root (`bnR`); both end in the hyperbolic tangent.

  The two arrangements agree on finite entries (modules `CombEq` and `BnEq`): distributivity and cancellation fail at
  the infinities of the extended reals, which is where the finiteness of the inputs is used.
-/
import Idealize.ShloMosaic.PureOps.Ideal

noncomputable section

namespace CompGcn

open Idealize.ShloMosaic

/-- An extended real that is a real number. -/
def IsReal (x : EReal) : Prop := ∃ r : ℝ, x = (r : EReal)

variable {Nn Ee Dd : ℕ}

/-- Sum the edges' products first, then multiply by the weights: row `n`, column `j`.  `T n` is the set of edges that
    point at node `n`, `a e k` the product of the source's and the relation's entries, `ν e` the edge's degree
    normalisation, `xl` the self-loop product, `c` the final scale. -/
def combK (Tin Tout : Fin Nn → Finset (Fin Ee)) (ain aout : Fin Ee → Fin Dd → EReal) (νin νout : Fin Ee → EReal)
    (xl : Fin Nn → Fin Dd → EReal) (wi wo wl : Fin Dd → Fin Dd → EReal) (c : EReal) : Fin Nn → Fin Dd → EReal :=
  fun n j => ((∑ k, (∑ e ∈ Tin n, ain e k * νin e) * wi k j) + (∑ k, (∑ e ∈ Tout n, aout e k * νout e) * wo k j)
    + (∑ k, xl n k * wl k j)) * c

/-- Multiply every edge's product by the weights first, scale it by the edge's normalisation, then sum over the edges. -/
def combR (Tin Tout : Fin Nn → Finset (Fin Ee)) (ain aout : Fin Ee → Fin Dd → EReal) (νin νout : Fin Ee → EReal)
    (xl : Fin Nn → Fin Dd → EReal) (wi wo wl : Fin Dd → Fin Dd → EReal) (c : EReal) : Fin Nn → Fin Dd → EReal :=
  fun n j => ((∑ e ∈ Tin n, (∑ k, ain e k * wi k j) * νin e) + (∑ e ∈ Tout n, (∑ k, aout e k * wo k j) * νout e)
    + (∑ k, xl n k * wl k j)) * c

/-- Normalise column `j` by its mean and by (mean of squares − mean²) + ε through a reciprocal square root. -/
def bnK (C : Fin Nn → Fin Dd → EReal) (nf eps : EReal) : Fin Nn → Fin Dd → EReal :=
  fun n j => Ideal.tanh ((C n j - Ideal.div (∑ m, C m j) nf)
    * Ideal.rsqrt ((Ideal.div (∑ m, C m j * C m j) nf - Ideal.div (∑ m, C m j) nf * Ideal.div (∑ m, C m j) nf) + eps))

/-- Normalise column `j` by its mean and by the mean of the squared deviations + ε through a square root and a quotient. -/
def bnR (C : Fin Nn → Fin Dd → EReal) (nf eps : EReal) : Fin Nn → Fin Dd → EReal :=
  fun n j => Ideal.tanh (Ideal.div (C n j - Ideal.div (∑ m, C m j) nf)
    (Ideal.sqrt (Ideal.div (∑ m, (C m j - Ideal.div (∑ m', C m' j) nf) * (C m j - Ideal.div (∑ m', C m' j) nf)) nf + eps)))

end CompGcn

end
-- ==== Proof.CombEq.lean ====
/-
  Summing the edges that point at a node and then multiplying by a weight matrix is multiplying every edge's row by the
  matrix and then summing, when every entry is a real number: both are the double sum over the edges `e` of the node
  and the contracted coordinate `k` of `a e k · ν e · w k j`.
-/
import proofs.«412919_j56298431316644_2_alg».proof.Proof.SpecDefs
import Mathlib.Data.EReal.Basic
import Mathlib.Algebra.BigOperators.Group.Finset.Basic
import Mathlib.Algebra.BigOperators.Group.Finset.Sigma
import Mathlib.Algebra.BigOperators.Ring.Finset
import Mathlib.Tactic.Ring

noncomputable section

namespace CompGcn

variable {Nn Ee Dd : ℕ}

/-- The coercion of the reals into the extended reals commutes with finite sums (it is additive and sends 0 to 0). -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A doubly indexed family of real numbers inside the extended reals is the coercion of a family of reals. -/
theorem exists_real_family₂ {α β : Type*} (f : α → β → EReal) (h : ∀ a b, IsReal (f a b)) :
    ∃ g : α → β → ℝ, f = fun a b => (g a b : EReal) := by
  choose g hg using h
  exact ⟨g, funext fun a => funext fun b => hg a b⟩

theorem exists_real_family₁ {α : Type*} (f : α → EReal) (h : ∀ a, IsReal (f a)) :
    ∃ g : α → ℝ, f = fun a => (g a : EReal) := by
  choose g hg using h
  exact ⟨g, funext fun a => hg a⟩

/-- One neighbourhood term: over the reals both sides are `∑ k, ∑ e ∈ T, a e k * ν e * w k j` after distributing the
    weight into the inner sum and exchanging the two sums. -/
theorem edge_sum_mul_eq (T : Finset (Fin Ee)) (a : Fin Ee → Fin Dd → EReal) (ν : Fin Ee → EReal) (w : Fin Dd → Fin Dd → EReal)
    (ha : ∀ e k, IsReal (a e k)) (hν : ∀ e, IsReal (ν e)) (hw : ∀ k j, IsReal (w k j)) (j : Fin Dd) :
    (∑ k, (∑ e ∈ T, a e k * ν e) * w k j) = ∑ e ∈ T, (∑ k, a e k * w k j) * ν e := by
  obtain ⟨a', rfl⟩ := exists_real_family₂ a ha
  obtain ⟨ν', rfl⟩ := exists_real_family₁ ν hν
  obtain ⟨w', rfl⟩ := exists_real_family₂ w hw
  simp only [← EReal.coe_mul, ← coe_finsum]
  congr 1
  simp only [Finset.sum_mul]
  rw [Finset.sum_comm]
  exact Finset.sum_congr rfl fun e _ => Finset.sum_congr rfl fun k _ => by ring

theorem combK_eq_combR (Tin Tout : Fin Nn → Finset (Fin Ee)) (ain aout : Fin Ee → Fin Dd → EReal) (νin νout : Fin Ee → EReal)
    (xl : Fin Nn → Fin Dd → EReal) (wi wo wl : Fin Dd → Fin Dd → EReal) (c : EReal)
    (hain : ∀ e k, IsReal (ain e k)) (haout : ∀ e k, IsReal (aout e k)) (hνin : ∀ e, IsReal (νin e)) (hνout : ∀ e, IsReal (νout e))
    (hwi : ∀ k j, IsReal (wi k j)) (hwo : ∀ k j, IsReal (wo k j)) :
    combK Tin Tout ain aout νin νout xl wi wo wl c = combR Tin Tout ain aout νin νout xl wi wo wl c := by
  funext n j
  simp only [combK, combR]
  rw [edge_sum_mul_eq (Tin n) ain νin wi hain hνin hwi j, edge_sum_mul_eq (Tout n) aout νout wo haout hνout hwo j]

theorem combR_isReal (Tin Tout : Fin Nn → Finset (Fin Ee)) (ain aout : Fin Ee → Fin Dd → EReal) (νin νout : Fin Ee → EReal)
    (xl : Fin Nn → Fin Dd → EReal) (wi wo wl : Fin Dd → Fin Dd → EReal) (c : EReal)
    (hain : ∀ e k, IsReal (ain e k)) (haout : ∀ e k, IsReal (aout e k)) (hνin : ∀ e, IsReal (νin e)) (hνout : ∀ e, IsReal (νout e))
    (hxl : ∀ n k, IsReal (xl n k))
    (hwi : ∀ k j, IsReal (wi k j)) (hwo : ∀ k j, IsReal (wo k j)) (hwl : ∀ k j, IsReal (wl k j)) (hc : IsReal c) :
    ∀ n j, IsReal (combR Tin Tout ain aout νin νout xl wi wo wl c n j) := by
  intro n j
  simp only [combR]
  refine IsReal.mul (IsReal.add (IsReal.add ?_ ?_) ?_) hc
  · exact IsReal.sum _ _ fun e _ => IsReal.mul (IsReal.sum _ _ fun k _ => IsReal.mul (hain e k) (hwi k j)) (hνin e)
  · exact IsReal.sum _ _ fun e _ => IsReal.mul (IsReal.sum _ _ fun k _ => IsReal.mul (haout e k) (hwo k j)) (hνout e)
  · exact IsReal.sum _ _ fun k _ => IsReal.mul (hxl n k) (hwl k j)

end CompGcn

end
-- ==== Proof.BnEq.lean ====
/-
  For a column of real numbers `C` with mean `μ`, the mean of the squares minus `μ²` is the mean of the squared
  deviations (both are the variance, a non-negative real), so adding a positive `ε` gives a positive real `v`, and
  `d · v^(-1/2)` is `d / √v`.  Hence the two normalisations agree, and their hyperbolic tangent is a real number.
-/
import proofs.«412919_j56298431316644_2_alg».proof.Proof.SpecDefs
import Idealize.ShloMosaic.PureOps.Ideal.Laws
import Mathlib.Analysis.Real.Sqrt
import Mathlib.Algebra.BigOperators.Ring.Finset
import Mathlib.Tactic.Ring
import Mathlib.Tactic.FieldSimp
import Mathlib.Tactic.Positivity
import Mathlib.Tactic.NormNum

noncomputable section

namespace CompGcn

open Idealize.ShloMosaic

variable {Nn Dd : ℕ}

/-- A finite sum of real numbers, each read as an extended real, is the real sum read as an extended real. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The variance identity over the reals: with `μ` the mean of `c`, the mean of the squared deviations is the mean of
    the squares minus `μ²`. -/
theorem var_identity {N : ℕ} (hN : 0 < N) (c : Fin N → ℝ) (μ : ℝ) (hμ : μ = (∑ m, c m) * (1 / (N : ℝ))) :
    (∑ m, (c m - μ) * (c m - μ)) * (1 / (N : ℝ)) = (∑ m, c m * c m) * (1 / (N : ℝ)) - μ * μ := by
  have hNne : (N : ℝ) ≠ 0 := by exact_mod_cast hN.ne'
  have hS : (∑ m, c m) = (N : ℝ) * μ := by rw [hμ]; field_simp
  have hexp : ∀ m, (c m - μ) * (c m - μ) = c m * c m - 2 * μ * c m + μ * μ := fun m => by ring
  have h1 : (∑ m, (c m - μ) * (c m - μ)) = (∑ m, c m * c m) - 2 * μ * (∑ m, c m) + (N : ℝ) * (μ * μ) := by
    simp only [hexp, Finset.sum_add_distrib, Finset.sum_sub_distrib, ← Finset.mul_sum, Finset.sum_const,
      Finset.card_univ, Fintype.card_fin, nsmul_eq_mul]
    ring
  rw [h1, hS]
  field_simp
  ring

theorem bnK_eq_bnR (C : Fin Nn → Fin Dd → EReal) (nf eps : EReal) (hC : ∀ n j, IsReal (C n j))
    (hN : 0 < Nn) (hnf : nf = (((Nn : ℕ) : ℝ) : EReal)) (heps : ∃ e : ℝ, 0 < e ∧ eps = (e : EReal)) :
    bnK C nf eps = bnR C nf eps := by
  obtain ⟨e, he, rfl⟩ := heps
  subst hnf
  choose c hc using hC
  have hNne : ((Nn : ℕ) : ℝ) ≠ 0 := by exact_mod_cast hN.ne'
  funext n j
  unfold bnK bnR
  congr 1
  -- the column's sum, sum of squares and mean are real
  have hsum : (∑ m, C m j) = ((∑ m, c m j : ℝ) : EReal) := by
    rw [← coe_finset_sum]; exact Finset.sum_congr rfl (fun m _ => hc m j)
  have hsq : (∑ m, C m j * C m j) = ((∑ m, c m j * c m j : ℝ) : EReal) := by
    rw [← coe_finset_sum]; exact Finset.sum_congr rfl (fun m _ => by rw [hc m j, EReal.coe_mul])
  obtain ⟨μ, hμ⟩ : ∃ μ : ℝ, μ = (∑ m, c m j) * (1 / ((Nn : ℕ) : ℝ)) := ⟨_, rfl⟩
  have hmean : Ideal.div (∑ m, C m j) (((Nn : ℕ) : ℝ) : EReal) = (μ : EReal) := by
    rw [Ideal.div_coe hNne, hsum, ← EReal.coe_mul, hμ]
  have hdev : (∑ m, (C m j - (μ : EReal)) * (C m j - (μ : EReal)))
      = ((∑ m, (c m j - μ) * (c m j - μ) : ℝ) : EReal) := by
    rw [← coe_finset_sum]
    exact Finset.sum_congr rfl (fun m _ => by rw [hc m j, ← EReal.coe_sub, ← EReal.coe_mul])
  rw [hmean, hsq, hdev, Ideal.div_coe hNne, Ideal.div_coe hNne, hc n j]
  simp only [← EReal.coe_mul, ← EReal.coe_sub, ← EReal.coe_add]
  -- both variances are the same non-negative real
  have hvar := var_identity hN (fun m => c m j) μ hμ
  have hnn : 0 ≤ (∑ m, (c m j - μ) * (c m j - μ)) * (1 / ((Nn : ℕ) : ℝ)) :=
    mul_nonneg (Finset.sum_nonneg (fun m _ => mul_self_nonneg _)) (by positivity)
  rw [← hvar]
  obtain ⟨v, hv⟩ : ∃ v : ℝ, v = (∑ m, (c m j - μ) * (c m j - μ)) * (1 / ((Nn : ℕ) : ℝ)) + e := ⟨_, rfl⟩
  have hvpos : 0 < v := by rw [hv]; exact add_pos_of_nonneg_of_pos hnn he
  rw [← hv]
  have hsqrt : ((Real.sqrt v : ℝ) : EReal) ≠ 0 := by
    exact_mod_cast (Real.sqrt_pos.mpr hvpos).ne'
  rw [Ideal.rsqrt_coe, if_neg (not_lt.mpr hvpos.le), if_neg hvpos.ne', Ideal.sqrt_coe, if_neg (not_lt.mpr hvpos.le),
    Ideal.div, if_neg hsqrt, EReal.coe_inv]

/-- The hyperbolic tangent of an extended real is a real number: `-1` at `⊥`, `1` at `⊤`, the real `tanh` otherwise. -/
theorem tanh_isReal (x : EReal) : IsReal (Ideal.tanh x) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

theorem bnK_isReal (C : Fin Nn → Fin Dd → EReal) (nf eps : EReal) : ∀ n j, IsReal (bnK C nf eps n j) := by
  intro n j
  unfold bnK
  exact tanh_isReal _

/-! ### Three float constants as extended reals -/

/-- A pattern whose exponent field is not all ones denotes a real number. -/
theorem ieee_isReal (e m : ℕ) {w : ℕ} (b : BitVec w) (h1 : (b.extractLsb' m e).toNat ≠ 2 ^ e - 1) :
    IsReal (Ideal.ieee e m b) := by
  unfold Ideal.ieee
  simp only [if_neg h1]
  split_ifs <;> exact ⟨_, rfl⟩

/-- A pattern with a clear sign bit and an exponent field neither zero nor all ones denotes a positive real: the
    significand `2^m + T` and the power of two are both positive. -/
theorem ieee_normal_pos (e m : ℕ) {w : ℕ} (b : BitVec w) (hs : (b.extractLsb' (e + m) 1 == 1#1) = false)
    (h1 : (b.extractLsb' m e).toNat ≠ 2 ^ e - 1) (h0 : (b.extractLsb' m e).toNat ≠ 0) :
    ∃ r : ℝ, 0 < r ∧ Ideal.ieee e m b = (r : EReal) := by
  unfold Ideal.ieee
  simp only [hs, if_neg h1, if_neg h0, Bool.false_eq_true, ↓reduceIte]
  refine ⟨_, ?_, rfl⟩
  positivity

theorem c3_isReal : IsReal (Ideal.ofBits .f32 0x3EAAAAAB#32) := by
  unfold Ideal.ofBits
  exact ieee_isReal 8 23 _ (by decide)

theorem eps_pos : ∃ e : ℝ, 0 < e ∧ Ideal.ofBits .f32 0x3727C5AC#32 = (e : EReal) := by
  unfold Ideal.ofBits
  exact ieee_normal_pos 8 23 _ (by decide) (by decide) (by decide)

/-- `0x47C35000`: exponent field `143`, significand `2^23 + 4411392 = 12800000`, so the value is
    `12800000 · 2^(143 - 127 - 23) = 12800000 / 128 = 100000`. -/
theorem nf_eq : Ideal.ofBits .f32 0x47C35000#32 = (((100000 : ℕ) : ℝ) : EReal) := by
  simp [Ideal.ofBits, Ideal.ieee, -EReal.coe_mul]; norm_num

theorem zero_f32 : Ideal.ofBits .f32 0x00000000#32 = 0 := Ideal.ofBits_zero_f32

end CompGcn

end
-- ==== Proof.LayerBridge.lean ====
/-
  One layer, abstractly.  If a program's output is the batch normalisation `bnK` of an array `combAtK` whose rows are
  three matrix products of aggregates `A`, `B` (sums of the per-edge products over the edges of each node) and of the
  self-loop product, and another program's output is the normalisation `bnR` of the rearranged array `combR`, over the
  same finite entries, then the two outputs are equal entry by entry, and every entry is a real number.
-/
import proofs.«412919_j56298431316644_2_alg».proof.Proof.CombEq
import proofs.«412919_j56298431316644_2_alg».proof.Proof.BnEq

noncomputable section

namespace CompGcn

variable {Nn Ee Dd : ℕ}

theorem layer_bridge (hN : 0 < Nn)
    (Tin Tout : Fin Nn → Finset (Fin Ee)) (xsi rsi xso rso : Fin Ee → Fin Dd → EReal) (νi νo : Fin Ee → EReal)
    (X : Fin Nn → Fin Dd → EReal) (l : Fin Dd → EReal) (wi wo wl : Fin Dd → Fin Dd → EReal) (c3 nf eps : EReal)
    (A B combAtK xK xR : Fin Nn → Fin Dd → EReal)
    (hA : ∀ n k, A n k = ∑ e ∈ Tin n, xsi e k * rsi e k * νi e)
    (hB : ∀ n k, B n k = ∑ e ∈ Tout n, xso e k * rso e k * νo e)
    (hcomb : ∀ n j, combAtK n j = ((∑ k, A n k * wi k j) + (∑ k, B n k * wo k j) + (∑ k, (X n k * l k) * wl k j)) * c3)
    (hK : ∀ n j, xK n j = bnK combAtK nf eps n j)
    (hR : ∀ n j, xR n j = bnR (combR Tin Tout (fun e k => xsi e k * rsi e k) (fun e k => xso e k * rso e k) νi νo
      (fun n k => X n k * l k) wi wo wl c3) nf eps n j)
    (hxsi : ∀ e k, IsReal (xsi e k)) (hrsi : ∀ e k, IsReal (rsi e k)) (hxso : ∀ e k, IsReal (xso e k)) (hrso : ∀ e k, IsReal (rso e k))
    (hνi : ∀ e, IsReal (νi e)) (hνo : ∀ e, IsReal (νo e)) (hX : ∀ n k, IsReal (X n k)) (hl : ∀ k, IsReal (l k))
    (hwi : ∀ k j, IsReal (wi k j)) (hwo : ∀ k j, IsReal (wo k j)) (hwl : ∀ k j, IsReal (wl k j))
    (hc3 : IsReal c3) (hnf : nf = (((Nn : ℕ) : ℝ) : EReal)) (heps : ∃ e : ℝ, 0 < e ∧ eps = (e : EReal)) :
    (∀ n j, xK n j = xR n j) ∧ (∀ n j, IsReal (xK n j)) := by
  have hck : combAtK = combK Tin Tout (fun e k => xsi e k * rsi e k) (fun e k => xso e k * rso e k) νi νo
      (fun n k => X n k * l k) wi wo wl c3 := by
    funext n j
    rw [hcomb]
    unfold combK
    simp only [hA, hB]
  have hai : ∀ e k, IsReal (xsi e k * rsi e k) := fun e k => (hxsi e k).mul (hrsi e k)
  have hao : ∀ e k, IsReal (xso e k * rso e k) := fun e k => (hxso e k).mul (hrso e k)
  have hxl : ∀ n k, IsReal (X n k * l k) := fun n k => (hX n k).mul (hl k)
  have hkr := combK_eq_combR Tin Tout (fun e k => xsi e k * rsi e k) (fun e k => xso e k * rso e k) νi νo
    (fun n k => X n k * l k) wi wo wl c3 hai hao hνi hνo hwi hwo
  have hreal := combR_isReal Tin Tout (fun e k => xsi e k * rsi e k) (fun e k => xso e k * rso e k) νi νo
    (fun n k => X n k * l k) wi wo wl c3 hai hao hνi hνo hxl hwi hwo hwl hc3
  refine ⟨fun n j => ?_, fun n j => ?_⟩
  · rw [hK, hR, hck, hkr, bnK_eq_bnR _ nf eps hreal hN hnf heps]
  · rw [hK]; exact bnK_isReal _ nf eps n j

end CompGcn

end
-- ==== Proof.PreDecode.lean ====
import proofs.«412919_j56298431316644_2_alg».proof.Pre_finite_inputs
import proofs.«412919_j56298431316644_2_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

/-!
The precondition `finite_inputs`, read back into arithmetic facts about its fifteen argument arrays.

The printed predicate is a conjunction of fifteen `all`-reductions: for each of the twelve float arrays,
"every entry has absolute value below +∞"; for row 0 of the [2, 800000] integer array, for the [800000] integer array
and for the [8192] integer array, "every entry is at least 0 and below a bound", compared as signed words. Over the
extended reals an entry with |x| < +∞ is a real number, and a signed word in [0, n) has its integer value in [0, n).
-/

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-! ## Elements -/

/-- The word 0x7F800000 read as a binary32 pattern is +∞. -/
theorem inf_bits : Ideal.ofBits .f32 0x7F800000#32 = (⊤ : EReal) := by
  -- exponent field all ones, significand field zero, sign bit clear
  show Ideal.ieee 8 23 (0x7F800000#32 : BitVec 32) = ⊤
  delta Ideal.ieee
  dsimp only
  rw [if_pos (by decide), if_pos (by decide), if_neg (by decide)]

/-- An extended real whose absolute value max x (−x) is below +∞ is a real: −∞ has absolute value +∞, and so has +∞. -/
theorem real_of_abs_lt_top (x : EReal) (h : max x (-x) < ⊤) : ∃ r : ℝ, x = (r : EReal) := by
  induction x using EReal.rec with
  | bot => simp at h
  | coe r => exact ⟨r, rfl⟩
  | top => simp at h

/-- The element fact of a float conjunct, |x| < +∞ as the ordered comparison's bit, says x is a real. -/
theorem real_of_finite (x : Ideal .f32)
    (h : FloatOps.cmpf .olt (FloatOps.hostAbsf x) (FloatOps.ofBits (F := Ideal) .f32 0x7F800000#32) = 1#1) :
    ∃ r : ℝ, x = (r : EReal) := by
  change BitVec.ofBool (decide (max x (-x) < Ideal.ofBits .f32 0x7F800000#32)) = 1#1 at h
  rw [inf_bits] at h
  exact real_of_abs_lt_top x (of_decide_eq_true ((StableHlo.Predicate.ofBool_eq_one_iff _).1 h))

theorem toInt_zero : (0#32 : BitVec 32).toInt = 0 := by decide
theorem toInt_401 : (401#32 : BitVec 32).toInt = 401 := by decide
theorem toInt_100000 : (100000#32 : BitVec 32).toInt = 100000 := by decide

/-- The element fact of an integer conjunct, (w ≥ lo) and (w < hi) as signed comparisons' bits, bounds w's integer value. -/
theorem range_of_bits (w lo hi : BitVec 32)
    (h : IntOp.andi (IntOp.cmpi .sge w lo) (IntOp.cmpi .slt w hi) = 1#1) : lo.toInt ≤ w.toInt ∧ w.toInt < hi.toInt := by
  obtain ⟨h1, h2⟩ := IntOp.andi_eq_one.1 h
  exact ⟨IntOp.cmpi_sge.1 h1, IntOp.cmpi_slt.1 h2⟩

variable [Cert.Pre_finite_inputs.Facts]
open Cert.Pre_finite_inputs.Facts

/-- Row 0 of the [2, 800000] array, sliced out and flattened, reads at position e the array at (0, e): flattening a
    [1, 800000] block matches position e with (0, e), and the slice at offset (0, 0) adds nothing to either coordinate. -/
theorem row0_apply (a12 : IVec S2x800000 32) (e : Fin 800000) :
    shapeCast S800000 ((extractStridedSlice S1x800000 ![0, 0] · slices_S2x800000_S1x800000_0_0) a12)
      shapeCasts_S1x800000_S800000 (ix1 e) = a12 (ix2 (0 : Fin 2) e) := by
  show a12 _ = a12 _
  congr 1
  funext a
  apply Fin.ext
  have hc : Shape.reshapeEquiv (s := S1x800000) (s' := S800000) shapeCasts_S1x800000_S800000 (ix1 e)
      = Fin.cons ⟨0, Nat.one_pos⟩ (ix1 e) :=
    Shape.reshapeEquiv_cons_one (n := 1) (d := ![800000]) shapeCasts_S1x800000_S800000 (ix1 e)
  match a with
  | ⟨0, _⟩ =>
    show (![0, 0] : Fin 2 → Nat) 0 + ((Shape.reshapeEquiv shapeCasts_S1x800000_S800000 (ix1 e)) _).val = 0
    rw [hc]; rfl
  | ⟨1, _⟩ =>
    show (![0, 0] : Fin 2 → Nat) 1 + ((Shape.reshapeEquiv shapeCasts_S1x800000_S800000 (ix1 e)) _).val = e.val
    rw [hc]; simp; rfl

variable {a0 : FVec Ideal S100000x200 .f32} {a1 : FVec Ideal S400x200 .f32} {a2 a3 a4 a5 : FVec Ideal S200x200 .f32}
  {a6 : FVec Ideal S1x200 .f32} {a7 a8 a9 a10 : FVec Ideal S200x200 .f32} {a11 : FVec Ideal S1x200 .f32}
  {a12 : IVec S2x800000 32} {a13 : IVec S800000 32} {a14 : IVec S8192 32}

/-! ## The fifteen conjuncts -/

/-- A conjunction of two one-bit vectors that is 1 at an index has both operands 1 there. -/
theorem and_at {s : Shape} {x y : IVec s 1} {i : s.Idx} (h : andi x y i = 1#1) : x i = 1#1 ∧ y i = 1#1 :=
  IntOp.andi_eq_one.1 h

/-- A float conjunct, "all |x| < +∞" as an and-reduction that came out 1, says every entry is a real. -/
theorem reals_of_all {s : Shape} (x : FVec Ideal s .f32) (hb : S_.BroadcastsInDim s (![] : Fin 0 → Fin s.rank))
    {axes : List (Fin s.rank)} (hr : s.ReducesTo axes S_) (h0 : 0 < S_.numel)
    (e : Host.reduce IntOp.andi (cmpf .olt (Host.absf x) (broadcastInDim s ![] hb (constant S_ .f32 0x7F800000#32)))
      (constantI S_ 1 1#1) hr h0 ix0 = 1#1) (i : s.Idx) : ∃ r : ℝ, x i = (r : EReal) :=
  real_of_finite (x i) (Host.reduce_andi_all _ _ hr h0 ix0 e i)

/-- An integer conjunct, "all (w ≥ lo) and (w < hi)" over a vector against two broadcast scalars, bounds every entry. -/
theorem range_of_all {s : Shape} (x : IVec s 32) (lo hi : BitVec 32) (hb : S_.BroadcastsInDim s (![] : Fin 0 → Fin s.rank))
    {axes : List (Fin s.rank)} (hr : s.ReducesTo axes S_) (h0 : 0 < S_.numel)
    (e : Host.reduce IntOp.andi (andi (cmpi .sge x (broadcastInDim s ![] hb (constantI S_ 32 lo)))
        (cmpi .slt x (broadcastInDim s ![] hb (constantI S_ 32 hi)))) (constantI S_ 1 1#1) hr h0 ix0 = 1#1) (i : s.Idx) :
    lo.toInt ≤ (x i).toInt ∧ (x i).toInt < hi.toInt :=
  range_of_bits (x i) lo hi (Host.reduce_andi_all _ _ hr h0 ix0 e i)

/-- THE PRECONDITION DECODED: the printed predicate being all ones gives each of its fifteen conjuncts, each read at
    every element. -/
theorem decode (h : fn (F := Ideal) a0 a1 a2 a3 a4 a5 a6 a7 a8 a9 a10 a11 a12 a13 a14 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∀ i, ∃ r : ℝ, a9 i = (r : EReal)) ∧ (∀ i, ∃ r : ℝ, a10 i = (r : EReal)) ∧ (∀ i, ∃ r : ℝ, a11 i = (r : EReal))
    ∧ (∀ e : Fin 800000, 0 ≤ (a12 (ix2 (0 : Fin 2) e)).toInt ∧ (a12 (ix2 (0 : Fin 2) e)).toInt < 100000)
    ∧ (∀ e : Fin 800000, 0 ≤ (a13 (ix1 e)).toInt ∧ (a13 (ix1 e)).toInt < 401)
    ∧ (∀ e : Fin 8192, 0 ≤ (a14 (ix1 e)).toInt ∧ (a14 (ix1 e)).toInt < 100000) := by
  have e := congrFun h ix0
  dsimp only [fn, fn_part1, fn_part2, fn_part3, fn_part4] at e
  -- the predicate is a left-nested conjunction of its fifteen reductions: peel them off from the last
  obtain ⟨e, e14⟩ := and_at e
  obtain ⟨e, e13⟩ := and_at e
  obtain ⟨e, e12⟩ := and_at e
  obtain ⟨e, e11⟩ := and_at e
  obtain ⟨e, e10⟩ := and_at e
  obtain ⟨e, e9⟩ := and_at e
  obtain ⟨e, e8⟩ := and_at e
  obtain ⟨e, e7⟩ := and_at e
  obtain ⟨e, e6⟩ := and_at e
  obtain ⟨e, e5⟩ := and_at e
  obtain ⟨e, e4⟩ := and_at e
  obtain ⟨e, e3⟩ := and_at e
  obtain ⟨e, e2⟩ := and_at e
  obtain ⟨e0, e1⟩ := and_at e
  refine ⟨reals_of_all a0 _ _ _ e0, reals_of_all a1 _ _ _ e1, reals_of_all a2 _ _ _ e2, reals_of_all a3 _ _ _ e3,
    reals_of_all a4 _ _ _ e4, reals_of_all a5 _ _ _ e5, reals_of_all a6 _ _ _ e6, reals_of_all a7 _ _ _ e7,
    reals_of_all a8 _ _ _ e8, reals_of_all a9 _ _ _ e9, reals_of_all a10 _ _ _ e10, reals_of_all a11 _ _ _ e11,
    fun e => ?_, fun e => ?_, fun e => ?_⟩
  · have k := range_of_all _ 0#32 100000#32 _ _ _ e12 (ix1 e)
    rw [row0_apply a12 e, toInt_zero, toInt_100000] at k
    exact k
  · have k := range_of_all a13 0#32 401#32 _ _ _ e13 (ix1 e)
    rw [toInt_zero, toInt_401] at k
    exact k
  · have k := range_of_all a14 0#32 100000#32 _ _ _ e14 (ix1 e)
    rw [toInt_zero, toInt_100000] at k
    exact k

/-! ## The conjuncts by name -/

section Named
variable (h : fn (F := Ideal) a0 a1 a2 a3 a4 a5 a6 a7 a8 a9 a10 a11 a12 a13 a14 = fun _ => 1#1)
include h

theorem real0 : ∀ i : S100000x200.Idx, ∃ r : ℝ, a0 i = (r : EReal) := (decode h).1
theorem real1 : ∀ i : S400x200.Idx, ∃ r : ℝ, a1 i = (r : EReal) := (decode h).2.1
theorem real2 : ∀ i : S200x200.Idx, ∃ r : ℝ, a2 i = (r : EReal) := (decode h).2.2.1
theorem real3 : ∀ i : S200x200.Idx, ∃ r : ℝ, a3 i = (r : EReal) := (decode h).2.2.2.1
theorem real4 : ∀ i : S200x200.Idx, ∃ r : ℝ, a4 i = (r : EReal) := (decode h).2.2.2.2.1
theorem real5 : ∀ i : S200x200.Idx, ∃ r : ℝ, a5 i = (r : EReal) := (decode h).2.2.2.2.2.1
theorem real6 : ∀ i : S1x200.Idx, ∃ r : ℝ, a6 i = (r : EReal) := (decode h).2.2.2.2.2.2.1
theorem real7 : ∀ i : S200x200.Idx, ∃ r : ℝ, a7 i = (r : EReal) := (decode h).2.2.2.2.2.2.2.1
theorem real8 : ∀ i : S200x200.Idx, ∃ r : ℝ, a8 i = (r : EReal) := (decode h).2.2.2.2.2.2.2.2.1
theorem real9 : ∀ i : S200x200.Idx, ∃ r : ℝ, a9 i = (r : EReal) := (decode h).2.2.2.2.2.2.2.2.2.1
theorem real10 : ∀ i : S200x200.Idx, ∃ r : ℝ, a10 i = (r : EReal) := (decode h).2.2.2.2.2.2.2.2.2.2.1
theorem real11 : ∀ i : S1x200.Idx, ∃ r : ℝ, a11 i = (r : EReal) := (decode h).2.2.2.2.2.2.2.2.2.2.2.1
/-- Row 0 of the [2, 800000] integer array: every entry in [0, 100000). -/
theorem src_range : ∀ e : Fin 800000, 0 ≤ (a12 (ix2 (0 : Fin 2) e)).toInt ∧ (a12 (ix2 (0 : Fin 2) e)).toInt < 100000 :=
  (decode h).2.2.2.2.2.2.2.2.2.2.2.2.1
/-- The [800000] integer array: every entry in [0, 401). -/
theorem et_range : ∀ e : Fin 800000, 0 ≤ (a13 (ix1 e)).toInt ∧ (a13 (ix1 e)).toInt < 401 :=
  (decode h).2.2.2.2.2.2.2.2.2.2.2.2.2.1
/-- The [8192] integer array: every entry in [0, 100000). -/
theorem org_range : ∀ e : Fin 8192, 0 ≤ (a14 (ix1 e)).toInt ∧ (a14 (ix1 e)).toInt < 100000 :=
  (decode h).2.2.2.2.2.2.2.2.2.2.2.2.2.2

end Named

end Cert.PreDecode

end
-- ==== Proof.Layer2.lean ====
/- The second layer of the two programs, joined.

   As in the first layer each program computes, for every node n and column j, the combined message
       C[n, j] = ((sum over the in-edges at n) + (sum over the out-edges at n) + (self-loop product)) times 1/3,
   normalises column j by its mean and variance over the 100000 nodes and takes the hyperbolic tangent; one program
   sums an edge set's products first and multiplies by the weight matrix afterwards, and normalises through mean of
   squares minus squared mean and a reciprocal square root; the other multiplies every edge's product by the weights
   first, and normalises through the mean of the squared deviations, a square root and a quotient. The layer's input
   is now the first layer's output, whose entries are reals because they are hyperbolic tangents, and its relation
   table is a computed one whose entries are reals; the weights are argument arrays, real by the precondition. Given
   what each program's buffers hold (the hypotheses below), the two outputs are equal entry by entry and every entry
   is a real number: `CompGcn.layer_bridge` at 100000 nodes, 400000 edges of each direction and 200 columns. -/
import proofs.«412919_j56298431316644_2_alg».proof.Defs
import proofs.«412919_j56298431316644_2_alg».proof.Proof.LayerBridge
import proofs.«412919_j56298431316644_2_alg».proof.Proof.KNames
import proofs.«412919_j56298431316644_2_alg».proof.Proof.RNames
import proofs.«412919_j56298431316644_2_alg».proof.Proof.PreDecode

set_option maxRecDepth 16384

noncomputable section

namespace Cert.Layer2

open Cert.KernelIdeal
open Idealize.ShloMosaic Idealize.ShloMosaic.TcCoe Idealize.ShloMosaic.ValueIdx Idealize.SL.Sem
open scoped BigOperators

/-- The combined messages of layer 2 on the kernel side: what the third kernel region leaves in its first output array. -/
abbrev comb2 (m : (ℓ : Loc nD τ sig) → Buf (Elt Ideal) ℓ) (ρ : Dev nD → PrngReg) (c : Dev nD) : Vec Ideal S100000x200 .f32 :=
  (Gen.dat2 (Gen.V25 m ρ) c).arrAt 7 cfg2.N

theorem layer2_of
    (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (hpre : Cert.Pre_KernelIdeal m)
    (hcomb2 : ∀ (n : Fin 100000) (j : Fin 200),
      comb2 m ρ c (ix2 n j)
        = ((∑ k : Fin 200, KN.aggIn2 m ρ c (ix2 n k) * KN.wIn2 m ρ c (ix2 k j))
          + (∑ k : Fin 200, KN.aggOut2 m ρ c (ix2 n k) * KN.wOut2 m ρ c (ix2 k j))
          + (∑ k : Fin 200, (KN.x2in m ρ c (ix2 n k) * KN.lrow2 m ρ c (ix2 (0 : Fin 1) k)) * KN.wLoop2 m ρ c (ix2 k j)))
          * Ideal.ofBits .f32 0x3EAAAAAB#32)
    (hx2K : ∀ (n : Fin 100000) (j : Fin 200), KN.x2out m ρ c (ix2 n j)
        = CompGcn.bnK (fun n j => comb2 m ρ c (ix2 n j))
            (Ideal.ofBits .f32 0x47C35000#32) (Ideal.ofBits .f32 0x3727C5AC#32) n j)
    (hKH1 : ∀ (n : Fin 100000) (k : Fin 200), KN.aggIn2 m ρ c (ix2 n k)
        = ∑ e ∈ Finset.univ.filter (fun e : Fin 400000 => (KN.dstIn2 m ρ c (ix1 e)).toInt = (n.val : ℤ)),
            KN.xsIn2 m ρ c (ix2 e k) * KN.rsIn2 m ρ c (ix2 e k) * KN.nuIn2 m ρ c (ix1 e))
    (hKH2 : ∀ (n : Fin 100000) (k : Fin 200), KN.aggOut2 m ρ c (ix2 n k)
        = ∑ e ∈ Finset.univ.filter (fun e : Fin 400000 => (KN.dstOut2 m ρ c (ix1 e)).toInt = (n.val : ℤ)),
            KN.xsOut2 m ρ c (ix2 e k) * KN.rsOut2 m ρ c (ix2 e k) * KN.nuOut2 m ρ c (ix1 e))
    (hxsIn : ∀ (e : Fin 400000) (k : Fin 200), ∃ i, KN.xsIn2 m ρ c (ix2 e k) = KN.x2in m ρ c i)
    (hxsOut : ∀ (e : Fin 400000) (k : Fin 200), ∃ i, KN.xsOut2 m ρ c (ix2 e k) = KN.x2in m ρ c i)
    (hrsIn : ∀ (e : Fin 400000) (k : Fin 200), ∃ i, KN.rsIn2 m ρ c (ix2 e k) = KN.rel2 m ρ c i)
    (hrsOut : ∀ (e : Fin 400000) (k : Fin 200), ∃ i, KN.rsOut2 m ρ c (ix2 e k) = KN.rel2 m ρ c i)
    (hnuIn : ∀ e : Fin 400000, CompGcn.IsReal (KN.nuIn2 m ρ c (ix1 e)))
    (hnuOut : ∀ e : Fin 400000, CompGcn.IsReal (KN.nuOut2 m ρ c (ix1 e)))
    (hx2in : KN.x2in m ρ c = KN.x1out m ρ c)
    (hx1real : ∀ (n : Fin 100000) (j : Fin 200), CompGcn.IsReal (KN.x1out m ρ c (ix2 n j)))
    (hw7 : KN.wIn2 m ρ c = m ((c.tc : Thread nD τ).loc main_arg7))
    (hw8 : KN.wOut2 m ρ c = m ((c.tc : Thread nD τ).loc main_arg8))
    (hw9 : KN.wLoop2 m ρ c = m ((c.tc : Thread nD τ).loc main_arg9))
    (hrel2real : ∀ i, CompGcn.IsReal (KN.rel2 m ρ c i))
    (hlrow : ∀ k : Fin 200, KN.lrow2 m ρ c (ix2 (0 : Fin 1) k) = KN.rel2 m ρ c (ix2 (400 : Fin 401) k))
    (hx2R : ∀ (n : Fin 100000) (j : Fin 200), Cert.ReferenceIdeal.RN.x2out m' c (ix2 n j)
        = CompGcn.bnR (CompGcn.combR
            (fun n : Fin 100000 => Finset.univ.filter (fun e : Fin 400000 => (Cert.ReferenceIdeal.RN.dstIn2 m' c (ix1 e)).toInt = (n.val : ℤ)))
            (fun n => Finset.univ.filter (fun e : Fin 400000 => (Cert.ReferenceIdeal.RN.dstOut2 m' c (ix1 e)).toInt = (n.val : ℤ)))
            (fun e k => Cert.ReferenceIdeal.RN.xsIn2 m' c (ix2 e k) * Cert.ReferenceIdeal.RN.rsIn2 m' c (ix2 e k))
            (fun e k => Cert.ReferenceIdeal.RN.xsOut2 m' c (ix2 e k) * Cert.ReferenceIdeal.RN.rsOut2 m' c (ix2 e k))
            (fun e => Cert.ReferenceIdeal.RN.nuIn2 m' c (ix1 e)) (fun e => Cert.ReferenceIdeal.RN.nuOut2 m' c (ix1 e))
            (fun n k => Cert.ReferenceIdeal.RN.x1out m' c (ix2 n k) * Cert.ReferenceIdeal.RN.rel2 m' c (ix2 (400 : Fin 401) k))
            (fun k j => Cert.ReferenceIdeal.RN.wIn2 m' c (ix2 k j)) (fun k j => Cert.ReferenceIdeal.RN.wOut2 m' c (ix2 k j)) (fun k j => Cert.ReferenceIdeal.RN.wLoop2 m' c (ix2 k j))
            (Ideal.ofBits .f32 0x3EAAAAAB#32))
          (Ideal.ofBits .f32 0x47C35000#32) (Ideal.ofBits .f32 0x3727C5AC#32) n j)
    (hXdstIn : Cert.ReferenceIdeal.RN.dstIn2 m' c = KN.dstIn2 m ρ c)
    (hXxsIn : Cert.ReferenceIdeal.RN.xsIn2 m' c = KN.xsIn2 m ρ c)
    (hXrsIn : Cert.ReferenceIdeal.RN.rsIn2 m' c = KN.rsIn2 m ρ c)
    (hXnuIn : Cert.ReferenceIdeal.RN.nuIn2 m' c = KN.nuIn2 m ρ c)
    (hXdstOut : Cert.ReferenceIdeal.RN.dstOut2 m' c = KN.dstOut2 m ρ c)
    (hXxsOut : Cert.ReferenceIdeal.RN.xsOut2 m' c = KN.xsOut2 m ρ c)
    (hXrsOut : Cert.ReferenceIdeal.RN.rsOut2 m' c = KN.rsOut2 m ρ c)
    (hXnuOut : Cert.ReferenceIdeal.RN.nuOut2 m' c = KN.nuOut2 m ρ c)
    (hXx : Cert.ReferenceIdeal.RN.x1out m' c = KN.x2in m ρ c)
    (hXrel : Cert.ReferenceIdeal.RN.rel2 m' c = KN.rel2 m ρ c)
    (hXwIn : Cert.ReferenceIdeal.RN.wIn2 m' c = KN.wIn2 m ρ c)
    (hXwOut : Cert.ReferenceIdeal.RN.wOut2 m' c = KN.wOut2 m ρ c)
    (hXwLoop : Cert.ReferenceIdeal.RN.wLoop2 m' c = KN.wLoop2 m ρ c) :
    (∀ (n : Fin 100000) (j : Fin 200), KN.x2out m ρ c (ix2 n j) = Cert.ReferenceIdeal.RN.x2out m' c (ix2 n j))
      ∧ (∀ (n : Fin 100000) (j : Fin 200), CompGcn.IsReal (KN.x2out m ρ c (ix2 n j))) := by
  -- every entry of the layer's input is an entry of the first layer's output, a real
  have hxR : ∀ i, CompGcn.IsReal (KN.x2in m ρ c i) := fun i => by
    obtain ⟨n, j, rfl⟩ : ∃ (n : Fin 100000) (j : Fin 200), i = ix2 n j := ⟨i 0, i 1, eq_ix2 i⟩
    rw [hx2in]; exact hx1real n j
  refine CompGcn.layer_bridge (Nn := 100000) (Ee := 400000) (Dd := 200) (by decide)
    (fun n => Finset.univ.filter (fun e : Fin 400000 => (KN.dstIn2 m ρ c (ix1 e)).toInt = (n.val : ℤ)))
    (fun n => Finset.univ.filter (fun e : Fin 400000 => (KN.dstOut2 m ρ c (ix1 e)).toInt = (n.val : ℤ)))
    (fun e k => KN.xsIn2 m ρ c (ix2 e k)) (fun e k => KN.rsIn2 m ρ c (ix2 e k))
    (fun e k => KN.xsOut2 m ρ c (ix2 e k)) (fun e k => KN.rsOut2 m ρ c (ix2 e k))
    (fun e => KN.nuIn2 m ρ c (ix1 e)) (fun e => KN.nuOut2 m ρ c (ix1 e))
    (fun n k => KN.x2in m ρ c (ix2 n k)) (fun k => KN.rel2 m ρ c (ix2 (400 : Fin 401) k))
    (fun k j => KN.wIn2 m ρ c (ix2 k j)) (fun k j => KN.wOut2 m ρ c (ix2 k j)) (fun k j => KN.wLoop2 m ρ c (ix2 k j))
    (Ideal.ofBits .f32 0x3EAAAAAB#32) (Ideal.ofBits .f32 0x47C35000#32) (Ideal.ofBits .f32 0x3727C5AC#32)
    (fun n k => KN.aggIn2 m ρ c (ix2 n k)) (fun n k => KN.aggOut2 m ρ c (ix2 n k))
    (fun n j => comb2 m ρ c (ix2 n j))
    (fun n j => KN.x2out m ρ c (ix2 n j)) (fun n j => Cert.ReferenceIdeal.RN.x2out m' c (ix2 n j))
    hKH1 hKH2 ?hcomb hx2K ?hR ?hxsi ?hrsi ?hxso ?hrso hnuIn hnuOut ?hX ?hl ?hwi ?hwo ?hwl
    CompGcn.c3_isReal CompGcn.nf_eq CompGcn.eps_pos
  case hcomb =>
    intro n j
    show comb2 m ρ c (ix2 n j) = _
    rw [hcomb2]
    simp only [hlrow]
  case hR =>
    intro n j
    show Cert.ReferenceIdeal.RN.x2out m' c (ix2 n j) = _
    rw [hx2R, hXdstIn, hXxsIn, hXrsIn, hXnuIn, hXdstOut, hXxsOut, hXrsOut, hXnuOut, hXx, hXrel, hXwIn, hXwOut, hXwLoop]
  case hxsi => intro e k; obtain ⟨i, hi⟩ := hxsIn e k; show CompGcn.IsReal (KN.xsIn2 m ρ c (ix2 e k)); rw [hi]; exact hxR i
  case hxso => intro e k; obtain ⟨i, hi⟩ := hxsOut e k; show CompGcn.IsReal (KN.xsOut2 m ρ c (ix2 e k)); rw [hi]; exact hxR i
  case hrsi => intro e k; obtain ⟨i, hi⟩ := hrsIn e k; show CompGcn.IsReal (KN.rsIn2 m ρ c (ix2 e k)); rw [hi]; exact hrel2real i
  case hrso => intro e k; obtain ⟨i, hi⟩ := hrsOut e k; show CompGcn.IsReal (KN.rsOut2 m ρ c (ix2 e k)); rw [hi]; exact hrel2real i
  case hX => intro n k; exact hxR _
  case hl => intro k; exact hrel2real _
  case hwi => intro k j; show CompGcn.IsReal (KN.wIn2 m ρ c (ix2 k j)); rw [hw7]; exact Cert.PreDecode.real7 (hpre c) (ix2 k j)
  case hwo => intro k j; show CompGcn.IsReal (KN.wOut2 m ρ c (ix2 k j)); rw [hw8]; exact Cert.PreDecode.real8 (hpre c) (ix2 k j)
  case hwl => intro k j; show CompGcn.IsReal (KN.wLoop2 m ρ c (ix2 k j)); rw [hw9]; exact Cert.PreDecode.real9 (hpre c) (ix2 k j)

end Cert.Layer2

end
-- ==== Proof.Layer1.lean ====
/- One layer of the two programs, joined.

   Each program computes, for every node n and column j, the combined message
       C[n, j] = ((sum over the in-edges at n) + (sum over the out-edges at n) + (self-loop product)) times 1/3,
   and then normalises column j by its mean and variance over the 100000 nodes and takes the hyperbolic tangent.
   One program sums an edge set's products first and multiplies by the weight matrix afterwards, and normalises through
   mean of squares minus squared mean and a reciprocal square root; the other multiplies every edge's product by the
   weights first, and normalises through the mean of the squared deviations, a square root and a quotient. Given what
   each program's buffers hold (the hypotheses below, each a fact about one program or an equality between the two on
   the layer's inputs), the two outputs are equal entry by entry and every entry is a real number: the abstract
   statement `CompGcn.layer_bridge` at 100000 nodes, 400000 edges of each direction and 200 columns, whose finiteness
   hypotheses come from the precondition (every float argument entry is a real) because every gathered row is a row
   of an argument array. -/
import proofs.«412919_j56298431316644_2_alg».proof.Defs
import proofs.«412919_j56298431316644_2_alg».proof.Proof.LayerBridge
import proofs.«412919_j56298431316644_2_alg».proof.Proof.KNames
import proofs.«412919_j56298431316644_2_alg».proof.Proof.RNames
import proofs.«412919_j56298431316644_2_alg».proof.Proof.PreDecode

set_option maxRecDepth 16384

noncomputable section

namespace Cert.Layer1

open Cert.KernelIdeal
open Idealize.ShloMosaic Idealize.ShloMosaic.TcCoe Idealize.ShloMosaic.ValueIdx Idealize.SL.Sem
open scoped BigOperators

/-- The combined messages of layer 1 on the kernel side: what the first kernel region leaves in its first output array. -/
abbrev comb1 (m : (ℓ : Loc nD τ sig) → Buf (Elt Ideal) ℓ) (ρ : Dev nD → PrngReg) (c : Dev nD) : Vec Ideal S100000x200 .f32 :=
  (Gen.dat0 (Gen.V11 m ρ) c).arrAt 7 cfg0.N

theorem layer1_of
    (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (hpre : Cert.Pre_KernelIdeal m)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14))
    (hcomb0 : ∀ (n : Fin 100000) (j : Fin 200),
      comb1 m ρ c (ix2 n j)
        = ((∑ k : Fin 200, KN.aggIn1 m ρ c (ix2 n k) * KN.wIn1 m ρ c (ix2 k j))
          + (∑ k : Fin 200, KN.aggOut1 m ρ c (ix2 n k) * KN.wOut1 m ρ c (ix2 k j))
          + (∑ k : Fin 200, (KN.x1in m ρ c (ix2 n k) * KN.lrow1 m ρ c (ix2 (0 : Fin 1) k)) * KN.wLoop1 m ρ c (ix2 k j)))
          * Ideal.ofBits .f32 0x3EAAAAAB#32)
    (hx1K : ∀ (n : Fin 100000) (j : Fin 200), KN.x1out m ρ c (ix2 n j)
        = CompGcn.bnK (fun n j => comb1 m ρ c (ix2 n j))
            (Ideal.ofBits .f32 0x47C35000#32) (Ideal.ofBits .f32 0x3727C5AC#32) n j)
    (hKH1 : ∀ (n : Fin 100000) (k : Fin 200), KN.aggIn1 m ρ c (ix2 n k)
        = ∑ e ∈ Finset.univ.filter (fun e : Fin 400000 => (KN.dstIn1 m ρ c (ix1 e)).toInt = (n.val : ℤ)),
            KN.xsIn1 m ρ c (ix2 e k) * KN.rsIn1 m ρ c (ix2 e k) * KN.nuIn1 m ρ c (ix1 e))
    (hKH2 : ∀ (n : Fin 100000) (k : Fin 200), KN.aggOut1 m ρ c (ix2 n k)
        = ∑ e ∈ Finset.univ.filter (fun e : Fin 400000 => (KN.dstOut1 m ρ c (ix1 e)).toInt = (n.val : ℤ)),
            KN.xsOut1 m ρ c (ix2 e k) * KN.rsOut1 m ρ c (ix2 e k) * KN.nuOut1 m ρ c (ix1 e))
    (hxsIn : ∀ (e : Fin 400000) (k : Fin 200), ∃ i, KN.xsIn1 m ρ c (ix2 e k) = KN.x1in m ρ c i)
    (hxsOut : ∀ (e : Fin 400000) (k : Fin 200), ∃ i, KN.xsOut1 m ρ c (ix2 e k) = KN.x1in m ρ c i)
    (hrsIn : ∀ (e : Fin 400000) (k : Fin 200), ∃ i, KN.rsIn1 m ρ c (ix2 e k) = KN.rel1 m ρ c i)
    (hrsOut : ∀ (e : Fin 400000) (k : Fin 200), ∃ i, KN.rsOut1 m ρ c (ix2 e k) = KN.rel1 m ρ c i)
    (hnuIn : ∀ e : Fin 400000, CompGcn.IsReal (KN.nuIn1 m ρ c (ix1 e)))
    (hnuOut : ∀ e : Fin 400000, CompGcn.IsReal (KN.nuOut1 m ρ c (ix1 e)))
    (hx1in : KN.x1in m ρ c = m ((c.tc : Thread nD τ).loc main_arg0))
    (hw2 : KN.wIn1 m ρ c = m ((c.tc : Thread nD τ).loc main_arg2))
    (hw3 : KN.wOut1 m ρ c = m ((c.tc : Thread nD τ).loc main_arg3))
    (hw4 : KN.wLoop1 m ρ c = m ((c.tc : Thread nD τ).loc main_arg4))
    (hrel : ∀ i, (∃ i', KN.rel1 m ρ c i = m ((c.tc : Thread nD τ).loc main_arg1) i')
        ∨ (∃ i', KN.rel1 m ρ c i = m ((c.tc : Thread nD τ).loc main_arg6) i'))
    (hlrow : ∀ k : Fin 200, KN.lrow1 m ρ c (ix2 (0 : Fin 1) k) = KN.rel1 m ρ c (ix2 (400 : Fin 401) k))
    (hx1R : ∀ (n : Fin 100000) (j : Fin 200), Cert.ReferenceIdeal.RN.x1out m' c (ix2 n j)
        = CompGcn.bnR (CompGcn.combR
            (fun n : Fin 100000 => Finset.univ.filter (fun e : Fin 400000 => (Cert.ReferenceIdeal.RN.dstIn1 m' c (ix1 e)).toInt = (n.val : ℤ)))
            (fun n => Finset.univ.filter (fun e : Fin 400000 => (Cert.ReferenceIdeal.RN.dstOut1 m' c (ix1 e)).toInt = (n.val : ℤ)))
            (fun e k => Cert.ReferenceIdeal.RN.xsIn1 m' c (ix2 e k) * Cert.ReferenceIdeal.RN.rsIn1 m' c (ix2 e k))
            (fun e k => Cert.ReferenceIdeal.RN.xsOut1 m' c (ix2 e k) * Cert.ReferenceIdeal.RN.rsOut1 m' c (ix2 e k))
            (fun e => Cert.ReferenceIdeal.RN.nuIn1 m' c (ix1 e)) (fun e => Cert.ReferenceIdeal.RN.nuOut1 m' c (ix1 e))
            (fun n k => Cert.ReferenceIdeal.RN.x1in m' c (ix2 n k) * Cert.ReferenceIdeal.RN.rel1 m' c (ix2 (400 : Fin 401) k))
            (fun k j => Cert.ReferenceIdeal.RN.wIn1 m' c (ix2 k j)) (fun k j => Cert.ReferenceIdeal.RN.wOut1 m' c (ix2 k j)) (fun k j => Cert.ReferenceIdeal.RN.wLoop1 m' c (ix2 k j))
            (Ideal.ofBits .f32 0x3EAAAAAB#32))
          (Ideal.ofBits .f32 0x47C35000#32) (Ideal.ofBits .f32 0x3727C5AC#32) n j)
    (hXdstIn : Cert.ReferenceIdeal.RN.dstIn1 m' c = KN.dstIn1 m ρ c)
    (hXxsIn : Cert.ReferenceIdeal.RN.xsIn1 m' c = KN.xsIn1 m ρ c)
    (hXrsIn : Cert.ReferenceIdeal.RN.rsIn1 m' c = KN.rsIn1 m ρ c)
    (hXnuIn : Cert.ReferenceIdeal.RN.nuIn1 m' c = KN.nuIn1 m ρ c)
    (hXdstOut : Cert.ReferenceIdeal.RN.dstOut1 m' c = KN.dstOut1 m ρ c)
    (hXxsOut : Cert.ReferenceIdeal.RN.xsOut1 m' c = KN.xsOut1 m ρ c)
    (hXrsOut : Cert.ReferenceIdeal.RN.rsOut1 m' c = KN.rsOut1 m ρ c)
    (hXnuOut : Cert.ReferenceIdeal.RN.nuOut1 m' c = KN.nuOut1 m ρ c)
    (hXx : Cert.ReferenceIdeal.RN.x1in m' c = KN.x1in m ρ c)
    (hXrel : Cert.ReferenceIdeal.RN.rel1 m' c = KN.rel1 m ρ c)
    (hXwIn : Cert.ReferenceIdeal.RN.wIn1 m' c = m ((c.tc : Thread nD τ).loc main_arg2))
    (hXwOut : Cert.ReferenceIdeal.RN.wOut1 m' c = m ((c.tc : Thread nD τ).loc main_arg3))
    (hXwLoop : Cert.ReferenceIdeal.RN.wLoop1 m' c = m ((c.tc : Thread nD τ).loc main_arg4)) :
    (∀ (n : Fin 100000) (j : Fin 200), KN.x1out m ρ c (ix2 n j) = Cert.ReferenceIdeal.RN.x1out m' c (ix2 n j))
      ∧ (∀ (n : Fin 100000) (j : Fin 200), CompGcn.IsReal (KN.x1out m ρ c (ix2 n j))) := by
  -- every entry of the node embeddings, of the relation table with its appended row, and of the weights is a real
  have hxR : ∀ i, CompGcn.IsReal (KN.x1in m ρ c i) := fun i => by
    rw [hx1in]; exact Cert.PreDecode.real0 (hpre c) i
  have hrelR : ∀ i, CompGcn.IsReal (KN.rel1 m ρ c i) := fun i => by
    rcases hrel i with ⟨i', h⟩ | ⟨i', h⟩
    · rw [h]; exact Cert.PreDecode.real1 (hpre c) i'
    · rw [h]; exact Cert.PreDecode.real6 (hpre c) i'
  refine CompGcn.layer_bridge (Nn := 100000) (Ee := 400000) (Dd := 200) (by decide)
    (fun n => Finset.univ.filter (fun e : Fin 400000 => (KN.dstIn1 m ρ c (ix1 e)).toInt = (n.val : ℤ)))
    (fun n => Finset.univ.filter (fun e : Fin 400000 => (KN.dstOut1 m ρ c (ix1 e)).toInt = (n.val : ℤ)))
    (fun e k => KN.xsIn1 m ρ c (ix2 e k)) (fun e k => KN.rsIn1 m ρ c (ix2 e k))
    (fun e k => KN.xsOut1 m ρ c (ix2 e k)) (fun e k => KN.rsOut1 m ρ c (ix2 e k))
    (fun e => KN.nuIn1 m ρ c (ix1 e)) (fun e => KN.nuOut1 m ρ c (ix1 e))
    (fun n k => KN.x1in m ρ c (ix2 n k)) (fun k => KN.rel1 m ρ c (ix2 (400 : Fin 401) k))
    (fun k j => (m ((c.tc : Thread nD τ).loc main_arg2) : Vec Ideal S200x200 .f32) (ix2 k j))
    (fun k j => (m ((c.tc : Thread nD τ).loc main_arg3) : Vec Ideal S200x200 .f32) (ix2 k j))
    (fun k j => (m ((c.tc : Thread nD τ).loc main_arg4) : Vec Ideal S200x200 .f32) (ix2 k j))
    (Ideal.ofBits .f32 0x3EAAAAAB#32) (Ideal.ofBits .f32 0x47C35000#32) (Ideal.ofBits .f32 0x3727C5AC#32)
    (fun n k => KN.aggIn1 m ρ c (ix2 n k)) (fun n k => KN.aggOut1 m ρ c (ix2 n k))
    (fun n j => comb1 m ρ c (ix2 n j))
    (fun n j => KN.x1out m ρ c (ix2 n j)) (fun n j => Cert.ReferenceIdeal.RN.x1out m' c (ix2 n j))
    hKH1 hKH2 ?hcomb hx1K ?hR ?hxsi ?hrsi ?hxso ?hrso hnuIn hnuOut ?hX ?hl ?hwi ?hwo ?hwl
    CompGcn.c3_isReal CompGcn.nf_eq CompGcn.eps_pos
  case hcomb =>
    intro n j
    show comb1 m ρ c (ix2 n j) = _
    rw [hcomb0, hw2, hw3, hw4]
    simp only [hlrow]
  case hR =>
    intro n j
    show Cert.ReferenceIdeal.RN.x1out m' c (ix2 n j) = _
    rw [hx1R, hXdstIn, hXxsIn, hXrsIn, hXnuIn, hXdstOut, hXxsOut, hXrsOut, hXnuOut, hXx, hXrel, hXwIn, hXwOut, hXwLoop]
  case hxsi => intro e k; obtain ⟨i, hi⟩ := hxsIn e k; show CompGcn.IsReal (KN.xsIn1 m ρ c (ix2 e k)); rw [hi]; exact hxR i
  case hxso => intro e k; obtain ⟨i, hi⟩ := hxsOut e k; show CompGcn.IsReal (KN.xsOut1 m ρ c (ix2 e k)); rw [hi]; exact hxR i
  case hrsi => intro e k; obtain ⟨i, hi⟩ := hrsIn e k; show CompGcn.IsReal (KN.rsIn1 m ρ c (ix2 e k)); rw [hi]; exact hrelR i
  case hrso => intro e k; obtain ⟨i, hi⟩ := hrsOut e k; show CompGcn.IsReal (KN.rsOut1 m ρ c (ix2 e k)); rw [hi]; exact hrelR i
  case hX => intro n k; exact hxR _
  case hl => intro k; exact hrelR _
  case hwi => intro k j; exact Cert.PreDecode.real2 (hpre c) (ix2 k j)
  case hwo => intro k j; exact Cert.PreDecode.real3 (hpre c) (ix2 k j)
  case hwl => intro k j; exact Cert.PreDecode.real4 (hpre c) (ix2 k j)

end Cert.Layer1

end
-- ==== Proof.Region0Value.lean ====
/-
  The value of the first layer's fused combine kernel, read off its run: each row of the combined array is the three
  matrix products of the row's aggregates and its own (rescaled) features, added and divided by three; the two carried
  row vectors end at the column sums of the combined array and of its squares over all 100000 rows.
-/
import proofs.«412919_j56298431316644_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.KVal

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

theorem hz : (![0, 0] : Fin 2 → Nat) = fun _ => 0 := funext fun a => by fin_cases a <;> rfl

/-- What either case leaves in the combined block: the payload of its one covering store, over the loaded blocks. -/
theorem pieceA7 (c : Dev nD) (i : grid0.Coords) (a1 : Memref sig .tc .vmem S2000x200 .f32) (h1 : a1.IsWhole) (a2 : Memref sig .tc .vmem S2000x200 .f32) (h2 : a2.IsWhole) (a3 : Memref sig .tc .vmem S2000x200 .f32) (h3 : a3.IsWhole) (a4 : Memref sig .tc .vmem S1x200 .f32) (h4 : a4.IsWhole) (a5 : Memref sig .tc .vmem S200x200 .f32) (h5 : a5.IsWhole) (a6 : Memref sig .tc .vmem S200x200 .f32) (h6 : a6.IsWhole) (a7 : Memref sig .tc .vmem S200x200 .f32) (h7 : a7.IsWhole) (a8 : Memref sig .tc .vmem S2000x200 .f32) (h8 : a8.IsWhole) (a9 : Memref sig .tc .vmem S1x200 .f32) (h9 : a9.IsWhole) (a10 : Memref sig .tc .vmem S1x200 .f32) (h10 : a10.IsWhole) (hc : cond0_0 i) (x0 : Vec F S2000x200 .f32) (x1 : Vec F S2000x200 .f32) (x2 : Vec F S2000x200 .f32) (x3 : Vec F S1x200 .f32) (x4 : Vec F S200x200 .f32) (x5 : Vec F S200x200 .f32) (x6 : Vec F S200x200 .f32) :
    out0_A_7 c i a1 h1 a2 h2 a3 h3 a4 h4 a5 h5 a6 h6 a7 h7 a8 h8 a9 h9 a10 h10 hc x0 x1 x2 x3 x4 x5 x6 = k0_pay5 x0 x1 x2 x3 x4 x5 x6 := by
  unfold out0_A_7
  rw [View.read_writes_eq_canon _ _ _ (cover0_A_7 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S2000x200) hz, View.ld_unit_zero (S := S1x200) hz, View.ld_unit_zero (S := S200x200) hz]

theorem pieceB7 (c : Dev nD) (i : grid0.Coords) (a1 : Memref sig .tc .vmem S2000x200 .f32) (h1 : a1.IsWhole) (a2 : Memref sig .tc .vmem S2000x200 .f32) (h2 : a2.IsWhole) (a3 : Memref sig .tc .vmem S2000x200 .f32) (h3 : a3.IsWhole) (a4 : Memref sig .tc .vmem S1x200 .f32) (h4 : a4.IsWhole) (a5 : Memref sig .tc .vmem S200x200 .f32) (h5 : a5.IsWhole) (a6 : Memref sig .tc .vmem S200x200 .f32) (h6 : a6.IsWhole) (a7 : Memref sig .tc .vmem S200x200 .f32) (h7 : a7.IsWhole) (a8 : Memref sig .tc .vmem S2000x200 .f32) (h8 : a8.IsWhole) (a9 : Memref sig .tc .vmem S1x200 .f32) (h9 : a9.IsWhole) (a10 : Memref sig .tc .vmem S1x200 .f32) (h10 : a10.IsWhole) (hc : ¬cond0_0 i) (x0 : Vec F S2000x200 .f32) (x1 : Vec F S2000x200 .f32) (x2 : Vec F S2000x200 .f32) (x3 : Vec F S1x200 .f32) (x4 : Vec F S200x200 .f32) (x5 : Vec F S200x200 .f32) (x6 : Vec F S200x200 .f32) (xo8 xo9 : Vec F S1x200 .f32) :
    out0_B_7 c i a1 h1 a2 h2 a3 h3 a4 h4 a5 h5 a6 h6 a7 h7 a8 h8 a9 h9 a10 h10 hc x0 x1 x2 x3 x4 x5 x6 xo8 xo9 = k0_pay5 x0 x1 x2 x3 x4 x5 x6 := by
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S2000x200) hz, View.ld_unit_zero (S := S1x200) hz, View.ld_unit_zero (S := S200x200) hz]

/-- The first point resets the carried row to the zero row and then adds its tile's column sums. -/
theorem pieceA8 (c : Dev nD) (i : grid0.Coords) (a1 : Memref sig .tc .vmem S2000x200 .f32) (h1 : a1.IsWhole) (a2 : Memref sig .tc .vmem S2000x200 .f32) (h2 : a2.IsWhole) (a3 : Memref sig .tc .vmem S2000x200 .f32) (h3 : a3.IsWhole) (a4 : Memref sig .tc .vmem S1x200 .f32) (h4 : a4.IsWhole) (a5 : Memref sig .tc .vmem S200x200 .f32) (h5 : a5.IsWhole) (a6 : Memref sig .tc .vmem S200x200 .f32) (h6 : a6.IsWhole) (a7 : Memref sig .tc .vmem S200x200 .f32) (h7 : a7.IsWhole) (a8 : Memref sig .tc .vmem S2000x200 .f32) (h8 : a8.IsWhole) (a9 : Memref sig .tc .vmem S1x200 .f32) (h9 : a9.IsWhole) (a10 : Memref sig .tc .vmem S1x200 .f32) (h10 : a10.IsWhole) (hc : cond0_0 i) (x0 : Vec F S2000x200 .f32) (x1 : Vec F S2000x200 .f32) (x2 : Vec F S2000x200 .f32) (x3 : Vec F S1x200 .f32) (x4 : Vec F S200x200 .f32) (x5 : Vec F S200x200 .f32) (x6 : Vec F S200x200 .f32) :
    out0_A_8 c i a1 h1 a2 h2 a3 h3 a4 h4 a5 h5 a6 h6 a7 h7 a8 h8 a9 h9 a10 h10 hc x0 x1 x2 x3 x4 x5 x6 = k0_pay1 (k0_pay6 (k0_pay3 (F := F))) (k0_pay7 x0 x1 x2 x3 x4 x5 x6) := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x200) hz]
  simp only [View.readAt_eq_ld, h1.read_unread, h2.read_unread, h3.read_unread, h4.read_unread, h5.read_unread, h6.read_unread, h7.read_unread, View.ld_unit_zero (S := S2000x200) hz, View.ld_unit_zero (S := S1x200) hz, View.ld_unit_zero (S := S200x200) hz, View.readCov_unit_zero (S := S1x200) _ hz]

/-- A later point adds its tile's column sums onto what the point before left. -/
theorem pieceB8 (c : Dev nD) (i : grid0.Coords) (a1 : Memref sig .tc .vmem S2000x200 .f32) (h1 : a1.IsWhole) (a2 : Memref sig .tc .vmem S2000x200 .f32) (h2 : a2.IsWhole) (a3 : Memref sig .tc .vmem S2000x200 .f32) (h3 : a3.IsWhole) (a4 : Memref sig .tc .vmem S1x200 .f32) (h4 : a4.IsWhole) (a5 : Memref sig .tc .vmem S200x200 .f32) (h5 : a5.IsWhole) (a6 : Memref sig .tc .vmem S200x200 .f32) (h6 : a6.IsWhole) (a7 : Memref sig .tc .vmem S200x200 .f32) (h7 : a7.IsWhole) (a8 : Memref sig .tc .vmem S2000x200 .f32) (h8 : a8.IsWhole) (a9 : Memref sig .tc .vmem S1x200 .f32) (h9 : a9.IsWhole) (a10 : Memref sig .tc .vmem S1x200 .f32) (h10 : a10.IsWhole) (hc : ¬cond0_0 i) (x0 : Vec F S2000x200 .f32) (x1 : Vec F S2000x200 .f32) (x2 : Vec F S2000x200 .f32) (x3 : Vec F S1x200 .f32) (x4 : Vec F S200x200 .f32) (x5 : Vec F S200x200 .f32) (x6 : Vec F S200x200 .f32) (xo8 xo9 : Vec F S1x200 .f32) :
    out0_B_8 c i a1 h1 a2 h2 a3 h3 a4 h4 a5 h5 a6 h6 a7 h7 a8 h8 a9 h9 a10 h10 hc x0 x1 x2 x3 x4 x5 x6 xo8 xo9 = k0_pay1 (k0_pay6 xo8) (k0_pay7 x0 x1 x2 x3 x4 x5 x6) := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S2000x200) hz, View.ld_unit_zero (S := S1x200) hz, View.ld_unit_zero (S := S200x200) hz, h9.read_unread, h10.read_unread]

theorem pieceA9 (c : Dev nD) (i : grid0.Coords) (a1 : Memref sig .tc .vmem S2000x200 .f32) (h1 : a1.IsWhole) (a2 : Memref sig .tc .vmem S2000x200 .f32) (h2 : a2.IsWhole) (a3 : Memref sig .tc .vmem S2000x200 .f32) (h3 : a3.IsWhole) (a4 : Memref sig .tc .vmem S1x200 .f32) (h4 : a4.IsWhole) (a5 : Memref sig .tc .vmem S200x200 .f32) (h5 : a5.IsWhole) (a6 : Memref sig .tc .vmem S200x200 .f32) (h6 : a6.IsWhole) (a7 : Memref sig .tc .vmem S200x200 .f32) (h7 : a7.IsWhole) (a8 : Memref sig .tc .vmem S2000x200 .f32) (h8 : a8.IsWhole) (a9 : Memref sig .tc .vmem S1x200 .f32) (h9 : a9.IsWhole) (a10 : Memref sig .tc .vmem S1x200 .f32) (h10 : a10.IsWhole) (hc : cond0_0 i) (x0 : Vec F S2000x200 .f32) (x1 : Vec F S2000x200 .f32) (x2 : Vec F S2000x200 .f32) (x3 : Vec F S1x200 .f32) (x4 : Vec F S200x200 .f32) (x5 : Vec F S200x200 .f32) (x6 : Vec F S200x200 .f32) :
    out0_A_9 c i a1 h1 a2 h2 a3 h3 a4 h4 a5 h5 a6 h6 a7 h7 a8 h8 a9 h9 a10 h10 hc x0 x1 x2 x3 x4 x5 x6 = k0_pay2 (k0_pay5 x0 x1 x2 x3 x4 x5 x6) (k0_pay4 (F := F)) := by
  unfold out0_A_9
  rw [View.read_writes_eq_canon _ _ _ (cover0_A_9 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x200) hz]
  simp only [View.readAt_eq_ld, h1.read_unread, h2.read_unread, h3.read_unread, h4.read_unread, h5.read_unread, h6.read_unread, h7.read_unread, View.ld_unit_zero (S := S2000x200) hz, View.ld_unit_zero (S := S1x200) hz, View.ld_unit_zero (S := S200x200) hz, View.readCov_unit_zero (S := S1x200) _ hz]

theorem pieceB9 (c : Dev nD) (i : grid0.Coords) (a1 : Memref sig .tc .vmem S2000x200 .f32) (h1 : a1.IsWhole) (a2 : Memref sig .tc .vmem S2000x200 .f32) (h2 : a2.IsWhole) (a3 : Memref sig .tc .vmem S2000x200 .f32) (h3 : a3.IsWhole) (a4 : Memref sig .tc .vmem S1x200 .f32) (h4 : a4.IsWhole) (a5 : Memref sig .tc .vmem S200x200 .f32) (h5 : a5.IsWhole) (a6 : Memref sig .tc .vmem S200x200 .f32) (h6 : a6.IsWhole) (a7 : Memref sig .tc .vmem S200x200 .f32) (h7 : a7.IsWhole) (a8 : Memref sig .tc .vmem S2000x200 .f32) (h8 : a8.IsWhole) (a9 : Memref sig .tc .vmem S1x200 .f32) (h9 : a9.IsWhole) (a10 : Memref sig .tc .vmem S1x200 .f32) (h10 : a10.IsWhole) (hc : ¬cond0_0 i) (x0 : Vec F S2000x200 .f32) (x1 : Vec F S2000x200 .f32) (x2 : Vec F S2000x200 .f32) (x3 : Vec F S1x200 .f32) (x4 : Vec F S200x200 .f32) (x5 : Vec F S200x200 .f32) (x6 : Vec F S200x200 .f32) (xo8 xo9 : Vec F S1x200 .f32) :
    out0_B_9 c i a1 h1 a2 h2 a3 h3 a4 h4 a5 h5 a6 h6 a7 h7 a8 h8 a9 h9 a10 h10 hc x0 x1 x2 x3 x4 x5 x6 xo8 xo9 = k0_pay2 (k0_pay5 x0 x1 x2 x3 x4 x5 x6) xo9 := by
  unfold out0_B_9
  rw [View.read_writes_eq_canon _ _ _ (cover0_B_9 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S2000x200) hz, View.ld_unit_zero (S := S1x200) hz, View.ld_unit_zero (S := S200x200) hz, h9.read_unread, h10.read_unread]

/-! ## The payloads at the extended reals, index by index -/

/-- One block product into the zero block, at a row and a column: the sum over the contracted coordinate. -/
theorem mm_apply (A : FVec Ideal S2000x200 .bf16) (B : FVec Ideal S200x200 .bf16) (r : Fin 2000) (j : Fin 200) :
    matmul dot_S2000x200_S200x200_S2000x200_1_0_0_1_n_n none A B (constant S2000x200 .f32 0x00000000#32) (ix2 r j)
      = ∑ k : Fin 200, A (ix2 r k) * B (ix2 k j) := by
  show FloatOps.matmul dot_S2000x200_S200x200_S2000x200_1_0_0_1_n_n none A B (constant S2000x200 .f32 0x00000000#32) (ix2 r j) = _
  rw [Ideal.matmul_constant_zero_apply, ← Equiv.sum_comp (contrEquiv1 dot_S2000x200_S200x200_S2000x200_1_0_0_1_n_n 200 rfl rfl).symm]
  refine Finset.sum_congr rfl fun k _ => ?_
  have c2 := contrEquiv1_symm_val dot_S2000x200_S200x200_S2000x200_1_0_0_1_n_n 200 rfl rfl k
  have l2 : (dot_S2000x200_S200x200_S2000x200_1_0_0_1_n_n).lhsIdx (ix2 r j) ((contrEquiv1 dot_S2000x200_S200x200_S2000x200_1_0_0_1_n_n 200 rfl rfl).symm k) = ix2 r k := by
    funext ax; apply Fin.ext
    match ax with
    | ⟨0, _⟩ => simp [DotDims.lhsIdx, dot_S2000x200_S200x200_S2000x200_1_0_0_1_n_n]; rfl
    | ⟨1, _⟩ => simp [DotDims.lhsIdx, dot_S2000x200_S200x200_S2000x200_1_0_0_1_n_n]; exact c2
  have r2 : (dot_S2000x200_S200x200_S2000x200_1_0_0_1_n_n).rhsIdx (ix2 r j) ((contrEquiv1 dot_S2000x200_S200x200_S2000x200_1_0_0_1_n_n 200 rfl rfl).symm k) = ix2 k j := by
    funext ax; apply Fin.ext
    match ax with
    | ⟨0, _⟩ => simp [DotDims.rhsIdx, dot_S2000x200_S200x200_S2000x200_1_0_0_1_n_n]; exact c2
    | ⟨1, _⟩ => simp [DotDims.rhsIdx, dot_S2000x200_S200x200_S2000x200_1_0_0_1_n_n]; rfl
  rw [l2, r2]

/-- The combined block at a row and a column: the three products of the tile's rows with the weights, summed, times
    the literal. The roundings to bf16 and the casts to the same shape change nothing at the extended reals, and the one
    row of the loop relation is read at every row. -/
theorem pay5_apply (x0 x1 x2 : Vec Ideal S2000x200 .f32) (x3 : Vec Ideal S1x200 .f32) (x4 x5 x6 : Vec Ideal S200x200 .f32)
    (r : Fin 2000) (j : Fin 200) :
    k0_pay5 x0 x1 x2 x3 x4 x5 x6 (ix2 r j)
      = ((∑ k : Fin 200, x0 (ix2 r k) * x4 (ix2 k j)) + (∑ k : Fin 200, x1 (ix2 r k) * x5 (ix2 k j))
          + (∑ k : Fin 200, (x2 (ix2 r k) * x3 (ix2 (0 : Fin 1) k)) * x6 (ix2 k j))) * Ideal.ofBits .f32 0x3EAAAAAB#32 := by
  unfold k0_pay5
  simp only [shapeCast_self]
  show (matmul dot_S2000x200_S200x200_S2000x200_1_0_0_1_n_n none _ _ (constant S2000x200 .f32 0x00000000#32) (ix2 r j)
      + matmul dot_S2000x200_S200x200_S2000x200_1_0_0_1_n_n none _ _ (constant S2000x200 .f32 0x00000000#32) (ix2 r j)
      + matmul dot_S2000x200_S200x200_S2000x200_1_0_0_1_n_n none _ _ (constant S2000x200 .f32 0x00000000#32) (ix2 r j)) * _ = _
  rw [mm_apply, mm_apply, mm_apply]
  refine congrArg (· * _) (congrArg₂ (· + ·) rfl (Finset.sum_congr rfl fun k _ => ?_))
  show (x2 (ix2 r k) * broadcastTo S2000x200 x3 broadcasts_S1x200_S2000x200 (ix2 r k)) * x6 (ix2 k j) = _
  rw [broadcastTo_1b_ab_apply]

/-- The source index of the column reduction over result column `j` at row `r`. -/
theorem lift_eq (r : Fin 2000) (j : Fin 200) : reduces_S2000x200_S200.lift (ix1 j) r = ix2 r j := by
  funext ax; apply Fin.ext
  match ax with
  | ⟨0, _⟩ => simp [Shape.Reduces.lift, Shape.Reduces.liftVal]
  | ⟨1, _⟩ => simp [Shape.Reduces.lift, Shape.Reduces.liftVal]

/-- A column sum of a block, at a column: the sum over the 2000 rows. -/
theorem colsum_apply (v : FVec Ideal S2000x200 .f32) (j : Fin 200) :
    multiReduction .add [0] S200 v 0x00000000#32 reduces_S2000x200_S200 (.inl rfl) rfl (ix1 j)
      = ∑ r : Fin 2000, v (ix2 r j) :=
  (Ideal.multiReduction_add_single v 0x00000000#32 reduces_S2000x200_S200 (.inl rfl) rfl (ix1 j)).trans
    (Finset.sum_congr rfl fun r _ => congrArg v (lift_eq r j))

/-- A vector of 200 stored as one row reads, at column `j`, its entry `j`. -/
theorem row_apply (v : FVec Ideal S200 .f32) (j : Fin 200) :
    shapeCast S1x200 v shapeCasts_S200_S1x200 (ix2 (0 : Fin 1) j) = v (ix1 j) :=
  (shapeCast_addUnit_apply ![200] v shapeCasts_S200_S1x200 (ix2 (0 : Fin 1) j)).trans
    (congrArg v (funext fun a => match a with | ⟨0, _⟩ => rfl))

/-- The carried sum after a point: what was carried plus the tile's column sum of the combined block. -/
theorem pay1_apply (acc : Vec Ideal S1x200 .f32) (x0 x1 x2 : Vec Ideal S2000x200 .f32) (x3 : Vec Ideal S1x200 .f32)
    (x4 x5 x6 : Vec Ideal S200x200 .f32) (j : Fin 200) :
    k0_pay1 (k0_pay6 acc) (k0_pay7 x0 x1 x2 x3 x4 x5 x6) (ix2 (0 : Fin 1) j)
      = acc (ix2 (0 : Fin 1) j) + ∑ r : Fin 2000, k0_pay5 x0 x1 x2 x3 x4 x5 x6 (ix2 r j) := by
  unfold k0_pay1 k0_pay6 k0_pay7
  simp only [shapeCast_self]
  show acc (ix2 (0 : Fin 1) j) + shapeCast S1x200 _ shapeCasts_S200_S1x200 (ix2 (0 : Fin 1) j) = _
  rw [row_apply, colsum_apply]

/-- The carried sum of squares after a point: what was carried plus the tile's column sum of the squares. -/
theorem pay2_apply (acc : Vec Ideal S1x200 .f32) (v : FVec Ideal S2000x200 .f32) (j : Fin 200) :
    k0_pay2 v acc (ix2 (0 : Fin 1) j) = acc (ix2 (0 : Fin 1) j) + ∑ r : Fin 2000, v (ix2 r j) * v (ix2 r j) := by
  unfold k0_pay2
  simp only [shapeCast_self]
  show acc (ix2 (0 : Fin 1) j) + shapeCast S1x200 _ shapeCasts_S200_S1x200 (ix2 (0 : Fin 1) j) = _
  rw [row_apply, colsum_apply]
  rfl

/-- The rows the reset stores are zero. -/
theorem pay3_apply (j : Fin 200) : k0_pay3 (F := Ideal) (ix2 (0 : Fin 1) j) = 0 := Ideal.ofBits_zero_f32
theorem pay4_apply (j : Fin 200) : k0_pay4 (F := Ideal) (ix2 (0 : Fin 1) j) = 0 := Ideal.ofBits_zero_f32

variable (V : (c : Dev nD) → (b : Ref sig .tc) → Buf (Elt Ideal) ((c : Thread nD τ).loc b))

/-- The arrays the region finds, each at its literal type. -/
abbrev aIn (c : Dev nD) : Vec Ideal S100000x200 .f32 := V c (Pipeline.arrRef spec0 0)
abbrev bOut (c : Dev nD) : Vec Ideal S100000x200 .f32 := V c (Pipeline.arrRef spec0 1)
abbrev xx (c : Dev nD) : Vec Ideal S100000x200 .f32 := V c (Pipeline.arrRef spec0 2)
abbrev lrow (c : Dev nD) : Vec Ideal S1x200 .f32 := V c (Pipeline.arrRef spec0 3)
abbrev wIn (c : Dev nD) : Vec Ideal S200x200 .f32 := V c (Pipeline.arrRef spec0 4)
abbrev wOut (c : Dev nD) : Vec Ideal S200x200 .f32 := V c (Pipeline.arrRef spec0 5)
abbrev wLoop (c : Dev nD) : Vec Ideal S200x200 .f32 := V c (Pipeline.arrRef spec0 6)

/-- Row `n`, column `j` of the combined array: the three products summed, times the f32 nearest one third. -/
def combAt (c : Dev nD) (n : Fin 100000) (j : Fin 200) : EReal :=
  ((∑ k : Fin 200, aIn V c (ix2 n k) * wIn V c (ix2 k j))
    + (∑ k : Fin 200, bOut V c (ix2 n k) * wOut V c (ix2 k j))
    + (∑ k : Fin 200, (xx V c (ix2 n k) * lrow V c (ix2 (0 : Fin 1) k)) * wLoop V c (ix2 k j)))
  * Ideal.ofBits .f32 0x3EAAAAAB#32

/-! ## The windows' blocks, read off the arrays -/

theorem idx0_0 : ∀ t : Fin cfg0.N, win0_0.index t 0 = t.val ∧ win0_0.index t 1 = 0 :=
  (by decide +kernel : ∀ t : Fin grid0.N, win0_0.index t 0 = t.val ∧ win0_0.index t 1 = 0)
theorem in0_apply (c : Dev nD) (t : Fin cfg0.N) (r : Fin 2000) (h : 2000 * t.val + r.val < 100000) (k : Fin 200) :
    (iblk0 V c 0 t : Vec Ideal S2000x200 .f32) (ix2 r k) = aIn V c (ix2 ⟨2000 * t.val + r.val, h⟩ k) := by
  unfold iblk0
  rw [View.read_apply]
  show V c (Pipeline.arrRef spec0 0) _ = V c (Pipeline.arrRef spec0 0) _
  congr 1
  funext a; apply Fin.ext
  match a with
  | ⟨0, _⟩ => show win0_0.index t 0 * 2000 + 1 * r.val = 2000 * t.val + r.val; rw [(idx0_0 t).1]; omega
  | ⟨1, _⟩ => show win0_0.index t 1 * 200 + 1 * k.val = k.val; rw [(idx0_0 t).2]; omega

theorem idx0_1 : ∀ t : Fin cfg0.N, win0_1.index t 0 = t.val ∧ win0_1.index t 1 = 0 :=
  (by decide +kernel : ∀ t : Fin grid0.N, win0_1.index t 0 = t.val ∧ win0_1.index t 1 = 0)
theorem in1_apply (c : Dev nD) (t : Fin cfg0.N) (r : Fin 2000) (h : 2000 * t.val + r.val < 100000) (k : Fin 200) :
    (iblk0 V c 1 t : Vec Ideal S2000x200 .f32) (ix2 r k) = bOut V c (ix2 ⟨2000 * t.val + r.val, h⟩ k) := by
  unfold iblk0
  rw [View.read_apply]
  show V c (Pipeline.arrRef spec0 1) _ = V c (Pipeline.arrRef spec0 1) _
  congr 1
  funext a; apply Fin.ext
  match a with
  | ⟨0, _⟩ => show win0_1.index t 0 * 2000 + 1 * r.val = 2000 * t.val + r.val; rw [(idx0_1 t).1]; omega
  | ⟨1, _⟩ => show win0_1.index t 1 * 200 + 1 * k.val = k.val; rw [(idx0_1 t).2]; omega

theorem idx0_2 : ∀ t : Fin cfg0.N, win0_2.index t 0 = t.val ∧ win0_2.index t 1 = 0 :=
  (by decide +kernel : ∀ t : Fin grid0.N, win0_2.index t 0 = t.val ∧ win0_2.index t 1 = 0)
theorem in2_apply (c : Dev nD) (t : Fin cfg0.N) (r : Fin 2000) (h : 2000 * t.val + r.val < 100000) (k : Fin 200) :
    (iblk0 V c 2 t : Vec Ideal S2000x200 .f32) (ix2 r k) = xx V c (ix2 ⟨2000 * t.val + r.val, h⟩ k) := by
  unfold iblk0
  rw [View.read_apply]
  show V c (Pipeline.arrRef spec0 2) _ = V c (Pipeline.arrRef spec0 2) _
  congr 1
  funext a; apply Fin.ext
  match a with
  | ⟨0, _⟩ => show win0_2.index t 0 * 2000 + 1 * r.val = 2000 * t.val + r.val; rw [(idx0_2 t).1]; omega
  | ⟨1, _⟩ => show win0_2.index t 1 * 200 + 1 * k.val = k.val; rw [(idx0_2 t).2]; omega

theorem idx0_3 : ∀ t : Fin cfg0.N, win0_3.index t 0 = 0 ∧ win0_3.index t 1 = 0 :=
  (by decide +kernel : ∀ t : Fin grid0.N, win0_3.index t 0 = 0 ∧ win0_3.index t 1 = 0)
theorem in3_apply (c : Dev nD) (t : Fin cfg0.N) (p : Fin 1) (k : Fin 200) :
    (iblk0 V c 3 t : Vec Ideal S1x200 .f32) (ix2 p k) = lrow V c (ix2 p k) := by
  unfold iblk0
  rw [View.read_apply]
  show V c (Pipeline.arrRef spec0 3) _ = V c (Pipeline.arrRef spec0 3) _
  congr 1
  funext a; apply Fin.ext
  match a with
  | ⟨0, _⟩ => show win0_3.index t 0 * 1 + 1 * p.val = p.val; rw [(idx0_3 t).1]; omega
  | ⟨1, _⟩ => show win0_3.index t 1 * 200 + 1 * k.val = k.val; rw [(idx0_3 t).2]; omega

theorem idx0_4 : ∀ t : Fin cfg0.N, win0_4.index t 0 = 0 ∧ win0_4.index t 1 = 0 :=
  (by decide +kernel : ∀ t : Fin grid0.N, win0_4.index t 0 = 0 ∧ win0_4.index t 1 = 0)
theorem in4_apply (c : Dev nD) (t : Fin cfg0.N) (p : Fin 200) (k : Fin 200) :
    (iblk0 V c 4 t : Vec Ideal S200x200 .f32) (ix2 p k) = wIn V c (ix2 p k) := by
  unfold iblk0
  rw [View.read_apply]
  show V c (Pipeline.arrRef spec0 4) _ = V c (Pipeline.arrRef spec0 4) _
  congr 1
  funext a; apply Fin.ext
  match a with
  | ⟨0, _⟩ => show win0_4.index t 0 * 200 + 1 * p.val = p.val; rw [(idx0_4 t).1]; omega
  | ⟨1, _⟩ => show win0_4.index t 1 * 200 + 1 * k.val = k.val; rw [(idx0_4 t).2]; omega

theorem idx0_5 : ∀ t : Fin cfg0.N, win0_5.index t 0 = 0 ∧ win0_5.index t 1 = 0 :=
  (by decide +kernel : ∀ t : Fin grid0.N, win0_5.index t 0 = 0 ∧ win0_5.index t 1 = 0)
theorem in5_apply (c : Dev nD) (t : Fin cfg0.N) (p : Fin 200) (k : Fin 200) :
    (iblk0 V c 5 t : Vec Ideal S200x200 .f32) (ix2 p k) = wOut V c (ix2 p k) := by
  unfold iblk0
  rw [View.read_apply]
  show V c (Pipeline.arrRef spec0 5) _ = V c (Pipeline.arrRef spec0 5) _
  congr 1
  funext a; apply Fin.ext
  match a with
  | ⟨0, _⟩ => show win0_5.index t 0 * 200 + 1 * p.val = p.val; rw [(idx0_5 t).1]; omega
  | ⟨1, _⟩ => show win0_5.index t 1 * 200 + 1 * k.val = k.val; rw [(idx0_5 t).2]; omega

theorem idx0_6 : ∀ t : Fin cfg0.N, win0_6.index t 0 = 0 ∧ win0_6.index t 1 = 0 :=
  (by decide +kernel : ∀ t : Fin grid0.N, win0_6.index t 0 = 0 ∧ win0_6.index t 1 = 0)
theorem in6_apply (c : Dev nD) (t : Fin cfg0.N) (p : Fin 200) (k : Fin 200) :
    (iblk0 V c 6 t : Vec Ideal S200x200 .f32) (ix2 p k) = wLoop V c (ix2 p k) := by
  unfold iblk0
  rw [View.read_apply]
  show V c (Pipeline.arrRef spec0 6) _ = V c (Pipeline.arrRef spec0 6) _
  congr 1
  funext a; apply Fin.ext
  match a with
  | ⟨0, _⟩ => show win0_6.index t 0 * 200 + 1 * p.val = p.val; rw [(idx0_6 t).1]; omega
  | ⟨1, _⟩ => show win0_6.index t 1 * 200 + 1 * k.val = k.val; rw [(idx0_6 t).2]; omega

/-- The combined block of point `t`, at its row `r`: row `2000 t + r` of the combined array. -/
theorem tile_comb (c : Dev nD) (t : Fin cfg0.N) (r : Fin 2000) (j : Fin 200) (h : 2000 * t.val + r.val < 100000) :
    k0_pay5 (iblk0 V c 0 t) (iblk0 V c 1 t) (iblk0 V c 2 t) (iblk0 V c 3 t) (iblk0 V c 4 t) (iblk0 V c 5 t) (iblk0 V c 6 t) (ix2 r j) = combAt V c ⟨2000 * t.val + r.val, h⟩ j := by
  refine (pay5_apply _ _ _ _ _ _ _ r j).trans ?_
  unfold combAt
  simp only [in0_apply V c t r h, in1_apply V c t r h, in2_apply V c t r h, in3_apply V c t, in4_apply V c t, in5_apply V c t, in6_apply V c t]

/-! ## What the outputs hold after each point -/

/-- After any point the combined block is the payload of the point's own blocks. -/
theorem out7_eq (c : Dev nD) (t : Fin cfg0.N) :
    (outsAt0 V c t.val t.isLt).1 = k0_pay5 (iblk0 V c 0 t) (iblk0 V c 1 t) (iblk0 V c 2 t) (iblk0 V c 3 t) (iblk0 V c 4 t) (iblk0 V c 5 t) (iblk0 V c 6 t) := by
  by_cases h0 : t.val % 50 = 0
  · rw [outsAt0_A V c t h0]; dsimp only
    exact pieceA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t) (iblk0 V c 6 t)
  · rw [outsAt0_B V c t h0]; dsimp only
    exact pieceB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2

/-- The first point leaves, in the carried sum, its tile's column sums (over the zero row the reset stored). -/
theorem base8 (c : Dev nD) (t : Fin cfg0.N) (h0 : t.val % 50 = 0) (j : Fin 200) :
    (outsAt0 V c t.val t.isLt).2.1 (ix2 (0 : Fin 1) j) = ∑ r : Fin 2000, k0_pay5 (iblk0 V c 0 t) (iblk0 V c 1 t) (iblk0 V c 2 t) (iblk0 V c 3 t) (iblk0 V c 4 t) (iblk0 V c 5 t) (iblk0 V c 6 t) (ix2 r j) := by
  rw [outsAt0_A V c t h0]; dsimp only
  refine (congrFun (pieceA8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t) (iblk0 V c 6 t)) (ix2 (0 : Fin 1) j)).trans ?_
  rw [pay1_apply, pay3_apply, zero_add]

/-- A later point adds its tile's column sums to what the point before left. -/
theorem step8 (c : Dev nD) (t : Fin cfg0.N) (h0 : ¬t.val % 50 = 0) (j : Fin 200) :
    (outsAt0 V c t.val t.isLt).2.1 (ix2 (0 : Fin 1) j)
      = (outsAt0 V c (t.val - 1) (Nat.lt_of_le_of_lt (Nat.sub_le _ _) t.isLt)).2.1 (ix2 (0 : Fin 1) j) + ∑ r : Fin 2000, k0_pay5 (iblk0 V c 0 t) (iblk0 V c 1 t) (iblk0 V c 2 t) (iblk0 V c 3 t) (iblk0 V c 4 t) (iblk0 V c 5 t) (iblk0 V c 6 t) (ix2 r j) := by
  rw [outsAt0_B V c t h0]; dsimp only
  refine (congrFun (pieceB8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) j)).trans ?_
  rw [pay1_apply]

/-- The same for the carried sum of squares. -/
theorem base9 (c : Dev nD) (t : Fin cfg0.N) (h0 : t.val % 50 = 0) (j : Fin 200) :
    (outsAt0 V c t.val t.isLt).2.2 (ix2 (0 : Fin 1) j)
      = ∑ r : Fin 2000, k0_pay5 (iblk0 V c 0 t) (iblk0 V c 1 t) (iblk0 V c 2 t) (iblk0 V c 3 t) (iblk0 V c 4 t) (iblk0 V c 5 t) (iblk0 V c 6 t) (ix2 r j) * k0_pay5 (iblk0 V c 0 t) (iblk0 V c 1 t) (iblk0 V c 2 t) (iblk0 V c 3 t) (iblk0 V c 4 t) (iblk0 V c 5 t) (iblk0 V c 6 t) (ix2 r j) := by
  rw [outsAt0_A V c t h0]; dsimp only
  refine (congrFun (pieceA9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t) (iblk0 V c 6 t)) (ix2 (0 : Fin 1) j)).trans ?_
  rw [pay2_apply, pay4_apply, zero_add]

theorem step9 (c : Dev nD) (t : Fin cfg0.N) (h0 : ¬t.val % 50 = 0) (j : Fin 200) :
    (outsAt0 V c t.val t.isLt).2.2 (ix2 (0 : Fin 1) j)
      = (outsAt0 V c (t.val - 1) (Nat.lt_of_le_of_lt (Nat.sub_le _ _) t.isLt)).2.2 (ix2 (0 : Fin 1) j)
        + ∑ r : Fin 2000, k0_pay5 (iblk0 V c 0 t) (iblk0 V c 1 t) (iblk0 V c 2 t) (iblk0 V c 3 t) (iblk0 V c 4 t) (iblk0 V c 5 t) (iblk0 V c 6 t) (ix2 r j) * k0_pay5 (iblk0 V c 0 t) (iblk0 V c 1 t) (iblk0 V c 2 t) (iblk0 V c 3 t) (iblk0 V c 4 t) (iblk0 V c 5 t) (iblk0 V c 6 t) (ix2 r j) := by
  rw [outsAt0_B V c t h0]; dsimp only
  refine (congrFun (pieceB9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) j)).trans ?_
  rw [pay2_apply]

/-! ## The rows in order: the sums over the tiles are one sum over all the rows -/

/-- Column `j` of the combined array down the rows, as a function of the row number (zero past the last row). -/
def colAt (c : Dev nD) (j : Fin 200) (n : ℕ) : EReal := if h : n < 100000 then combAt V c ⟨n, h⟩ j else 0
/-- Its squares. -/
def sqAt (c : Dev nD) (j : Fin 200) (n : ℕ) : EReal := if h : n < 100000 then combAt V c ⟨n, h⟩ j * combAt V c ⟨n, h⟩ j else 0

theorem tile_sum (c : Dev nD) (t : Fin cfg0.N) (j : Fin 200) :
    ∑ r : Fin 2000, k0_pay5 (iblk0 V c 0 t) (iblk0 V c 1 t) (iblk0 V c 2 t) (iblk0 V c 3 t) (iblk0 V c 4 t) (iblk0 V c 5 t) (iblk0 V c 6 t) (ix2 r j) = ∑ r ∈ Finset.range 2000, colAt V c j (2000 * t.val + r) := by
  have hN : t.val < 50 := lt_of_lt_of_eq t.isLt (show cfg0.N = 50 from N_0)
  rw [Finset.sum_range]
  refine Finset.sum_congr rfl fun r _ => ?_
  have h : 2000 * t.val + r.val < 100000 := by have := r.isLt; omega
  rw [tile_comb V c t r j h]; unfold colAt; rw [dif_pos h]

theorem tile_sumsq (c : Dev nD) (t : Fin cfg0.N) (j : Fin 200) :
    ∑ r : Fin 2000, k0_pay5 (iblk0 V c 0 t) (iblk0 V c 1 t) (iblk0 V c 2 t) (iblk0 V c 3 t) (iblk0 V c 4 t) (iblk0 V c 5 t) (iblk0 V c 6 t) (ix2 r j) * k0_pay5 (iblk0 V c 0 t) (iblk0 V c 1 t) (iblk0 V c 2 t) (iblk0 V c 3 t) (iblk0 V c 4 t) (iblk0 V c 5 t) (iblk0 V c 6 t) (ix2 r j)
      = ∑ r ∈ Finset.range 2000, sqAt V c j (2000 * t.val + r) := by
  have hN : t.val < 50 := lt_of_lt_of_eq t.isLt (show cfg0.N = 50 from N_0)
  rw [Finset.sum_range]
  refine Finset.sum_congr rfl fun r _ => ?_
  have h : 2000 * t.val + r.val < 100000 := by have := r.isLt; omega
  rw [tile_comb V c t r j h]; unfold sqAt; rw [dif_pos h]

/-- After point `n` the carried sum holds the column sums over the rows below `2000 (n + 1)`: by induction on the
    point, the extended reals' addition being associative. -/
theorem acc8 (c : Dev nD) (j : Fin 200) : ∀ (n : ℕ) (hn : n < cfg0.N),
    (outsAt0 V c n hn).2.1 (ix2 (0 : Fin 1) j) = ∑ i ∈ Finset.range (2000 * (n + 1)), colAt V c j i
  | 0, hn => by
    refine (base8 V c ⟨0, hn⟩ rfl j).trans ?_
    rw [tile_sum V c ⟨0, hn⟩ j]
    refine Finset.sum_congr rfl fun r _ => ?_
    show colAt V c j (2000 * 0 + r) = _
    rw [Nat.mul_zero, Nat.zero_add]
  | n + 1, hn => by
    have hN : cfg0.N = 50 := N_0
    have hB : ¬(⟨n + 1, hn⟩ : Fin cfg0.N).val % 50 = 0 := by dsimp only; omega
    refine (step8 V c ⟨n + 1, hn⟩ hB j).trans ?_
    show (outsAt0 V c n _).2.1 (ix2 (0 : Fin 1) j) + _ = _
    rw [acc8 c j n, tile_sum V c ⟨n + 1, hn⟩ j, show 2000 * (n + 1 + 1) = 2000 * (n + 1) + 2000 from by ring,
      Finset.sum_range_add]

theorem acc9 (c : Dev nD) (j : Fin 200) : ∀ (n : ℕ) (hn : n < cfg0.N),
    (outsAt0 V c n hn).2.2 (ix2 (0 : Fin 1) j) = ∑ i ∈ Finset.range (2000 * (n + 1)), sqAt V c j i
  | 0, hn => by
    refine (base9 V c ⟨0, hn⟩ rfl j).trans ?_
    rw [tile_sumsq V c ⟨0, hn⟩ j]
    refine Finset.sum_congr rfl fun r _ => ?_
    show sqAt V c j (2000 * 0 + r) = _
    rw [Nat.mul_zero, Nat.zero_add]
  | n + 1, hn => by
    have hN : cfg0.N = 50 := N_0
    have hB : ¬(⟨n + 1, hn⟩ : Fin cfg0.N).val % 50 = 0 := by dsimp only; omega
    refine (step9 V c ⟨n + 1, hn⟩ hB j).trans ?_
    show (outsAt0 V c n _).2.2 (ix2 (0 : Fin 1) j) + _ = _
    rw [acc9 c j n, tile_sumsq V c ⟨n + 1, hn⟩ j, show 2000 * (n + 1 + 1) = 2000 * (n + 1) + 2000 from by ring,
      Finset.sum_range_add]

/-! ## The arrays after the region -/

theorem idx0_7 : ∀ t : Fin cfg0.N, win0_7.index t 0 = t.val ∧ win0_7.index t 1 = 0 :=
  (by decide +kernel : ∀ t : Fin grid0.N, win0_7.index t 0 = t.val ∧ win0_7.index t 1 = 0)
theorem idx0_8 : ∀ t : Fin cfg0.N, win0_8.index t 0 = 0 ∧ win0_8.index t 1 = 0 :=
  (by decide +kernel : ∀ t : Fin grid0.N, win0_8.index t 0 = 0 ∧ win0_8.index t 1 = 0)
theorem idx0_9 : ∀ t : Fin cfg0.N, win0_9.index t 0 = 0 ∧ win0_9.index t 1 = 0 :=
  (by decide +kernel : ∀ t : Fin grid0.N, win0_9.index t 0 = 0 ∧ win0_9.index t 1 = 0)

/-- The combined array as one function of the row and the column. -/
abbrev comb7 (c : Dev nD) : Vec Ideal S100000x200 .f32 := fun i => combAt V c (i 0) (i 1)

/-- Every point writes back its block of that one array. -/
theorem flushed7_eq (c : Dev nD) (t : Fin cfg0.N) (hf : (cfg0.win 7).flush t = true) :
    (dat0 V c).flushed 7 t = ((cfg0.win 7).blk t).view.read (Elt Ideal) (comb7 V c) := by
  have hN : t.val < 50 := lt_of_lt_of_eq t.isLt (show cfg0.N = 50 from N_0)
  show (cfg0.win 7).cut (grid0.coords t) ((dat0 V c).after 7 t) = _
  rw [after0_7, out7_eq]
  funext y
  obtain ⟨r, j, rfl⟩ : ∃ (r : Fin 2000) (j : Fin 200), y = ix2 r j := ⟨y 0, y 1, eq_ix2 y⟩
  have h : 2000 * t.val + r.val < 100000 := by have := r.isLt; omega
  rw [View.read_apply]
  show k0_pay5 (iblk0 V c 0 t) (iblk0 V c 1 t) (iblk0 V c 2 t) (iblk0 V c 3 t) (iblk0 V c 4 t) (iblk0 V c 5 t) (iblk0 V c 6 t) (ix2 r j) = comb7 V c (((cfg0.win 7).blk t).view.emb (ix2 r j))
  rw [tile_comb V c t r j h]
  show _ = combAt V c _ _
  congr 1
  · apply Fin.ext
    show 2000 * t.val + r.val = win0_7.index t 0 * 2000 + 1 * r.val
    rw [(idx0_7 t).1]; omega
  · apply Fin.ext
    show j.val = win0_7.index t 1 * 200 + 1 * j.val
    rw [(idx0_7 t).2]; omega

theorem region0_comb (c : Dev nD) (n : Fin 100000) (j : Fin 200) :
    ((dat0 V c).arrAt 7 cfg0.N : Vec Ideal S100000x200 .f32) (ix2 n j) = combAt V c n j := by
  have hN : cfg0.N = 50 := N_0
  have hn : n.val / 2000 < cfg0.N := by rw [hN]; have := n.isLt; omega
  refine ((dat0 V c).arrAt_apply_of_mem 7 (comb7 V c) (flushed7_eq V c) cfg0.N ⟨n.val / 2000, hn⟩ (ix2 n j) hn
    (flush0_7 _) ?_).trans rfl
  show ix2 n j ∈ ((View.whole main_v88_0).slice (win0_7.rect ⟨n.val / 2000, hn⟩)).set
  rw [View.set_slice_whole, Rect.mem_set_unit]
  intro a
  match a with
  | ⟨0, _⟩ =>
    show win0_7.index ⟨n.val / 2000, hn⟩ 0 * 2000 ≤ n.val ∧ n.val < win0_7.index ⟨n.val / 2000, hn⟩ 0 * 2000 + 2000
    rw [(idx0_7 ⟨n.val / 2000, hn⟩).1]; dsimp only; omega
  | ⟨1, _⟩ =>
    show win0_7.index ⟨n.val / 2000, hn⟩ 1 * 200 ≤ j.val ∧ j.val < win0_7.index ⟨n.val / 2000, hn⟩ 1 * 200 + 200
    rw [(idx0_7 ⟨n.val / 2000, hn⟩).2]; have := j.isLt; omega

/-- The two carried rows' arrays as functions of the column: the sums over all the rows. -/
abbrev sum8 (c : Dev nD) : Vec Ideal S1x200 .f32 := fun i => ∑ n : Fin 100000, combAt V c n (i 1)
abbrev sum9 (c : Dev nD) : Vec Ideal S1x200 .f32 := fun i => ∑ n : Fin 100000, combAt V c n (i 1) * combAt V c n (i 1)

/-- The sum down all the rows, by the row number, is the sum over the rows. -/
theorem total8 (c : Dev nD) (j : Fin 200) :
    ∑ i ∈ Finset.range 100000, colAt V c j i = ∑ n : Fin 100000, combAt V c n j := by
  rw [Finset.sum_range]
  refine Finset.sum_congr rfl fun n _ => ?_
  unfold colAt; rw [dif_pos n.isLt]
theorem total9 (c : Dev nD) (j : Fin 200) :
    ∑ i ∈ Finset.range 100000, sqAt V c j i = ∑ n : Fin 100000, combAt V c n j * combAt V c n j := by
  rw [Finset.sum_range]
  refine Finset.sum_congr rfl fun n _ => ?_
  unfold sqAt; rw [dif_pos n.isLt]

theorem h49 : 49 < cfg0.N := by rw [show cfg0.N = 50 from N_0]; decide

theorem flushed8_eq (c : Dev nD) (t : Fin cfg0.N) (hf : (cfg0.win 8).flush t = true) :
    (dat0 V c).flushed 8 t = ((cfg0.win 8).blk t).view.read (Elt Ideal) (sum8 V c) := by
  have hN : cfg0.N = 50 := N_0
  have h3 : t.val = 49 := by have := (flush0_8 t).mp hf; have := t.isLt; omega
  have hX : (outsAt0 V c t.val t.isLt).2.1 = sum8 V c := by
    funext i
    obtain ⟨p, j, rfl⟩ : ∃ (p : Fin 1) (j : Fin 200), i = ix2 p j := ⟨i 0, i 1, eq_ix2 i⟩
    obtain rfl : p = 0 := Subsingleton.elim _ _
    refine (acc8 V c j t.val t.isLt).trans ?_
    rw [h3, show 2000 * (49 + 1) = 100000 from rfl]
    exact total8 V c j
  show (cfg0.win 8).cut (grid0.coords t) ((dat0 V c).after 8 t) = _
  rw [after0_8, hX]
  generalize sum8 V c = X
  funext y
  obtain ⟨p, j, rfl⟩ : ∃ (p : Fin 1) (j : Fin 200), y = ix2 p j := ⟨y 0, y 1, eq_ix2 y⟩
  rw [View.read_apply]
  show X (ix2 p j) = X (((cfg0.win 8).blk t).view.emb (ix2 p j))
  congr 1
  funext a; apply Fin.ext
  match a with
  | ⟨0, _⟩ => show p.val = win0_8.index t 0 * 1 + 1 * p.val; rw [(idx0_8 t).1]; omega
  | ⟨1, _⟩ => show j.val = win0_8.index t 1 * 200 + 1 * j.val; rw [(idx0_8 t).2]; omega

theorem region0_sum (c : Dev nD) (j : Fin 200) :
    ((dat0 V c).arrAt 8 cfg0.N : Vec Ideal S1x200 .f32) (ix2 (0 : Fin 1) j) = ∑ n : Fin 100000, combAt V c n j := by
  refine ((dat0 V c).arrAt_apply_of_mem 8 (sum8 V c) (flushed8_eq V c) cfg0.N ⟨49, h49⟩ (ix2 (0 : Fin 1) j) h49
    ((flush0_8 ⟨49, h49⟩).mpr rfl) ?_).trans rfl
  show ix2 (0 : Fin 1) j ∈ ((View.whole main_v88_1).slice (win0_8.rect ⟨49, h49⟩)).set
  rw [View.set_slice_whole, Rect.mem_set_unit]
  intro a
  match a with
  | ⟨0, _⟩ =>
    show win0_8.index ⟨49, h49⟩ 0 * 1 ≤ 0 ∧ 0 < win0_8.index ⟨49, h49⟩ 0 * 1 + 1
    rw [(idx0_8 ⟨49, h49⟩).1]; omega
  | ⟨1, _⟩ =>
    show win0_8.index ⟨49, h49⟩ 1 * 200 ≤ j.val ∧ j.val < win0_8.index ⟨49, h49⟩ 1 * 200 + 200
    rw [(idx0_8 ⟨49, h49⟩).2]; have := j.isLt; omega

theorem flushed9_eq (c : Dev nD) (t : Fin cfg0.N) (hf : (cfg0.win 9).flush t = true) :
    (dat0 V c).flushed 9 t = ((cfg0.win 9).blk t).view.read (Elt Ideal) (sum9 V c) := by
  have hN : cfg0.N = 50 := N_0
  have h3 : t.val = 49 := by have := (flush0_9 t).mp hf; have := t.isLt; omega
  have hX : (outsAt0 V c t.val t.isLt).2.2 = sum9 V c := by
    funext i
    obtain ⟨p, j, rfl⟩ : ∃ (p : Fin 1) (j : Fin 200), i = ix2 p j := ⟨i 0, i 1, eq_ix2 i⟩
    obtain rfl : p = 0 := Subsingleton.elim _ _
    refine (acc9 V c j t.val t.isLt).trans ?_
    rw [h3, show 2000 * (49 + 1) = 100000 from rfl]
    exact total9 V c j
  show (cfg0.win 9).cut (grid0.coords t) ((dat0 V c).after 9 t) = _
  rw [after0_9, hX]
  generalize sum9 V c = X
  funext y
  obtain ⟨p, j, rfl⟩ : ∃ (p : Fin 1) (j : Fin 200), y = ix2 p j := ⟨y 0, y 1, eq_ix2 y⟩
  rw [View.read_apply]
  show X (ix2 p j) = X (((cfg0.win 9).blk t).view.emb (ix2 p j))
  congr 1
  funext a; apply Fin.ext
  match a with
  | ⟨0, _⟩ => show p.val = win0_9.index t 0 * 1 + 1 * p.val; rw [(idx0_9 t).1]; omega
  | ⟨1, _⟩ => show j.val = win0_9.index t 1 * 200 + 1 * j.val; rw [(idx0_9 t).2]; omega

theorem region0_sumsq (c : Dev nD) (j : Fin 200) :
    ((dat0 V c).arrAt 9 cfg0.N : Vec Ideal S1x200 .f32) (ix2 (0 : Fin 1) j)
      = ∑ n : Fin 100000, combAt V c n j * combAt V c n j := by
  refine ((dat0 V c).arrAt_apply_of_mem 9 (sum9 V c) (flushed9_eq V c) cfg0.N ⟨49, h49⟩ (ix2 (0 : Fin 1) j) h49
    ((flush0_9 ⟨49, h49⟩).mpr rfl) ?_).trans rfl
  show ix2 (0 : Fin 1) j ∈ ((View.whole main_v88_2).slice (win0_9.rect ⟨49, h49⟩)).set
  rw [View.set_slice_whole, Rect.mem_set_unit]
  intro a
  match a with
  | ⟨0, _⟩ =>
    show win0_9.index ⟨49, h49⟩ 0 * 1 ≤ 0 ∧ 0 < win0_9.index ⟨49, h49⟩ 0 * 1 + 1
    rw [(idx0_9 ⟨49, h49⟩).1]; omega
  | ⟨1, _⟩ =>
    show win0_9.index ⟨49, h49⟩ 1 * 200 ≤ j.val ∧ j.val < win0_9.index ⟨49, h49⟩ 1 * 200 + 200
    rw [(idx0_9 ⟨49, h49⟩).2]; have := j.isLt; omega

end Cert.KernelIdeal.KVal
-- ==== Proof.Region1Value.lean ====
/- The value of the normalise-and-tanh layer: the array it writes, entry by entry.

   The layer maps a 100000 x 200 array x, a row of 200 means mu and a row of 200 variances v to
       y[n, j] = tanh ((x[n, j] - mu[0, j]) * rsqrt (v[0, j] + eps)),      eps the f32 word 0x3727C5AC,
   in 50 steps; step t reads rows 2000 t .. 2000 t + 1999 of x and both rows whole, and writes the same 2000 rows
   of y. Below: the step's arithmetic at one entry of its block; each block's entry as an entry of its array
   (a block's coordinate is block index times block extent plus the coordinate inside the block); what step t
   writes is block t of the one array y; every row n lies in the block of step n / 2000; so the array ends as y. -/
import proofs.«412919_j56298431316644_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal1

open Cert.KernelIdeal Cert.KernelIdeal.Gen
open Idealize.ShloMosaic Idealize.ShloMosaic.TcCoe Idealize.ShloMosaic.ValueIdx
open Idealize.ShloMosaic.Pipeline (Dat)

-- the contents of the core's buffers when the layer starts: anything
variable (V : (c : Dev nD) → (b : Ref sig .tc) → Buf (Elt Ideal) ((c : Thread nD τ).loc b))

/-- The layer's input x, 100000 rows of 200 extended reals. -/
abbrev cmb (c : Dev nD) : Vec Ideal S100000x200 .f32 := V c (Pipeline.arrRef spec1 0)
/-- The row of column means. -/
abbrev mu (c : Dev nD) : Vec Ideal S1x200 .f32 := V c (Pipeline.arrRef spec1 1)
/-- The row of column variances. -/
abbrev vr (c : Dev nD) : Vec Ideal S1x200 .f32 := V c (Pipeline.arrRef spec1 2)

/-- One entry of the result from the three extended reals it depends on: tanh ((a - b) / sqrt (v + eps)), the
    reciprocal square root taken first and multiplied in. -/
def normTanh (a b v : EReal) : EReal :=
  Ideal.tanh ((a - b) * Ideal.rsqrt (v + Ideal.ofBits .f32 0x3727C5AC#32))

/-- The whole result: entry (n, j) depends on x[n, j] and on column j of the two rows. -/
def normalised (c : Dev nD) : Vec Ideal S100000x200 .f32 := fun i =>
  normTanh (cmb V c i) (mu V c (ix2 0 (i 1 : Fin 200))) (vr V c (ix2 0 (i 1 : Fin 200)))

/-- The offset (0, 0) of an access to a whole block. -/
theorem zero_offsets : (![0, 0] : Fin 2 → Nat) = fun _ => 0 := funext fun a => by fin_cases a <;> rfl

/-- The step's arithmetic at entry (p, q) of its block: the two rows are broadcast down the 2000 rows, so the
    entry reads column q of each; everything else is entrywise. -/
theorem body_apply (x0 : Vec Ideal S2000x200 .f32) (x1 x2 : Vec Ideal S1x200 .f32) (p : Fin 2000) (q : Fin 200) :
    k1_pay1 x0 x1 x2 (ix2 p q) = normTanh (x0 (ix2 p q)) (x1 (ix2 0 q)) (x2 (ix2 0 q)) := by
  unfold k1_pay1 normTanh
  simp only [shapeCast_self]
  show Ideal.tanh ((x0 (ix2 p q) - broadcastTo S2000x200 x1 broadcasts_S1x200_S2000x200 (ix2 p q))
      * broadcastTo S2000x200 (rsqrt (F := Ideal) (addf x2 (broadcast S1x200 (FloatOps.ofBits (F := Ideal) FTy.f32 0x3727C5AC#32)))) broadcasts_S1x200_S2000x200 (ix2 p q)) = _
  rw [broadcastTo_1b_ab_apply, broadcastTo_1b_ab_apply]
  rfl

/-- Which block each window holds at step t: block (t, 0) of x and of the result, block (0, 0) of each row. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, q) of step t's block of x is x[2000 t + p, q]. -/
theorem comb_block_apply (c : Dev nD) (t : Fin cfg1.N) (p : Fin 2000) (q : Fin 200) (n : Fin 100000) (hn : n.val = t.val * 2000 + p.val) :
    (iblk1 V c 0 t : Vec Ideal S2000x200 .f32) (ix2 p q) = cmb V c (ix2 n q) := by
  obtain ⟨e0, e1, -⟩ := block_indices t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2000 + 1 * p.val = n.val; omega
  | ⟨1, _⟩ => show win1_0.index t (1 : Fin 2) * 200 + 1 * q.val = q.val; omega

/-- The block of the means is the whole row, at every step. -/
theorem mean_block_apply (c : Dev nD) (t : Fin cfg1.N) (q : Fin 200) :
    (iblk1 V c 1 t : Vec Ideal S1x200 .f32) (ix2 0 q) = mu V c (ix2 0 q) := by
  obtain ⟨-, -, e0, e1, -⟩ := block_indices t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * 0 = 0; omega
  | ⟨1, _⟩ => show win1_1.index t (1 : Fin 2) * 200 + 1 * q.val = q.val; omega

/-- The block of the variances is the whole row, at every step. -/
theorem var_block_apply (c : Dev nD) (t : Fin cfg1.N) (q : Fin 200) :
    (iblk1 V c 2 t : Vec Ideal S1x200 .f32) (ix2 0 q) = vr V c (ix2 0 q) := by
  obtain ⟨-, -, -, -, e0, e1, -⟩ := block_indices t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * 0 = 0; omega
  | ⟨1, _⟩ => show win1_2.index t (1 : Fin 2) * 200 + 1 * q.val = q.val; omega

/-- Entry (p, q) of step t's block of any 100000 x 200 array g laid out as the result is g[2000 t + p, q]. -/
theorem out_block_apply (g : Vec Ideal S100000x200 .f32) (t : Fin cfg1.N) (p : Fin 2000) (q : Fin 200) (n : Fin 100000) (hn : n.val = t.val * 2000 + p.val) :
    (((cfg1.win 3).blk t).view.read (Elt Ideal) g : Vec Ideal S2000x200 .f32) (ix2 p q) = g (ix2 n q) := by
  obtain ⟨-, -, -, -, -, -, e0, e1⟩ := block_indices t
  rw [View.read_apply]
  refine congrArg g (funext fun a => Fin.ext ?_)
  match a with
  | ⟨0, _⟩ => show win1_3.index t (0 : Fin 2) * 2000 + 1 * p.val = n.val; omega
  | ⟨1, _⟩ => show win1_3.index t (1 : Fin 2) * 200 + 1 * q.val = q.val; omega

/-- What step t computes from its three blocks is, entry by entry, block t of the one array `normalised`: row p
    of the block is row 2000 t + p of x, and the columns agree. -/
theorem written_block_apply (c : Dev nD) (t : Fin cfg1.N) (j : S2000x200.Idx) :
    k1_pay1 (iblk1 V c 0 t) (iblk1 V c 1 t) (iblk1 V c 2 t) j
      = (((cfg1.win 3).blk t).view.read (Elt Ideal) (normalised V c) : Vec Ideal S2000x200 .f32) j := by
  obtain ⟨p, q, rfl⟩ : ∃ (p : Fin 2000) (q : Fin 200), j = ix2 p q := ⟨j 0, j 1, eq_ix2 j⟩
  have hN : cfg1.N = 50 := N_1
  have hn : t.val * 2000 + p.val < 100000 := by have := t.isLt; omega
  rw [body_apply, comb_block_apply V c t p q ⟨_, hn⟩ rfl, mean_block_apply, var_block_apply,
    out_block_apply (normalised V c) t p q ⟨_, hn⟩ rfl]
  rfl

/-- What step t writes back is block t of `normalised`: its one store fills the whole 2000 x 200 buffer with
    the step's arithmetic of the three blocks. -/
theorem written_block_eq (c : Dev nD) (t : Fin cfg1.N) :
    (dat1 V c).flushed 3 t = ((cfg1.win 3).blk t).view.read (Elt Ideal) (normalised V c) := by
  show (cfg1.win 3).cut (grid1.coords t) ((dat1 V c).after 3 t) = _
  rw [after1_3]
  unfold out1_3
  rw [View.canon_unit_zero zero_offsets]
  simp only [View.ld_unit_zero (S := S2000x200) zero_offsets, View.ld_unit_zero (S := S1x200) zero_offsets]
  exact funext (written_block_apply V c t)

/-- An entry of the result array lies in step t's block iff each coordinate lies in the block's range on its axis. -/
theorem mem_out_block (t : Fin cfg1.N) (i : S100000x200.Idx) :
    i ∈ ((cfg1.win 3).blk t).view.set ↔ ∀ a : Fin 2, win1_3.index t a * S2000x200.size a ≤ (i a).val ∧ (i a).val < win1_3.index t a * S2000x200.size a + S2000x200.size a := by
  show i ∈ ((View.whole main_v95).slice (win1_3.rect t)).set ↔ _
  rw [View.set_slice_whole, Rect.mem_set_unit]
  exact Iff.rfl

/-- Every entry is written: row n lies in the block of step n / 2000, and a block spans all 200 columns. -/
theorem rows_covered (i : S100000x200.Idx) : ∃ t : Fin cfg1.N, (cfg1.win 3).flush t = true ∧ i ∈ ((cfg1.win 3).blk t).view.set := by
  have hi0 : (i 0).val < 100000 := (i 0).isLt
  have hi1 : (i 1).val < 200 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, e0, e1⟩ := block_indices t
  refine ⟨t, flush1_3 t, ?_⟩
  rw [mem_out_block]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 200 ≤ (i 1).val ∧ (i 1).val < win1_3.index t (1 : Fin 2) * 200 + 200; omega

/-- After the 50 steps the result array is `normalised`: each step wrote its block of it, and the blocks cover it. -/
theorem region1_array (c : Dev nD) : (dat1 V c).arrAt 3 cfg1.N = normalised V c :=
  (dat1 V c).arrAt_eq_of_cover 3 (normalised V c) (fun t _ => written_block_eq V c t) rows_covered

/-- THE LAYER'S VALUE at entry (n, j): tanh ((x[n, j] - mu[0, j]) * rsqrt (v[0, j] + eps)). -/
theorem region1_value (c : Dev nD) (n : Fin 100000) (j : Fin 200) :
    ((dat1 V c).arrAt 3 cfg1.N : Vec Ideal S100000x200 .f32) (ix2 n j)
      = Ideal.tanh ((cmb V c (ix2 n j) - mu V c (ix2 0 j)) * Ideal.rsqrt (vr V c (ix2 0 j) + Ideal.ofBits .f32 0x3727C5AC#32)) := by
  rw [region1_array]
  rfl

end Cert.KernelIdeal.KVal1

end
-- ==== Proof.KMid1.lean ====
/-
  The first layer's normalisation as the idealized kernel program computes it.  Between the two kernel regions of the
  layer the host divides the column sums and the column sums of squares by the number of rows (the constant
  100000), squares the mean and subtracts: the second region receives the combined messages, the column means and the
  column variances (mean of squares minus squared mean).  Read at an index, and given what the second region
  computes from its three arrays, the layer's output is `CompGcn.bnK` of the combined messages.
-/
import proofs.«412919_j56298431316644_2_alg».proof.Proof.KNames
import proofs.«412919_j56298431316644_2_alg».proof.Proof.BnEq
import proofs.«412919_j56298431316644_2_alg».proof.Proof.SpecDefs
import Idealize.ShloMosaic.Lib.IdealHost
import Idealize.ShloMosaic.Lib.ValueIdx
import Idealize.ShloMosaic.Lib.StableHlo.Run

set_option maxRecDepth 16384

noncomputable section

namespace Cert.KernelIdeal.KM1

open Cert.KernelIdeal Cert.KernelIdeal.Gen Cert.KernelIdeal.KN Idealize.ShloMosaic Idealize.ShloMosaic.TcCoe Idealize.SL.Sem
  Idealize.ShloMosaic.StableHlo Idealize.ShloMosaic.ValueIdx

variable (m : (ℓ : Loc nD τ sig) → Buf (Elt Ideal) ℓ) (ρ : Dev nD → PrngReg) (c : Dev nD)

/-! ## Names, at their array types -/

/-- What the first region leaves in its three output arrays: the combined messages, and two one-row arrays (the
    column sums and the column sums of squares, once the region's value is known). -/
abbrev comb1 : Vec Ideal S100000x200 .f32 := (dat0 (V11 m ρ) c).arrAt 7 cfg0.N
abbrev csum1 : Vec Ideal S1x200 .f32 := (dat0 (V11 m ρ) c).arrAt 8 cfg0.N
abbrev csq1 : Vec Ideal S1x200 .f32 := (dat0 (V11 m ρ) c).arrAt 9 cfg0.N

/-- The second region's three input arrays at entry contents `V`, and the output array it leaves. -/
abbrev r1in0 (V : (c : Dev nD) → (b : Ref sig .tc) → Buf (Elt Ideal) ((c : Thread nD τ).loc b)) (c : Dev nD) :
    Vec Ideal S100000x200 .f32 := V c (Pipeline.arrRef spec1 0)
abbrev r1in1 (V : (c : Dev nD) → (b : Ref sig .tc) → Buf (Elt Ideal) ((c : Thread nD τ).loc b)) (c : Dev nD) :
    Vec Ideal S1x200 .f32 := V c (Pipeline.arrRef spec1 1)
abbrev r1in2 (V : (c : Dev nD) → (b : Ref sig .tc) → Buf (Elt Ideal) ((c : Thread nD τ).loc b)) (c : Dev nD) :
    Vec Ideal S1x200 .f32 := V c (Pipeline.arrRef spec1 2)
abbrev r1out (V : (c : Dev nD) → (b : Ref sig .tc) → Buf (Elt Ideal) ((c : Thread nD τ).loc b)) (c : Dev nD) :
    Vec Ideal S100000x200 .f32 := (dat1 V c).arrAt 3 cfg1.N

/-! ## What the first region leaves, buffer by buffer -/

theorem W12_comb : (W12 m ρ c (Proc.devRef .tc main_v88_0) : Vec Ideal S100000x200 .f32) = comb1 m ρ c :=
  W12_arr m ρ c 7
theorem W12_sum : (W12 m ρ c (Proc.devRef .tc main_v88_1) : Vec Ideal S1x200 .f32) = csum1 m ρ c := W12_arr m ρ c 8
theorem W12_sq : (W12 m ρ c (Proc.devRef .tc main_v88_2) : Vec Ideal S1x200 .f32) = csq1 m ρ c := W12_arr m ρ c 9

/-! ## The host operations between the two regions, read at an index -/

/-- The row count, a scalar constant broadcast along a row, read at an index. -/
theorem nf_bcast (i : S1x200.Idx) :
    (broadcastInDim S1x200 ![] bcast_S_S1x200 (constant (F := Ideal) S_ .f32 0x47C35000#32) : Vec Ideal S1x200 .f32) i
      = Ideal.ofBits .f32 0x47C35000#32 :=
  (broadcastInDim_scalar_apply bcast_S_S1x200 _ i).trans (constant_apply _ _)

set_option maxHeartbeats 40000000 in
/-- The host operations do not write the combined messages. -/
theorem W13_comb : r1in0 (V13 m ρ) c = comb1 m ρ c := by
  have h : W13 m ρ c (Proc.devRef .tc main_v88_0) = W12 m ρ c (Proc.devRef .tc main_v88_0) := by
    dsimp only [W13, hostOps1]; after_results_simp
  exact h.trans (W12_arr m ρ c 7)

set_option maxHeartbeats 40000000 in
/-- The column mean: the column sum divided by the row count. -/
theorem W13_mean (j : Fin 200) :
    r1in1 (V13 m ρ) c (ix2 0 j) = Ideal.div (csum1 m ρ c (ix2 0 j)) (Ideal.ofBits .f32 0x47C35000#32) := by
  rw [← W12_sum m ρ c]
  show (W13 m ρ c (Proc.devRef .tc main_v90) : Vec Ideal S1x200 .f32) (ix2 0 j) = _
  dsimp only [W13, hostOps1]; after_results_simp
  simp only [hostDivf_apply]
  rw [nf_bcast (ix2 0 j)]

set_option maxHeartbeats 40000000 in
/-- The column variance: the mean of squares minus the squared mean. -/
theorem W13_var (j : Fin 200) :
    r1in2 (V13 m ρ) c (ix2 0 j)
      = Ideal.div (csq1 m ρ c (ix2 0 j)) (Ideal.ofBits .f32 0x47C35000#32)
        - Ideal.div (csum1 m ρ c (ix2 0 j)) (Ideal.ofBits .f32 0x47C35000#32)
          * Ideal.div (csum1 m ρ c (ix2 0 j)) (Ideal.ofBits .f32 0x47C35000#32) := by
  rw [← W12_sum m ρ c, ← W12_sq m ρ c]
  show (W13 m ρ c (Proc.devRef .tc main_v94) : Vec Ideal S1x200 .f32) (ix2 0 j) = _
  dsimp only [W13, hostOps1]; after_results_simp
  simp only [subf_apply, mulf_apply, hostDivf_apply]
  rw [nf_bcast (ix2 0 j)]

/-! ## Buffers the layer does not touch

Neither region of the layer has these buffers among its arrays and the host operations between the regions do not
write them: at the second region's exit they hold what they held at the first region's entry. -/

/-- A buffer that is no array of either region and that the host operations between them leave alone is carried
    across the layer. -/
theorem W14_keep (b : Ref sig .tc) (h1 : ∀ w, Pipeline.arrRef spec1 w ≠ b) (h0 : ∀ w, Pipeline.arrRef spec0 w ≠ b)
    (hh : W13 m ρ c (Proc.devRef .tc b) = W12 m ρ c (Proc.devRef .tc b)) :
    W14 m ρ c (Proc.devRef .tc b) = W11 m ρ c (Proc.devRef .tc b) :=
  (W14_of_ne m ρ c b h1).trans (hh.trans (W12_of_ne m ρ c b h0))

set_option maxHeartbeats 40000000 in
/-- Nine of the program's arguments and one host result's buffer, which later stretches still read: each is
    carried across the first layer. -/
theorem W14_keep_of_mem (b : Ref sig .tc)
    (hb : b ∈ [main_arg5, main_arg7, main_arg8, main_arg9, main_arg10, main_arg11, main_arg12, main_arg13, main_arg14,
      main_v0]) :
    W14 m ρ c (Proc.devRef .tc b) = W11 m ρ c (Proc.devRef .tc b) := by
  simp only [List.mem_cons, List.not_mem_nil, or_false] at hb
  rcases hb with rfl | rfl | rfl | rfl | rfl | rfl | rfl | rfl | rfl | rfl <;>
    exact W14_keep m ρ c _ (by decide) (by decide) (by dsimp only [W13, hostOps1]; after_results_simp)

/-! ## The layer's output -/

/-- The layer's output at `(n, j)`, given the second region's value at an index (`hreg1`) and that the first region's
    second and third outputs are the column sums and the column sums of squares of its first (`hS`, `hQ`). -/
theorem x1out_eq
    (hreg1 : ∀ (V : (c : Dev nD) → (b : Ref sig .tc) → Buf (Elt Ideal) ((c : Thread nD τ).loc b)) (c : Dev nD)
      (n : Fin 100000) (j : Fin 200),
      r1out V c (ix2 n j)
        = Ideal.tanh ((r1in0 V c (ix2 n j) - r1in1 V c (ix2 0 j))
            * Ideal.rsqrt (r1in2 V c (ix2 0 j) + Ideal.ofBits .f32 0x3727C5AC#32)))
    (hS : ∀ j : Fin 200, csum1 m ρ c (ix2 0 j) = ∑ n : Fin 100000, comb1 m ρ c (ix2 n j))
    (hQ : ∀ j : Fin 200, csq1 m ρ c (ix2 0 j) = ∑ n : Fin 100000, comb1 m ρ c (ix2 n j) * comb1 m ρ c (ix2 n j)) :
    ∀ (n : Fin 100000) (j : Fin 200), x1out m ρ c (ix2 n j)
      = CompGcn.bnK (fun n j => comb1 m ρ c (ix2 n j)) (Ideal.ofBits .f32 0x47C35000#32)
          (Ideal.ofBits .f32 0x3727C5AC#32) n j := by
  intro n j
  have hx : x1out m ρ c = r1out (V13 m ρ) c := W14_arr m ρ c 3
  rw [hx, hreg1 (V13 m ρ) c n j, W13_comb m ρ c, W13_mean m ρ c j, W13_var m ρ c j, hS j, hQ j]
  rfl

end Cert.KernelIdeal.KM1

end
-- ==== Proof.KHost1A.lean ====
/-
  Layer 1 of the idealized kernel program, the host operations before its first kernel region, read at an index.
  This module: facts about words, masks, broadcasts and slices that do not mention the program; the launch's edge
  arrays and the two range hypotheses on them; and, for the in-edges and the out-edges, the aggregate as a scatter-add
  of the two selected row gathers' product, and each selected gather as a select under its range mask.
-/
import proofs.«412919_j56298431316644_2_alg».proof.Proof.KNames
import Idealize.ShloMosaic.Lib.ValueIdx
import Idealize.ShloMosaic.Lib.ValueLayout
import Idealize.ShloMosaic.Lib.IdealHost
import Idealize.ShloMosaic.Lib.Affine
import Idealize.ShloMosaic.PureOps.Reduce
import Idealize.ShloMosaic.Lib.Pipeline.Value

set_option maxRecDepth 16384

noncomputable section

namespace Cert.KernelIdeal.KH1

open Cert.KernelIdeal Cert.KernelIdeal.Gen Cert.KernelIdeal.KN Idealize.ShloMosaic Idealize.ShloMosaic.TcCoe Idealize.SL.Sem Idealize.ShloMosaic.StableHlo
open Idealize.ShloMosaic.ValueIdx

/-! ## Words and masks: facts that do not mention the program -/

section Pure

/-- A left fold by `and` from 1 over one-bit words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    have h1 : IntOp.andi 1#1 1#1 = 1#1 := by decide
    rw [List.foldl_cons, hf a, h1]
    exact foldl_andi_one f hf l

/-- A reduction by `and` of an array of ones from the initial value one is one at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_one x hx _

/-- A word that is not negative is not wrapped: `select (w < 0) (w + N) w = w`. -/
theorem wrap_of_nonneg (w cN : BitVec 32) (h : 0 ≤ w.toInt) :
    Scalar.select (IntOp.cmpi .slt w 0#32) (IntOp.addi w cN) w = w := by
  refine if_neg fun hc => ?_
  have h1 : w.toInt < (0#32 : BitVec 32).toInt := IntOp.cmpi_slt.1 hc
  have h2 : (0#32 : BitVec 32).toInt = 0 := by decide
  omega

/-- The range mask of a row gather by `jnp.take`: where every index word lies in `[0, cM]`, the wrapped index is the
    index, both comparisons hold, their conjunction reduced along the unit axis is one, and so is its broadcast along
    the rows. Stated over the printed chain; the shapes' side conditions are arguments. -/
theorem take_mask_one {E D : ℕ} (idx : IVec ⟨1, ![E]⟩ 32) (cN cM : BitVec 32)
    (h0 : (⟨0, ![]⟩ : Shape).BroadcastsInDim ⟨1, ![E]⟩ ![])
    (h5 : (⟨1, ![E]⟩ : Shape).BroadcastsInDim ⟨2, ![E, 1]⟩ ![0])
    (h6 : (⟨0, ![]⟩ : Shape).BroadcastsInDim ⟨2, ![E, 1]⟩ ![])
    (h8 : (⟨1, ![1]⟩ : Shape).BroadcastsInDim ⟨2, ![1, 1]⟩ ![1])
    (h9 : (⟨2, ![1, 1]⟩ : Shape).BroadcastsInDim ⟨2, ![E, 1]⟩ ![0, 1])
    (hr : (⟨2, ![E, 1]⟩ : Shape).ReducesTo [1] ⟨1, ![E]⟩) (hu : 0 < (⟨0, ![]⟩ : Shape).numel)
    (h14 : (⟨1, ![E]⟩ : Shape).BroadcastsInDim ⟨2, ![E, D]⟩ ![0])
    (hlo : ∀ i, 0 ≤ (idx i).toInt) (hhi : ∀ i, (idx i).toInt ≤ cM.toInt) (j : (⟨2, ![E, D]⟩ : Shape).Idx) :
    broadcastInDim ⟨2, ![E, D]⟩ ![0] h14
      (Host.reduce IntOp.andi
        (andi
          (cmpi .sge
            (broadcastInDim ⟨2, ![E, 1]⟩ ![0] h5
              (select (cmpi .slt idx (broadcastInDim ⟨1, ![E]⟩ ![] h0 (constantI ⟨0, ![]⟩ 32 0#32)))
                (addi idx (broadcastInDim ⟨1, ![E]⟩ ![] h0 (constantI ⟨0, ![]⟩ 32 cN))) idx))
            (broadcastInDim ⟨2, ![E, 1]⟩ ![] h6 (constantI ⟨0, ![]⟩ 32 0#32)))
          (cmpi .sle
            (broadcastInDim ⟨2, ![E, 1]⟩ ![0] h5
              (select (cmpi .slt idx (broadcastInDim ⟨1, ![E]⟩ ![] h0 (constantI ⟨0, ![]⟩ 32 0#32)))
                (addi idx (broadcastInDim ⟨1, ![E]⟩ ![] h0 (constantI ⟨0, ![]⟩ 32 cN))) idx))
            (broadcastInDim ⟨2, ![E, 1]⟩ ![0, 1] h9 (broadcastInDim ⟨2, ![1, 1]⟩ ![1] h8 (constantI ⟨1, ![1]⟩ 32 cM)))))
        (constantI ⟨0, ![]⟩ 1 1#1) hr hu) j = 1#1 := by
  unfold broadcastInDim
  refine reduce_andi_one _ _ hr hu (fun i => ?_) (fun _ => rfl) _
  refine IntOp.andi_eq_one.2 ⟨?_, ?_⟩
  · refine IntOp.cmpi_sge.2 ?_
    show (0#32 : BitVec 32).toInt ≤ (Scalar.select (IntOp.cmpi .slt (idx _) 0#32) (IntOp.addi (idx _) cN) (idx _)).toInt
    rw [wrap_of_nonneg _ _ (hlo _)]
    have h2 : (0#32 : BitVec 32).toInt = 0 := by decide
    rw [h2]; exact hlo _
  · refine IntOp.cmpi_sle.2 ?_
    show (Scalar.select (IntOp.cmpi .slt (idx _) 0#32) (IntOp.addi (idx _) cN) (idx _)).toInt ≤ cM.toInt
    rw [wrap_of_nonneg _ _ (hlo _)]
    exact hhi _

/-- A vector laid down the rows of a one-column matrix reads, at row `e`, the vector at `e`. -/
theorem bcast_col_apply {α : Type} {E : ℕ} (hE : E ≠ 1) (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) :=
  broadcastInDim_apply _ h v _ (ix1 e) (fun a => by
    match a with
    | ⟨0, _⟩ => exact (if_neg hE).symm)

/-- The same vector laid along every row of an `E × D` matrix (through the one-column matrix) reads, at `(e, k)`, the vector at `e`. -/
theorem bcast_rows_apply {α : Type} {E D : ℕ} (hE : E ≠ 1) (h1 : (⟨1, ![E]⟩ : Shape).BroadcastsInDim ⟨2, ![E, 1]⟩ ![0])
    (h2 : (⟨2, ![E, 1]⟩ : Shape).BroadcastsInDim ⟨2, ![E, D]⟩ ![0, 1]) (v : (⟨1, ![E]⟩ : Shape).Idx → α) (e : Fin E) (k : Fin D) :
    broadcastInDim ⟨2, ![E, D]⟩ ![0, 1] h2 (broadcastInDim ⟨2, ![E, 1]⟩ ![0] h1 v) (ix2 e k) = v (ix1 e) := by
  rw [broadcastInDim_apply _ h2 _ (ix2 e k) (ix2 e (0 : Fin 1)) (fun a => by
    match a with
    | ⟨0, _⟩ => exact (if_neg hE).symm
    | ⟨1, _⟩ => exact (if_pos rfl).symm)]
  exact bcast_col_apply hE h1 v e 0

/-- Row `r` of the half of a `2 × 800000` table that starts at column `o`, as a vector: entry `i` is the table at `(r, o + i)`. -/
theorem half_row_apply {α : Type} (X : (⟨2, ![2, 800000]⟩ : Shape).Idx → α) (o r : ℕ) (rr : Fin 2) (hr : rr.val = r)
    (ho : o + 400000 ≤ 800000)
    (h1 : (⟨2, ![2, 800000]⟩ : Shape).Slices ![0, o] ⟨2, ![2, 400000]⟩)
    (h2 : (⟨2, ![2, 400000]⟩ : Shape).Slices ![r, 0] ⟨2, ![1, 400000]⟩)
    (h3 : (⟨2, ![1, 400000]⟩ : Shape).ShapeCasts ⟨1, ![400000]⟩) (i : (⟨1, ![400000]⟩ : Shape).Idx) :
    shapeCast ⟨1, ![400000]⟩
        (extractStridedSlice ⟨2, ![1, 400000]⟩ ![r, 0] (extractStridedSlice ⟨2, ![2, 400000]⟩ ![0, o] X h1) h2) h3 i
      = X (ix2 rr ⟨o + (i 0).val, Nat.lt_of_lt_of_le (Nat.add_lt_add_left (i 0).isLt o) ho⟩) := by
  obtain ⟨e, rfl⟩ : ∃ e : Fin 400000, i = ix1 e := ⟨i 0, eq_ix1 i⟩
  rw [shapeCast_1a_a_apply, slice2_axis0_apply r _ h2 0 e rr (by rw [hr]; rfl),
    slice2_axis1_apply o X h1 rr e ⟨o + e.val, Nat.lt_of_lt_of_le (Nat.add_lt_add_left e.isLt o) ho⟩ rfl]

/-- The half of a vector of 800000 entries that starts at `o`: entry `i` is the vector at `o + i`. -/
theorem half_vec_apply {α : Type} (X : (⟨1, ![800000]⟩ : Shape).Idx → α) (o : ℕ) (ho : o + 400000 ≤ 800000)
    (h : (⟨1, ![800000]⟩ : Shape).Slices ![o] ⟨1, ![400000]⟩) (i : (⟨1, ![400000]⟩ : Shape).Idx) :
    extractStridedSlice ⟨1, ![400000]⟩ ![o] X h i
      = X (ix1 ⟨o + (i 0).val, Nat.lt_of_lt_of_le (Nat.add_lt_add_left (i 0).isLt o) ho⟩) :=
  extractStridedSlice_apply _ X h i _ (fun a => by
    match a with
    | ⟨0, _⟩ => rfl)

end Pure

variable (m : (ℓ : Loc nD τ sig) → Buf (Elt Ideal) ℓ) (ρ : Dev nD → PrngReg) (c : Dev nD)

/-- Contents carried into a buffer's own type and back out are the contents. -/
theorem ofBuf_toBuf {Val : EltTy → Type} {T : BufTy} (r : Ref sig .tc) (h h' : r.ty = T) (d d' : r.space ≠ .host)
    (u u' : r.isScoped = false) (v : T.Contents Val) :
    (TRef.of r h d u).ofBuf ((TRef.of r h' d' u').toBuf v) = v := by
  subst h; rfl

/-! ## The launch's edge arrays and the range hypotheses -/

/-- The edge list as launched (row 0 the sources, row 1 the targets) and the edge types. -/
abbrev edgeIndex : IVec S2x800000 32 := m ((c.tc : Thread nD τ).loc main_arg12)
abbrev edgeType : IVec S800000 32 := m ((c.tc : Thread nD τ).loc main_arg13)

/-- Every source node index is a node; every edge type is a row of the relation table with the self-loop row appended. -/
def SrcInRange : Prop := ∀ e : Fin 800000, 0 ≤ (edgeIndex m c (ix2 (0 : Fin 2) e)).toInt ∧ (edgeIndex m c (ix2 (0 : Fin 2) e)).toInt < 100000
def TypeInRange : Prop := ∀ e : Fin 800000, 0 ≤ (edgeType m c (ix1 e)).toInt ∧ (edgeType m c (ix1 e)).toInt < 401

/-! ## In-edges -/

/-- The two row gathers after their range selects (the two factors of an edge's message), the selects' masks and fills,
    and the index vectors the two gathers are called with (the edges' sources, the edges' types). -/
abbrev selXIn1 : FVec Ideal S400000x200 .f32 := W11 m ρ c (Proc.devRef .tc main_v37)
abbrev selRIn1 : FVec Ideal S400000x200 .f32 := W11 m ρ c (Proc.devRef .tc main_v38)
abbrev mskXIn1 : IVec S400000x200 1 := (TRef.of main_call1_v14 : TRef sig ⟨S400000x200, .i1⟩).ofBuf (W11 m ρ c (Proc.devRef .tc main_call1_v14))
abbrev mskRIn1 : IVec S400000x200 1 := (TRef.of main_call2_v14 : TRef sig ⟨S400000x200, .i1⟩).ofBuf (W11 m ρ c (Proc.devRef .tc main_call2_v14))
abbrev fillXIn1 : FVec Ideal S400000x200 .f32 := (TRef.of main_call1_v15 : TRef sig ⟨S400000x200, .f32⟩).ofBuf (W11 m ρ c (Proc.devRef .tc main_call1_v15))
abbrev fillRIn1 : FVec Ideal S400000x200 .f32 := (TRef.of main_call2_v15 : TRef sig ⟨S400000x200, .f32⟩).ofBuf (W11 m ρ c (Proc.devRef .tc main_call2_v15))
abbrev srcIn1 : IVec S400000 32 := (TRef.of main_v6 : TRef sig ⟨S400000, .i32⟩).ofBuf (W3 m ρ c (Proc.devRef .tc main_v6))
abbrev typIn1 : IVec S400000 32 := (TRef.of main_v3 : TRef sig ⟨S400000, .i32⟩).ofBuf (W4 m ρ c (Proc.devRef .tc main_v3))

set_option maxHeartbeats 4000000 in
/-- The aggregate is the scatter-add, onto zeros at the target rows, of the two selected gathers' product scaled by the
    edge's normalisation. -/
theorem stage_aggIn1 : (aggIn1 m ρ c : FVec Ideal S100000x200 .f32)
    = Host.scatterAdd (F := Ideal) scatter_S100000x200_S400000x1_S400000x200_1_0_0_1
        (broadcastInDim S100000x200 ![] bcast_S_S100000x200 (constant S_ .f32 0x00000000#32))
        (broadcastInDim S400000x1 ![0] bcast_S400000_S400000x1_0 (dstIn1 m ρ c))
        (mulf (F := Ideal) (mulf (F := Ideal) (selXIn1 m ρ c) (selRIn1 m ρ c))
          (broadcastInDim S400000x200 ![0, 1] bcast_S400000x1_S400000x200_0_1
            (broadcastInDim S400000x1 ![0] bcast_S400000_S400000x1_0 (nuIn1 m ρ c : FVec Ideal S400000 .f32)))) := by
  dsimp only [aggIn1, dstIn1, selXIn1, selRIn1, nuIn1, W11, hostOps0_10]
  after_results_simp

set_option maxHeartbeats 4000000 in
theorem stage_selXIn1 : selXIn1 m ρ c
    = (TRef.of main_v37 : TRef sig ⟨S400000x200, .f32⟩).toBuf
        (select (mskXIn1 m ρ c) ((TRef.of main_call1_v13 : TRef sig ⟨S400000x200, .f32⟩).ofBuf (xsIn1 m ρ c)) (fillXIn1 m ρ c)) := by
  dsimp only [selXIn1, mskXIn1, xsIn1, fillXIn1, W11, hostOps0_10]
  after_results_simp

set_option maxHeartbeats 4000000 in
theorem stage_selRIn1 : selRIn1 m ρ c
    = (TRef.of main_v38 : TRef sig ⟨S400000x200, .f32⟩).toBuf
        (select (mskRIn1 m ρ c) ((TRef.of main_call2_v13 : TRef sig ⟨S400000x200, .f32⟩).ofBuf (rsIn1 m ρ c)) (fillRIn1 m ρ c)) := by
  dsimp only [selRIn1, mskRIn1, rsIn1, fillRIn1, W11, hostOps0_10]
  after_results_simp

/-! ## Out-edges -/

/-- The two row gathers after their range selects (the two factors of an edge's message), the selects' masks and fills,
    and the index vectors the two gathers are called with (the edges' sources, the edges' types). -/
abbrev selXOut1 : FVec Ideal S400000x200 .f32 := W11 m ρ c (Proc.devRef .tc main_v78)
abbrev selROut1 : FVec Ideal S400000x200 .f32 := W11 m ρ c (Proc.devRef .tc main_v79)
abbrev mskXOut1 : IVec S400000x200 1 := (TRef.of main_call4_v14 : TRef sig ⟨S400000x200, .i1⟩).ofBuf (W11 m ρ c (Proc.devRef .tc main_call4_v14))
abbrev mskROut1 : IVec S400000x200 1 := (TRef.of main_call5_v14 : TRef sig ⟨S400000x200, .i1⟩).ofBuf (W11 m ρ c (Proc.devRef .tc main_call5_v14))
abbrev fillXOut1 : FVec Ideal S400000x200 .f32 := (TRef.of main_call4_v15 : TRef sig ⟨S400000x200, .f32⟩).ofBuf (W11 m ρ c (Proc.devRef .tc main_call4_v15))
abbrev fillROut1 : FVec Ideal S400000x200 .f32 := (TRef.of main_call5_v15 : TRef sig ⟨S400000x200, .f32⟩).ofBuf (W11 m ρ c (Proc.devRef .tc main_call5_v15))
abbrev srcOut1 : IVec S400000 32 := (TRef.of main_v47 : TRef sig ⟨S400000, .i32⟩).ofBuf (W8 m ρ c (Proc.devRef .tc main_v47))
abbrev typOut1 : IVec S400000 32 := (TRef.of main_v4 : TRef sig ⟨S400000, .i32⟩).ofBuf (W9 m ρ c (Proc.devRef .tc main_v4))

set_option maxHeartbeats 4000000 in
/-- The aggregate is the scatter-add, onto zeros at the target rows, of the two selected gathers' product scaled by the
    edge's normalisation. -/
theorem stage_aggOut1 : (aggOut1 m ρ c : FVec Ideal S100000x200 .f32)
    = Host.scatterAdd (F := Ideal) scatter_S100000x200_S400000x1_S400000x200_1_0_0_1
        (broadcastInDim S100000x200 ![] bcast_S_S100000x200 (constant S_ .f32 0x00000000#32))
        (broadcastInDim S400000x1 ![0] bcast_S400000_S400000x1_0 (dstOut1 m ρ c))
        (mulf (F := Ideal) (mulf (F := Ideal) (selXOut1 m ρ c) (selROut1 m ρ c))
          (broadcastInDim S400000x200 ![0, 1] bcast_S400000x1_S400000x200_0_1
            (broadcastInDim S400000x1 ![0] bcast_S400000_S400000x1_0 (nuOut1 m ρ c : FVec Ideal S400000 .f32)))) := by
  dsimp only [aggOut1, dstOut1, selXOut1, selROut1, nuOut1, W11, hostOps0_10]
  after_results_simp

set_option maxHeartbeats 4000000 in
theorem stage_selXOut1 : selXOut1 m ρ c
    = (TRef.of main_v78 : TRef sig ⟨S400000x200, .f32⟩).toBuf
        (select (mskXOut1 m ρ c) ((TRef.of main_call4_v13 : TRef sig ⟨S400000x200, .f32⟩).ofBuf (xsOut1 m ρ c)) (fillXOut1 m ρ c)) := by
  dsimp only [selXOut1, mskXOut1, xsOut1, fillXOut1, W11, hostOps0_10]
  after_results_simp

set_option maxHeartbeats 4000000 in
theorem stage_selROut1 : selROut1 m ρ c
    = (TRef.of main_v79 : TRef sig ⟨S400000x200, .f32⟩).toBuf
        (select (mskROut1 m ρ c) ((TRef.of main_call5_v13 : TRef sig ⟨S400000x200, .f32⟩).ofBuf (rsOut1 m ρ c)) (fillROut1 m ρ c)) := by
  dsimp only [selROut1, mskROut1, rsOut1, fillROut1, W11, hostOps0_10]
  after_results_simp

end Cert.KernelIdeal.KH1

end
-- ==== Proof.KHost1B.lean ====
/-
  Layer 1 of the idealized kernel program: the index vectors the two row gathers are called with are halves of the
  launched edge list and edge types, so under the range hypotheses every index is in range and the gathers' range
  masks are one at every entry.
-/
import proofs.«412919_j56298431316644_2_alg».proof.Proof.KHost1A

set_option maxRecDepth 16384

noncomputable section

namespace Cert.KernelIdeal.KH1

open Cert.KernelIdeal Cert.KernelIdeal.Gen Cert.KernelIdeal.KN Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)
set_option maxHeartbeats 4000000 in
/-- The source index vector is a row of a half of the launched edge list, so every entry is a node. -/
theorem srcIn1_bounds (hsrc : SrcInRange m c) (i : S400000.Idx) :
    0 ≤ (srcIn1 m ρ c i).toInt ∧ (srcIn1 m ρ c i).toInt ≤ (99999#32 : BitVec 32).toInt := by
  have h9 : (99999#32 : BitVec 32).toInt = 99999 := by decide
  have e : srcIn1 m ρ c i = edgeIndex m c (ix2 (0 : Fin 2)
      ⟨0 + (i 0).val, Nat.lt_of_lt_of_le (Nat.add_lt_add_left (i 0).isLt 0) (by decide)⟩) := by
    dsimp only [srcIn1, W3, hostOps0_2]
    after_results_simp
    simp only [cast_eq]
    exact half_row_apply _ 0 0 0 rfl (by decide) _ _ _ i
  rw [e]
  have h := hsrc ⟨0 + (i 0).val, Nat.lt_of_lt_of_le (Nat.add_lt_add_left (i 0).isLt 0) (by decide)⟩
  exact ⟨h.1, by rw [h9]; omega⟩

set_option maxHeartbeats 4000000 in
/-- The type index vector is a half of the launched edge types, so every entry is a row of the relation table. -/
theorem typIn1_bounds (het : TypeInRange m c) (i : S400000.Idx) :
    0 ≤ (typIn1 m ρ c i).toInt ∧ (typIn1 m ρ c i).toInt ≤ (400#32 : BitVec 32).toInt := by
  have h4 : (400#32 : BitVec 32).toInt = 400 := by decide
  have e : typIn1 m ρ c i = edgeType m c (ix1
      ⟨0 + (i 0).val, Nat.lt_of_lt_of_le (Nat.add_lt_add_left (i 0).isLt 0) (by decide)⟩) := by
    dsimp only [typIn1, W4, hostOps0_3]
    after_results_simp
    simp only [cast_eq]
    exact half_vec_apply _ 0 (by decide) _ i
  rw [e]
  have h := het ⟨0 + (i 0).val, Nat.lt_of_lt_of_le (Nat.add_lt_add_left (i 0).isLt 0) (by decide)⟩
  exact ⟨h.1, by rw [h4]; omega⟩

set_option maxHeartbeats 4000000 in
/-- Every source index lies in the node range, so the node gather's range mask is one everywhere. -/
theorem mskXIn1_one (hsrc : SrcInRange m c) (j : S400000x200.Idx) : mskXIn1 m ρ c j = 1#1 := by
  have hs : ∀ i : S400000.Idx,
      0 ≤ (srcIn1 m ρ c i).toInt ∧ (srcIn1 m ρ c i).toInt ≤ (99999#32 : BitVec 32).toInt :=
    fun i => srcIn1_bounds m ρ c hsrc i
  revert hs
  dsimp only [srcIn1, mskXIn1, W3, hostOps0_2, W11, hostOps0_10]
  after_results_simp
  simp only [ofBuf_toBuf]
  intro hs
  set_option maxHeartbeats 400000 in
  exact take_mask_one _ _ _ _ _ _ _ _ _ _ _ (fun i => (hs i).1) (fun i => (hs i).2) j

set_option maxHeartbeats 4000000 in
/-- Every edge type lies in the relation table's range, so the relation gather's range mask is one everywhere. -/
theorem mskRIn1_one (het : TypeInRange m c) (j : S400000x200.Idx) : mskRIn1 m ρ c j = 1#1 := by
  have hs : ∀ i : S400000.Idx,
      0 ≤ (typIn1 m ρ c i).toInt ∧ (typIn1 m ρ c i).toInt ≤ (400#32 : BitVec 32).toInt :=
    fun i => typIn1_bounds m ρ c het i
  revert hs
  dsimp only [typIn1, mskRIn1, W4, hostOps0_3, W11, hostOps0_10]
  after_results_simp
  simp only [ofBuf_toBuf]
  intro hs
  set_option maxHeartbeats 400000 in
  exact take_mask_one _ _ _ _ _ _ _ _ _ _ _ (fun i => (hs i).1) (fun i => (hs i).2) j

set_option maxHeartbeats 4000000 in
/-- The source index vector is a row of a half of the launched edge list, so every entry is a node. -/
theorem srcOut1_bounds (hsrc : SrcInRange m c) (i : S400000.Idx) :
    0 ≤ (srcOut1 m ρ c i).toInt ∧ (srcOut1 m ρ c i).toInt ≤ (99999#32 : BitVec 32).toInt := by
  have h9 : (99999#32 : BitVec 32).toInt = 99999 := by decide
  have e : srcOut1 m ρ c i = edgeIndex m c (ix2 (0 : Fin 2)
      ⟨400000 + (i 0).val, Nat.lt_of_lt_of_le (Nat.add_lt_add_left (i 0).isLt 400000) (by decide)⟩) := by
    dsimp only [srcOut1, W8, hostOps0_7]
    after_results_simp
    simp only [cast_eq]
    exact half_row_apply _ 400000 0 0 rfl (by decide) _ _ _ i
  rw [e]
  have h := hsrc ⟨400000 + (i 0).val, Nat.lt_of_lt_of_le (Nat.add_lt_add_left (i 0).isLt 400000) (by decide)⟩
  exact ⟨h.1, by rw [h9]; omega⟩

set_option maxHeartbeats 4000000 in
/-- The type index vector is a half of the launched edge types, so every entry is a row of the relation table. -/
theorem typOut1_bounds (het : TypeInRange m c) (i : S400000.Idx) :
    0 ≤ (typOut1 m ρ c i).toInt ∧ (typOut1 m ρ c i).toInt ≤ (400#32 : BitVec 32).toInt := by
  have h4 : (400#32 : BitVec 32).toInt = 400 := by decide
  have e : typOut1 m ρ c i = edgeType m c (ix1
      ⟨400000 + (i 0).val, Nat.lt_of_lt_of_le (Nat.add_lt_add_left (i 0).isLt 400000) (by decide)⟩) := by
    dsimp only [typOut1, W9, hostOps0_8]
    after_results_simp
    simp only [cast_eq]
    exact half_vec_apply _ 400000 (by decide) _ i
  rw [e]
  have h := het ⟨400000 + (i 0).val, Nat.lt_of_lt_of_le (Nat.add_lt_add_left (i 0).isLt 400000) (by decide)⟩
  exact ⟨h.1, by rw [h4]; omega⟩

set_option maxHeartbeats 4000000 in
/-- Every source index lies in the node range, so the node gather's range mask is one everywhere. -/
theorem mskXOut1_one (hsrc : SrcInRange m c) (j : S400000x200.Idx) : mskXOut1 m ρ c j = 1#1 := by
  have hs : ∀ i : S400000.Idx,
      0 ≤ (srcOut1 m ρ c i).toInt ∧ (srcOut1 m ρ c i).toInt ≤ (99999#32 : BitVec 32).toInt :=
    fun i => srcOut1_bounds m ρ c hsrc i
  revert hs
  dsimp only [srcOut1, mskXOut1, W8, hostOps0_7, W11, hostOps0_10]
  after_results_simp
  simp only [ofBuf_toBuf]
  intro hs
  set_option maxHeartbeats 400000 in
  exact take_mask_one _ _ _ _ _ _ _ _ _ _ _ (fun i => (hs i).1) (fun i => (hs i).2) j

set_option maxHeartbeats 4000000 in
/-- Every edge type lies in the relation table's range, so the relation gather's range mask is one everywhere. -/
theorem mskROut1_one (het : TypeInRange m c) (j : S400000x200.Idx) : mskROut1 m ρ c j = 1#1 := by
  have hs : ∀ i : S400000.Idx,
      0 ≤ (typOut1 m ρ c i).toInt ∧ (typOut1 m ρ c i).toInt ≤ (400#32 : BitVec 32).toInt :=
    fun i => typOut1_bounds m ρ c het i
  revert hs
  dsimp only [typOut1, mskROut1, W9, hostOps0_8, W11, hostOps0_10]
  after_results_simp
  simp only [ofBuf_toBuf]
  intro hs
  set_option maxHeartbeats 400000 in
  exact take_mask_one _ _ _ _ _ _ _ _ _ _ _ (fun i => (hs i).1) (fun i => (hs i).2) j

end Cert.KernelIdeal.KH1

end
-- ==== Proof.LibScatterAddRows.lean ====
import Idealize.ShloMosaic.PureOps.Ideal
import Idealize.ShloMosaic.PureOps.Dims
import Idealize.ShloMosaic.Lib.ValueIdx

open scoped BigOperators

namespace Idealize.ShloMosaic.ScatterRows

open Idealize.ShloMosaic Idealize.ShloMosaic.ValueIdx

/-! ## The host scatter-add at the ideal instance -/

/-- At the ideal instance the host's accumulating float scatter is the exact sum
    `Ideal.hostScatterAdd`: each operand element plus the updates that land on it. -/
@[simp] theorem host_scatterAdd_ideal {φ : FTy} {s si u : Shape} {w : Nat} (d : ScatterDims s si u)
    (x : FVec Ideal s φ) (idx : IVec si w) (upd : FVec Ideal u φ) :
    Host.scatterAdd d x idx upd = Ideal.hostScatterAdd d x idx upd := rfl

/-! ## Finiteness -/

/-- A finite sum of real numbers, each read as an extended real, is the real sum read as an extended real. -/
theorem coe_finset_sum {ι : Type*} (S : Finset ι) (f : ι → ℝ) :
    (∑ j ∈ S, ((f j : ℝ) : EReal)) = ((∑ j ∈ S, f j : ℝ) : EReal) := by
  classical
  induction S using Finset.induction_on with
  | empty => simp
  | insert a S ha ih => rw [Finset.sum_insert ha, Finset.sum_insert ha, ih, EReal.coe_add]

/-- The scatter-add of real numbers is a real number: where the operand element and every update element
    are real, the result element is the operand's real plus a finite sum of reals. Any dimension numbers,
    any shapes. -/
theorem hostScatterAdd_real {s si su : Shape} (d : ScatterDims s si su) {w : Nat} (x : s.Idx → EReal)
    (idx : IVec si w) (u : su.Idx → EReal) (i : s.Idx) (hx : ∃ r : ℝ, x i = (r : EReal))
    (hu : ∀ j, ∃ r : ℝ, u j = (r : EReal)) : ∃ r : ℝ, Ideal.hostScatterAdd d x idx u i = (r : EReal) := by
  obtain ⟨r, hr⟩ := hx
  choose f hf using hu
  refine ⟨r + ∑ j ∈ Finset.univ.filter (fun j => d.resultIdx? j idx = some i), f j, ?_⟩
  unfold Ideal.hostScatterAdd
  rw [hr, EReal.coe_add, ← coe_finset_sum]
  congr 1
  exact Finset.sum_congr rfl fun j _ => hf j

/-! ## A row scatter read at one element

  The operand has rows `n < N` of `D` elements, the updates rows `e < E` of `D` elements, and the scatter
  indices give each update row ONE start index (an `E × 1` array): update axis 1 is the window, operand axis 0
  is inserted and is the one the start index names. -/

section rows
variable {N E D w : Nat} (d : ScatterDims ⟨2, ![N, D]⟩ ⟨2, ![E, 1]⟩ ⟨2, ![E, D]⟩)
  (h1 : d.updateWindowDims = [1]) (h2 : d.insertedWindowDims = [0])
  (h3 : d.scatterDimsToOperandDims = [0]) (h4 : d.indexVectorDim = 1)
include h1 h2 h3 h4

/-- On the operand's row axis the window starts at update row `q 0`'s start index, read signed. -/
theorem start_row (q : (⟨2, ![E, D]⟩ : Shape).Idx) (idx : IVec ⟨2, ![E, 1]⟩ w) :
    d.start q idx 0 = (idx (ix2 (q 0) ⟨0, Nat.one_pos⟩)).toInt := by
  obtain ⟨uw, iw, sd, iv, wf⟩ := d
  simp only at h1 h2 h3 h4
  subst h1 h2 h3 h4
  unfold ScatterDims.start
  rw [dif_pos (show (0 : Fin 2) ∈ ([0] : List (Fin 2)) by decide)]
  congr 2
  funext b
  match b with
  | ⟨0, _⟩ => rfl
  | ⟨1, _⟩ => rfl

/-- On the operand's column axis, which no start index names, the window starts at `0`. -/
theorem start_col (q : (⟨2, ![E, D]⟩ : Shape).Idx) (idx : IVec ⟨2, ![E, 1]⟩ w) :
    d.start q idx 1 = 0 := by
  obtain ⟨uw, iw, sd, iv, wf⟩ := d
  simp only at h1 h2 h3 h4
  subst h1 h2 h3 h4
  unfold ScatterDims.start
  rw [dif_neg (show (1 : Fin 2) ∉ ([0] : List (Fin 2)) by decide)]

/-- The operand's row axis is inserted: the window coordinate there is `0`. -/
theorem window_row (q : (⟨2, ![E, D]⟩ : Shape).Idx) : d.window q 0 = 0 := by
  obtain ⟨uw, iw, sd, iv, wf⟩ := d
  simp only at h1 h2 h3 h4
  subst h1 h2 h3 h4
  unfold ScatterDims.window
  exact dif_neg (show (0 : Fin 2) ∉ ([1] : List (Fin 2)) by decide)

/-- On the operand's column axis the window coordinate is the update's column. -/
theorem window_col (q : (⟨2, ![E, D]⟩ : Shape).Idx) : d.window q 1 = (q 1).val := by
  obtain ⟨uw, iw, sd, iv, wf⟩ := d
  simp only at h1 h2 h3 h4
  subst h1 h2 h3 h4
  unfold ScatterDims.window
  exact (dif_pos (show (1 : Fin 2) ∈ ([1] : List (Fin 2)) by decide)).trans rfl

/-- Update element `q = (e, j')` lands on operand element `i = (n, j)` exactly when row `e`'s start index,
    read signed, is `n`, and the columns agree. (A start index outside `[0, N)` lands nowhere.) -/
theorem resultIdx?_eq_some_iff (q : (⟨2, ![E, D]⟩ : Shape).Idx) (idx : IVec ⟨2, ![E, 1]⟩ w)
    (i : (⟨2, ![N, D]⟩ : Shape).Idx) :
    d.resultIdx? q idx = some i ↔
      (idx (ix2 (q 0) ⟨0, Nat.one_pos⟩)).toInt = ((i 0).val : ℤ) ∧ (q 1).val = (i 1).val := by
  have hs0 := start_row d h1 h2 h3 h4 q idx
  have hs1 := start_col d h1 h2 h3 h4 q idx
  have hw0 := window_row d h1 h2 h3 h4 q
  have hw1 := window_col d h1 h2 h3 h4 q
  have hi0 : (i 0).val < N := idx2_lt0 i
  have hi1 : (i 1).val < D := idx2_lt1 i
  unfold ScatterDims.resultIdx?
  split_ifs with h
  · have h0 := (h 0).1
    rw [hs0, hw0] at h0
    constructor
    · intro he
      have he' := Option.some.inj he
      have e0 : (d.start q idx 0 + (d.window q 0 : ℤ)).toNat = (i 0).val := congrArg (fun f => (f 0).val) he'
      have e1 : (d.start q idx 1 + (d.window q 1 : ℤ)).toNat = (i 1).val := congrArg (fun f => (f 1).val) he'
      rw [hs0, hw0] at e0
      rw [hs1, hw1] at e1
      constructor <;> omega
    · rintro ⟨e0, e1⟩
      congr 1
      funext a
      apply Fin.ext
      match a with
      | ⟨0, _⟩ =>
        show (d.start q idx 0 + (d.window q 0 : ℤ)).toNat = (i 0).val
        rw [hs0, hw0]; omega
      | ⟨1, _⟩ =>
        show (d.start q idx 1 + (d.window q 1 : ℤ)).toNat = (i 1).val
        rw [hs1, hw1]; omega
  · constructor
    · intro he; cases he
    · rintro ⟨e0, e1⟩
      exfalso
      apply h
      intro a
      match a with
      | ⟨0, _⟩ =>
        show 0 ≤ d.start q idx 0 + (d.window q 0 : ℤ) ∧ d.start q idx 0 + (d.window q 0 : ℤ) < (N : ℤ)
        rw [hs0, hw0]; omega
      | ⟨1, _⟩ =>
        show 0 ≤ d.start q idx 1 + (d.window q 1 : ℤ) ∧ d.start q idx 1 + (d.window q 1 : ℤ) < (D : ℤ)
        rw [hs1, hw1]; omega

/-- **A row scatter-add read at one element.** The result at `(n, j)` is the operand there plus the sum,
    over the update rows `e` whose start index read signed is `n`, of the update at `(e, j)`. -/
theorem scatterAdd_rows_apply (x : (⟨2, ![N, D]⟩ : Shape).Idx → EReal) (idx : IVec ⟨2, ![E, 1]⟩ w)
    (u : (⟨2, ![E, D]⟩ : Shape).Idx → EReal) (n : Fin N) (j : Fin D) :
    Ideal.hostScatterAdd d x idx u (ix2 n j) = x (ix2 n j) +
      ∑ e ∈ Finset.univ.filter (fun e : Fin E => (idx (ix2 e ⟨0, Nat.one_pos⟩)).toInt = (n.val : ℤ)),
        u (ix2 e j) := by
  unfold Ideal.hostScatterAdd
  congr 1
  rw [Finset.sum_filter, Finset.sum_filter, sum_idx2]
  refine Finset.sum_congr rfl fun e _ => ?_
  have key : ∀ j' : Fin D, (d.resultIdx? (ix2 e j') idx = some (ix2 n j)) ↔
      ((idx (ix2 e ⟨0, Nat.one_pos⟩)).toInt = (n.val : ℤ) ∧ j' = j) := by
    intro j'
    rw [resultIdx?_eq_some_iff d h1 h2 h3 h4]
    show ((idx (ix2 e ⟨0, Nat.one_pos⟩)).toInt = (n.val : ℤ) ∧ j'.val = j.val) ↔ _
    rw [Fin.ext_iff]
  simp only [key]
  by_cases hA : (idx (ix2 e ⟨0, Nat.one_pos⟩)).toInt = (n.val : ℤ)
  · simp only [hA, true_and, if_true]
    rw [Finset.sum_ite_eq' Finset.univ j (fun j' => u (ix2 e j'))]
    simp
  · simp only [hA, false_and, if_false]
    exact Finset.sum_const_zero

end rows

/-! ## A rank-1 scatter read at one element

  The operand is a vector of `N` elements, the updates a vector of `E` elements, and the scatter indices give
  each update ONE start index (an `E × 1` array): no window axis, the operand's one axis inserted and named by
  the start index. This is the count of the updates that name each operand element when the updates are ones. -/

/-- A rank-1 index set is its one coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let φ : (⟨1, ![n]⟩ : Shape).Idx ≃ Fin n :=
    { toFun := fun i => i 0, invFun := fun a => ix1 a, left_inv := fun i => (eq_ix1 i).symm, right_inv := fun _ => rfl }
  rw [← Equiv.sum_comp φ.symm f]
  rfl

section vec
variable {N E w : Nat} (d : ScatterDims ⟨1, ![N]⟩ ⟨2, ![E, 1]⟩ ⟨1, ![E]⟩)
  (h1 : d.updateWindowDims = []) (h2 : d.insertedWindowDims = [0])
  (h3 : d.scatterDimsToOperandDims = [0]) (h4 : d.indexVectorDim = 1)
include h1 h2 h3 h4

/-- On the operand's one axis the window starts at update `q 0`'s start index, read signed. -/
theorem start_vec (q : (⟨1, ![E]⟩ : Shape).Idx) (idx : IVec ⟨2, ![E, 1]⟩ w) :
    d.start q idx 0 = (idx (ix2 (q 0) ⟨0, Nat.one_pos⟩)).toInt := by
  obtain ⟨uw, iw, sd, iv, wf⟩ := d
  simp only at h1 h2 h3 h4
  subst h1 h2 h3 h4
  unfold ScatterDims.start
  rw [dif_pos (show (0 : Fin 1) ∈ ([0] : List (Fin 1)) by decide)]
  congr 2
  funext b
  match b with
  | ⟨0, _⟩ => rfl
  | ⟨1, _⟩ => rfl

/-- The operand's one axis is inserted: the window coordinate there is `0`. -/
theorem window_vec (q : (⟨1, ![E]⟩ : Shape).Idx) : d.window q 0 = 0 := by
  obtain ⟨uw, iw, sd, iv, wf⟩ := d
  simp only at h1 h2 h3 h4
  subst h1 h2 h3 h4
  unfold ScatterDims.window
  exact dif_neg (show (0 : Fin 1) ∉ ([] : List (Fin 1)) by decide)

/-- Update element `q = (e)` lands on operand element `i = (n)` exactly when its start index, read signed,
    is `n`. (A start index outside `[0, N)` lands nowhere.) -/
theorem resultIdx?_vec_eq_some_iff (q : (⟨1, ![E]⟩ : Shape).Idx) (idx : IVec ⟨2, ![E, 1]⟩ w)
    (i : (⟨1, ![N]⟩ : Shape).Idx) :
    d.resultIdx? q idx = some i ↔ (idx (ix2 (q 0) ⟨0, Nat.one_pos⟩)).toInt = ((i 0).val : ℤ) := by
  have hs0 := start_vec d h1 h2 h3 h4 q idx
  have hw0 := window_vec d h1 h2 h3 h4 q
  have hi0 : (i 0).val < N := (i 0).isLt
  unfold ScatterDims.resultIdx?
  split_ifs with h
  · have h0 := (h 0).1
    rw [hs0, hw0] at h0
    constructor
    · intro he
      have he' := Option.some.inj he
      have e0 : (d.start q idx 0 + (d.window q 0 : ℤ)).toNat = (i 0).val := congrArg (fun f => (f 0).val) he'
      rw [hs0, hw0] at e0
      omega
    · intro e0
      congr 1
      funext a
      apply Fin.ext
      match a with
      | ⟨0, _⟩ =>
        show (d.start q idx 0 + (d.window q 0 : ℤ)).toNat = (i 0).val
        rw [hs0, hw0]; omega
  · constructor
    · intro he; cases he
    · intro e0
      exfalso
      apply h
      intro a
      match a with
      | ⟨0, _⟩ =>
        show 0 ≤ d.start q idx 0 + (d.window q 0 : ℤ) ∧ d.start q idx 0 + (d.window q 0 : ℤ) < (N : ℤ)
        rw [hs0, hw0]; omega

/-- **A rank-1 scatter-add read at one element.** The result at `n` is the operand there plus the sum of the
    updates `e` whose start index read signed is `n`. -/
theorem scatterAdd_vec_apply (x : (⟨1, ![N]⟩ : Shape).Idx → EReal) (idx : IVec ⟨2, ![E, 1]⟩ w)
    (u : (⟨1, ![E]⟩ : Shape).Idx → EReal) (n : Fin N) :
    Ideal.hostScatterAdd d x idx u (ix1 n) = x (ix1 n) +
      ∑ e ∈ Finset.univ.filter (fun e : Fin E => (idx (ix2 e ⟨0, Nat.one_pos⟩)).toInt = (n.val : ℤ)),
        u (ix1 e) := by
  unfold Ideal.hostScatterAdd
  congr 1
  rw [Finset.sum_filter, Finset.sum_filter, sum_idx1]
  refine Finset.sum_congr rfl fun e _ => ?_
  have key : (d.resultIdx? (ix1 e) idx = some (ix1 n)) ↔
      ((idx (ix2 e ⟨0, Nat.one_pos⟩)).toInt = (n.val : ℤ)) :=
    resultIdx?_vec_eq_some_iff d h1 h2 h3 h4 (ix1 e) idx (ix1 n)
  simp only [key]

end vec

end Idealize.ShloMosaic.ScatterRows
-- ==== Proof.KHost1.lean ====
/-
  Layer 1 of the idealized kernel program: with the range masks at one the selects are the gathered rows, and the
  aggregate at row `n`, column `k` is the sum over the edges whose target is `n` of the gathered node entry times the
  gathered relation entry times the edge's normalisation (the scatter-add onto zeros read at one element).
-/
import proofs.«412919_j56298431316644_2_alg».proof.Proof.KHost1B
import proofs.«412919_j56298431316644_2_alg».proof.Proof.LibScatterAddRows

set_option maxRecDepth 16384

noncomputable section

namespace Cert.KernelIdeal.KH1

open Cert.KernelIdeal Cert.KernelIdeal.Gen Cert.KernelIdeal.KN Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)
/-- With the masks at one, the selects are the gathered rows. -/
theorem selXIn1_apply (hsrc : SrcInRange m c) (j : S400000x200.Idx) : selXIn1 m ρ c j = xsIn1 m ρ c j := by
  have hM := mskXIn1_one m ρ c hsrc
  rw [stage_selXIn1]
  generalize mskXIn1 m ρ c = M at hM ⊢
  generalize fillXIn1 m ρ c = F
  generalize xsIn1 m ρ c = X
  simp only [cast_eq]
  rw [select_apply, hM j]
  exact select_one _ _

theorem selRIn1_apply (het : TypeInRange m c) (j : S400000x200.Idx) : selRIn1 m ρ c j = rsIn1 m ρ c j := by
  have hM := mskRIn1_one m ρ c het
  rw [stage_selRIn1]
  generalize mskRIn1 m ρ c = M at hM ⊢
  generalize fillRIn1 m ρ c = F
  generalize rsIn1 m ρ c = X
  simp only [cast_eq]
  rw [select_apply, hM j]
  exact select_one _ _

/-- **The in-edge aggregate at one entry**: row `n`, column `k` is the sum, over the edges whose target is `n`, of the
    gathered node entry times the gathered relation entry times the edge's normalisation. -/
theorem aggIn1_apply (hsrc : SrcInRange m c) (het : TypeInRange m c) (n : Fin 100000) (k : Fin 200) :
    aggIn1 m ρ c (ix2 n k)
      = ∑ e ∈ Finset.univ.filter (fun e : Fin 400000 => (dstIn1 m ρ c (ix1 e)).toInt = (n.val : ℤ)),
          xsIn1 m ρ c (ix2 e k) * rsIn1 m ρ c (ix2 e k) * nuIn1 m ρ c (ix1 e) := by
  rw [stage_aggIn1, ScatterRows.host_scatterAdd_ideal, ScatterRows.scatterAdd_rows_apply _ rfl rfl rfl rfl,
    broadcastInDim_scalar_apply, constant_apply, Ideal.ofBits_zero_f32, zero_add]
  refine Finset.sum_congr (Finset.filter_congr fun e _ => ?_) fun e _ => ?_
  · rw [bcast_col_apply (by decide)]
  · show selXIn1 m ρ c (ix2 e k) * selRIn1 m ρ c (ix2 e k) * _ = _
    rw [selXIn1_apply m ρ c hsrc, selRIn1_apply m ρ c het, bcast_rows_apply (by decide)]
/-- With the masks at one, the selects are the gathered rows. -/
theorem selXOut1_apply (hsrc : SrcInRange m c) (j : S400000x200.Idx) : selXOut1 m ρ c j = xsOut1 m ρ c j := by
  have hM := mskXOut1_one m ρ c hsrc
  rw [stage_selXOut1]
  generalize mskXOut1 m ρ c = M at hM ⊢
  generalize fillXOut1 m ρ c = F
  generalize xsOut1 m ρ c = X
  simp only [cast_eq]
  rw [select_apply, hM j]
  exact select_one _ _

theorem selROut1_apply (het : TypeInRange m c) (j : S400000x200.Idx) : selROut1 m ρ c j = rsOut1 m ρ c j := by
  have hM := mskROut1_one m ρ c het
  rw [stage_selROut1]
  generalize mskROut1 m ρ c = M at hM ⊢
  generalize fillROut1 m ρ c = F
  generalize rsOut1 m ρ c = X
  simp only [cast_eq]
  rw [select_apply, hM j]
  exact select_one _ _

/-- **The out-edge aggregate at one entry**: row `n`, column `k` is the sum, over the edges whose target is `n`, of the
    gathered node entry times the gathered relation entry times the edge's normalisation. -/
theorem aggOut1_apply (hsrc : SrcInRange m c) (het : TypeInRange m c) (n : Fin 100000) (k : Fin 200) :
    aggOut1 m ρ c (ix2 n k)
      = ∑ e ∈ Finset.univ.filter (fun e : Fin 400000 => (dstOut1 m ρ c (ix1 e)).toInt = (n.val : ℤ)),
          xsOut1 m ρ c (ix2 e k) * rsOut1 m ρ c (ix2 e k) * nuOut1 m ρ c (ix1 e) := by
  rw [stage_aggOut1, ScatterRows.host_scatterAdd_ideal, ScatterRows.scatterAdd_rows_apply _ rfl rfl rfl rfl,
    broadcastInDim_scalar_apply, constant_apply, Ideal.ofBits_zero_f32, zero_add]
  refine Finset.sum_congr (Finset.filter_congr fun e _ => ?_) fun e _ => ?_
  · rw [bcast_col_apply (by decide)]
  · show selXOut1 m ρ c (ix2 e k) * selROut1 m ρ c (ix2 e k) * _ = _
    rw [selXOut1_apply m ρ c hsrc, selROut1_apply m ρ c het, bcast_rows_apply (by decide)]

end Cert.KernelIdeal.KH1

end
-- ==== Proof.KHost1Fin.lean ====
/-
  Layer 1 of the idealized kernel program, before its first kernel region: what the host operations leave.
  * Every gathered source row is a row of the layer's input array, and every gathered relation row is a row of the
    relation table (a gather reads its operand at a computed index).
  * Every edge's degree normalisation is a real number: a node's degree is a sum of ones onto zero, its power `-1/2`
    is a real power of a real, a degree-zero node gets the real zero, and an edge's normalisation is the product of
    its two end nodes' entries.
  * The input array and the three weight matrices reach the first region unchanged; the relation table is the relation
    argument with the self-loop row appended, so each of its entries is an entry of one of those two arguments, and the
    self-loop row read back out of it is its row `400`.
-/
import proofs.«412919_j56298431316644_2_alg».proof.Proof.KNames
import proofs.«412919_j56298431316644_2_alg».proof.Proof.LibScatterAddRows
import proofs.«412919_j56298431316644_2_alg».proof.Proof.SpecDefs
import proofs.«412919_j56298431316644_2_alg».proof.Proof.BnEq
import Idealize.ShloMosaic.Lib.StableHlo.Run
import Idealize.ShloMosaic.Lib.ValueIdx
import Idealize.ShloMosaic.Lib.Pipeline.Value

set_option maxRecDepth 16384

noncomputable section

namespace Cert.KernelIdeal.KH1F

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ) (ρ : Dev nD → PrngReg) (c : Dev nD)

open CompGcn (IsReal)

/-! ## Names -/

/-- The nodes' in-degree normalisation vector (degree to the power `-1/2`, zero at degree zero). -/
abbrev dinvIn1 : Vec Ideal S100000 .f32 := W11 m ρ c (Proc.devRef .tc main_v21)
/-- The nodes' out-degree normalisation vector. -/
abbrev dinvOut1 : Vec Ideal S100000 .f32 := W11 m ρ c (Proc.devRef .tc main_v62)
/-- The first relation argument as launched. -/
abbrev a1 : Vec Ideal S400x200 .f32 := m ((c : Thread nD τ).loc main_arg1)
/-- The self-loop relation argument as launched. -/
abbrev a6 : Vec Ideal S1x200 .f32 := m ((c : Thread nD τ).loc main_arg6)

/-- The nodes' in-degree to the power `-1/2` (before the degree-zero entries are zeroed). -/
abbrev powIn1 : Vec Ideal S100000 .f32 := W11 m ρ c (Proc.devRef .tc main_v20)
/-- The zero vector the degree-zero entries are taken from. -/
abbrev zerosIn1 : Vec Ideal S100000 .f32 := W11 m ρ c (Proc.devRef .tc main_call0_v1)
/-- Out-edges, likewise. -/
abbrev powOut1 : Vec Ideal S100000 .f32 := W11 m ρ c (Proc.devRef .tc main_v61)
abbrev zerosOut1 : Vec Ideal S100000 .f32 := W11 m ρ c (Proc.devRef .tc main_call3_v1)

/-! ## Real numbers among the extended reals -/

/-- The pattern of `1.0`: exponent field `127`, not all ones. -/
theorem one_isReal : IsReal (Ideal.ofBits .f32 0x3F800000#32) :=
  CompGcn.ieee_isReal 8 23 (0x3F800000#32 : BitVec 32) (by decide)
/-- The pattern of `-0.5`: exponent field `126`, not all ones. -/
theorem neghalf_isReal : IsReal (Ideal.ofBits .f32 0xBF000000#32) :=
  CompGcn.ieee_isReal 8 23 (0xBF000000#32 : BitVec 32) (by decide)
/-- The pattern of `0.0` is the real zero. -/
theorem zero_isReal : IsReal (Ideal.ofBits .f32 0x00000000#32) := ⟨0, by rw [CompGcn.zero_f32, EReal.coe_zero]⟩

/-- A product of two reals is real. -/
theorem isReal_mul {x y : EReal} (hx : IsReal x) (hy : IsReal y) : IsReal (x * y) := by
  obtain ⟨a, rfl⟩ := hx; obtain ⟨b, rfl⟩ := hy; exact ⟨a * b, (EReal.coe_mul a b).symm⟩

/-- A real raised to a real power is real (the real power function read as an extended real). -/
theorem isReal_pow {x y : EReal} (hx : IsReal x) (hy : IsReal y) : IsReal (Ideal.pow x y) := by
  obtain ⟨a, rfl⟩ := hx; obtain ⟨b, rfl⟩ := hy; exact ⟨Real.rpow a b, rfl⟩

/-- A broadcast float constant reads the constant's value everywhere. -/
theorem bcast_const_apply {t : Shape} (dims : Fin S_.rank → Fin t.rank) (h : S_.BroadcastsInDim t dims) (b : BitVec 32)
    (j : t.Idx) : broadcastInDim t dims h (constant (F := Ideal) S_ .f32 b) j = Ideal.ofBits .f32 b := rfl

/-- The host's power at an index is the power of the entries. -/
theorem powf_apply {s : Shape} (a b : FVec Ideal s .f32) (i : s.Idx) : Host.powf a b i = Ideal.pow (a i) (b i) := rfl

/-- A node's degree — ones scattered and added onto zeros — is a real number. -/
theorem deg_isReal (idx : IVec S400000x1 32) (i : S100000.Idx) :
    IsReal (Host.scatterAdd scatter_S100000_S400000x1_S400000_n_0_0_1
      (broadcastInDim S100000 ![] Facts₀.bcast_S_S100000 (constant (F := Ideal) S_ .f32 0x00000000#32)) idx
      (broadcastInDim S400000 ![] Facts₀.bcast_S_S400000 (constant (F := Ideal) S_ .f32 0x3F800000#32)) i) := by
  rw [ScatterRows.host_scatterAdd_ideal]
  refine ScatterRows.hostScatterAdd_real _ _ _ _ _ ?_ ?_
  · rw [bcast_const_apply]; exact zero_isReal
  · intro j; rw [bcast_const_apply]; exact one_isReal

/-- Where the mask holds a real to a real power, elsewhere a real: real everywhere. -/
theorem select_pow_isReal {s : Shape} (mask : IVec s 1) (d p z : FVec Ideal s .f32) (hd : ∀ i, IsReal (d i))
    (hp : ∀ i, IsReal (p i)) (hz : ∀ i, IsReal (z i)) (i : s.Idx) : IsReal (select mask (Host.powf d p) z i) := by
  rw [select_apply]
  unfold Scalar.select
  split_ifs
  · rw [powf_apply]; exact isReal_pow (hd i) (hp i)
  · exact hz i

/-! ## The gathered rows are rows of their operands -/

set_option maxHeartbeats 40000000 in
/-- The in-edges' source rows are a gather of the input array. -/
theorem stage_xsIn1 : KN.xsIn1 m ρ c
    = Host.gather gather_S100000x200_S400000x1_S400000x200_1_0_n_n_0_1_1200 (KN.x1in m ρ c)
        (W11 m ρ c (Proc.devRef .tc main_call1_v5)) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl

set_option maxHeartbeats 40000000 in
/-- The out-edges' source rows are a gather of the input array. -/
theorem stage_xsOut1 : KN.xsOut1 m ρ c
    = Host.gather gather_S100000x200_S400000x1_S400000x200_1_0_n_n_0_1_1200 (KN.x1in m ρ c)
        (W11 m ρ c (Proc.devRef .tc main_call4_v5)) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl

set_option maxHeartbeats 40000000 in
/-- The in-edges' relation rows are a gather of the relation table. -/
theorem stage_rsIn1 : KN.rsIn1 m ρ c
    = Host.gather gather_S401x200_S400000x1_S400000x200_1_0_n_n_0_1_1200 (KN.rel1 m ρ c)
        (W11 m ρ c (Proc.devRef .tc main_call2_v5)) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl

set_option maxHeartbeats 40000000 in
/-- The out-edges' relation rows are a gather of the relation table. -/
theorem stage_rsOut1 : KN.rsOut1 m ρ c
    = Host.gather gather_S401x200_S400000x1_S400000x200_1_0_n_n_0_1_1200 (KN.rel1 m ρ c)
        (W11 m ρ c (Proc.devRef .tc main_call5_v5)) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl

/-- Every gathered source entry of an in-edge is an entry of the input array. -/
theorem xsIn1_entry (e : Fin 400000) (k : Fin 200) : ∃ i, KN.xsIn1 m ρ c (ix2 e k) = KN.x1in m ρ c i := by
  rw [stage_xsIn1]; exact ⟨_, rfl⟩
/-- Every gathered source entry of an out-edge is an entry of the input array. -/
theorem xsOut1_entry (e : Fin 400000) (k : Fin 200) : ∃ i, KN.xsOut1 m ρ c (ix2 e k) = KN.x1in m ρ c i := by
  rw [stage_xsOut1]; exact ⟨_, rfl⟩
/-- Every gathered relation entry of an in-edge is an entry of the relation table. -/
theorem rsIn1_entry (e : Fin 400000) (k : Fin 200) : ∃ i, KN.rsIn1 m ρ c (ix2 e k) = KN.rel1 m ρ c i := by
  rw [stage_rsIn1]; exact ⟨_, rfl⟩
/-- Every gathered relation entry of an out-edge is an entry of the relation table. -/
theorem rsOut1_entry (e : Fin 400000) (k : Fin 200) : ∃ i, KN.rsOut1 m ρ c (ix2 e k) = KN.rel1 m ρ c i := by
  rw [stage_rsOut1]; exact ⟨_, rfl⟩

/-! ## The edges' degree normalisations are real -/

set_option maxHeartbeats 40000000 in
/-- An in-edge's normalisation is the product of two entries of the nodes' normalisation vector. -/
theorem stage_nuIn1 : KN.nuIn1 m ρ c
    = mulf (F := Ideal) (φ := .f32) (Host.gather gather_S100000_S400000x1_S400000_n_0_n_n_0_1_1 (dinvIn1 m ρ c) (W11 m ρ c (Proc.devRef .tc main_v27)))
        (Host.gather gather_S100000_S400000x1_S400000_n_0_n_n_0_1_1 (dinvIn1 m ρ c) (W11 m ρ c (Proc.devRef .tc main_v34))) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl

set_option maxHeartbeats 40000000 in
/-- The nodes' in-degree normalisation: where the degree is positive its power `-1/2`, elsewhere a zero. -/
theorem stage_v21 : dinvIn1 m ρ c = select (W11 m ρ c (Proc.devRef .tc main_v18)) (powIn1 m ρ c) (zerosIn1 m ρ c) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp
  generalize (cmpf (F := Ideal) CmpFPredicate.ogt _ _) = M
  generalize (Host.powf (F := Ideal) _ _) = P
  rfl

set_option maxHeartbeats 40000000 in
/-- The degree (ones scattered and added onto zeros) to the power `-1/2`. -/
theorem stage_powIn1 : powIn1 m ρ c
    = Host.powf (Host.scatterAdd scatter_S100000_S400000x1_S400000_n_0_0_1
            (broadcastInDim S100000 ![] Facts₀.bcast_S_S100000 (constant (F := Ideal) S_ .f32 0x00000000#32))
            (W11 m ρ c (Proc.devRef .tc main_v15))
            (broadcastInDim S400000 ![] Facts₀.bcast_S_S400000 (constant (F := Ideal) S_ .f32 0x3F800000#32)))
          (broadcastInDim S100000 ![] Facts₀.bcast_S_S100000 (constant (F := Ideal) S_ .f32 0xBF000000#32)) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl

set_option maxHeartbeats 40000000 in
/-- The vector the degree-zero entries are taken from is a broadcast zero. -/
theorem stage_zerosIn1 : zerosIn1 m ρ c
    = broadcastInDim S100000 ![] Facts₀.bcast_S_S100000 (constant (F := Ideal) S_ .f32 0x00000000#32) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl

set_option maxHeartbeats 40000000 in
/-- An out-edge's normalisation is the product of two entries of the nodes' normalisation vector. -/
theorem stage_nuOut1 : KN.nuOut1 m ρ c
    = mulf (F := Ideal) (φ := .f32) (Host.gather gather_S100000_S400000x1_S400000_n_0_n_n_0_1_1 (dinvOut1 m ρ c) (W11 m ρ c (Proc.devRef .tc main_v68)))
        (Host.gather gather_S100000_S400000x1_S400000_n_0_n_n_0_1_1 (dinvOut1 m ρ c) (W11 m ρ c (Proc.devRef .tc main_v75))) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl

set_option maxHeartbeats 40000000 in
/-- The nodes' out-degree normalisation, likewise. -/
theorem stage_v62 : dinvOut1 m ρ c = select (W11 m ρ c (Proc.devRef .tc main_v59)) (powOut1 m ρ c) (zerosOut1 m ρ c) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp
  generalize (cmpf (F := Ideal) CmpFPredicate.ogt _ _) = M
  generalize (Host.powf (F := Ideal) _ _) = P
  rfl

set_option maxHeartbeats 40000000 in
/-- The degree (ones scattered and added onto zeros) to the power `-1/2`. -/
theorem stage_powOut1 : powOut1 m ρ c
    = Host.powf (Host.scatterAdd scatter_S100000_S400000x1_S400000_n_0_0_1
            (broadcastInDim S100000 ![] Facts₀.bcast_S_S100000 (constant (F := Ideal) S_ .f32 0x00000000#32))
            (W11 m ρ c (Proc.devRef .tc main_v56))
            (broadcastInDim S400000 ![] Facts₀.bcast_S_S400000 (constant (F := Ideal) S_ .f32 0x3F800000#32)))
          (broadcastInDim S100000 ![] Facts₀.bcast_S_S100000 (constant (F := Ideal) S_ .f32 0xBF000000#32)) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl

set_option maxHeartbeats 40000000 in
/-- The vector the degree-zero entries are taken from is a broadcast zero. -/
theorem stage_zerosOut1 : zerosOut1 m ρ c
    = broadcastInDim S100000 ![] Facts₀.bcast_S_S100000 (constant (F := Ideal) S_ .f32 0x00000000#32) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl

/-- Every entry of the nodes' in-degree normalisation is real. -/
theorem v21_isReal (i : S100000.Idx) : IsReal (dinvIn1 m ρ c i) := by
  rw [stage_v21, stage_powIn1, stage_zerosIn1]
  exact select_pow_isReal _ _ _ _ (deg_isReal _) (fun _ => by rw [bcast_const_apply]; exact neghalf_isReal)
    (fun _ => by rw [bcast_const_apply]; exact zero_isReal) i
/-- Every entry of the nodes' out-degree normalisation is real. -/
theorem v62_isReal (i : S100000.Idx) : IsReal (dinvOut1 m ρ c i) := by
  rw [stage_v62, stage_powOut1, stage_zerosOut1]
  exact select_pow_isReal _ _ _ _ (deg_isReal _) (fun _ => by rw [bcast_const_apply]; exact neghalf_isReal)
    (fun _ => by rw [bcast_const_apply]; exact zero_isReal) i

/-- Every in-edge's normalisation is a real number. -/
theorem nuIn1_isReal (e : Fin 400000) : IsReal (KN.nuIn1 m ρ c (ix1 e)) := by
  rw [stage_nuIn1, mulf_apply]
  exact isReal_mul (v21_isReal m ρ c _) (v21_isReal m ρ c _)
/-- Every out-edge's normalisation is a real number. -/
theorem nuOut1_isReal (e : Fin 400000) : IsReal (KN.nuOut1 m ρ c (ix1 e)) := by
  rw [stage_nuOut1, mulf_apply]
  exact isReal_mul (v62_isReal m ρ c _) (v62_isReal m ρ c _)

/-! ## The arguments carried to the first region, the relation table and its self-loop row -/

set_option maxHeartbeats 40000000 in
/-- The input array at the first region's entry is the launched argument. -/
theorem x1in_eq : KN.x1in m ρ c = m ((c : Thread nD τ).loc main_arg0) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl
set_option maxHeartbeats 40000000 in
/-- The in-edge weights at the first region's entry are the launched argument. -/
theorem wIn1_eq : KN.wIn1 m ρ c = m ((c : Thread nD τ).loc main_arg2) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl
set_option maxHeartbeats 40000000 in
/-- The out-edge weights at the first region's entry are the launched argument. -/
theorem wOut1_eq : KN.wOut1 m ρ c = m ((c : Thread nD τ).loc main_arg3) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl
set_option maxHeartbeats 40000000 in
/-- The self-loop weights at the first region's entry are the launched argument. -/
theorem wLoop1_eq : KN.wLoop1 m ρ c = m ((c : Thread nD τ).loc main_arg4) := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl

set_option maxHeartbeats 40000000 in
/-- The relation table is the launched relation argument with the launched self-loop row appended. -/
theorem stage_rel1 : KN.rel1 m ρ c
    = concatenate S401x200 0 [⟨S400x200, a1 m c⟩, ⟨S1x200, a6 m c⟩] Facts₀.concatenates_S400x200_S1x200_S401x200_d0 := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl

set_option maxHeartbeats 40000000 in
/-- The self-loop row is the relation table's last row, sliced out. -/
theorem stage_lrow1 : KN.lrow1 m ρ c
    = extractStridedSlice S1x200 ![400, 0] (KN.rel1 m ρ c) Facts₀.slices_S401x200_S1x200_400_0 := by
  dsimp only [KN.xsIn1, KN.x1in, KN.rel1, KN.rsIn1, KN.xsOut1, KN.rsOut1, KN.nuIn1, KN.nuOut1, KN.lrow1, KN.wIn1, KN.wOut1, KN.wLoop1, dinvIn1, dinvOut1, a1, a6, powIn1, zerosIn1, powOut1, zerosOut1, W11, hostOps0_10]
  after_results_simp <;> rfl

/-- Every entry of the relation table is an entry of one of the two launched arguments. -/
theorem rel1_entry (j : S401x200.Idx) : (∃ i, KN.rel1 m ρ c j = a1 m c i) ∨ (∃ i, KN.rel1 m ρ c j = a6 m c i) := by
  rw [stage_rel1]
  by_cases h : (j 0).val < 400
  · left
    refine ⟨ix2 ⟨(j 0).val, h⟩ (j 1), ?_⟩
    refine concatenate_pair_apply_left (s₁ := S400x200) (s₂ := S1x200) 0 _ _ _ j rfl _ ?_
    intro b
    match b with
    | ⟨0, _⟩ => rfl
    | ⟨1, _⟩ => rfl
  · right
    have h401 : (j 0).val < 401 := idx2_lt0 j
    refine ⟨ix2 ⟨0, Nat.one_pos⟩ (j 1), ?_⟩
    refine concatenate_pair_apply_right (s₁ := S400x200) (s₂ := S1x200) 0 _ _ _ j rfl rfl _ ?_ ?_
    · intro b hb
      match b with
      | ⟨0, _⟩ => exact absurd rfl hb
      | ⟨1, _⟩ => rfl
    · show 0 + 400 = (j 0).val
      omega

/-- Hence every entry of the relation table is real when the two launched arguments are. -/
theorem rel1_isReal (h1 : ∀ i, IsReal (a1 m c i)) (h6 : ∀ i, IsReal (a6 m c i)) (j : S401x200.Idx) :
    IsReal (KN.rel1 m ρ c j) := by
  rcases rel1_entry m ρ c j with ⟨i, hi⟩ | ⟨i, hi⟩
  · rw [hi]; exact h1 i
  · rw [hi]; exact h6 i

/-- The self-loop row, read at a column, is the relation table's row `400` at that column. -/
theorem lrow1_apply (k : Fin 200) :
    KN.lrow1 m ρ c (ix2 (0 : Fin 1) k) = KN.rel1 m ρ c (ix2 (400 : Fin 401) k) := by
  rw [stage_lrow1]
  unfold extractStridedSlice
  congr 1
  funext a
  apply Fin.ext
  match a with
  | ⟨0, _⟩ => rfl
  | ⟨1, _⟩ => exact Nat.zero_add _

end Cert.KernelIdeal.KH1F
end
-- ==== Proof.RHost1.lean ====
/-
  The first layer of the idealized reference program, read at a node and a column.  When @main returns, the layer's
  output array holds the hyperbolic tangent of the batch-normalised combined message.  The combined message sums, over
  the edges that point at a node, every edge's product of gathered rows multiplied by the weights and scaled by the
  edge's degree normalisation (once for the in-edges, once for the out-edges), adds the self-loop product multiplied
  by its weights, and scales the total.  Seven stage facts name the arrays in between, each as a host operation's
  function of earlier arrays; the rest reads every operation at an index.
-/
import proofs.«412919_j56298431316644_2_alg».proof.Proof.RNames
import proofs.«412919_j56298431316644_2_alg».proof.Proof.SpecDefs
import proofs.«412919_j56298431316644_2_alg».proof.Proof.LibScatterAddRows
import proofs.«412919_j56298431316644_2_alg».proof.Proof.BnEq
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

namespace Cert.ReferenceIdeal.RH1

open Cert.ReferenceIdeal Cert.ReferenceIdeal.Gen Cert.ReferenceIdeal.RRun Idealize.ShloMosaic Idealize.ShloMosaic.TcCoe Idealize.SL.Sem
  Idealize.ShloMosaic.StableHlo Idealize.ShloMosaic.ValueIdx
open scoped BigOperators

variable (m : (ℓ : Loc nD τ sig) → Buf (Elt Ideal) ℓ) (c : Dev nD)

/-! ## A buffer written before a window is read at that window's boundary -/

theorem R8_at2 {r : Ref sig .tc} (h2 : r ∉ W2) (h3 : r ∉ W3) (h4 : r ∉ W4) (h5 : r ∉ W5) (h6 : r ∉ W6) (h7 : r ∉ W7) :
    R8 m c (Proc.devRef .tc r) = R2 m c (Proc.devRef .tc r) :=
  (keep_p7 (R7 m c) h7).trans ((keep_p6 (R6 m c) h6).trans ((keep_p5 (R5 m c) h5).trans ((keep_p4 (R4 m c) h4).trans ((keep_p3 (R3 m c) h3).trans (keep_p2 (R2 m c) h2)))))

theorem R8_at3 {r : Ref sig .tc} (h3 : r ∉ W3) (h4 : r ∉ W4) (h5 : r ∉ W5) (h6 : r ∉ W6) (h7 : r ∉ W7) :
    R8 m c (Proc.devRef .tc r) = R3 m c (Proc.devRef .tc r) :=
  (keep_p7 (R7 m c) h7).trans ((keep_p6 (R6 m c) h6).trans ((keep_p5 (R5 m c) h5).trans ((keep_p4 (R4 m c) h4).trans (keep_p3 (R3 m c) h3))))

theorem R8_at4 {r : Ref sig .tc} (h4 : r ∉ W4) (h5 : r ∉ W5) (h6 : r ∉ W6) (h7 : r ∉ W7) :
    R8 m c (Proc.devRef .tc r) = R4 m c (Proc.devRef .tc r) :=
  (keep_p7 (R7 m c) h7).trans ((keep_p6 (R6 m c) h6).trans ((keep_p5 (R5 m c) h5).trans (keep_p4 (R4 m c) h4)))

/-! ## Names for the first layer's intermediate arrays when @main returns -/

/-- The combined message before the normalisation. -/
abbrev comb1 : Vec Ideal S100000x200 .f32 := R8 m c (Proc.devRef .tc main_v144)
/-- The columns' means. -/
abbrev mu1 : Vec Ideal S200 .f32 := R8 m c (Proc.devRef .tc main_v147)
/-- The columns' mean squared deviations. -/
abbrev var1 : Vec Ideal S200 .f32 := R8 m c (Proc.devRef .tc main_v154)
/-- The in-edges' messages summed at their targets. -/
abbrev aggIn1 : Vec Ideal S100000x200 .f32 := R8 m c (Proc.devRef .tc main_v69)
/-- The out-edges' messages summed at their targets. -/
abbrev aggOut1 : Vec Ideal S100000x200 .f32 := R8 m c (Proc.devRef .tc main_v134)
/-- The self-loop product: every node's row times the loop relation's row. -/
abbrev loop1 : Vec Ideal S100000x200 .f32 := R8 m c (Proc.devRef .tc main_v139)

/-! ## The stage facts: each named array as the host operations' function of earlier named arrays -/

set_option maxRecDepth 8192 in
set_option maxHeartbeats 40000000 in
theorem S69 : aggIn1 m c = (Host.scatterAdd scatter_S100000x200_S400000x1_S400000x200_1_0_0_1 (broadcastInDim S100000x200 ![] bcast_S_S100000x200 (constant S_ .f32 0x00000000#32)) (broadcastInDim S400000x1 ![0] bcast_S400000_S400000x1_0 (RN.dstIn1 m c)) (mulf (φ := .f32) (Host.dotGeneral (φ₁ := .f32) (φ₂ := .f32) dot_S400000x200_S200x200_S400000x200_1_0_0_1_n_n none (mulf (φ := .f32) (RN.xsIn1 m c) (RN.rsIn1 m c)) (RN.wIn1 m c)) (broadcastInDim S400000x200 ![0, 1] bcast_S400000x1_S400000x200_0_1 (broadcastInDim S400000x1 ![0] bcast_S400000_S400000x1_0 (RN.nuIn1 m c)))) : FVec Ideal S100000x200 .f32) := by
  dsimp only [aggIn1, RN.dstIn1, RN.xsIn1, RN.rsIn1, RN.wIn1, RN.nuIn1]
  rw [R8_at2 m c (r := main_v69) (by decide) (by decide) (by decide) (by decide) (by decide) (by decide),
    R8_at2 m c (r := main_v8) (by decide) (by decide) (by decide) (by decide) (by decide) (by decide),
    R8_at2 m c (r := main_v54) (by decide) (by decide) (by decide) (by decide) (by decide) (by decide),
    R8_at2 m c (r := main_v61) (by decide) (by decide) (by decide) (by decide) (by decide) (by decide),
    R8_at2 m c (r := main_arg2) (by decide) (by decide) (by decide) (by decide) (by decide) (by decide),
    R8_at2 m c (r := main_v47) (by decide) (by decide) (by decide) (by decide) (by decide) (by decide)]
  dsimp only [R2, ops_p1]
  after_results_simp <;> rfl

set_option maxRecDepth 8192 in
set_option maxHeartbeats 40000000 in
theorem S134 : aggOut1 m c = (Host.scatterAdd scatter_S100000x200_S400000x1_S400000x200_1_0_0_1 (broadcastInDim S100000x200 ![] bcast_S_S100000x200 (constant S_ .f32 0x00000000#32)) (broadcastInDim S400000x1 ![0] bcast_S400000_S400000x1_0 (RN.dstOut1 m c)) (mulf (φ := .f32) (Host.dotGeneral (φ₁ := .f32) (φ₂ := .f32) dot_S400000x200_S200x200_S400000x200_1_0_0_1_n_n none (mulf (φ := .f32) (RN.xsOut1 m c) (RN.rsOut1 m c)) (RN.wOut1 m c)) (broadcastInDim S400000x200 ![0, 1] bcast_S400000x1_S400000x200_0_1 (broadcastInDim S400000x1 ![0] bcast_S400000_S400000x1_0 (RN.nuOut1 m c)))) : FVec Ideal S100000x200 .f32) := by
  dsimp only [aggOut1, RN.dstOut1, RN.xsOut1, RN.rsOut1, RN.wOut1, RN.nuOut1]
  rw [R8_at3 m c (r := main_v134) (by decide) (by decide) (by decide) (by decide) (by decide),
    R8_at3 m c (r := main_v73) (by decide) (by decide) (by decide) (by decide) (by decide),
    R8_at3 m c (r := main_v119) (by decide) (by decide) (by decide) (by decide) (by decide),
    R8_at3 m c (r := main_v126) (by decide) (by decide) (by decide) (by decide) (by decide),
    R8_at3 m c (r := main_arg3) (by decide) (by decide) (by decide) (by decide) (by decide),
    R8_at3 m c (r := main_v112) (by decide) (by decide) (by decide) (by decide) (by decide)]
  dsimp only [R3, ops_p2]
  after_results_simp <;> rfl

set_option maxRecDepth 8192 in
set_option maxHeartbeats 40000000 in
theorem S139 : loop1 m c = (mulf (RN.x1in m c) (broadcastInDim S100000x200 ![0, 1] bcast_S1x200_S100000x200_0_1 (broadcastInDim S1x200 ![1] bcast_S200_S1x200_1 (shapeCast S200 (extractStridedSlice S1x200 ![400, 0] (RN.rel1 m c) slices_S401x200_S1x200_400_0) shapeCasts_S1x200_S200))) : FVec Ideal S100000x200 .f32) := by
  dsimp only [loop1, RN.x1in, RN.rel1]
  rw [R8_at3 m c (r := main_v139) (by decide) (by decide) (by decide) (by decide) (by decide),
    R8_at3 m c (r := main_arg0) (by decide) (by decide) (by decide) (by decide) (by decide),
    R8_at3 m c (r := main_v0) (by decide) (by decide) (by decide) (by decide) (by decide)]
  dsimp only [R3, ops_p2]
  after_results_simp <;> rfl

set_option maxRecDepth 8192 in
set_option maxHeartbeats 40000000 in
theorem S144 : comb1 m c = (mulf (addf (addf (aggIn1 m c) (aggOut1 m c)) (Host.dotGeneral (φ₁ := .f32) (φ₂ := .f32) dot_S100000x200_S200x200_S100000x200_1_0_0_1_n_n none (loop1 m c) (RN.wLoop1 m c))) (broadcastInDim S100000x200 ![] bcast_S_S100000x200 (constant S_ .f32 0x3EAAAAAB#32)) : FVec Ideal S100000x200 .f32) := by
  dsimp only [comb1, aggIn1, aggOut1, loop1, RN.wLoop1]
  rw [R8_at4 m c (r := main_v144) (by decide) (by decide) (by decide) (by decide),
    R8_at4 m c (r := main_v69) (by decide) (by decide) (by decide) (by decide),
    R8_at4 m c (r := main_v134) (by decide) (by decide) (by decide) (by decide),
    R8_at4 m c (r := main_v139) (by decide) (by decide) (by decide) (by decide),
    R8_at4 m c (r := main_arg4) (by decide) (by decide) (by decide) (by decide)]
  dsimp only [R4, ops_p3]
  after_results_simp <;> rfl

set_option maxRecDepth 8192 in
set_option maxHeartbeats 40000000 in
theorem S147 : mu1 m c = (Host.divf (Host.reduceAdd (comb1 m c) (constant S_ .f32 0x00000000#32) reducesTo_S100000x200_S200_d0 h_S_) (broadcastInDim S200 ![] bcast_S_S200 (constant S_ .f32 0x47C35000#32)) : FVec Ideal S200 .f32) := by
  dsimp only [comb1, mu1]
  rw [R8_at4 m c (r := main_v147) (by decide) (by decide) (by decide) (by decide),
    R8_at4 m c (r := main_v144) (by decide) (by decide) (by decide) (by decide)]
  dsimp only [R4, ops_p3]
  after_results_simp <;> rfl

set_option maxRecDepth 8192 in
set_option maxHeartbeats 40000000 in
theorem S154 : var1 m c = (Host.divf (Host.reduceAdd (mulf (subf (comb1 m c) (broadcastInDim S100000x200 ![0, 1] bcast_S1x200_S100000x200_0_1 (broadcastInDim S1x200 ![1] bcast_S200_S1x200_1 (mu1 m c)))) (subf (comb1 m c) (broadcastInDim S100000x200 ![0, 1] bcast_S1x200_S100000x200_0_1 (broadcastInDim S1x200 ![1] bcast_S200_S1x200_1 (mu1 m c))))) (constant S_ .f32 0x00000000#32) reducesTo_S100000x200_S200_d0 h_S_) (broadcastInDim S200 ![] bcast_S_S200 (constant S_ .f32 0x47C35000#32)) : FVec Ideal S200 .f32) := by
  dsimp only [comb1, mu1, var1]
  rw [R8_at4 m c (r := main_v154) (by decide) (by decide) (by decide) (by decide),
    R8_at4 m c (r := main_v144) (by decide) (by decide) (by decide) (by decide),
    R8_at4 m c (r := main_v147) (by decide) (by decide) (by decide) (by decide)]
  dsimp only [R4, ops_p3]
  after_results_simp <;> rfl

set_option maxRecDepth 8192 in
set_option maxHeartbeats 40000000 in
theorem S164 : RN.x1out m c = (Host.tanh (Host.divf (subf (comb1 m c) (broadcastInDim S100000x200 ![0, 1] bcast_S1x200_S100000x200_0_1 (broadcastInDim S1x200 ![1] bcast_S200_S1x200_1 (mu1 m c)))) (broadcastInDim S100000x200 ![0, 1] bcast_S1x200_S100000x200_0_1 (broadcastInDim S1x200 ![1] bcast_S200_S1x200_1 (Host.sqrt (addf (var1 m c) (broadcastInDim S200 ![] bcast_S_S200 (constant S_ .f32 0x3727C5AC#32))))))) : FVec Ideal S100000x200 .f32) := by
  dsimp only [RN.x1out, comb1, mu1, var1]
  rw [R8_at4 m c (r := main_v164) (by decide) (by decide) (by decide) (by decide),
    R8_at4 m c (r := main_v144) (by decide) (by decide) (by decide) (by decide),
    R8_at4 m c (r := main_v147) (by decide) (by decide) (by decide) (by decide),
    R8_at4 m c (r := main_v154) (by decide) (by decide) (by decide) (by decide)]
  dsimp only [R4, ops_p3]
  after_results_simp <;> rfl

/-! ## Broadcasts read at an index -/

section Bcast
variable {α : Type}

/-- A vector laid as an [n × 1] column reads, at (p, 0), the vector at `p`. -/
theorem bc_col1 {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p ⟨0, Nat.one_pos⟩) = v (ix1 p) :=
  broadcastInDim_apply _ h₁ _ (ix2 p ⟨0, Nat.one_pos⟩) (ix1 p) (fun a => by
    match a with
    | ⟨0, _⟩ =>
      show p.val = if n = 1 then 0 else p.val
      split
      · have := p.isLt; omega
      · rfl)

/-- A vector laid along the rows of an [n × k] rectangle (constant along each row) reads, at (p, q), the vector at `p`. -/
theorem bc_rows {n k : Nat} (h₁ : (⟨1, ![n]⟩ : Shape).BroadcastsInDim ⟨2, ![n, 1]⟩ ![0])
    (h₂ : (⟨2, ![n, 1]⟩ : Shape).BroadcastsInDim ⟨2, ![n, k]⟩ ![0, 1]) (v : (⟨1, ![n]⟩ : Shape).Idx → α) (p : Fin n) (q : Fin k) :
    broadcastInDim ⟨2, ![n, k]⟩ ![0, 1] h₂ (broadcastInDim ⟨2, ![n, 1]⟩ ![0] h₁ v) (ix2 p q) = v (ix1 p) :=
  (broadcastInDim_apply _ h₂ _ (ix2 p q) (ix2 p ⟨0, Nat.one_pos⟩) (fun a => by
    match a with
    | ⟨0, _⟩ =>
      show p.val = if n = 1 then 0 else p.val
      split
      · have := p.isLt; omega
      · rfl
    | ⟨1, _⟩ => exact (if_pos rfl).symm)).trans (bc_col1 h₁ v p)

/-- A vector laid along the columns of an [n × k] rectangle (constant down each column) reads, at (p, q), the vector at `q`. -/
theorem bc_cols {n k : Nat} (h₁ : (⟨1, ![k]⟩ : Shape).BroadcastsInDim ⟨2, ![1, k]⟩ ![1])
    (h₂ : (⟨2, ![1, k]⟩ : Shape).BroadcastsInDim ⟨2, ![n, k]⟩ ![0, 1]) (v : (⟨1, ![k]⟩ : Shape).Idx → α) (p : Fin n) (q : Fin k) :
    broadcastInDim ⟨2, ![n, k]⟩ ![0, 1] h₂ (broadcastInDim ⟨2, ![1, k]⟩ ![1] h₁ v) (ix2 p q) = v (ix1 q) :=
  (broadcastInDim_apply _ h₂ _ (ix2 p q) (ix2 (⟨0, Nat.one_pos⟩ : Fin 1) q) (fun a => by
    match a with
    | ⟨0, _⟩ => exact (if_pos rfl).symm
    | ⟨1, _⟩ =>
      show q.val = if k = 1 then 0 else q.val
      split
      · have := q.isLt; omega
      · rfl)).trans
  (broadcastInDim_apply _ h₁ _ (ix2 (⟨0, Nat.one_pos⟩ : Fin 1) q) (ix1 q) (fun a => by
    match a with
    | ⟨0, _⟩ =>
      show q.val = if k = 1 then 0 else q.val
      split
      · have := q.isLt; omega
      · rfl))

end Bcast

/-- A float constant broadcast to any shape reads, everywhere, the extended real its word encodes. -/
theorem bcS_const {T : Shape} (h : S_.BroadcastsInDim T ![]) (b : BitVec 32) (j : T.Idx) :
    broadcastInDim T ![] h (constant (F := Ideal) S_ .f32 b) j = Ideal.ofBits .f32 b :=
  broadcastInDim_scalar_apply h _ j

/-! ## The two products with a weight matrix -/

theorem lhs_dotE_0 (i : S400000x200.Idx) (q : dot_S400000x200_S200x200_S400000x200_1_0_0_1_n_n.contr.Idx) : (dot_S400000x200_S200x200_S400000x200_1_0_0_1_n_n.lhsIdx i q 0).val = (i 0).val := by
  unfold DotDims.lhsIdx
  rw [dif_neg (show ¬(0 : Fin S400000x200.rank) ∈ dot_S400000x200_S200x200_S400000x200_1_0_0_1_n_n.lhsBatch by decide), dif_pos (show (0 : Fin S400000x200.rank) ∈ dot_S400000x200_S200x200_S400000x200_1_0_0_1_n_n.lhsNonContracting by decide)]
  rfl
theorem lhs_dotE_1 (i : S400000x200.Idx) (q : dot_S400000x200_S200x200_S400000x200_1_0_0_1_n_n.contr.Idx) : (dot_S400000x200_S200x200_S400000x200_1_0_0_1_n_n.lhsIdx i q 1).val = (q ⟨0, by decide⟩).val :=
  dot_S400000x200_S200x200_S400000x200_1_0_0_1_n_n.lhsIdx_val_of_single rfl i q
theorem rhs_dotE_0 (i : S400000x200.Idx) (q : dot_S400000x200_S200x200_S400000x200_1_0_0_1_n_n.contr.Idx) : (dot_S400000x200_S200x200_S400000x200_1_0_0_1_n_n.rhsIdx i q 0).val = (q ⟨0, by decide⟩).val :=
  dot_S400000x200_S200x200_S400000x200_1_0_0_1_n_n.rhsIdx_val_of_single rfl i q
theorem rhs_dotE_1 (i : S400000x200.Idx) (q : dot_S400000x200_S200x200_S400000x200_1_0_0_1_n_n.contr.Idx) : (dot_S400000x200_S200x200_S400000x200_1_0_0_1_n_n.rhsIdx i q 1).val = (i 1).val := by
  unfold DotDims.rhsIdx
  rw [dif_neg (show ¬(1 : Fin S200x200.rank) ∈ dot_S400000x200_S200x200_S400000x200_1_0_0_1_n_n.rhsBatch by decide), dif_pos (show (1 : Fin S200x200.rank) ∈ dot_S400000x200_S200x200_S400000x200_1_0_0_1_n_n.rhsNonContracting by decide)]
  rfl

/-- The host's product with a weight matrix read at a row and a column: the sum over the contracted coordinate. -/
theorem dotE_apply (L : FVec Ideal S400000x200 .f32) (R : FVec Ideal S200x200 .f32) (p : Fin 400000) (j : Fin 200) :
    Host.dotGeneral dot_S400000x200_S200x200_S400000x200_1_0_0_1_n_n none L R (ix2 p j) = ∑ k : Fin 200, L (ix2 p k) * R (ix2 k j) := by
  simp only [Host.dotGeneral]
  rw [Ideal.dotGeneral_apply, ← Equiv.sum_comp (contrEquiv1 dot_S400000x200_S200x200_S400000x200_1_0_0_1_n_n 200 rfl rfl).symm]
  refine Finset.sum_congr rfl fun k _ => ?_
  have hk := contrEquiv1_symm_val dot_S400000x200_S200x200_S400000x200_1_0_0_1_n_n 200 rfl rfl k
  have el : dot_S400000x200_S200x200_S400000x200_1_0_0_1_n_n.lhsIdx (ix2 p j) ((contrEquiv1 dot_S400000x200_S200x200_S400000x200_1_0_0_1_n_n 200 rfl rfl).symm k) = ix2 p k := funext fun a => Fin.ext (by
    match a with
    | ⟨0, _⟩ => exact lhs_dotE_0 _ _
    | ⟨1, _⟩ => exact (lhs_dotE_1 _ _).trans hk)
  have er : dot_S400000x200_S200x200_S400000x200_1_0_0_1_n_n.rhsIdx (ix2 p j) ((contrEquiv1 dot_S400000x200_S200x200_S400000x200_1_0_0_1_n_n 200 rfl rfl).symm k) = ix2 k j := funext fun a => Fin.ext (by
    match a with
    | ⟨0, _⟩ => exact (rhs_dotE_0 _ _).trans hk
    | ⟨1, _⟩ => exact rhs_dotE_1 _ _)
  rw [el, er]

theorem lhs_dotN_0 (i : S100000x200.Idx) (q : dot_S100000x200_S200x200_S100000x200_1_0_0_1_n_n.contr.Idx) : (dot_S100000x200_S200x200_S100000x200_1_0_0_1_n_n.lhsIdx i q 0).val = (i 0).val := by
  unfold DotDims.lhsIdx
  rw [dif_neg (show ¬(0 : Fin S100000x200.rank) ∈ dot_S100000x200_S200x200_S100000x200_1_0_0_1_n_n.lhsBatch by decide), dif_pos (show (0 : Fin S100000x200.rank) ∈ dot_S100000x200_S200x200_S100000x200_1_0_0_1_n_n.lhsNonContracting by decide)]
  rfl
theorem lhs_dotN_1 (i : S100000x200.Idx) (q : dot_S100000x200_S200x200_S100000x200_1_0_0_1_n_n.contr.Idx) : (dot_S100000x200_S200x200_S100000x200_1_0_0_1_n_n.lhsIdx i q 1).val = (q ⟨0, by decide⟩).val :=
  dot_S100000x200_S200x200_S100000x200_1_0_0_1_n_n.lhsIdx_val_of_single rfl i q
theorem rhs_dotN_0 (i : S100000x200.Idx) (q : dot_S100000x200_S200x200_S100000x200_1_0_0_1_n_n.contr.Idx) : (dot_S100000x200_S200x200_S100000x200_1_0_0_1_n_n.rhsIdx i q 0).val = (q ⟨0, by decide⟩).val :=
  dot_S100000x200_S200x200_S100000x200_1_0_0_1_n_n.rhsIdx_val_of_single rfl i q
theorem rhs_dotN_1 (i : S100000x200.Idx) (q : dot_S100000x200_S200x200_S100000x200_1_0_0_1_n_n.contr.Idx) : (dot_S100000x200_S200x200_S100000x200_1_0_0_1_n_n.rhsIdx i q 1).val = (i 1).val := by
  unfold DotDims.rhsIdx
  rw [dif_neg (show ¬(1 : Fin S200x200.rank) ∈ dot_S100000x200_S200x200_S100000x200_1_0_0_1_n_n.rhsBatch by decide), dif_pos (show (1 : Fin S200x200.rank) ∈ dot_S100000x200_S200x200_S100000x200_1_0_0_1_n_n.rhsNonContracting by decide)]
  rfl

/-- The host's product with a weight matrix read at a row and a column: the sum over the contracted coordinate. -/
theorem dotN_apply (L : FVec Ideal S100000x200 .f32) (R : FVec Ideal S200x200 .f32) (p : Fin 100000) (j : Fin 200) :
    Host.dotGeneral dot_S100000x200_S200x200_S100000x200_1_0_0_1_n_n none L R (ix2 p j) = ∑ k : Fin 200, L (ix2 p k) * R (ix2 k j) := by
  simp only [Host.dotGeneral]
  rw [Ideal.dotGeneral_apply, ← Equiv.sum_comp (contrEquiv1 dot_S100000x200_S200x200_S100000x200_1_0_0_1_n_n 200 rfl rfl).symm]
  refine Finset.sum_congr rfl fun k _ => ?_
  have hk := contrEquiv1_symm_val dot_S100000x200_S200x200_S100000x200_1_0_0_1_n_n 200 rfl rfl k
  have el : dot_S100000x200_S200x200_S100000x200_1_0_0_1_n_n.lhsIdx (ix2 p j) ((contrEquiv1 dot_S100000x200_S200x200_S100000x200_1_0_0_1_n_n 200 rfl rfl).symm k) = ix2 p k := funext fun a => Fin.ext (by
    match a with
    | ⟨0, _⟩ => exact lhs_dotN_0 _ _
    | ⟨1, _⟩ => exact (lhs_dotN_1 _ _).trans hk)
  have er : dot_S100000x200_S200x200_S100000x200_1_0_0_1_n_n.rhsIdx (ix2 p j) ((contrEquiv1 dot_S100000x200_S200x200_S100000x200_1_0_0_1_n_n 200 rfl rfl).symm k) = ix2 k j := funext fun a => Fin.ext (by
    match a with
    | ⟨0, _⟩ => exact (rhs_dotN_0 _ _).trans hk
    | ⟨1, _⟩ => exact rhs_dotN_1 _ _)
  rw [el, er]

/-! ## A column sum and a row scatter-add -/

theorem red0 : S100000x200.Reduces [0] S200 := by decide

/-- The host's sum over the rows, from the initial value zero, read at a column. -/
theorem colsum_apply (X : FVec Ideal S100000x200 .f32) (j : Fin 200) :
    Host.reduceAdd X (constant (F := Ideal) S_ .f32 0x00000000#32) reducesTo_S100000x200_S200_d0 h_S_ (ix1 j)
      = ∑ n : Fin 100000, X (ix2 n j) := by
  rw [hostReduceAdd_apply, Ideal.hostReduceAdd_single reducesTo_S100000x200_S200_d0 red0, constant_apply, CompGcn.zero_f32, zero_add]
  refine Finset.sum_congr rfl fun n _ => congrArg X ?_
  funext a
  match a with
  | ⟨0, _⟩ => exact Fin.ext rfl
  | ⟨1, _⟩ => exact Fin.ext rfl

/-- The host's scatter-add of per-edge rows into a zero array, the targets given as a column: row `n` is the sum of
    the rows of the edges whose target is `n`. -/
theorem agg_apply (dst : IVec S400000 32) (U : FVec Ideal S400000x200 .f32) (n : Fin 100000) (j : Fin 200) :
    Host.scatterAdd scatter_S100000x200_S400000x1_S400000x200_1_0_0_1
        (broadcastInDim S100000x200 ![] bcast_S_S100000x200 (constant (F := Ideal) S_ .f32 0x00000000#32))
        (broadcastInDim S400000x1 ![0] bcast_S400000_S400000x1_0 dst) U (ix2 n j)
      = ∑ e ∈ Finset.univ.filter (fun e : Fin 400000 => (dst (ix1 e)).toInt = (n.val : ℤ)), U (ix2 e j) := by
  rw [ScatterRows.host_scatterAdd_ideal, ScatterRows.scatterAdd_rows_apply _ rfl rfl rfl rfl, bcS_const, CompGcn.zero_f32, zero_add]
  have h : ∀ e : Fin 400000, broadcastInDim S400000x1 ![0] bcast_S400000_S400000x1_0 dst (ix2 e ⟨0, Nat.one_pos⟩) = dst (ix1 e) :=
    fun e => bc_col1 bcast_S400000_S400000x1_0 dst e
  simp only [h]

/-- The host's sum over the rows of the squared deviations from a row vector, read at a column. -/
theorem sqdev_apply (X : FVec Ideal S100000x200 .f32) (M : FVec Ideal S200 .f32) (j : Fin 200) :
    Host.reduceAdd
        (mulf (subf X (broadcastInDim S100000x200 ![0, 1] bcast_S1x200_S100000x200_0_1 (broadcastInDim S1x200 ![1] bcast_S200_S1x200_1 M)))
          (subf X (broadcastInDim S100000x200 ![0, 1] bcast_S1x200_S100000x200_0_1 (broadcastInDim S1x200 ![1] bcast_S200_S1x200_1 M))))
        (constant (F := Ideal) S_ .f32 0x00000000#32) reducesTo_S100000x200_S200_d0 h_S_ (ix1 j)
      = ∑ n : Fin 100000, (X (ix2 n j) - M (ix1 j)) * (X (ix2 n j) - M (ix1 j)) := by
  rw [colsum_apply]
  refine Finset.sum_congr rfl fun n _ => ?_
  rw [mulf_apply, subf_apply, bc_cols]

/-! ## The first layer read at an index -/

/-- The in-edges' aggregate at a node and a column. -/
theorem aggIn1_apply (n : Fin 100000) (j : Fin 200) : aggIn1 m c (ix2 n j)
    = ∑ e ∈ Finset.univ.filter (fun e : Fin 400000 => (RN.dstIn1 m c (ix1 e)).toInt = (n.val : ℤ)),
        (∑ k : Fin 200, (RN.xsIn1 m c (ix2 e k) * RN.rsIn1 m c (ix2 e k)) * RN.wIn1 m c (ix2 k j)) * RN.nuIn1 m c (ix1 e) := by
  rw [S69, agg_apply]
  refine Finset.sum_congr rfl fun e _ => ?_
  rw [mulf_apply, dotE_apply, bc_rows]
  rfl

/-- The out-edges' aggregate at a node and a column. -/
theorem aggOut1_apply (n : Fin 100000) (j : Fin 200) : aggOut1 m c (ix2 n j)
    = ∑ e ∈ Finset.univ.filter (fun e : Fin 400000 => (RN.dstOut1 m c (ix1 e)).toInt = (n.val : ℤ)),
        (∑ k : Fin 200, (RN.xsOut1 m c (ix2 e k) * RN.rsOut1 m c (ix2 e k)) * RN.wOut1 m c (ix2 k j)) * RN.nuOut1 m c (ix1 e) := by
  rw [S134, agg_apply]
  refine Finset.sum_congr rfl fun e _ => ?_
  rw [mulf_apply, dotE_apply, bc_rows]
  rfl

/-- The self-loop product at a node and a column: the node's entry times the loop relation's entry. -/
theorem loop1_apply (n : Fin 100000) (k : Fin 200) :
    loop1 m c (ix2 n k) = RN.x1in m c (ix2 n k) * RN.rel1 m c (ix2 (400 : Fin 401) k) := by
  rw [S139, mulf_apply, bc_cols, shapeCast_1a_a_apply,
    slice2_axis0_apply 400 _ slices_S401x200_S1x200_400_0 (0 : Fin 1) k (400 : Fin 401) rfl]

/-- The combined message at a node and a column, in the arrangement that multiplies by the weights before summing. -/
theorem comb1_apply (n : Fin 100000) (j : Fin 200) : comb1 m c (ix2 n j)
    = CompGcn.combR (fun n : Fin 100000 => Finset.univ.filter (fun e : Fin 400000 => (RN.dstIn1 m c (ix1 e)).toInt = (n.val : ℤ)))
      (fun n : Fin 100000 => Finset.univ.filter (fun e : Fin 400000 => (RN.dstOut1 m c (ix1 e)).toInt = (n.val : ℤ)))
      (fun e k => RN.xsIn1 m c (ix2 e k) * RN.rsIn1 m c (ix2 e k)) (fun e k => RN.xsOut1 m c (ix2 e k) * RN.rsOut1 m c (ix2 e k))
      (fun e => RN.nuIn1 m c (ix1 e)) (fun e => RN.nuOut1 m c (ix1 e))
      (fun n k => RN.x1in m c (ix2 n k) * RN.rel1 m c (ix2 (400 : Fin 401) k))
      (fun k j => RN.wIn1 m c (ix2 k j)) (fun k j => RN.wOut1 m c (ix2 k j)) (fun k j => RN.wLoop1 m c (ix2 k j))
      (Ideal.ofBits .f32 0x3EAAAAAB#32) n j := by
  rw [S144, mulf_apply, addf_apply, addf_apply, dotN_apply, bcS_const, aggIn1_apply, aggOut1_apply]
  have hl : (∑ k : Fin 200, loop1 m c (ix2 n k) * RN.wLoop1 m c (ix2 k j))
      = ∑ k : Fin 200, (RN.x1in m c (ix2 n k) * RN.rel1 m c (ix2 (400 : Fin 401) k)) * RN.wLoop1 m c (ix2 k j) :=
    Finset.sum_congr rfl fun k _ => by rw [loop1_apply]
  rw [hl]
  rfl

/-- A column's mean. -/
theorem mu1_apply (j : Fin 200) :
    mu1 m c (ix1 j) = Ideal.div (∑ n : Fin 100000, comb1 m c (ix2 n j)) (Ideal.ofBits .f32 0x47C35000#32) := by
  rw [S147, hostDivf_apply, colsum_apply, bcS_const]

/-- A column's mean squared deviation. -/
theorem var1_apply (j : Fin 200) :
    var1 m c (ix1 j) = Ideal.div (∑ n : Fin 100000, (comb1 m c (ix2 n j) - mu1 m c (ix1 j)) * (comb1 m c (ix2 n j) - mu1 m c (ix1 j))) (Ideal.ofBits .f32 0x47C35000#32) := by
  rw [S154, hostDivf_apply, sqdev_apply, bcS_const]

/-- The layer's output at a node and a column, over the three named arrays. -/
theorem x1out_apply (n : Fin 100000) (j : Fin 200) : RN.x1out m c (ix2 n j)
    = Ideal.tanh (Ideal.div (comb1 m c (ix2 n j) - mu1 m c (ix1 j)) (Ideal.sqrt (var1 m c (ix1 j) + (Ideal.ofBits .f32 0x3727C5AC#32)))) := by
  rw [S164]
  show Ideal.tanh (Ideal.div (comb1 m c (ix2 n j) - _) _) = _
  rw [bc_cols, bc_cols]
  show Ideal.tanh (Ideal.div _ (Ideal.sqrt (var1 m c (ix1 j) + _))) = _
  rw [bcS_const]

/-- **The first layer of the reference at an index**: the batch-normalised combined message. -/
theorem x1out_eq : ∀ (n : Fin 100000) (j : Fin 200), RN.x1out m c (ix2 n j)
    = CompGcn.bnR (CompGcn.combR (fun n : Fin 100000 => Finset.univ.filter (fun e : Fin 400000 => (RN.dstIn1 m c (ix1 e)).toInt = (n.val : ℤ)))
      (fun n : Fin 100000 => Finset.univ.filter (fun e : Fin 400000 => (RN.dstOut1 m c (ix1 e)).toInt = (n.val : ℤ)))
      (fun e k => RN.xsIn1 m c (ix2 e k) * RN.rsIn1 m c (ix2 e k)) (fun e k => RN.xsOut1 m c (ix2 e k) * RN.rsOut1 m c (ix2 e k))
      (fun e => RN.nuIn1 m c (ix1 e)) (fun e => RN.nuOut1 m c (ix1 e))
      (fun n k => RN.x1in m c (ix2 n k) * RN.rel1 m c (ix2 (400 : Fin 401) k))
      (fun k j => RN.wIn1 m c (ix2 k j)) (fun k j => RN.wOut1 m c (ix2 k j)) (fun k j => RN.wLoop1 m c (ix2 k j))
      (Ideal.ofBits .f32 0x3EAAAAAB#32)) (Ideal.ofBits .f32 0x47C35000#32) (Ideal.ofBits .f32 0x3727C5AC#32) n j := by
  intro n j
  have hC : (fun (n : Fin 100000) (j : Fin 200) => comb1 m c (ix2 n j)) = CompGcn.combR (fun n : Fin 100000 => Finset.univ.filter (fun e : Fin 400000 => (RN.dstIn1 m c (ix1 e)).toInt = (n.val : ℤ)))
      (fun n : Fin 100000 => Finset.univ.filter (fun e : Fin 400000 => (RN.dstOut1 m c (ix1 e)).toInt = (n.val : ℤ)))
      (fun e k => RN.xsIn1 m c (ix2 e k) * RN.rsIn1 m c (ix2 e k)) (fun e k => RN.xsOut1 m c (ix2 e k) * RN.rsOut1 m c (ix2 e k))
      (fun e => RN.nuIn1 m c (ix1 e)) (fun e => RN.nuOut1 m c (ix1 e))
      (fun n k => RN.x1in m c (ix2 n k) * RN.rel1 m c (ix2 (400 : Fin 401) k))
      (fun k j => RN.wIn1 m c (ix2 k j)) (fun k j => RN.wOut1 m c (ix2 k j)) (fun k j => RN.wLoop1 m c (ix2 k j))
      (Ideal.ofBits .f32 0x3EAAAAAB#32) :=
    funext fun n => funext fun j => comb1_apply m c n j
  rw [← hC, x1out_apply, var1_apply, mu1_apply]
  rfl

end Cert.ReferenceIdeal.RH1

end
-- ==== Proof.Cross1A.lean ====
/-
  The first layer's per-edge target nodes and degree normalisations agree across the two idealized programs: both are
  computed by the same host operations of the edge array alone.  Each equation is proved for an arbitrary float
  instance: both reads are reduced to the composed term of the launch contents, the reference's launch contents at the
  edge array are replaced by the kernel's, and the two composed terms coincide up to the unfolding of each program's own
  shape constants.
-/
import proofs.«412919_j56298431316644_2_alg».proof.Proof.KNames
import proofs.«412919_j56298431316644_2_alg».proof.Proof.RNames

set_option maxRecDepth 16384

noncomputable section

namespace Cert.Cross1

open Idealize.ShloMosaic Idealize.ShloMosaic.TcCoe Idealize.SL.Sem Idealize.ShloMosaic.StableHlo

section Generic

variable {F : FTy → Type} [FloatOps F]
variable (m : (ℓ : Loc Cert.KernelIdeal.nD Cert.KernelIdeal.τ Cert.KernelIdeal.sig) → Buf (Elt F) ℓ) (ρ : Dev Cert.KernelIdeal.nD → PrngReg)
  (m' : (ℓ : Loc Cert.ReferenceIdeal.nD Cert.ReferenceIdeal.τ Cert.ReferenceIdeal.sig) → Buf (Elt F) ℓ) (c : Dev Cert.KernelIdeal.nD)

/- The two launch memories agree on the fifteen arguments. -/
variable (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
include hag

/-! ## At an arbitrary float instance -/

set_option maxHeartbeats 40000000 in
/-- The target node of every in-edge: row 1 of the first half of the edge array. -/
theorem g_dstIn1 :
    Cert.ReferenceIdeal.RRun.R8 m' c (Proc.devRef .tc Cert.ReferenceIdeal.main_v8)
      = Cert.KernelIdeal.Gen.W11 m ρ c (Proc.devRef .tc Cert.KernelIdeal.main_v8) := by
  obtain ⟨h0, h1, h2, h3, h4, h5, h6, h7, h8, h9, h10, h11, h12, h13, h14⟩ := hag
  have e12 : launchContents m' c (Proc.devRef .tc Cert.ReferenceIdeal.main_arg12) = Cert.KernelIdeal.Gen.W0 m ρ c (Proc.devRef .tc Cert.KernelIdeal.main_arg12) := h12
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  rw [Cert.ReferenceIdeal.RRun.R4, Cert.ReferenceIdeal.RRun.keep_p3 _ (by decide)]
  rw [Cert.ReferenceIdeal.RRun.R3, Cert.ReferenceIdeal.RRun.keep_p2 _ (by decide)]
  rw [Cert.ReferenceIdeal.RRun.R2, Cert.ReferenceIdeal.RRun.keep_p1 _ (by decide)]
  dsimp only [Cert.ReferenceIdeal.RRun.R1, Cert.ReferenceIdeal.RRun.R0, Cert.ReferenceIdeal.RRun.ops_p0]
  after_results_simp
  rw [e12]
  rfl

set_option maxHeartbeats 40000000 in
/-- The normalisation of every in-edge: the product, over its two end nodes, of the node's degree raised to the
    power -1/2 (zero at degree zero). -/
theorem g_nuIn1 :
    Cert.ReferenceIdeal.RRun.R8 m' c (Proc.devRef .tc Cert.ReferenceIdeal.main_v47)
      = Cert.KernelIdeal.Gen.W11 m ρ c (Proc.devRef .tc Cert.KernelIdeal.main_v36) := by
  obtain ⟨h0, h1, h2, h3, h4, h5, h6, h7, h8, h9, h10, h11, h12, h13, h14⟩ := hag
  have e12 : launchContents m' c (Proc.devRef .tc Cert.ReferenceIdeal.main_arg12) = Cert.KernelIdeal.Gen.W0 m ρ c (Proc.devRef .tc Cert.KernelIdeal.main_arg12) := h12
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  rw [Cert.ReferenceIdeal.RRun.R4, Cert.ReferenceIdeal.RRun.keep_p3 _ (by decide)]
  rw [Cert.ReferenceIdeal.RRun.R3, Cert.ReferenceIdeal.RRun.keep_p2 _ (by decide)]
  dsimp only [Cert.ReferenceIdeal.RRun.R2, Cert.ReferenceIdeal.RRun.R1, Cert.ReferenceIdeal.RRun.R0, Cert.ReferenceIdeal.RRun.ops_p1, Cert.ReferenceIdeal.RRun.ops_p0]
  after_results_simp
  rw [e12]
  rfl

set_option maxHeartbeats 40000000 in
/-- The target node of every out-edge: row 1 of the second half of the edge array. -/
theorem g_dstOut1 :
    Cert.ReferenceIdeal.RRun.R8 m' c (Proc.devRef .tc Cert.ReferenceIdeal.main_v73)
      = Cert.KernelIdeal.Gen.W11 m ρ c (Proc.devRef .tc Cert.KernelIdeal.main_v49) := by
  obtain ⟨h0, h1, h2, h3, h4, h5, h6, h7, h8, h9, h10, h11, h12, h13, h14⟩ := hag
  have e12 : launchContents m' c (Proc.devRef .tc Cert.ReferenceIdeal.main_arg12) = Cert.KernelIdeal.Gen.W0 m ρ c (Proc.devRef .tc Cert.KernelIdeal.main_arg12) := h12
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  rw [Cert.ReferenceIdeal.RRun.R4, Cert.ReferenceIdeal.RRun.keep_p3 _ (by decide)]
  rw [Cert.ReferenceIdeal.RRun.R3, Cert.ReferenceIdeal.RRun.keep_p2 _ (by decide)]
  dsimp only [Cert.ReferenceIdeal.RRun.R2, Cert.ReferenceIdeal.RRun.R1, Cert.ReferenceIdeal.RRun.R0, Cert.ReferenceIdeal.RRun.ops_p1, Cert.ReferenceIdeal.RRun.ops_p0]
  after_results_simp
  rw [e12]
  rfl

set_option maxHeartbeats 40000000 in
/-- The normalisation of every out-edge. -/
theorem g_nuOut1 :
    Cert.ReferenceIdeal.RRun.R8 m' c (Proc.devRef .tc Cert.ReferenceIdeal.main_v112)
      = Cert.KernelIdeal.Gen.W11 m ρ c (Proc.devRef .tc Cert.KernelIdeal.main_v77) := by
  obtain ⟨h0, h1, h2, h3, h4, h5, h6, h7, h8, h9, h10, h11, h12, h13, h14⟩ := hag
  have e12 : launchContents m' c (Proc.devRef .tc Cert.ReferenceIdeal.main_arg12) = Cert.KernelIdeal.Gen.W0 m ρ c (Proc.devRef .tc Cert.KernelIdeal.main_arg12) := h12
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  rw [Cert.ReferenceIdeal.RRun.R4, Cert.ReferenceIdeal.RRun.keep_p3 _ (by decide)]
  dsimp only [Cert.ReferenceIdeal.RRun.R3, Cert.ReferenceIdeal.RRun.R2, Cert.ReferenceIdeal.RRun.R1, Cert.ReferenceIdeal.RRun.R0, Cert.ReferenceIdeal.RRun.ops_p2, Cert.ReferenceIdeal.RRun.ops_p1, Cert.ReferenceIdeal.RRun.ops_p0]
  after_results_simp
  rw [e12]
  rfl

end Generic

end Cert.Cross1

end
-- ==== Proof.Cross1B.lean ====
/-
  The rows gathered for the first layer's in-edges agree across the two idealized programs: the rows of the input by
  source node and the rows of the extended relation table by edge type, each a gather at an index chain of the edge
  arrays.  Proved for an arbitrary float instance by reducing both reads to the composed term of the launch contents.
-/
import proofs.«412919_j56298431316644_2_alg».proof.Proof.KNames
import proofs.«412919_j56298431316644_2_alg».proof.Proof.RNames

set_option maxRecDepth 16384

noncomputable section

namespace Cert.Cross1

open Idealize.ShloMosaic Idealize.ShloMosaic.TcCoe Idealize.SL.Sem Idealize.ShloMosaic.StableHlo

section Generic

variable {F : FTy → Type} [FloatOps F]
variable (m : (ℓ : Loc Cert.KernelIdeal.nD Cert.KernelIdeal.τ Cert.KernelIdeal.sig) → Buf (Elt F) ℓ) (ρ : Dev Cert.KernelIdeal.nD → PrngReg)
  (m' : (ℓ : Loc Cert.ReferenceIdeal.nD Cert.ReferenceIdeal.τ Cert.ReferenceIdeal.sig) → Buf (Elt F) ℓ) (c : Dev Cert.KernelIdeal.nD)

/- The two launch memories agree on the fifteen arguments. -/
variable (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
include hag

/-! ## At an arbitrary float instance -/

set_option maxHeartbeats 40000000 in
/-- The rows of the input gathered by the in-edges' source nodes. -/
theorem g_xsIn1 :
    Cert.ReferenceIdeal.RRun.R8 m' c (Proc.devRef .tc Cert.ReferenceIdeal.main_v54)
      = Cert.KernelIdeal.Gen.W11 m ρ c (Proc.devRef .tc Cert.KernelIdeal.main_call1_v13) := by
  obtain ⟨h0, h1, h2, h3, h4, h5, h6, h7, h8, h9, h10, h11, h12, h13, h14⟩ := hag
  have e0 : launchContents m' c (Proc.devRef .tc Cert.ReferenceIdeal.main_arg0) = Cert.KernelIdeal.Gen.W0 m ρ c (Proc.devRef .tc Cert.KernelIdeal.main_arg0) := h0
  have e12 : launchContents m' c (Proc.devRef .tc Cert.ReferenceIdeal.main_arg12) = Cert.KernelIdeal.Gen.W0 m ρ c (Proc.devRef .tc Cert.KernelIdeal.main_arg12) := h12
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  rw [Cert.ReferenceIdeal.RRun.R4, Cert.ReferenceIdeal.RRun.keep_p3 _ (by decide)]
  rw [Cert.ReferenceIdeal.RRun.R3, Cert.ReferenceIdeal.RRun.keep_p2 _ (by decide)]
  dsimp only [Cert.ReferenceIdeal.RRun.R2, Cert.ReferenceIdeal.RRun.R1, Cert.ReferenceIdeal.RRun.R0, Cert.ReferenceIdeal.RRun.ops_p1, Cert.ReferenceIdeal.RRun.ops_p0]
  after_results_simp
  rw [e0, e12]
  rfl

set_option maxHeartbeats 40000000 in
/-- The rows of the extended relation table gathered by the in-edges' types. -/
theorem g_rsIn1 :
    Cert.ReferenceIdeal.RRun.R8 m' c (Proc.devRef .tc Cert.ReferenceIdeal.main_v61)
      = Cert.KernelIdeal.Gen.W11 m ρ c (Proc.devRef .tc Cert.KernelIdeal.main_call2_v13) := by
  obtain ⟨h0, h1, h2, h3, h4, h5, h6, h7, h8, h9, h10, h11, h12, h13, h14⟩ := hag
  have e1 : launchContents m' c (Proc.devRef .tc Cert.ReferenceIdeal.main_arg1) = Cert.KernelIdeal.Gen.W0 m ρ c (Proc.devRef .tc Cert.KernelIdeal.main_arg1) := h1
  have e6 : launchContents m' c (Proc.devRef .tc Cert.ReferenceIdeal.main_arg6) = Cert.KernelIdeal.Gen.W0 m ρ c (Proc.devRef .tc Cert.KernelIdeal.main_arg6) := h6
  have e13 : launchContents m' c (Proc.devRef .tc Cert.ReferenceIdeal.main_arg13) = Cert.KernelIdeal.Gen.W0 m ρ c (Proc.devRef .tc Cert.KernelIdeal.main_arg13) := h13
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  rw [Cert.ReferenceIdeal.RRun.R4, Cert.ReferenceIdeal.RRun.keep_p3 _ (by decide)]
  rw [Cert.ReferenceIdeal.RRun.R3, Cert.ReferenceIdeal.RRun.keep_p2 _ (by decide)]
  dsimp only [Cert.ReferenceIdeal.RRun.R2, Cert.ReferenceIdeal.RRun.R1, Cert.ReferenceIdeal.RRun.R0, Cert.ReferenceIdeal.RRun.ops_p1, Cert.ReferenceIdeal.RRun.ops_p0]
  after_results_simp
  rw [e1, e6, e13]
  rfl

end Generic

end Cert.Cross1

end
-- ==== Proof.Cross1C.lean ====
/-
  The rows gathered for the first layer's out-edges agree across the two idealized programs: the rows of the input by
  source node and the rows of the extended relation table by edge type, each a gather at an index chain of the edge
  arrays.  Proved for an arbitrary float instance by reducing both reads to the composed term of the launch contents.
-/
import proofs.«412919_j56298431316644_2_alg».proof.Proof.KNames
import proofs.«412919_j56298431316644_2_alg».proof.Proof.RNames

set_option maxRecDepth 16384

noncomputable section

namespace Cert.Cross1

open Idealize.ShloMosaic Idealize.ShloMosaic.TcCoe Idealize.SL.Sem Idealize.ShloMosaic.StableHlo

section Generic

variable {F : FTy → Type} [FloatOps F]
variable (m : (ℓ : Loc Cert.KernelIdeal.nD Cert.KernelIdeal.τ Cert.KernelIdeal.sig) → Buf (Elt F) ℓ) (ρ : Dev Cert.KernelIdeal.nD → PrngReg)
  (m' : (ℓ : Loc Cert.ReferenceIdeal.nD Cert.ReferenceIdeal.τ Cert.ReferenceIdeal.sig) → Buf (Elt F) ℓ) (c : Dev Cert.KernelIdeal.nD)

/- The two launch memories agree on the fifteen arguments. -/
variable (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
include hag

/-! ## At an arbitrary float instance -/

set_option maxHeartbeats 40000000 in
/-- The rows of the input gathered by the out-edges' source nodes. -/
theorem g_xsOut1 :
    Cert.ReferenceIdeal.RRun.R8 m' c (Proc.devRef .tc Cert.ReferenceIdeal.main_v119)
      = Cert.KernelIdeal.Gen.W11 m ρ c (Proc.devRef .tc Cert.KernelIdeal.main_call4_v13) := by
  obtain ⟨h0, h1, h2, h3, h4, h5, h6, h7, h8, h9, h10, h11, h12, h13, h14⟩ := hag
  have e0 : launchContents m' c (Proc.devRef .tc Cert.ReferenceIdeal.main_arg0) = Cert.KernelIdeal.Gen.W0 m ρ c (Proc.devRef .tc Cert.KernelIdeal.main_arg0) := h0
  have e12 : launchContents m' c (Proc.devRef .tc Cert.ReferenceIdeal.main_arg12) = Cert.KernelIdeal.Gen.W0 m ρ c (Proc.devRef .tc Cert.KernelIdeal.main_arg12) := h12
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  rw [Cert.ReferenceIdeal.RRun.R4, Cert.ReferenceIdeal.RRun.keep_p3 _ (by decide)]
  dsimp only [Cert.ReferenceIdeal.RRun.R3, Cert.ReferenceIdeal.RRun.R2, Cert.ReferenceIdeal.RRun.R1, Cert.ReferenceIdeal.RRun.R0, Cert.ReferenceIdeal.RRun.ops_p2, Cert.ReferenceIdeal.RRun.ops_p1, Cert.ReferenceIdeal.RRun.ops_p0]
  after_results_simp
  rw [e0, e12]
  rfl

set_option maxHeartbeats 40000000 in
/-- The rows of the extended relation table gathered by the out-edges' types. -/
theorem g_rsOut1 :
    Cert.ReferenceIdeal.RRun.R8 m' c (Proc.devRef .tc Cert.ReferenceIdeal.main_v126)
      = Cert.KernelIdeal.Gen.W11 m ρ c (Proc.devRef .tc Cert.KernelIdeal.main_call5_v13) := by
  obtain ⟨h0, h1, h2, h3, h4, h5, h6, h7, h8, h9, h10, h11, h12, h13, h14⟩ := hag
  have e1 : launchContents m' c (Proc.devRef .tc Cert.ReferenceIdeal.main_arg1) = Cert.KernelIdeal.Gen.W0 m ρ c (Proc.devRef .tc Cert.KernelIdeal.main_arg1) := h1
  have e6 : launchContents m' c (Proc.devRef .tc Cert.ReferenceIdeal.main_arg6) = Cert.KernelIdeal.Gen.W0 m ρ c (Proc.devRef .tc Cert.KernelIdeal.main_arg6) := h6
  have e13 : launchContents m' c (Proc.devRef .tc Cert.ReferenceIdeal.main_arg13) = Cert.KernelIdeal.Gen.W0 m ρ c (Proc.devRef .tc Cert.KernelIdeal.main_arg13) := h13
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  rw [Cert.ReferenceIdeal.RRun.R4, Cert.ReferenceIdeal.RRun.keep_p3 _ (by decide)]
  dsimp only [Cert.ReferenceIdeal.RRun.R3, Cert.ReferenceIdeal.RRun.R2, Cert.ReferenceIdeal.RRun.R1, Cert.ReferenceIdeal.RRun.R0, Cert.ReferenceIdeal.RRun.ops_p2, Cert.ReferenceIdeal.RRun.ops_p1, Cert.ReferenceIdeal.RRun.ops_p0]
  after_results_simp
  rw [e1, e6, e13]
  rfl

end Generic

end Cert.Cross1

end
-- ==== Proof.Cross1D.lean ====
/-
  The extended relation table of the first layer, the layer's input array and its three weight matrices agree across
  the two idealized programs: the table is the same concatenation of two arguments, the others are arguments that no
  host operation writes.  Proved for an arbitrary float instance.
-/
import proofs.«412919_j56298431316644_2_alg».proof.Proof.KNames
import proofs.«412919_j56298431316644_2_alg».proof.Proof.RNames

set_option maxRecDepth 16384

noncomputable section

namespace Cert.Cross1

open Idealize.ShloMosaic Idealize.ShloMosaic.TcCoe Idealize.SL.Sem Idealize.ShloMosaic.StableHlo

section Generic

variable {F : FTy → Type} [FloatOps F]
variable (m : (ℓ : Loc Cert.KernelIdeal.nD Cert.KernelIdeal.τ Cert.KernelIdeal.sig) → Buf (Elt F) ℓ) (ρ : Dev Cert.KernelIdeal.nD → PrngReg)
  (m' : (ℓ : Loc Cert.ReferenceIdeal.nD Cert.ReferenceIdeal.τ Cert.ReferenceIdeal.sig) → Buf (Elt F) ℓ) (c : Dev Cert.KernelIdeal.nD)

/- The two launch memories agree on the fifteen arguments. -/
variable (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
include hag

/-! ## At an arbitrary float instance -/

set_option maxHeartbeats 40000000 in
/-- The relation table with the self-loop row appended. -/
theorem g_rel1 :
    Cert.ReferenceIdeal.RRun.R8 m' c (Proc.devRef .tc Cert.ReferenceIdeal.main_v0)
      = Cert.KernelIdeal.Gen.W11 m ρ c (Proc.devRef .tc Cert.KernelIdeal.main_v0) := by
  obtain ⟨h0, h1, h2, h3, h4, h5, h6, h7, h8, h9, h10, h11, h12, h13, h14⟩ := hag
  have e1 : launchContents m' c (Proc.devRef .tc Cert.ReferenceIdeal.main_arg1) = Cert.KernelIdeal.Gen.W0 m ρ c (Proc.devRef .tc Cert.KernelIdeal.main_arg1) := h1
  have e6 : launchContents m' c (Proc.devRef .tc Cert.ReferenceIdeal.main_arg6) = Cert.KernelIdeal.Gen.W0 m ρ c (Proc.devRef .tc Cert.KernelIdeal.main_arg6) := h6
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  rw [Cert.ReferenceIdeal.RRun.R4, Cert.ReferenceIdeal.RRun.keep_p3 _ (by decide)]
  rw [Cert.ReferenceIdeal.RRun.R3, Cert.ReferenceIdeal.RRun.keep_p2 _ (by decide)]
  rw [Cert.ReferenceIdeal.RRun.R2, Cert.ReferenceIdeal.RRun.keep_p1 _ (by decide)]
  dsimp only [Cert.ReferenceIdeal.RRun.R1, Cert.ReferenceIdeal.RRun.R0, Cert.ReferenceIdeal.RRun.ops_p0]
  after_results_simp
  rw [e1, e6]

set_option maxHeartbeats 40000000 in
/-- The layer's input array is the launched argument on both sides. -/
theorem g_x1in :
    Cert.ReferenceIdeal.RRun.R8 m' c (Proc.devRef .tc Cert.ReferenceIdeal.main_arg0)
      = Cert.KernelIdeal.Gen.W11 m ρ c (Proc.devRef .tc Cert.KernelIdeal.main_arg0) := by
  obtain ⟨h0, h1, h2, h3, h4, h5, h6, h7, h8, h9, h10, h11, h12, h13, h14⟩ := hag
  have e0 : launchContents m' c (Proc.devRef .tc Cert.ReferenceIdeal.main_arg0) = Cert.KernelIdeal.Gen.W0 m ρ c (Proc.devRef .tc Cert.KernelIdeal.main_arg0) := h0
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  rw [Cert.ReferenceIdeal.RRun.R4, Cert.ReferenceIdeal.RRun.keep_p3 _ (by decide)]
  rw [Cert.ReferenceIdeal.RRun.R3, Cert.ReferenceIdeal.RRun.keep_p2 _ (by decide)]
  rw [Cert.ReferenceIdeal.RRun.R2, Cert.ReferenceIdeal.RRun.keep_p1 _ (by decide)]
  rw [Cert.ReferenceIdeal.RRun.R1, Cert.ReferenceIdeal.RRun.keep_p0 _ (by decide)]
  dsimp only [Cert.ReferenceIdeal.RRun.R0]
  after_results_simp
  rw [e0]

set_option maxHeartbeats 40000000 in
/-- The in-edge weight matrix is the launched argument on both sides. -/
theorem g_wIn1 :
    Cert.ReferenceIdeal.RRun.R8 m' c (Proc.devRef .tc Cert.ReferenceIdeal.main_arg2)
      = Cert.KernelIdeal.Gen.W11 m ρ c (Proc.devRef .tc Cert.KernelIdeal.main_arg2) := by
  obtain ⟨h0, h1, h2, h3, h4, h5, h6, h7, h8, h9, h10, h11, h12, h13, h14⟩ := hag
  have e2 : launchContents m' c (Proc.devRef .tc Cert.ReferenceIdeal.main_arg2) = Cert.KernelIdeal.Gen.W0 m ρ c (Proc.devRef .tc Cert.KernelIdeal.main_arg2) := h2
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  rw [Cert.ReferenceIdeal.RRun.R4, Cert.ReferenceIdeal.RRun.keep_p3 _ (by decide)]
  rw [Cert.ReferenceIdeal.RRun.R3, Cert.ReferenceIdeal.RRun.keep_p2 _ (by decide)]
  rw [Cert.ReferenceIdeal.RRun.R2, Cert.ReferenceIdeal.RRun.keep_p1 _ (by decide)]
  rw [Cert.ReferenceIdeal.RRun.R1, Cert.ReferenceIdeal.RRun.keep_p0 _ (by decide)]
  dsimp only [Cert.ReferenceIdeal.RRun.R0]
  after_results_simp
  rw [e2]

set_option maxHeartbeats 40000000 in
/-- The out-edge weight matrix is the launched argument on both sides. -/
theorem g_wOut1 :
    Cert.ReferenceIdeal.RRun.R8 m' c (Proc.devRef .tc Cert.ReferenceIdeal.main_arg3)
      = Cert.KernelIdeal.Gen.W11 m ρ c (Proc.devRef .tc Cert.KernelIdeal.main_arg3) := by
  obtain ⟨h0, h1, h2, h3, h4, h5, h6, h7, h8, h9, h10, h11, h12, h13, h14⟩ := hag
  have e3 : launchContents m' c (Proc.devRef .tc Cert.ReferenceIdeal.main_arg3) = Cert.KernelIdeal.Gen.W0 m ρ c (Proc.devRef .tc Cert.KernelIdeal.main_arg3) := h3
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  rw [Cert.ReferenceIdeal.RRun.R4, Cert.ReferenceIdeal.RRun.keep_p3 _ (by decide)]
  rw [Cert.ReferenceIdeal.RRun.R3, Cert.ReferenceIdeal.RRun.keep_p2 _ (by decide)]
  rw [Cert.ReferenceIdeal.RRun.R2, Cert.ReferenceIdeal.RRun.keep_p1 _ (by decide)]
  rw [Cert.ReferenceIdeal.RRun.R1, Cert.ReferenceIdeal.RRun.keep_p0 _ (by decide)]
  dsimp only [Cert.ReferenceIdeal.RRun.R0]
  after_results_simp
  rw [e3]

set_option maxHeartbeats 40000000 in
/-- The self-loop weight matrix is the launched argument on both sides. -/
theorem g_wLoop1 :
    Cert.ReferenceIdeal.RRun.R8 m' c (Proc.devRef .tc Cert.ReferenceIdeal.main_arg4)
      = Cert.KernelIdeal.Gen.W11 m ρ c (Proc.devRef .tc Cert.KernelIdeal.main_arg4) := by
  obtain ⟨h0, h1, h2, h3, h4, h5, h6, h7, h8, h9, h10, h11, h12, h13, h14⟩ := hag
  have e4 : launchContents m' c (Proc.devRef .tc Cert.ReferenceIdeal.main_arg4) = Cert.KernelIdeal.Gen.W0 m ρ c (Proc.devRef .tc Cert.KernelIdeal.main_arg4) := h4
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  rw [Cert.ReferenceIdeal.RRun.R4, Cert.ReferenceIdeal.RRun.keep_p3 _ (by decide)]
  rw [Cert.ReferenceIdeal.RRun.R3, Cert.ReferenceIdeal.RRun.keep_p2 _ (by decide)]
  rw [Cert.ReferenceIdeal.RRun.R2, Cert.ReferenceIdeal.RRun.keep_p1 _ (by decide)]
  rw [Cert.ReferenceIdeal.RRun.R1, Cert.ReferenceIdeal.RRun.keep_p0 _ (by decide)]
  dsimp only [Cert.ReferenceIdeal.RRun.R0]
  after_results_simp
  rw [e4]

end Generic

end Cert.Cross1

end
-- ==== Proof.Cross1.lean ====
/-
  The first layer's host-side buffers agree across the two idealized programs.  Both programs compute, by the same
  host operations of the same arguments, the per-edge index arrays, the degree normalisations, the gathered rows and
  the extended relation table; started from memories that agree on the fifteen arguments they therefore hold equal
  contents in those buffers.  The equations are proved for an arbitrary float instance in four modules; here they are
  read at the ideal instance, at the named reads of the two programs.
-/
import proofs.«412919_j56298431316644_2_alg».proof.Proof.Cross1A
import proofs.«412919_j56298431316644_2_alg».proof.Proof.Cross1B
import proofs.«412919_j56298431316644_2_alg».proof.Proof.Cross1C
import proofs.«412919_j56298431316644_2_alg».proof.Proof.Cross1D

set_option maxRecDepth 16384

noncomputable section

namespace Cert.Cross1

open Idealize.ShloMosaic Idealize.ShloMosaic.TcCoe Idealize.SL.Sem Idealize.ShloMosaic.StableHlo

/-! ## At the ideal instance: the named reads -/

section AtIdeal

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/- The two launch memories agree on the fifteen arguments. -/
variable (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
include hag

theorem dstIn1_eq : Cert.ReferenceIdeal.RN.dstIn1 m' c = Cert.KernelIdeal.KN.dstIn1 m ρ c :=
  g_dstIn1 m ρ m' c hag

theorem nuIn1_eq : Cert.ReferenceIdeal.RN.nuIn1 m' c = Cert.KernelIdeal.KN.nuIn1 m ρ c :=
  g_nuIn1 m ρ m' c hag

theorem xsIn1_eq : Cert.ReferenceIdeal.RN.xsIn1 m' c = Cert.KernelIdeal.KN.xsIn1 m ρ c :=
  g_xsIn1 m ρ m' c hag

theorem rsIn1_eq : Cert.ReferenceIdeal.RN.rsIn1 m' c = Cert.KernelIdeal.KN.rsIn1 m ρ c :=
  g_rsIn1 m ρ m' c hag

theorem dstOut1_eq : Cert.ReferenceIdeal.RN.dstOut1 m' c = Cert.KernelIdeal.KN.dstOut1 m ρ c :=
  g_dstOut1 m ρ m' c hag

theorem nuOut1_eq : Cert.ReferenceIdeal.RN.nuOut1 m' c = Cert.KernelIdeal.KN.nuOut1 m ρ c :=
  g_nuOut1 m ρ m' c hag

theorem xsOut1_eq : Cert.ReferenceIdeal.RN.xsOut1 m' c = Cert.KernelIdeal.KN.xsOut1 m ρ c :=
  g_xsOut1 m ρ m' c hag

theorem rsOut1_eq : Cert.ReferenceIdeal.RN.rsOut1 m' c = Cert.KernelIdeal.KN.rsOut1 m ρ c :=
  g_rsOut1 m ρ m' c hag

theorem rel1_eq : Cert.ReferenceIdeal.RN.rel1 m' c = Cert.KernelIdeal.KN.rel1 m ρ c :=
  g_rel1 m ρ m' c hag

theorem x1in_eq : Cert.ReferenceIdeal.RN.x1in m' c = Cert.KernelIdeal.KN.x1in m ρ c :=
  g_x1in m ρ m' c hag

theorem wIn1_eq : Cert.ReferenceIdeal.RN.wIn1 m' c = Cert.KernelIdeal.KN.wIn1 m ρ c :=
  g_wIn1 m ρ m' c hag

theorem wOut1_eq : Cert.ReferenceIdeal.RN.wOut1 m' c = Cert.KernelIdeal.KN.wOut1 m ρ c :=
  g_wOut1 m ρ m' c hag

theorem wLoop1_eq : Cert.ReferenceIdeal.RN.wLoop1 m' c = Cert.KernelIdeal.KN.wLoop1 m ρ c :=
  g_wLoop1 m ρ m' c hag

end AtIdeal

end Cert.Cross1

end
-- ==== Proof.Layer1Inst.lean ====
/-
  The first layer of the two idealized programs, put together: the kernel program's output array (the second region's
  write-backs) equals the reference's, entry by entry, and every entry is a real number.  The kernel side is read off
  the two regions' values and the host operations before them; the reference side off its host operations; the two
  programs' per-edge arrays agree because they are the same operations of the same arguments; the two arrangements of
  the arithmetic agree on finite entries.
-/
import proofs.«412919_j56298431316644_2_alg».proof.Proof.Layer1
import proofs.«412919_j56298431316644_2_alg».proof.Proof.Region0Value
import proofs.«412919_j56298431316644_2_alg».proof.Proof.Region1Value
import proofs.«412919_j56298431316644_2_alg».proof.Proof.KMid1
import proofs.«412919_j56298431316644_2_alg».proof.Proof.KHost1
import proofs.«412919_j56298431316644_2_alg».proof.Proof.KHost1Fin
import proofs.«412919_j56298431316644_2_alg».proof.Proof.RHost1
import proofs.«412919_j56298431316644_2_alg».proof.Proof.Cross1

noncomputable section

namespace Cert.Layer1Inst

open Cert.KernelIdeal Idealize.ShloMosaic Idealize.ShloMosaic.TcCoe Idealize.SL.Sem Idealize.ShloMosaic.ValueIdx

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ) (c : Dev nD)

/-- The first region's combined array, entry by entry, is the region's arithmetic of the arrays it is entered with. -/
theorem comb_entry (n : Fin 100000) (j : Fin 200) : KM1.comb1 m ρ c (ix2 n j) = KVal.combAt (Gen.V11 m ρ) c n j :=
  KVal.region0_comb (Gen.V11 m ρ) c n j

/-- The first layer's output on the kernel side: the normalisation of the first region's combined array. -/
theorem x1out_kernel : ∀ (n : Fin 100000) (j : Fin 200), KN.x1out m ρ c (ix2 n j)
    = CompGcn.bnK (fun n j => Cert.Layer1.comb1 m ρ c (ix2 n j)) (Ideal.ofBits .f32 0x47C35000#32) (Ideal.ofBits .f32 0x3727C5AC#32) n j :=
  KM1.x1out_eq m ρ c (fun V c n j => KVal1.region1_value V c n j)
    (fun j => by
      have h := KVal.region0_sum (Gen.V11 m ρ) c j
      simp only [← comb_entry m ρ c] at h
      exact h)
    (fun j => by
      have h := KVal.region0_sumsq (Gen.V11 m ρ) c j
      simp only [← comb_entry m ρ c] at h
      exact h)

theorem layer1 (hpre : Cert.Pre_KernelIdeal m)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)) :
    (∀ (n : Fin 100000) (j : Fin 200), KN.x1out m ρ c (ix2 n j) = Cert.ReferenceIdeal.RN.x1out m' c (ix2 n j))
      ∧ (∀ (n : Fin 100000) (j : Fin 200), CompGcn.IsReal (KN.x1out m ρ c (ix2 n j))) :=
  Cert.Layer1.layer1_of m ρ m' c hpre hag
    (fun n j => (KVal.region0_comb (Gen.V11 m ρ) c n j).trans (by unfold KVal.combAt; rfl))
    (x1out_kernel m ρ c)
    (KH1.aggIn1_apply m ρ c (fun e => Cert.PreDecode.src_range (hpre c) e) (fun e => Cert.PreDecode.et_range (hpre c) e))
    (KH1.aggOut1_apply m ρ c (fun e => Cert.PreDecode.src_range (hpre c) e) (fun e => Cert.PreDecode.et_range (hpre c) e))
    (KH1F.xsIn1_entry m ρ c) (KH1F.xsOut1_entry m ρ c) (KH1F.rsIn1_entry m ρ c) (KH1F.rsOut1_entry m ρ c)
    (KH1F.nuIn1_isReal m ρ c) (KH1F.nuOut1_isReal m ρ c)
    (KH1F.x1in_eq m ρ c) (KH1F.wIn1_eq m ρ c) (KH1F.wOut1_eq m ρ c) (KH1F.wLoop1_eq m ρ c)
    (KH1F.rel1_entry m ρ c) (KH1F.lrow1_apply m ρ c)
    (Cert.ReferenceIdeal.RH1.x1out_eq m' c)
    (Cert.Cross1.dstIn1_eq m ρ m' c hag) (Cert.Cross1.xsIn1_eq m ρ m' c hag) (Cert.Cross1.rsIn1_eq m ρ m' c hag) (Cert.Cross1.nuIn1_eq m ρ m' c hag)
    (Cert.Cross1.dstOut1_eq m ρ m' c hag) (Cert.Cross1.xsOut1_eq m ρ m' c hag) (Cert.Cross1.rsOut1_eq m ρ m' c hag) (Cert.Cross1.nuOut1_eq m ρ m' c hag)
    (Cert.Cross1.x1in_eq m ρ m' c hag) (Cert.Cross1.rel1_eq m ρ m' c hag)
    ((Cert.Cross1.wIn1_eq m ρ m' c hag).trans (KH1F.wIn1_eq m ρ c))
    ((Cert.Cross1.wOut1_eq m ρ m' c hag).trans (KH1F.wOut1_eq m ρ c))
    ((Cert.Cross1.wLoop1_eq m ρ m' c hag).trans (KH1F.wLoop1_eq m ρ c))

end Cert.Layer1Inst

end
-- ==== Proof.Region2Value.lean ====
/-
  The value of the second layer's fused combine kernel, read off its run: each row of the combined array is the three
  matrix products of the row's aggregates and its own (rescaled) features, added and divided by three; the two carried
  row vectors end at the column sums of the combined array and of its squares over all 100000 rows.
-/
import proofs.«412919_j56298431316644_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.KVal2

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

theorem hz : (![0, 0] : Fin 2 → Nat) = fun _ => 0 := funext fun a => by fin_cases a <;> rfl

/-- What either case leaves in the combined block: the payload of its one covering store, over the loaded blocks. -/
theorem pieceA7 (c : Dev nD) (i : grid2.Coords) (a1 : Memref sig .tc .vmem S2000x200 .f32) (h1 : a1.IsWhole) (a2 : Memref sig .tc .vmem S2000x200 .f32) (h2 : a2.IsWhole) (a3 : Memref sig .tc .vmem S2000x200 .f32) (h3 : a3.IsWhole) (a4 : Memref sig .tc .vmem S1x200 .f32) (h4 : a4.IsWhole) (a5 : Memref sig .tc .vmem S200x200 .f32) (h5 : a5.IsWhole) (a6 : Memref sig .tc .vmem S200x200 .f32) (h6 : a6.IsWhole) (a7 : Memref sig .tc .vmem S200x200 .f32) (h7 : a7.IsWhole) (a8 : Memref sig .tc .vmem S2000x200 .f32) (h8 : a8.IsWhole) (a9 : Memref sig .tc .vmem S1x200 .f32) (h9 : a9.IsWhole) (a10 : Memref sig .tc .vmem S1x200 .f32) (h10 : a10.IsWhole) (hc : cond2_0 i) (x0 : Vec F S2000x200 .f32) (x1 : Vec F S2000x200 .f32) (x2 : Vec F S2000x200 .f32) (x3 : Vec F S1x200 .f32) (x4 : Vec F S200x200 .f32) (x5 : Vec F S200x200 .f32) (x6 : Vec F S200x200 .f32) :
    out2_A_7 c i a1 h1 a2 h2 a3 h3 a4 h4 a5 h5 a6 h6 a7 h7 a8 h8 a9 h9 a10 h10 hc x0 x1 x2 x3 x4 x5 x6 = k2_pay5 x0 x1 x2 x3 x4 x5 x6 := by
  unfold out2_A_7
  rw [View.read_writes_eq_canon _ _ _ (cover2_A_7 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S2000x200) hz, View.ld_unit_zero (S := S1x200) hz, View.ld_unit_zero (S := S200x200) hz]

theorem pieceB7 (c : Dev nD) (i : grid2.Coords) (a1 : Memref sig .tc .vmem S2000x200 .f32) (h1 : a1.IsWhole) (a2 : Memref sig .tc .vmem S2000x200 .f32) (h2 : a2.IsWhole) (a3 : Memref sig .tc .vmem S2000x200 .f32) (h3 : a3.IsWhole) (a4 : Memref sig .tc .vmem S1x200 .f32) (h4 : a4.IsWhole) (a5 : Memref sig .tc .vmem S200x200 .f32) (h5 : a5.IsWhole) (a6 : Memref sig .tc .vmem S200x200 .f32) (h6 : a6.IsWhole) (a7 : Memref sig .tc .vmem S200x200 .f32) (h7 : a7.IsWhole) (a8 : Memref sig .tc .vmem S2000x200 .f32) (h8 : a8.IsWhole) (a9 : Memref sig .tc .vmem S1x200 .f32) (h9 : a9.IsWhole) (a10 : Memref sig .tc .vmem S1x200 .f32) (h10 : a10.IsWhole) (hc : ¬cond2_0 i) (x0 : Vec F S2000x200 .f32) (x1 : Vec F S2000x200 .f32) (x2 : Vec F S2000x200 .f32) (x3 : Vec F S1x200 .f32) (x4 : Vec F S200x200 .f32) (x5 : Vec F S200x200 .f32) (x6 : Vec F S200x200 .f32) (xo8 xo9 : Vec F S1x200 .f32) :
    out2_B_7 c i a1 h1 a2 h2 a3 h3 a4 h4 a5 h5 a6 h6 a7 h7 a8 h8 a9 h9 a10 h10 hc x0 x1 x2 x3 x4 x5 x6 xo8 xo9 = k2_pay5 x0 x1 x2 x3 x4 x5 x6 := by
  unfold out2_B_7
  rw [View.read_writes_eq_canon _ _ _ (cover2_B_7 c i a1 h1 a2 h2 a3 h3 a4 h4 a5 h5 a6 h6 a7 h7 a8 h8 a9 h9 a10 h10 hc x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S2000x200) hz, View.ld_unit_zero (S := S1x200) hz, View.ld_unit_zero (S := S200x200) hz]

/-- The first point resets the carried row to the zero row and then adds its tile's column sums. -/
theorem pieceA8 (c : Dev nD) (i : grid2.Coords) (a1 : Memref sig .tc .vmem S2000x200 .f32) (h1 : a1.IsWhole) (a2 : Memref sig .tc .vmem S2000x200 .f32) (h2 : a2.IsWhole) (a3 : Memref sig .tc .vmem S2000x200 .f32) (h3 : a3.IsWhole) (a4 : Memref sig .tc .vmem S1x200 .f32) (h4 : a4.IsWhole) (a5 : Memref sig .tc .vmem S200x200 .f32) (h5 : a5.IsWhole) (a6 : Memref sig .tc .vmem S200x200 .f32) (h6 : a6.IsWhole) (a7 : Memref sig .tc .vmem S200x200 .f32) (h7 : a7.IsWhole) (a8 : Memref sig .tc .vmem S2000x200 .f32) (h8 : a8.IsWhole) (a9 : Memref sig .tc .vmem S1x200 .f32) (h9 : a9.IsWhole) (a10 : Memref sig .tc .vmem S1x200 .f32) (h10 : a10.IsWhole) (hc : cond2_0 i) (x0 : Vec F S2000x200 .f32) (x1 : Vec F S2000x200 .f32) (x2 : Vec F S2000x200 .f32) (x3 : Vec F S1x200 .f32) (x4 : Vec F S200x200 .f32) (x5 : Vec F S200x200 .f32) (x6 : Vec F S200x200 .f32) :
    out2_A_8 c i a1 h1 a2 h2 a3 h3 a4 h4 a5 h5 a6 h6 a7 h7 a8 h8 a9 h9 a10 h10 hc x0 x1 x2 x3 x4 x5 x6 = k2_pay1 (k2_pay5 x0 x1 x2 x3 x4 x5 x6) (k2_pay6 (k2_pay3 (F := F))) := by
  unfold out2_A_8
  rw [View.read_writes_eq_canon _ _ _ (cover2_A_8 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_cons_unit_zero (S := S1x200) hz]
  simp only [View.readAt_eq_ld, h1.read_unread, h2.read_unread, h3.read_unread, h4.read_unread, h5.read_unread, h6.read_unread, h7.read_unread, View.ld_unit_zero (S := S2000x200) hz, View.ld_unit_zero (S := S1x200) hz, View.ld_unit_zero (S := S200x200) hz, View.readCov_unit_zero (S := S1x200) _ hz]

/-- A later point adds its tile's column sums onto what the point before left. -/
theorem pieceB8 (c : Dev nD) (i : grid2.Coords) (a1 : Memref sig .tc .vmem S2000x200 .f32) (h1 : a1.IsWhole) (a2 : Memref sig .tc .vmem S2000x200 .f32) (h2 : a2.IsWhole) (a3 : Memref sig .tc .vmem S2000x200 .f32) (h3 : a3.IsWhole) (a4 : Memref sig .tc .vmem S1x200 .f32) (h4 : a4.IsWhole) (a5 : Memref sig .tc .vmem S200x200 .f32) (h5 : a5.IsWhole) (a6 : Memref sig .tc .vmem S200x200 .f32) (h6 : a6.IsWhole) (a7 : Memref sig .tc .vmem S200x200 .f32) (h7 : a7.IsWhole) (a8 : Memref sig .tc .vmem S2000x200 .f32) (h8 : a8.IsWhole) (a9 : Memref sig .tc .vmem S1x200 .f32) (h9 : a9.IsWhole) (a10 : Memref sig .tc .vmem S1x200 .f32) (h10 : a10.IsWhole) (hc : ¬cond2_0 i) (x0 : Vec F S2000x200 .f32) (x1 : Vec F S2000x200 .f32) (x2 : Vec F S2000x200 .f32) (x3 : Vec F S1x200 .f32) (x4 : Vec F S200x200 .f32) (x5 : Vec F S200x200 .f32) (x6 : Vec F S200x200 .f32) (xo8 xo9 : Vec F S1x200 .f32) :
    out2_B_8 c i a1 h1 a2 h2 a3 h3 a4 h4 a5 h5 a6 h6 a7 h7 a8 h8 a9 h9 a10 h10 hc x0 x1 x2 x3 x4 x5 x6 xo8 xo9 = k2_pay1 (k2_pay5 x0 x1 x2 x3 x4 x5 x6) (k2_pay6 xo8) := by
  unfold out2_B_8
  rw [View.read_writes_eq_canon _ _ _ (cover2_B_8 c i a1 h1 a2 h2 a3 h3 a4 h4 a5 h5 a6 h6 a7 h7 a8 h8 a9 h9 a10 h10 hc x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S2000x200) hz, View.ld_unit_zero (S := S1x200) hz, View.ld_unit_zero (S := S200x200) hz, h9.read_unread, h10.read_unread]

theorem pieceA9 (c : Dev nD) (i : grid2.Coords) (a1 : Memref sig .tc .vmem S2000x200 .f32) (h1 : a1.IsWhole) (a2 : Memref sig .tc .vmem S2000x200 .f32) (h2 : a2.IsWhole) (a3 : Memref sig .tc .vmem S2000x200 .f32) (h3 : a3.IsWhole) (a4 : Memref sig .tc .vmem S1x200 .f32) (h4 : a4.IsWhole) (a5 : Memref sig .tc .vmem S200x200 .f32) (h5 : a5.IsWhole) (a6 : Memref sig .tc .vmem S200x200 .f32) (h6 : a6.IsWhole) (a7 : Memref sig .tc .vmem S200x200 .f32) (h7 : a7.IsWhole) (a8 : Memref sig .tc .vmem S2000x200 .f32) (h8 : a8.IsWhole) (a9 : Memref sig .tc .vmem S1x200 .f32) (h9 : a9.IsWhole) (a10 : Memref sig .tc .vmem S1x200 .f32) (h10 : a10.IsWhole) (hc : cond2_0 i) (x0 : Vec F S2000x200 .f32) (x1 : Vec F S2000x200 .f32) (x2 : Vec F S2000x200 .f32) (x3 : Vec F S1x200 .f32) (x4 : Vec F S200x200 .f32) (x5 : Vec F S200x200 .f32) (x6 : Vec F S200x200 .f32) :
    out2_A_9 c i a1 h1 a2 h2 a3 h3 a4 h4 a5 h5 a6 h6 a7 h7 a8 h8 a9 h9 a10 h10 hc x0 x1 x2 x3 x4 x5 x6 = k2_pay2 (k2_pay5 x0 x1 x2 x3 x4 x5 x6) (k2_pay4 (F := F)) := by
  unfold out2_A_9
  rw [View.read_writes_eq_canon _ _ _ (cover2_A_9 c i a1 h1 a2 h2 a3 h3 a4 h4 a5 h5 a6 h6 a7 h7 a8 h8 a9 h9 a10 h10 hc x0 x1 x2 x3 x4 x5 x6)]
  unfold kernelRun2_A
  dsimp only
  sl_unfold_words
  rw [View.canon_cons_unit_zero (S := S1x200) hz]
  simp only [View.readAt_eq_ld, h1.read_unread, h2.read_unread, h3.read_unread, h4.read_unread, h5.read_unread, h6.read_unread, h7.read_unread, View.ld_unit_zero (S := S2000x200) hz, View.ld_unit_zero (S := S1x200) hz, View.ld_unit_zero (S := S200x200) hz, View.readCov_unit_zero (S := S1x200) _ hz]

theorem pieceB9 (c : Dev nD) (i : grid2.Coords) (a1 : Memref sig .tc .vmem S2000x200 .f32) (h1 : a1.IsWhole) (a2 : Memref sig .tc .vmem S2000x200 .f32) (h2 : a2.IsWhole) (a3 : Memref sig .tc .vmem S2000x200 .f32) (h3 : a3.IsWhole) (a4 : Memref sig .tc .vmem S1x200 .f32) (h4 : a4.IsWhole) (a5 : Memref sig .tc .vmem S200x200 .f32) (h5 : a5.IsWhole) (a6 : Memref sig .tc .vmem S200x200 .f32) (h6 : a6.IsWhole) (a7 : Memref sig .tc .vmem S200x200 .f32) (h7 : a7.IsWhole) (a8 : Memref sig .tc .vmem S2000x200 .f32) (h8 : a8.IsWhole) (a9 : Memref sig .tc .vmem S1x200 .f32) (h9 : a9.IsWhole) (a10 : Memref sig .tc .vmem S1x200 .f32) (h10 : a10.IsWhole) (hc : ¬cond2_0 i) (x0 : Vec F S2000x200 .f32) (x1 : Vec F S2000x200 .f32) (x2 : Vec F S2000x200 .f32) (x3 : Vec F S1x200 .f32) (x4 : Vec F S200x200 .f32) (x5 : Vec F S200x200 .f32) (x6 : Vec F S200x200 .f32) (xo8 xo9 : Vec F S1x200 .f32) :
    out2_B_9 c i a1 h1 a2 h2 a3 h3 a4 h4 a5 h5 a6 h6 a7 h7 a8 h8 a9 h9 a10 h10 hc x0 x1 x2 x3 x4 x5 x6 xo8 xo9 = k2_pay2 (k2_pay5 x0 x1 x2 x3 x4 x5 x6) xo9 := by
  unfold out2_B_9
  rw [View.read_writes_eq_canon _ _ _ (cover2_B_9 c i a1 h1 a2 h2 a3 h3 a4 h4 a5 h5 a6 h6 a7 h7 a8 h8 a9 h9 a10 h10 hc x0 x1 x2 x3 x4 x5 x6 xo8 xo9)]
  unfold kernelRun2_B
  dsimp only
  sl_unfold_words
  rw [View.canon_unit_zero hz]
  simp only [View.readAt_eq_ld, h1.read_unread, h2.read_unread, h3.read_unread, h4.read_unread, h5.read_unread, h6.read_unread, h7.read_unread, View.ld_unit_zero (S := S2000x200) hz, View.ld_unit_zero (S := S1x200) hz, View.ld_unit_zero (S := S200x200) hz, h9.read_unread, h10.read_unread]

/-! ## The payloads at the extended reals, index by index -/

/-- One block product into the zero block, at a row and a column: the sum over the contracted coordinate. -/
theorem mm_apply (A : FVec Ideal S2000x200 .bf16) (B : FVec Ideal S200x200 .bf16) (r : Fin 2000) (j : Fin 200) :
    matmul dot_S2000x200_S200x200_S2000x200_1_0_0_1_n_n none A B (constant S2000x200 .f32 0x00000000#32) (ix2 r j)
      = ∑ k : Fin 200, A (ix2 r k) * B (ix2 k j) := by
  show FloatOps.matmul dot_S2000x200_S200x200_S2000x200_1_0_0_1_n_n none A B (constant S2000x200 .f32 0x00000000#32) (ix2 r j) = _
  rw [Ideal.matmul_constant_zero_apply, ← Equiv.sum_comp (contrEquiv1 dot_S2000x200_S200x200_S2000x200_1_0_0_1_n_n 200 rfl rfl).symm]
  refine Finset.sum_congr rfl fun k _ => ?_
  have c2 := contrEquiv1_symm_val dot_S2000x200_S200x200_S2000x200_1_0_0_1_n_n 200 rfl rfl k
  have l2 : (dot_S2000x200_S200x200_S2000x200_1_0_0_1_n_n).lhsIdx (ix2 r j) ((contrEquiv1 dot_S2000x200_S200x200_S2000x200_1_0_0_1_n_n 200 rfl rfl).symm k) = ix2 r k := by
    funext ax; apply Fin.ext
    match ax with
    | ⟨0, _⟩ => simp [DotDims.lhsIdx, dot_S2000x200_S200x200_S2000x200_1_0_0_1_n_n]; rfl
    | ⟨1, _⟩ => simp [DotDims.lhsIdx, dot_S2000x200_S200x200_S2000x200_1_0_0_1_n_n]; exact c2
  have r2 : (dot_S2000x200_S200x200_S2000x200_1_0_0_1_n_n).rhsIdx (ix2 r j) ((contrEquiv1 dot_S2000x200_S200x200_S2000x200_1_0_0_1_n_n 200 rfl rfl).symm k) = ix2 k j := by
    funext ax; apply Fin.ext
    match ax with
    | ⟨0, _⟩ => simp [DotDims.rhsIdx, dot_S2000x200_S200x200_S2000x200_1_0_0_1_n_n]; exact c2
    | ⟨1, _⟩ => simp [DotDims.rhsIdx, dot_S2000x200_S200x200_S2000x200_1_0_0_1_n_n]; rfl
  rw [l2, r2]

/-- The combined block at a row and a column: the three products of the tile's rows with the weights, summed, times
    the literal. The roundings to bf16 and the casts to the same shape change nothing at the extended reals, and the one
    row of the loop relation is read at every row. -/
theorem pay5_apply (x0 x1 x2 : Vec Ideal S2000x200 .f32) (x3 : Vec Ideal S1x200 .f32) (x4 x5 x6 : Vec Ideal S200x200 .f32)
    (r : Fin 2000) (j : Fin 200) :
    k2_pay5 x0 x1 x2 x3 x4 x5 x6 (ix2 r j)
      = ((∑ k : Fin 200, x0 (ix2 r k) * x4 (ix2 k j)) + (∑ k : Fin 200, x1 (ix2 r k) * x5 (ix2 k j))
          + (∑ k : Fin 200, (x2 (ix2 r k) * x3 (ix2 (0 : Fin 1) k)) * x6 (ix2 k j))) * Ideal.ofBits .f32 0x3EAAAAAB#32 := by
  unfold k2_pay5
  simp only [shapeCast_self]
  show (matmul dot_S2000x200_S200x200_S2000x200_1_0_0_1_n_n none _ _ (constant S2000x200 .f32 0x00000000#32) (ix2 r j)
      + matmul dot_S2000x200_S200x200_S2000x200_1_0_0_1_n_n none _ _ (constant S2000x200 .f32 0x00000000#32) (ix2 r j)
      + matmul dot_S2000x200_S200x200_S2000x200_1_0_0_1_n_n none _ _ (constant S2000x200 .f32 0x00000000#32) (ix2 r j)) * _ = _
  rw [mm_apply, mm_apply, mm_apply]
  refine congrArg (· * _) (congrArg₂ (· + ·) rfl (Finset.sum_congr rfl fun k _ => ?_))
  show (x2 (ix2 r k) * broadcastTo S2000x200 x3 broadcasts_S1x200_S2000x200 (ix2 r k)) * x6 (ix2 k j) = _
  rw [broadcastTo_1b_ab_apply]

/-- The source index of the column reduction over result column `j` at row `r`. -/
theorem lift_eq (r : Fin 2000) (j : Fin 200) : reduces_S2000x200_S200.lift (ix1 j) r = ix2 r j := by
  funext ax; apply Fin.ext
  match ax with
  | ⟨0, _⟩ => simp [Shape.Reduces.lift, Shape.Reduces.liftVal]
  | ⟨1, _⟩ => simp [Shape.Reduces.lift, Shape.Reduces.liftVal]

/-- A column sum of a block, at a column: the sum over the 2000 rows. -/
theorem colsum_apply (v : FVec Ideal S2000x200 .f32) (j : Fin 200) :
    multiReduction .add [0] S200 v 0x00000000#32 reduces_S2000x200_S200 (.inl rfl) rfl (ix1 j)
      = ∑ r : Fin 2000, v (ix2 r j) :=
  (Ideal.multiReduction_add_single v 0x00000000#32 reduces_S2000x200_S200 (.inl rfl) rfl (ix1 j)).trans
    (Finset.sum_congr rfl fun r _ => congrArg v (lift_eq r j))

/-- A vector of 200 stored as one row reads, at column `j`, its entry `j`. -/
theorem row_apply (v : FVec Ideal S200 .f32) (j : Fin 200) :
    shapeCast S1x200 v shapeCasts_S200_S1x200 (ix2 (0 : Fin 1) j) = v (ix1 j) :=
  (shapeCast_addUnit_apply ![200] v shapeCasts_S200_S1x200 (ix2 (0 : Fin 1) j)).trans
    (congrArg v (funext fun a => match a with | ⟨0, _⟩ => rfl))

/-- The carried sum after a point: what was carried plus the tile's column sum of the combined block. -/
theorem pay1_apply (acc : Vec Ideal S1x200 .f32) (x0 x1 x2 : Vec Ideal S2000x200 .f32) (x3 : Vec Ideal S1x200 .f32)
    (x4 x5 x6 : Vec Ideal S200x200 .f32) (j : Fin 200) :
    k2_pay1 (k2_pay5 x0 x1 x2 x3 x4 x5 x6) (k2_pay6 acc) (ix2 (0 : Fin 1) j)
      = acc (ix2 (0 : Fin 1) j) + ∑ r : Fin 2000, k2_pay5 x0 x1 x2 x3 x4 x5 x6 (ix2 r j) := by
  unfold k2_pay1 k2_pay6
  simp only [shapeCast_self]
  show acc (ix2 (0 : Fin 1) j) + shapeCast S1x200 _ shapeCasts_S200_S1x200 (ix2 (0 : Fin 1) j) = _
  rw [row_apply, colsum_apply]

/-- The carried sum of squares after a point: what was carried plus the tile's column sum of the squares. -/
theorem pay2_apply (acc : Vec Ideal S1x200 .f32) (v : FVec Ideal S2000x200 .f32) (j : Fin 200) :
    k2_pay2 v acc (ix2 (0 : Fin 1) j) = acc (ix2 (0 : Fin 1) j) + ∑ r : Fin 2000, v (ix2 r j) * v (ix2 r j) := by
  unfold k2_pay2
  simp only [shapeCast_self]
  show acc (ix2 (0 : Fin 1) j) + shapeCast S1x200 _ shapeCasts_S200_S1x200 (ix2 (0 : Fin 1) j) = _
  rw [row_apply, colsum_apply]
  rfl

/-- The rows the reset stores are zero. -/
theorem pay3_apply (j : Fin 200) : k2_pay3 (F := Ideal) (ix2 (0 : Fin 1) j) = 0 := Ideal.ofBits_zero_f32
theorem pay4_apply (j : Fin 200) : k2_pay4 (F := Ideal) (ix2 (0 : Fin 1) j) = 0 := Ideal.ofBits_zero_f32

variable (V : (c : Dev nD) → (b : Ref sig .tc) → Buf (Elt Ideal) ((c : Thread nD τ).loc b))

/-- The arrays the region finds, each at its literal type. -/
abbrev aIn (c : Dev nD) : Vec Ideal S100000x200 .f32 := V c (Pipeline.arrRef spec2 0)
abbrev bOut (c : Dev nD) : Vec Ideal S100000x200 .f32 := V c (Pipeline.arrRef spec2 1)
abbrev xx (c : Dev nD) : Vec Ideal S100000x200 .f32 := V c (Pipeline.arrRef spec2 2)
abbrev lrow (c : Dev nD) : Vec Ideal S1x200 .f32 := V c (Pipeline.arrRef spec2 3)
abbrev wIn (c : Dev nD) : Vec Ideal S200x200 .f32 := V c (Pipeline.arrRef spec2 4)
abbrev wOut (c : Dev nD) : Vec Ideal S200x200 .f32 := V c (Pipeline.arrRef spec2 5)
abbrev wLoop (c : Dev nD) : Vec Ideal S200x200 .f32 := V c (Pipeline.arrRef spec2 6)

/-- Row `n`, column `j` of the combined array: the three products summed, times the f32 nearest one third. -/
def combAt (c : Dev nD) (n : Fin 100000) (j : Fin 200) : EReal :=
  ((∑ k : Fin 200, aIn V c (ix2 n k) * wIn V c (ix2 k j))
    + (∑ k : Fin 200, bOut V c (ix2 n k) * wOut V c (ix2 k j))
    + (∑ k : Fin 200, (xx V c (ix2 n k) * lrow V c (ix2 (0 : Fin 1) k)) * wLoop V c (ix2 k j)))
  * Ideal.ofBits .f32 0x3EAAAAAB#32

/-! ## The windows' blocks, read off the arrays -/

theorem idx2_0 : ∀ t : Fin cfg2.N, win2_0.index t 0 = t.val ∧ win2_0.index t 1 = 0 :=
  (by decide +kernel : ∀ t : Fin grid2.N, win2_0.index t 0 = t.val ∧ win2_0.index t 1 = 0)
theorem in0_apply (c : Dev nD) (t : Fin cfg2.N) (r : Fin 2000) (h : 2000 * t.val + r.val < 100000) (k : Fin 200) :
    (iblk2 V c 0 t : Vec Ideal S2000x200 .f32) (ix2 r k) = aIn V c (ix2 ⟨2000 * t.val + r.val, h⟩ k) := by
  unfold iblk2
  rw [View.read_apply]
  show V c (Pipeline.arrRef spec2 0) _ = V c (Pipeline.arrRef spec2 0) _
  congr 1
  funext a; apply Fin.ext
  match a with
  | ⟨0, _⟩ => show win2_0.index t 0 * 2000 + 1 * r.val = 2000 * t.val + r.val; rw [(idx2_0 t).1]; omega
  | ⟨1, _⟩ => show win2_0.index t 1 * 200 + 1 * k.val = k.val; rw [(idx2_0 t).2]; omega

theorem idx2_1 : ∀ t : Fin cfg2.N, win2_1.index t 0 = t.val ∧ win2_1.index t 1 = 0 :=
  (by decide +kernel : ∀ t : Fin grid2.N, win2_1.index t 0 = t.val ∧ win2_1.index t 1 = 0)
theorem in1_apply (c : Dev nD) (t : Fin cfg2.N) (r : Fin 2000) (h : 2000 * t.val + r.val < 100000) (k : Fin 200) :
    (iblk2 V c 1 t : Vec Ideal S2000x200 .f32) (ix2 r k) = bOut V c (ix2 ⟨2000 * t.val + r.val, h⟩ k) := by
  unfold iblk2
  rw [View.read_apply]
  show V c (Pipeline.arrRef spec2 1) _ = V c (Pipeline.arrRef spec2 1) _
  congr 1
  funext a; apply Fin.ext
  match a with
  | ⟨0, _⟩ => show win2_1.index t 0 * 2000 + 1 * r.val = 2000 * t.val + r.val; rw [(idx2_1 t).1]; omega
  | ⟨1, _⟩ => show win2_1.index t 1 * 200 + 1 * k.val = k.val; rw [(idx2_1 t).2]; omega

theorem idx2_2 : ∀ t : Fin cfg2.N, win2_2.index t 0 = t.val ∧ win2_2.index t 1 = 0 :=
  (by decide +kernel : ∀ t : Fin grid2.N, win2_2.index t 0 = t.val ∧ win2_2.index t 1 = 0)
theorem in2_apply (c : Dev nD) (t : Fin cfg2.N) (r : Fin 2000) (h : 2000 * t.val + r.val < 100000) (k : Fin 200) :
    (iblk2 V c 2 t : Vec Ideal S2000x200 .f32) (ix2 r k) = xx V c (ix2 ⟨2000 * t.val + r.val, h⟩ k) := by
  unfold iblk2
  rw [View.read_apply]
  show V c (Pipeline.arrRef spec2 2) _ = V c (Pipeline.arrRef spec2 2) _
  congr 1
  funext a; apply Fin.ext
  match a with
  | ⟨0, _⟩ => show win2_2.index t 0 * 2000 + 1 * r.val = 2000 * t.val + r.val; rw [(idx2_2 t).1]; omega
  | ⟨1, _⟩ => show win2_2.index t 1 * 200 + 1 * k.val = k.val; rw [(idx2_2 t).2]; omega

theorem idx2_3 : ∀ t : Fin cfg2.N, win2_3.index t 0 = 0 ∧ win2_3.index t 1 = 0 :=
  (by decide +kernel : ∀ t : Fin grid2.N, win2_3.index t 0 = 0 ∧ win2_3.index t 1 = 0)
theorem in3_apply (c : Dev nD) (t : Fin cfg2.N) (p : Fin 1) (k : Fin 200) :
    (iblk2 V c 3 t : Vec Ideal S1x200 .f32) (ix2 p k) = lrow V c (ix2 p k) := by
  unfold iblk2
  rw [View.read_apply]
  show V c (Pipeline.arrRef spec2 3) _ = V c (Pipeline.arrRef spec2 3) _
  congr 1
  funext a; apply Fin.ext
  match a with
  | ⟨0, _⟩ => show win2_3.index t 0 * 1 + 1 * p.val = p.val; rw [(idx2_3 t).1]; omega
  | ⟨1, _⟩ => show win2_3.index t 1 * 200 + 1 * k.val = k.val; rw [(idx2_3 t).2]; omega

theorem idx2_4 : ∀ t : Fin cfg2.N, win2_4.index t 0 = 0 ∧ win2_4.index t 1 = 0 :=
  (by decide +kernel : ∀ t : Fin grid2.N, win2_4.index t 0 = 0 ∧ win2_4.index t 1 = 0)
theorem in4_apply (c : Dev nD) (t : Fin cfg2.N) (p : Fin 200) (k : Fin 200) :
    (iblk2 V c 4 t : Vec Ideal S200x200 .f32) (ix2 p k) = wIn V c (ix2 p k) := by
  unfold iblk2
  rw [View.read_apply]
  show V c (Pipeline.arrRef spec2 4) _ = V c (Pipeline.arrRef spec2 4) _
  congr 1
  funext a; apply Fin.ext
  match a with
  | ⟨0, _⟩ => show win2_4.index t 0 * 200 + 1 * p.val = p.val; rw [(idx2_4 t).1]; omega
  | ⟨1, _⟩ => show win2_4.index t 1 * 200 + 1 * k.val = k.val; rw [(idx2_4 t).2]; omega

theorem idx2_5 : ∀ t : Fin cfg2.N, win2_5.index t 0 = 0 ∧ win2_5.index t 1 = 0 :=
  (by decide +kernel : ∀ t : Fin grid2.N, win2_5.index t 0 = 0 ∧ win2_5.index t 1 = 0)
theorem in5_apply (c : Dev nD) (t : Fin cfg2.N) (p : Fin 200) (k : Fin 200) :
    (iblk2 V c 5 t : Vec Ideal S200x200 .f32) (ix2 p k) = wOut V c (ix2 p k) := by
  unfold iblk2
  rw [View.read_apply]
  show V c (Pipeline.arrRef spec2 5) _ = V c (Pipeline.arrRef spec2 5) _
  congr 1
  funext a; apply Fin.ext
  match a with
  | ⟨0, _⟩ => show win2_5.index t 0 * 200 + 1 * p.val = p.val; rw [(idx2_5 t).1]; omega
  | ⟨1, _⟩ => show win2_5.index t 1 * 200 + 1 * k.val = k.val; rw [(idx2_5 t).2]; omega

theorem idx2_6 : ∀ t : Fin cfg2.N, win2_6.index t 0 = 0 ∧ win2_6.index t 1 = 0 :=
  (by decide +kernel : ∀ t : Fin grid2.N, win2_6.index t 0 = 0 ∧ win2_6.index t 1 = 0)
theorem in6_apply (c : Dev nD) (t : Fin cfg2.N) (p : Fin 200) (k : Fin 200) :
    (iblk2 V c 6 t : Vec Ideal S200x200 .f32) (ix2 p k) = wLoop V c (ix2 p k) := by
  unfold iblk2
  rw [View.read_apply]
  show V c (Pipeline.arrRef spec2 6) _ = V c (Pipeline.arrRef spec2 6) _
  congr 1
  funext a; apply Fin.ext
  match a with
  | ⟨0, _⟩ => show win2_6.index t 0 * 200 + 1 * p.val = p.val; rw [(idx2_6 t).1]; omega
  | ⟨1, _⟩ => show win2_6.index t 1 * 200 + 1 * k.val = k.val; rw [(idx2_6 t).2]; omega

/-- The combined block of point `t`, at its row `r`: row `2000 t + r` of the combined array. -/
theorem tile_comb (c : Dev nD) (t : Fin cfg2.N) (r : Fin 2000) (j : Fin 200) (h : 2000 * t.val + r.val < 100000) :
    k2_pay5 (iblk2 V c 0 t) (iblk2 V c 1 t) (iblk2 V c 2 t) (iblk2 V c 3 t) (iblk2 V c 4 t) (iblk2 V c 5 t) (iblk2 V c 6 t) (ix2 r j) = combAt V c ⟨2000 * t.val + r.val, h⟩ j := by
  refine (pay5_apply _ _ _ _ _ _ _ r j).trans ?_
  unfold combAt
  simp only [in0_apply V c t r h, in1_apply V c t r h, in2_apply V c t r h, in3_apply V c t, in4_apply V c t, in5_apply V c t, in6_apply V c t]

/-! ## What the outputs hold after each point -/

/-- After any point the combined block is the payload of the point's own blocks. -/
theorem out7_eq (c : Dev nD) (t : Fin cfg2.N) :
    (outsAt2 V c t.val t.isLt).1 = k2_pay5 (iblk2 V c 0 t) (iblk2 V c 1 t) (iblk2 V c 2 t) (iblk2 V c 3 t) (iblk2 V c 4 t) (iblk2 V c 5 t) (iblk2 V c 6 t) := by
  by_cases h0 : t.val % 50 = 0
  · rw [outsAt2_A V c t h0]; dsimp only
    exact pieceA7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t)
  · rw [outsAt2_B V c t h0]; dsimp only
    exact pieceB7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2

/-- The first point leaves, in the carried sum, its tile's column sums (over the zero row the reset stored). -/
theorem base8 (c : Dev nD) (t : Fin cfg2.N) (h0 : t.val % 50 = 0) (j : Fin 200) :
    (outsAt2 V c t.val t.isLt).2.1 (ix2 (0 : Fin 1) j) = ∑ r : Fin 2000, k2_pay5 (iblk2 V c 0 t) (iblk2 V c 1 t) (iblk2 V c 2 t) (iblk2 V c 3 t) (iblk2 V c 4 t) (iblk2 V c 5 t) (iblk2 V c 6 t) (ix2 r j) := by
  rw [outsAt2_A V c t h0]; dsimp only
  refine (congrFun (pieceA8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t)) (ix2 (0 : Fin 1) j)).trans ?_
  rw [pay1_apply, pay3_apply, zero_add]

/-- A later point adds its tile's column sums to what the point before left. -/
theorem step8 (c : Dev nD) (t : Fin cfg2.N) (h0 : ¬t.val % 50 = 0) (j : Fin 200) :
    (outsAt2 V c t.val t.isLt).2.1 (ix2 (0 : Fin 1) j)
      = (outsAt2 V c (t.val - 1) (Nat.lt_of_le_of_lt (Nat.sub_le _ _) t.isLt)).2.1 (ix2 (0 : Fin 1) j) + ∑ r : Fin 2000, k2_pay5 (iblk2 V c 0 t) (iblk2 V c 1 t) (iblk2 V c 2 t) (iblk2 V c 3 t) (iblk2 V c 4 t) (iblk2 V c 5 t) (iblk2 V c 6 t) (ix2 r j) := by
  rw [outsAt2_B V c t h0]; dsimp only
  refine (congrFun (pieceB8 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2) (ix2 (0 : Fin 1) j)).trans ?_
  rw [pay1_apply]

/-- The same for the carried sum of squares. -/
theorem base9 (c : Dev nD) (t : Fin cfg2.N) (h0 : t.val % 50 = 0) (j : Fin 200) :
    (outsAt2 V c t.val t.isLt).2.2 (ix2 (0 : Fin 1) j)
      = ∑ r : Fin 2000, k2_pay5 (iblk2 V c 0 t) (iblk2 V c 1 t) (iblk2 V c 2 t) (iblk2 V c 3 t) (iblk2 V c 4 t) (iblk2 V c 5 t) (iblk2 V c 6 t) (ix2 r j) * k2_pay5 (iblk2 V c 0 t) (iblk2 V c 1 t) (iblk2 V c 2 t) (iblk2 V c 3 t) (iblk2 V c 4 t) (iblk2 V c 5 t) (iblk2 V c 6 t) (ix2 r j) := by
  rw [outsAt2_A V c t h0]; dsimp only
  refine (congrFun (pieceA9 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t)) (ix2 (0 : Fin 1) j)).trans ?_
  rw [pay2_apply, pay4_apply, zero_add]

theorem step9 (c : Dev nD) (t : Fin cfg2.N) (h0 : ¬t.val % 50 = 0) (j : Fin 200) :
    (outsAt2 V c t.val t.isLt).2.2 (ix2 (0 : Fin 1) j)
      = (outsAt2 V c (t.val - 1) (Nat.lt_of_le_of_lt (Nat.sub_le _ _) t.isLt)).2.2 (ix2 (0 : Fin 1) j)
        + ∑ r : Fin 2000, k2_pay5 (iblk2 V c 0 t) (iblk2 V c 1 t) (iblk2 V c 2 t) (iblk2 V c 3 t) (iblk2 V c 4 t) (iblk2 V c 5 t) (iblk2 V c 6 t) (ix2 r j) * k2_pay5 (iblk2 V c 0 t) (iblk2 V c 1 t) (iblk2 V c 2 t) (iblk2 V c 3 t) (iblk2 V c 4 t) (iblk2 V c 5 t) (iblk2 V c 6 t) (ix2 r j) := by
  rw [outsAt2_B V c t h0]; dsimp only
  refine (congrFun (pieceB9 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2) (ix2 (0 : Fin 1) j)).trans ?_
  rw [pay2_apply]

/-! ## The rows in order: the sums over the tiles are one sum over all the rows -/

/-- Column `j` of the combined array down the rows, as a function of the row number (zero past the last row). -/
def colAt (c : Dev nD) (j : Fin 200) (n : ℕ) : EReal := if h : n < 100000 then combAt V c ⟨n, h⟩ j else 0
/-- Its squares. -/
def sqAt (c : Dev nD) (j : Fin 200) (n : ℕ) : EReal := if h : n < 100000 then combAt V c ⟨n, h⟩ j * combAt V c ⟨n, h⟩ j else 0

theorem tile_sum (c : Dev nD) (t : Fin cfg2.N) (j : Fin 200) :
    ∑ r : Fin 2000, k2_pay5 (iblk2 V c 0 t) (iblk2 V c 1 t) (iblk2 V c 2 t) (iblk2 V c 3 t) (iblk2 V c 4 t) (iblk2 V c 5 t) (iblk2 V c 6 t) (ix2 r j) = ∑ r ∈ Finset.range 2000, colAt V c j (2000 * t.val + r) := by
  have hN : t.val < 50 := lt_of_lt_of_eq t.isLt (show cfg2.N = 50 from N_2)
  rw [Finset.sum_range]
  refine Finset.sum_congr rfl fun r _ => ?_
  have h : 2000 * t.val + r.val < 100000 := by have := r.isLt; omega
  rw [tile_comb V c t r j h]; unfold colAt; rw [dif_pos h]

theorem tile_sumsq (c : Dev nD) (t : Fin cfg2.N) (j : Fin 200) :
    ∑ r : Fin 2000, k2_pay5 (iblk2 V c 0 t) (iblk2 V c 1 t) (iblk2 V c 2 t) (iblk2 V c 3 t) (iblk2 V c 4 t) (iblk2 V c 5 t) (iblk2 V c 6 t) (ix2 r j) * k2_pay5 (iblk2 V c 0 t) (iblk2 V c 1 t) (iblk2 V c 2 t) (iblk2 V c 3 t) (iblk2 V c 4 t) (iblk2 V c 5 t) (iblk2 V c 6 t) (ix2 r j)
      = ∑ r ∈ Finset.range 2000, sqAt V c j (2000 * t.val + r) := by
  have hN : t.val < 50 := lt_of_lt_of_eq t.isLt (show cfg2.N = 50 from N_2)
  rw [Finset.sum_range]
  refine Finset.sum_congr rfl fun r _ => ?_
  have h : 2000 * t.val + r.val < 100000 := by have := r.isLt; omega
  rw [tile_comb V c t r j h]; unfold sqAt; rw [dif_pos h]

/-- After point `n` the carried sum holds the column sums over the rows below `2000 (n + 1)`: by induction on the
    point, the extended reals' addition being associative. -/
theorem acc8 (c : Dev nD) (j : Fin 200) : ∀ (n : ℕ) (hn : n < cfg2.N),
    (outsAt2 V c n hn).2.1 (ix2 (0 : Fin 1) j) = ∑ i ∈ Finset.range (2000 * (n + 1)), colAt V c j i
  | 0, hn => by
    refine (base8 V c ⟨0, hn⟩ rfl j).trans ?_
    rw [tile_sum V c ⟨0, hn⟩ j]
    refine Finset.sum_congr rfl fun r _ => ?_
    show colAt V c j (2000 * 0 + r) = _
    rw [Nat.mul_zero, Nat.zero_add]
  | n + 1, hn => by
    have hN : cfg2.N = 50 := N_2
    have hB : ¬(⟨n + 1, hn⟩ : Fin cfg2.N).val % 50 = 0 := by dsimp only; omega
    refine (step8 V c ⟨n + 1, hn⟩ hB j).trans ?_
    show (outsAt2 V c n _).2.1 (ix2 (0 : Fin 1) j) + _ = _
    rw [acc8 c j n, tile_sum V c ⟨n + 1, hn⟩ j, show 2000 * (n + 1 + 1) = 2000 * (n + 1) + 2000 from by ring,
      Finset.sum_range_add]

theorem acc9 (c : Dev nD) (j : Fin 200) : ∀ (n : ℕ) (hn : n < cfg2.N),
    (outsAt2 V c n hn).2.2 (ix2 (0 : Fin 1) j) = ∑ i ∈ Finset.range (2000 * (n + 1)), sqAt V c j i
  | 0, hn => by
    refine (base9 V c ⟨0, hn⟩ rfl j).trans ?_
    rw [tile_sumsq V c ⟨0, hn⟩ j]
    refine Finset.sum_congr rfl fun r _ => ?_
    show sqAt V c j (2000 * 0 + r) = _
    rw [Nat.mul_zero, Nat.zero_add]
  | n + 1, hn => by
    have hN : cfg2.N = 50 := N_2
    have hB : ¬(⟨n + 1, hn⟩ : Fin cfg2.N).val % 50 = 0 := by dsimp only; omega
    refine (step9 V c ⟨n + 1, hn⟩ hB j).trans ?_
    show (outsAt2 V c n _).2.2 (ix2 (0 : Fin 1) j) + _ = _
    rw [acc9 c j n, tile_sumsq V c ⟨n + 1, hn⟩ j, show 2000 * (n + 1 + 1) = 2000 * (n + 1) + 2000 from by ring,
      Finset.sum_range_add]

/-! ## The arrays after the region -/

theorem idx2_7 : ∀ t : Fin cfg2.N, win2_7.index t 0 = t.val ∧ win2_7.index t 1 = 0 :=
  (by decide +kernel : ∀ t : Fin grid2.N, win2_7.index t 0 = t.val ∧ win2_7.index t 1 = 0)
theorem idx2_8 : ∀ t : Fin cfg2.N, win2_8.index t 0 = 0 ∧ win2_8.index t 1 = 0 :=
  (by decide +kernel : ∀ t : Fin grid2.N, win2_8.index t 0 = 0 ∧ win2_8.index t 1 = 0)
theorem idx2_9 : ∀ t : Fin cfg2.N, win2_9.index t 0 = 0 ∧ win2_9.index t 1 = 0 :=
  (by decide +kernel : ∀ t : Fin grid2.N, win2_9.index t 0 = 0 ∧ win2_9.index t 1 = 0)

/-- The combined array as one function of the row and the column. -/
abbrev comb7 (c : Dev nD) : Vec Ideal S100000x200 .f32 := fun i => combAt V c (i 0) (i 1)

/-- Every point writes back its block of that one array. -/
theorem flushed7_eq (c : Dev nD) (t : Fin cfg2.N) (hf : (cfg2.win 7).flush t = true) :
    (dat2 V c).flushed 7 t = ((cfg2.win 7).blk t).view.read (Elt Ideal) (comb7 V c) := by
  have hN : t.val < 50 := lt_of_lt_of_eq t.isLt (show cfg2.N = 50 from N_2)
  show (cfg2.win 7).cut (grid2.coords t) ((dat2 V c).after 7 t) = _
  rw [after2_7, out7_eq]
  funext y
  obtain ⟨r, j, rfl⟩ : ∃ (r : Fin 2000) (j : Fin 200), y = ix2 r j := ⟨y 0, y 1, eq_ix2 y⟩
  have h : 2000 * t.val + r.val < 100000 := by have := r.isLt; omega
  rw [View.read_apply]
  show k2_pay5 (iblk2 V c 0 t) (iblk2 V c 1 t) (iblk2 V c 2 t) (iblk2 V c 3 t) (iblk2 V c 4 t) (iblk2 V c 5 t) (iblk2 V c 6 t) (ix2 r j) = comb7 V c (((cfg2.win 7).blk t).view.emb (ix2 r j))
  rw [tile_comb V c t r j h]
  show _ = combAt V c _ _
  congr 1
  · apply Fin.ext
    show 2000 * t.val + r.val = win2_7.index t 0 * 2000 + 1 * r.val
    rw [(idx2_7 t).1]; omega
  · apply Fin.ext
    show j.val = win2_7.index t 1 * 200 + 1 * j.val
    rw [(idx2_7 t).2]; omega

theorem region2_comb (c : Dev nD) (n : Fin 100000) (j : Fin 200) :
    ((dat2 V c).arrAt 7 cfg2.N : Vec Ideal S100000x200 .f32) (ix2 n j) = combAt V c n j := by
  have hN : cfg2.N = 50 := N_2
  have hn : n.val / 2000 < cfg2.N := by rw [hN]; have := n.isLt; omega
  refine ((dat2 V c).arrAt_apply_of_mem 7 (comb7 V c) (flushed7_eq V c) cfg2.N ⟨n.val / 2000, hn⟩ (ix2 n j) hn
    (flush2_7 _) ?_).trans rfl
  show ix2 n j ∈ ((View.whole main_v186_0).slice (win2_7.rect ⟨n.val / 2000, hn⟩)).set
  rw [View.set_slice_whole, Rect.mem_set_unit]
  intro a
  match a with
  | ⟨0, _⟩ =>
    show win2_7.index ⟨n.val / 2000, hn⟩ 0 * 2000 ≤ n.val ∧ n.val < win2_7.index ⟨n.val / 2000, hn⟩ 0 * 2000 + 2000
    rw [(idx2_7 ⟨n.val / 2000, hn⟩).1]; dsimp only; omega
  | ⟨1, _⟩ =>
    show win2_7.index ⟨n.val / 2000, hn⟩ 1 * 200 ≤ j.val ∧ j.val < win2_7.index ⟨n.val / 2000, hn⟩ 1 * 200 + 200
    rw [(idx2_7 ⟨n.val / 2000, hn⟩).2]; have := j.isLt; omega

/-- The two carried rows' arrays as functions of the column: the sums over all the rows. -/
abbrev sum8 (c : Dev nD) : Vec Ideal S1x200 .f32 := fun i => ∑ n : Fin 100000, combAt V c n (i 1)
abbrev sum9 (c : Dev nD) : Vec Ideal S1x200 .f32 := fun i => ∑ n : Fin 100000, combAt V c n (i 1) * combAt V c n (i 1)

/-- The sum down all the rows, by the row number, is the sum over the rows. -/
theorem total8 (c : Dev nD) (j : Fin 200) :
    ∑ i ∈ Finset.range 100000, colAt V c j i = ∑ n : Fin 100000, combAt V c n j := by
  rw [Finset.sum_range]
  refine Finset.sum_congr rfl fun n _ => ?_
  unfold colAt; rw [dif_pos n.isLt]
theorem total9 (c : Dev nD) (j : Fin 200) :
    ∑ i ∈ Finset.range 100000, sqAt V c j i = ∑ n : Fin 100000, combAt V c n j * combAt V c n j := by
  rw [Finset.sum_range]
  refine Finset.sum_congr rfl fun n _ => ?_
  unfold sqAt; rw [dif_pos n.isLt]

theorem h49 : 49 < cfg2.N := by rw [show cfg2.N = 50 from N_2]; decide

theorem flushed8_eq (c : Dev nD) (t : Fin cfg2.N) (hf : (cfg2.win 8).flush t = true) :
    (dat2 V c).flushed 8 t = ((cfg2.win 8).blk t).view.read (Elt Ideal) (sum8 V c) := by
  have hN : cfg2.N = 50 := N_2
  have h3 : t.val = 49 := by have := (flush2_8 t).mp hf; have := t.isLt; omega
  have hX : (outsAt2 V c t.val t.isLt).2.1 = sum8 V c := by
    funext i
    obtain ⟨p, j, rfl⟩ : ∃ (p : Fin 1) (j : Fin 200), i = ix2 p j := ⟨i 0, i 1, eq_ix2 i⟩
    obtain rfl : p = 0 := Subsingleton.elim _ _
    refine (acc8 V c j t.val t.isLt).trans ?_
    rw [h3, show 2000 * (49 + 1) = 100000 from rfl]
    exact total8 V c j
  show (cfg2.win 8).cut (grid2.coords t) ((dat2 V c).after 8 t) = _
  rw [after2_8, hX]
  generalize sum8 V c = X
  funext y
  obtain ⟨p, j, rfl⟩ : ∃ (p : Fin 1) (j : Fin 200), y = ix2 p j := ⟨y 0, y 1, eq_ix2 y⟩
  rw [View.read_apply]
  show X (ix2 p j) = X (((cfg2.win 8).blk t).view.emb (ix2 p j))
  congr 1
  funext a; apply Fin.ext
  match a with
  | ⟨0, _⟩ => show p.val = win2_8.index t 0 * 1 + 1 * p.val; rw [(idx2_8 t).1]; omega
  | ⟨1, _⟩ => show j.val = win2_8.index t 1 * 200 + 1 * j.val; rw [(idx2_8 t).2]; omega

theorem region2_sum (c : Dev nD) (j : Fin 200) :
    ((dat2 V c).arrAt 8 cfg2.N : Vec Ideal S1x200 .f32) (ix2 (0 : Fin 1) j) = ∑ n : Fin 100000, combAt V c n j := by
  refine ((dat2 V c).arrAt_apply_of_mem 8 (sum8 V c) (flushed8_eq V c) cfg2.N ⟨49, h49⟩ (ix2 (0 : Fin 1) j) h49
    ((flush2_8 ⟨49, h49⟩).mpr rfl) ?_).trans rfl
  show ix2 (0 : Fin 1) j ∈ ((View.whole main_v186_1).slice (win2_8.rect ⟨49, h49⟩)).set
  rw [View.set_slice_whole, Rect.mem_set_unit]
  intro a
  match a with
  | ⟨0, _⟩ =>
    show win2_8.index ⟨49, h49⟩ 0 * 1 ≤ 0 ∧ 0 < win2_8.index ⟨49, h49⟩ 0 * 1 + 1
    rw [(idx2_8 ⟨49, h49⟩).1]; omega
  | ⟨1, _⟩ =>
    show win2_8.index ⟨49, h49⟩ 1 * 200 ≤ j.val ∧ j.val < win2_8.index ⟨49, h49⟩ 1 * 200 + 200
    rw [(idx2_8 ⟨49, h49⟩).2]; have := j.isLt; omega

theorem flushed9_eq (c : Dev nD) (t : Fin cfg2.N) (hf : (cfg2.win 9).flush t = true) :
    (dat2 V c).flushed 9 t = ((cfg2.win 9).blk t).view.read (Elt Ideal) (sum9 V c) := by
  have hN : cfg2.N = 50 := N_2
  have h3 : t.val = 49 := by have := (flush2_9 t).mp hf; have := t.isLt; omega
  have hX : (outsAt2 V c t.val t.isLt).2.2 = sum9 V c := by
    funext i
    obtain ⟨p, j, rfl⟩ : ∃ (p : Fin 1) (j : Fin 200), i = ix2 p j := ⟨i 0, i 1, eq_ix2 i⟩
    obtain rfl : p = 0 := Subsingleton.elim _ _
    refine (acc9 V c j t.val t.isLt).trans ?_
    rw [h3, show 2000 * (49 + 1) = 100000 from rfl]
    exact total9 V c j
  show (cfg2.win 9).cut (grid2.coords t) ((dat2 V c).after 9 t) = _
  rw [after2_9, hX]
  generalize sum9 V c = X
  funext y
  obtain ⟨p, j, rfl⟩ : ∃ (p : Fin 1) (j : Fin 200), y = ix2 p j := ⟨y 0, y 1, eq_ix2 y⟩
  rw [View.read_apply]
  show X (ix2 p j) = X (((cfg2.win 9).blk t).view.emb (ix2 p j))
  congr 1
  funext a; apply Fin.ext
  match a with
  | ⟨0, _⟩ => show p.val = win2_9.index t 0 * 1 + 1 * p.val; rw [(idx2_9 t).1]; omega
  | ⟨1, _⟩ => show j.val = win2_9.index t 1 * 200 + 1 * j.val; rw [(idx2_9 t).2]; omega

theorem region2_sumsq (c : Dev nD) (j : Fin 200) :
    ((dat2 V c).arrAt 9 cfg2.N : Vec Ideal S1x200 .f32) (ix2 (0 : Fin 1) j)
      = ∑ n : Fin 100000, combAt V c n j * combAt V c n j := by
  refine ((dat2 V c).arrAt_apply_of_mem 9 (sum9 V c) (flushed9_eq V c) cfg2.N ⟨49, h49⟩ (ix2 (0 : Fin 1) j) h49
    ((flush2_9 ⟨49, h49⟩).mpr rfl) ?_).trans rfl
  show ix2 (0 : Fin 1) j ∈ ((View.whole main_v186_2).slice (win2_9.rect ⟨49, h49⟩)).set
  rw [View.set_slice_whole, Rect.mem_set_unit]
  intro a
  match a with
  | ⟨0, _⟩ =>
    show win2_9.index ⟨49, h49⟩ 0 * 1 ≤ 0 ∧ 0 < win2_9.index ⟨49, h49⟩ 0 * 1 + 1
    rw [(idx2_9 ⟨49, h49⟩).1]; omega
  | ⟨1, _⟩ =>
    show win2_9.index ⟨49, h49⟩ 1 * 200 ≤ j.val ∧ j.val < win2_9.index ⟨49, h49⟩ 1 * 200 + 200
    rw [(idx2_9 ⟨49, h49⟩).2]; have := j.isLt; omega

end Cert.KernelIdeal.KVal2
-- ==== Proof.Region3Value.lean ====
/- The value of the second normalise-and-tanh layer: the array it writes, entry by entry.

   The layer maps a 100000 x 200 array x, a row of 200 means mu and a row of 200 variances v to
       y[n, j] = tanh ((x[n, j] - mu[0, j]) * rsqrt (v[0, j] + eps)),      eps the f32 word 0x3727C5AC,
   in 50 steps; step t reads rows 2000 t .. 2000 t + 1999 of x and both rows whole, and writes the same 2000 rows
   of y. Below: the step's arithmetic at one entry of its block; each block's entry as an entry of its array
   (a block's coordinate is block index times block extent plus the coordinate inside the block); what step t
   writes is block t of the one array y; every row n lies in the block of step n / 2000; so the array ends as y. -/
import proofs.«412919_j56298431316644_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal3

open Cert.KernelIdeal Cert.KernelIdeal.Gen
open Idealize.ShloMosaic Idealize.ShloMosaic.TcCoe Idealize.ShloMosaic.ValueIdx
open Idealize.ShloMosaic.Pipeline (Dat)

-- the contents of the core's buffers when the layer starts: anything
variable (V : (c : Dev nD) → (b : Ref sig .tc) → Buf (Elt Ideal) ((c : Thread nD τ).loc b))

/-- The layer's input x, 100000 rows of 200 extended reals. -/
abbrev cmb (c : Dev nD) : Vec Ideal S100000x200 .f32 := V c (Pipeline.arrRef spec3 0)
/-- The row of column means. -/
abbrev mu (c : Dev nD) : Vec Ideal S1x200 .f32 := V c (Pipeline.arrRef spec3 1)
/-- The row of column variances. -/
abbrev vr (c : Dev nD) : Vec Ideal S1x200 .f32 := V c (Pipeline.arrRef spec3 2)

/-- One entry of the result from the three extended reals it depends on: tanh ((a - b) / sqrt (v + eps)), the
    reciprocal square root taken first and multiplied in. -/
def normTanh (a b v : EReal) : EReal :=
  Ideal.tanh ((a - b) * Ideal.rsqrt (v + Ideal.ofBits .f32 0x3727C5AC#32))

/-- The whole result: entry (n, j) depends on x[n, j] and on column j of the two rows. -/
def normalised (c : Dev nD) : Vec Ideal S100000x200 .f32 := fun i =>
  normTanh (cmb V c i) (mu V c (ix2 0 (i 1 : Fin 200))) (vr V c (ix2 0 (i 1 : Fin 200)))

/-- The offset (0, 0) of an access to a whole block. -/
theorem zero_offsets : (![0, 0] : Fin 2 → Nat) = fun _ => 0 := funext fun a => by fin_cases a <;> rfl

/-- The step's arithmetic at entry (p, q) of its block: the two rows are broadcast down the 2000 rows, so the
    entry reads column q of each; everything else is entrywise. -/
theorem body_apply (x0 : Vec Ideal S2000x200 .f32) (x1 x2 : Vec Ideal S1x200 .f32) (p : Fin 2000) (q : Fin 200) :
    k3_pay1 x0 x1 x2 (ix2 p q) = normTanh (x0 (ix2 p q)) (x1 (ix2 0 q)) (x2 (ix2 0 q)) := by
  unfold k3_pay1 normTanh
  simp only [shapeCast_self]
  show Ideal.tanh ((x0 (ix2 p q) - broadcastTo S2000x200 x1 broadcasts_S1x200_S2000x200 (ix2 p q))
      * broadcastTo S2000x200 (rsqrt (F := Ideal) (addf x2 (broadcast S1x200 (FloatOps.ofBits (F := Ideal) FTy.f32 0x3727C5AC#32)))) broadcasts_S1x200_S2000x200 (ix2 p q)) = _
  rw [broadcastTo_1b_ab_apply, broadcastTo_1b_ab_apply]
  rfl

/-- Which block each window holds at step t: block (t, 0) of x and of the result, block (0, 0) of each row. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry (p, q) of step t's block of x is x[2000 t + p, q]. -/
theorem comb_block_apply (c : Dev nD) (t : Fin cfg3.N) (p : Fin 2000) (q : Fin 200) (n : Fin 100000) (hn : n.val = t.val * 2000 + p.val) :
    (iblk3 V c 0 t : Vec Ideal S2000x200 .f32) (ix2 p q) = cmb V c (ix2 n q) := by
  obtain ⟨e0, e1, -⟩ := block_indices t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 2000 + 1 * p.val = n.val; omega
  | ⟨1, _⟩ => show win3_0.index t (1 : Fin 2) * 200 + 1 * q.val = q.val; omega

/-- The block of the means is the whole row, at every step. -/
theorem mean_block_apply (c : Dev nD) (t : Fin cfg3.N) (q : Fin 200) :
    (iblk3 V c 1 t : Vec Ideal S1x200 .f32) (ix2 0 q) = mu V c (ix2 0 q) := by
  obtain ⟨-, -, e0, e1, -⟩ := block_indices t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * 0 = 0; omega
  | ⟨1, _⟩ => show win3_1.index t (1 : Fin 2) * 200 + 1 * q.val = q.val; omega

/-- The block of the variances is the whole row, at every step. -/
theorem var_block_apply (c : Dev nD) (t : Fin cfg3.N) (q : Fin 200) :
    (iblk3 V c 2 t : Vec Ideal S1x200 .f32) (ix2 0 q) = vr V c (ix2 0 q) := by
  obtain ⟨-, -, -, -, e0, e1, -⟩ := block_indices t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * 0 = 0; omega
  | ⟨1, _⟩ => show win3_2.index t (1 : Fin 2) * 200 + 1 * q.val = q.val; omega

/-- Entry (p, q) of step t's block of any 100000 x 200 array g laid out as the result is g[2000 t + p, q]. -/
theorem out_block_apply (g : Vec Ideal S100000x200 .f32) (t : Fin cfg3.N) (p : Fin 2000) (q : Fin 200) (n : Fin 100000) (hn : n.val = t.val * 2000 + p.val) :
    (((cfg3.win 3).blk t).view.read (Elt Ideal) g : Vec Ideal S2000x200 .f32) (ix2 p q) = g (ix2 n q) := by
  obtain ⟨-, -, -, -, -, -, e0, e1⟩ := block_indices t
  rw [View.read_apply]
  refine congrArg g (funext fun a => Fin.ext ?_)
  match a with
  | ⟨0, _⟩ => show win3_3.index t (0 : Fin 2) * 2000 + 1 * p.val = n.val; omega
  | ⟨1, _⟩ => show win3_3.index t (1 : Fin 2) * 200 + 1 * q.val = q.val; omega

/-- What step t computes from its three blocks is, entry by entry, block t of the one array `normalised`: row p
    of the block is row 2000 t + p of x, and the columns agree. -/
theorem written_block_apply (c : Dev nD) (t : Fin cfg3.N) (j : S2000x200.Idx) :
    k3_pay1 (iblk3 V c 0 t) (iblk3 V c 1 t) (iblk3 V c 2 t) j
      = (((cfg3.win 3).blk t).view.read (Elt Ideal) (normalised V c) : Vec Ideal S2000x200 .f32) j := by
  obtain ⟨p, q, rfl⟩ : ∃ (p : Fin 2000) (q : Fin 200), j = ix2 p q := ⟨j 0, j 1, eq_ix2 j⟩
  have hN : cfg3.N = 50 := N_3
  have hn : t.val * 2000 + p.val < 100000 := by have := t.isLt; omega
  rw [body_apply, comb_block_apply V c t p q ⟨_, hn⟩ rfl, mean_block_apply, var_block_apply,
    out_block_apply (normalised V c) t p q ⟨_, hn⟩ rfl]
  rfl

/-- What step t writes back is block t of `normalised`: its one store fills the whole 2000 x 200 buffer with
    the step's arithmetic of the three blocks. -/
theorem written_block_eq (c : Dev nD) (t : Fin cfg3.N) :
    (dat3 V c).flushed 3 t = ((cfg3.win 3).blk t).view.read (Elt Ideal) (normalised V c) := by
  show (cfg3.win 3).cut (grid3.coords t) ((dat3 V c).after 3 t) = _
  rw [after3_3]
  unfold out3_3
  rw [View.canon_unit_zero zero_offsets]
  simp only [View.ld_unit_zero (S := S2000x200) zero_offsets, View.ld_unit_zero (S := S1x200) zero_offsets]
  exact funext (written_block_apply V c t)

/-- An entry of the result array lies in step t's block iff each coordinate lies in the block's range on its axis. -/
theorem mem_out_block (t : Fin cfg3.N) (i : S100000x200.Idx) :
    i ∈ ((cfg3.win 3).blk t).view.set ↔ ∀ a : Fin 2, win3_3.index t a * S2000x200.size a ≤ (i a).val ∧ (i a).val < win3_3.index t a * S2000x200.size a + S2000x200.size a := by
  show i ∈ ((View.whole main_v193).slice (win3_3.rect t)).set ↔ _
  rw [View.set_slice_whole, Rect.mem_set_unit]
  exact Iff.rfl

/-- Every entry is written: row n lies in the block of step n / 2000, and a block spans all 200 columns. -/
theorem rows_covered (i : S100000x200.Idx) : ∃ t : Fin cfg3.N, (cfg3.win 3).flush t = true ∧ i ∈ ((cfg3.win 3).blk t).view.set := by
  have hi0 : (i 0).val < 100000 := (i 0).isLt
  have hi1 : (i 1).val < 200 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, -, -, -, e0, e1⟩ := block_indices t
  refine ⟨t, flush3_3 t, ?_⟩
  rw [mem_out_block]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 200 ≤ (i 1).val ∧ (i 1).val < win3_3.index t (1 : Fin 2) * 200 + 200; omega

/-- After the 50 steps the result array is `normalised`: each step wrote its block of it, and the blocks cover it. -/
theorem region3_array (c : Dev nD) : (dat3 V c).arrAt 3 cfg3.N = normalised V c :=
  (dat3 V c).arrAt_eq_of_cover 3 (normalised V c) (fun t _ => written_block_eq V c t) rows_covered

/-- THE LAYER'S VALUE at entry (n, j): tanh ((x[n, j] - mu[0, j]) * rsqrt (v[0, j] + eps)). -/
theorem region3_value (c : Dev nD) (n : Fin 100000) (j : Fin 200) :
    ((dat3 V c).arrAt 3 cfg3.N : Vec Ideal S100000x200 .f32) (ix2 n j)
      = Ideal.tanh ((cmb V c (ix2 n j) - mu V c (ix2 0 j)) * Ideal.rsqrt (vr V c (ix2 0 j) + Ideal.ofBits .f32 0x3727C5AC#32)) := by
  rw [region3_array]
  rfl

end Cert.KernelIdeal.KVal3

end
-- ==== Proof.KMid2.lean ====
/-
  The second layer's normalisation as the idealized kernel program computes it, and the program's second result.
  Between the layer's two kernel regions the host divides the column sums and the column sums of squares by the number
  of rows (the constant 100000), squares the mean and subtracts: the layer's second region receives the combined
  messages, the column means and the column variances.  Read at an index, and given what that region computes from
  its three arrays, the layer's output is `CompGcn.bnK` of the combined messages; the host operations after the
  layer do not write the output's buffer, so the program returns it.
-/
import proofs.«412919_j56298431316644_2_alg».proof.Proof.KNames
import proofs.«412919_j56298431316644_2_alg».proof.Proof.BnEq
import proofs.«412919_j56298431316644_2_alg».proof.Proof.SpecDefs
import Idealize.ShloMosaic.Lib.IdealHost
import Idealize.ShloMosaic.Lib.ValueIdx
import Idealize.ShloMosaic.Lib.StableHlo.Run

set_option maxRecDepth 16384

noncomputable section

namespace Cert.KernelIdeal.KM2

open Cert.KernelIdeal Cert.KernelIdeal.Gen Cert.KernelIdeal.KN Idealize.ShloMosaic Idealize.ShloMosaic.TcCoe Idealize.SL.Sem
  Idealize.ShloMosaic.StableHlo Idealize.ShloMosaic.ValueIdx

variable (m : (ℓ : Loc nD τ sig) → Buf (Elt Ideal) ℓ) (ρ : Dev nD → PrngReg) (c : Dev nD)

/-! ## Names, at their array types -/

/-- What the layer's first region (the program's third) leaves in its three output arrays: the combined messages, and
    two one-row arrays (the column sums and the column sums of squares, once the region's value is known). -/
abbrev comb2 : Vec Ideal S100000x200 .f32 := (dat2 (V25 m ρ) c).arrAt 7 cfg2.N
abbrev csum2 : Vec Ideal S1x200 .f32 := (dat2 (V25 m ρ) c).arrAt 8 cfg2.N
abbrev csq2 : Vec Ideal S1x200 .f32 := (dat2 (V25 m ρ) c).arrAt 9 cfg2.N

/-- The layer's second region (the program's fourth): its three input arrays at entry contents `V`, and the output
    array it leaves. -/
abbrev r3in0 (V : (c : Dev nD) → (b : Ref sig .tc) → Buf (Elt Ideal) ((c : Thread nD τ).loc b)) (c : Dev nD) :
    Vec Ideal S100000x200 .f32 := V c (Pipeline.arrRef spec3 0)
abbrev r3in1 (V : (c : Dev nD) → (b : Ref sig .tc) → Buf (Elt Ideal) ((c : Thread nD τ).loc b)) (c : Dev nD) :
    Vec Ideal S1x200 .f32 := V c (Pipeline.arrRef spec3 1)
abbrev r3in2 (V : (c : Dev nD) → (b : Ref sig .tc) → Buf (Elt Ideal) ((c : Thread nD τ).loc b)) (c : Dev nD) :
    Vec Ideal S1x200 .f32 := V c (Pipeline.arrRef spec3 2)
abbrev r3out (V : (c : Dev nD) → (b : Ref sig .tc) → Buf (Elt Ideal) ((c : Thread nD τ).loc b)) (c : Dev nD) :
    Vec Ideal S100000x200 .f32 := (dat3 V c).arrAt 3 cfg3.N

/-! ## What the layer's first region leaves, buffer by buffer -/

theorem W26_comb : (W26 m ρ c (Proc.devRef .tc main_v186_0) : Vec Ideal S100000x200 .f32) = comb2 m ρ c :=
  W26_arr m ρ c 7
theorem W26_sum : (W26 m ρ c (Proc.devRef .tc main_v186_1) : Vec Ideal S1x200 .f32) = csum2 m ρ c := W26_arr m ρ c 8
theorem W26_sq : (W26 m ρ c (Proc.devRef .tc main_v186_2) : Vec Ideal S1x200 .f32) = csq2 m ρ c := W26_arr m ρ c 9

/-! ## The host operations between the two regions, read at an index -/

/-- The row count, a scalar constant broadcast along a row, read at an index. -/
theorem nf_bcast (i : S1x200.Idx) :
    (broadcastInDim S1x200 ![] bcast_S_S1x200 (constant (F := Ideal) S_ .f32 0x47C35000#32) : Vec Ideal S1x200 .f32) i
      = Ideal.ofBits .f32 0x47C35000#32 :=
  (broadcastInDim_scalar_apply bcast_S_S1x200 _ i).trans (constant_apply _ _)

set_option maxHeartbeats 40000000 in
/-- The host operations do not write the combined messages. -/
theorem W27_comb : r3in0 (V27 m ρ) c = comb2 m ρ c := by
  have h : W27 m ρ c (Proc.devRef .tc main_v186_0) = W26 m ρ c (Proc.devRef .tc main_v186_0) := by
    dsimp only [W27, hostOps3]; after_results_simp
  exact h.trans (W26_arr m ρ c 7)

set_option maxHeartbeats 40000000 in
/-- The column mean: the column sum divided by the row count. -/
theorem W27_mean (j : Fin 200) :
    r3in1 (V27 m ρ) c (ix2 0 j) = Ideal.div (csum2 m ρ c (ix2 0 j)) (Ideal.ofBits .f32 0x47C35000#32) := by
  rw [← W26_sum m ρ c]
  show (W27 m ρ c (Proc.devRef .tc main_v188) : Vec Ideal S1x200 .f32) (ix2 0 j) = _
  dsimp only [W27, hostOps3]; after_results_simp
  simp only [hostDivf_apply]
  rw [nf_bcast (ix2 0 j)]

set_option maxHeartbeats 40000000 in
/-- The column variance: the mean of squares minus the squared mean. -/
theorem W27_var (j : Fin 200) :
    r3in2 (V27 m ρ) c (ix2 0 j)
      = Ideal.div (csq2 m ρ c (ix2 0 j)) (Ideal.ofBits .f32 0x47C35000#32)
        - Ideal.div (csum2 m ρ c (ix2 0 j)) (Ideal.ofBits .f32 0x47C35000#32)
          * Ideal.div (csum2 m ρ c (ix2 0 j)) (Ideal.ofBits .f32 0x47C35000#32) := by
  rw [← W26_sum m ρ c, ← W26_sq m ρ c]
  show (W27 m ρ c (Proc.devRef .tc main_v192) : Vec Ideal S1x200 .f32) (ix2 0 j) = _
  dsimp only [W27, hostOps3]; after_results_simp
  simp only [subf_apply, mulf_apply, hostDivf_apply]
  rw [nf_bcast (ix2 0 j)]

/-! ## The layer's output -/

/-- The layer's output at `(n, j)`, given its second region's value at an index (`hreg3`) and that its first region's
    second and third outputs are the column sums and the column sums of squares of its first (`hS`, `hQ`). -/
theorem x2out_eq
    (hreg3 : ∀ (V : (c : Dev nD) → (b : Ref sig .tc) → Buf (Elt Ideal) ((c : Thread nD τ).loc b)) (c : Dev nD)
      (n : Fin 100000) (j : Fin 200),
      r3out V c (ix2 n j)
        = Ideal.tanh ((r3in0 V c (ix2 n j) - r3in1 V c (ix2 0 j))
            * Ideal.rsqrt (r3in2 V c (ix2 0 j) + Ideal.ofBits .f32 0x3727C5AC#32)))
    (hS : ∀ j : Fin 200, csum2 m ρ c (ix2 0 j) = ∑ n : Fin 100000, comb2 m ρ c (ix2 n j))
    (hQ : ∀ j : Fin 200, csq2 m ρ c (ix2 0 j) = ∑ n : Fin 100000, comb2 m ρ c (ix2 n j) * comb2 m ρ c (ix2 n j)) :
    ∀ (n : Fin 100000) (j : Fin 200), x2out m ρ c (ix2 n j)
      = CompGcn.bnK (fun n j => comb2 m ρ c (ix2 n j)) (Ideal.ofBits .f32 0x47C35000#32)
          (Ideal.ofBits .f32 0x3727C5AC#32) n j := by
  intro n j
  have hx : x2out m ρ c = r3out (V27 m ρ) c := W28_arr m ρ c 3
  rw [hx, hreg3 (V27 m ρ) c n j, W27_comb m ρ c, W27_mean m ρ c j, W27_var m ρ c j, hS j, hQ j]
  rfl

/-! ## The program's second result -/

set_option maxHeartbeats 40000000 in
/-- The host operations after the last region do not write the layer's output: the program returns it. -/
theorem res1_eq : res1 m ρ c = x2out m ρ c := by
  show W30 m ρ c (Proc.devRef .tc main_v193) = W28 m ρ c (Proc.devRef .tc main_v193)
  dsimp only [W30, W29, hostOps4, hostOps4_1]; after_results_simp

end Cert.KernelIdeal.KM2

end
-- ==== Proof.KHost2.lean ====
/-
  The second layer's host operations of the idealized kernel program, read at an index.  For each direction of the
  edges the aggregate that enters the layer's first kernel region is a row scatter-add onto zeros: row `n`, column
  `k` is the sum, over the edges whose target is `n`, of the gathered node entry times the gathered relation entry
  times the edge's normalisation.  The two gathers read a row per edge, with a fill value where the index is out of range; every
  source index is a node and every edge type a row of the relation table, so the range masks are one everywhere and
  the fill never shows.  The layer's input array is the first layer's output.
-/
import proofs.«412919_j56298431316644_2_alg».proof.Proof.KNames
import proofs.«412919_j56298431316644_2_alg».proof.Proof.KMid1
import proofs.«412919_j56298431316644_2_alg».proof.Proof.LibScatterAddRows
import proofs.«412919_j56298431316644_2_alg».proof.Proof.BnEq
import Idealize.ShloMosaic.Lib.ValueIdx
import Idealize.ShloMosaic.Lib.ValueLayout
import Idealize.ShloMosaic.Lib.IdealHost
import Idealize.ShloMosaic.Lib.Affine
import Idealize.ShloMosaic.PureOps.Reduce
import Idealize.ShloMosaic.Lib.Pipeline.Value
import Idealize.ShloMosaic.Lib.StableHlo.Run

set_option maxRecDepth 16384

noncomputable section

namespace Cert.KernelIdeal.KH2

open Cert.KernelIdeal Cert.KernelIdeal.Gen Cert.KernelIdeal.KN Idealize.ShloMosaic Idealize.ShloMosaic.TcCoe Idealize.SL.Sem
  Idealize.ShloMosaic.StableHlo Idealize.ShloMosaic.ValueIdx

/-! ## Words, masks and slices: facts that do not mention the program -/

section Pure

/-- A left fold by `and` over one-bit words, from 1 and meeting only 1s, ends at 1. -/
theorem foldl_andi_ones {ι : Type} (f : ι → BitVec 1) (hf : ∀ n, f n = 1#1) (l : List ι) :
    l.foldl (fun r n => IntOp.andi r (f n)) 1#1 = 1#1 := by
  induction l with
  | nil => rfl
  | cons a l ih =>
    rw [List.foldl_cons, hf a, show IntOp.andi 1#1 1#1 = 1#1 by decide]
    exact ih

/-- A reduction by `and` of an array of ones, from an initial array of ones, is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

/-- An index word that is not negative is left alone by the wrap-around `w < 0 ? w + N : w`. -/
theorem wrap_nonneg (w cN : BitVec 32) (h : 0 ≤ w.toInt) :
    Scalar.select (IntOp.cmpi .slt w 0#32) (IntOp.addi w cN) w = w := by
  refine if_neg fun hc => ?_
  have h1 : w.toInt < (0#32 : BitVec 32).toInt := IntOp.cmpi_slt.1 hc
  rw [show (0#32 : BitVec 32).toInt = 0 by decide] at h1
  omega

/-- The range mask of a row gather with a fill value: where every index word lies in `[0, cM]` the
    wrapped index is the index, both comparisons hold at every row, so their conjunction reduced along the unit
    axis is one, and so is its broadcast along the rows.  Stated over the chain of operations as the program spells
    it; the shapes' side conditions are arguments. -/
theorem take_mask_ones {E D : ℕ} (idx : IVec ⟨1, ![E]⟩ 32) (cN cM : BitVec 32)
    (h0 : (⟨0, ![]⟩ : Shape).BroadcastsInDim ⟨1, ![E]⟩ ![])
    (h5 : (⟨1, ![E]⟩ : Shape).BroadcastsInDim ⟨2, ![E, 1]⟩ ![0])
    (h6 : (⟨0, ![]⟩ : Shape).BroadcastsInDim ⟨2, ![E, 1]⟩ ![])
    (h8 : (⟨1, ![1]⟩ : Shape).BroadcastsInDim ⟨2, ![1, 1]⟩ ![1])
    (h9 : (⟨2, ![1, 1]⟩ : Shape).BroadcastsInDim ⟨2, ![E, 1]⟩ ![0, 1])
    (hr : (⟨2, ![E, 1]⟩ : Shape).ReducesTo [1] ⟨1, ![E]⟩) (hu : 0 < (⟨0, ![]⟩ : Shape).numel)
    (h14 : (⟨1, ![E]⟩ : Shape).BroadcastsInDim ⟨2, ![E, D]⟩ ![0])
    (hlo : ∀ i, 0 ≤ (idx i).toInt) (hhi : ∀ i, (idx i).toInt ≤ cM.toInt) (j : (⟨2, ![E, D]⟩ : Shape).Idx) :
    broadcastInDim ⟨2, ![E, D]⟩ ![0] h14
      (Host.reduce IntOp.andi
        (andi
          (cmpi .sge
            (broadcastInDim ⟨2, ![E, 1]⟩ ![0] h5
              (select (cmpi .slt idx (broadcastInDim ⟨1, ![E]⟩ ![] h0 (constantI ⟨0, ![]⟩ 32 0#32)))
                (addi idx (broadcastInDim ⟨1, ![E]⟩ ![] h0 (constantI ⟨0, ![]⟩ 32 cN))) idx))
            (broadcastInDim ⟨2, ![E, 1]⟩ ![] h6 (constantI ⟨0, ![]⟩ 32 0#32)))
          (cmpi .sle
            (broadcastInDim ⟨2, ![E, 1]⟩ ![0] h5
              (select (cmpi .slt idx (broadcastInDim ⟨1, ![E]⟩ ![] h0 (constantI ⟨0, ![]⟩ 32 0#32)))
                (addi idx (broadcastInDim ⟨1, ![E]⟩ ![] h0 (constantI ⟨0, ![]⟩ 32 cN))) idx))
            (broadcastInDim ⟨2, ![E, 1]⟩ ![0, 1] h9 (broadcastInDim ⟨2, ![1, 1]⟩ ![1] h8 (constantI ⟨1, ![1]⟩ 32 cM)))))
        (constantI ⟨0, ![]⟩ 1 1#1) hr hu) j = 1#1 := by
  unfold broadcastInDim
  refine reduce_andi_ones _ _ hr hu (fun i => ?_) (fun _ => rfl) _
  have hz : (0#32 : BitVec 32).toInt = 0 := by decide
  refine IntOp.andi_eq_one.2 ⟨IntOp.cmpi_sge.2 ?_, IntOp.cmpi_sle.2 ?_⟩
  · show (0#32 : BitVec 32).toInt ≤ (Scalar.select (IntOp.cmpi .slt (idx _) 0#32) (IntOp.addi (idx _) cN) (idx _)).toInt
    rw [wrap_nonneg _ _ (hlo _), hz]
    exact hlo _
  · show (Scalar.select (IntOp.cmpi .slt (idx _) 0#32) (IntOp.addi (idx _) cN) (idx _)).toInt ≤ cM.toInt
    rw [wrap_nonneg _ _ (hlo _)]
    exact hhi _

/-- A vector laid down the rows of a one-column matrix reads, at row `e`, the vector at `e`. -/
theorem bcast_col_apply {α : Type} {E : ℕ} (hE : E ≠ 1) (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) :=
  broadcastInDim_apply _ h v _ (ix1 e) (fun a => by
    match a with
    | ⟨0, _⟩ => exact (if_neg hE).symm)

/-- The same vector laid along every row of an `E × D` matrix, through the one-column matrix, reads at `(e, k)` the
    vector at `e`. -/
theorem bcast_rows_apply {α : Type} {E D : ℕ} (hE : E ≠ 1) (h1 : (⟨1, ![E]⟩ : Shape).BroadcastsInDim ⟨2, ![E, 1]⟩ ![0])
    (h2 : (⟨2, ![E, 1]⟩ : Shape).BroadcastsInDim ⟨2, ![E, D]⟩ ![0, 1]) (v : (⟨1, ![E]⟩ : Shape).Idx → α) (e : Fin E)
    (k : Fin D) :
    broadcastInDim ⟨2, ![E, D]⟩ ![0, 1] h2 (broadcastInDim ⟨2, ![E, 1]⟩ ![0] h1 v) (ix2 e k) = v (ix1 e) := by
  rw [broadcastInDim_apply _ h2 _ (ix2 e k) (ix2 e (0 : Fin 1)) (fun a => by
    match a with
    | ⟨0, _⟩ => exact (if_neg hE).symm
    | ⟨1, _⟩ => exact (if_pos rfl).symm)]
  exact bcast_col_apply hE h1 v e 0

/-- Row `r` of the half of a `2 × 800000` table that starts at column `o`, flattened: entry `i` is the table at
    `(r, o + i)`. -/
theorem half_row_apply {α : Type} (X : (⟨2, ![2, 800000]⟩ : Shape).Idx → α) (o r : ℕ) (rr : Fin 2) (hr : rr.val = r)
    (ho : o + 400000 ≤ 800000)
    (h1 : (⟨2, ![2, 800000]⟩ : Shape).Slices ![0, o] ⟨2, ![2, 400000]⟩)
    (h2 : (⟨2, ![2, 400000]⟩ : Shape).Slices ![r, 0] ⟨2, ![1, 400000]⟩)
    (h3 : (⟨2, ![1, 400000]⟩ : Shape).ShapeCasts ⟨1, ![400000]⟩) (i : (⟨1, ![400000]⟩ : Shape).Idx) :
    shapeCast ⟨1, ![400000]⟩
        (extractStridedSlice ⟨2, ![1, 400000]⟩ ![r, 0] (extractStridedSlice ⟨2, ![2, 400000]⟩ ![0, o] X h1) h2) h3 i
      = X (ix2 rr ⟨o + (i 0).val, Nat.lt_of_lt_of_le (Nat.add_lt_add_left (i 0).isLt o) ho⟩) := by
  obtain ⟨e, rfl⟩ : ∃ e : Fin 400000, i = ix1 e := ⟨i 0, eq_ix1 i⟩
  rw [shapeCast_1a_a_apply, slice2_axis0_apply r _ h2 0 e rr (by rw [hr]; rfl),
    slice2_axis1_apply o X h1 rr e ⟨o + e.val, Nat.lt_of_lt_of_le (Nat.add_lt_add_left e.isLt o) ho⟩ rfl]

/-- The half of a vector of 800000 entries that starts at `o`: entry `i` is the vector at `o + i`. -/
theorem half_vec_apply {α : Type} (X : (⟨1, ![800000]⟩ : Shape).Idx → α) (o : ℕ) (ho : o + 400000 ≤ 800000)
    (h : (⟨1, ![800000]⟩ : Shape).Slices ![o] ⟨1, ![400000]⟩) (i : (⟨1, ![400000]⟩ : Shape).Idx) :
    extractStridedSlice ⟨1, ![400000]⟩ ![o] X h i
      = X (ix1 ⟨o + (i 0).val, Nat.lt_of_lt_of_le (Nat.add_lt_add_left (i 0).isLt o) ho⟩) :=
  extractStridedSlice_apply _ X h i _ (fun a => by
    match a with
    | ⟨0, _⟩ => rfl)

end Pure

variable (m : (ℓ : Loc nD τ sig) → Buf (Elt Ideal) ℓ) (ρ : Dev nD → PrngReg) (c : Dev nD)

/-! ## The launch's edge arrays, the range hypotheses, and the arrays as the second layer finds them -/

/-- The edge list as launched (row 0 the sources, row 1 the targets) and the edge types. -/
abbrev edgeIndex : IVec S2x800000 32 := m ((c.tc : Thread nD τ).loc main_arg12)
abbrev edgeType : IVec S800000 32 := m ((c.tc : Thread nD τ).loc main_arg13)

/-- Every source index is a node; every edge type is a row of the relation table with the self-loop row appended. -/
def SrcInRange : Prop :=
  ∀ e : Fin 800000, 0 ≤ (edgeIndex m c (ix2 (0 : Fin 2) e)).toInt ∧ (edgeIndex m c (ix2 (0 : Fin 2) e)).toInt < 100000
def TypeInRange : Prop := ∀ e : Fin 800000, 0 ≤ (edgeType m c (ix1 e)).toInt ∧ (edgeType m c (ix1 e)).toInt < 401

set_option maxHeartbeats 40000000 in
/-- No host operation before the first kernel region writes the edge list … -/
theorem W11_arg12 : (W11 m ρ c (Proc.devRef .tc main_arg12) : IVec S2x800000 32) = edgeIndex m c := by
  dsimp only [W11, hostOps0_10]
  after_results_simp

set_option maxHeartbeats 40000000 in
/-- … nor the edge types. -/
theorem W11_arg13 : (W11 m ρ c (Proc.devRef .tc main_arg13) : IVec S800000 32) = edgeType m c := by
  dsimp only [W11, hostOps0_10]
  after_results_simp

/-- The first layer carries both across: the second layer's host operations read them as launched. -/
theorem W14_arg12 : (W14 m ρ c (Proc.devRef .tc main_arg12) : IVec S2x800000 32) = edgeIndex m c :=
  (KM1.W14_keep_of_mem m ρ c main_arg12 (by decide)).trans (W11_arg12 m ρ c)
theorem W14_arg13 : (W14 m ρ c (Proc.devRef .tc main_arg13) : IVec S800000 32) = edgeType m c :=
  (KM1.W14_keep_of_mem m ρ c main_arg13 (by decide)).trans (W11_arg13 m ρ c)

/-! ## The layer's input -/

set_option maxHeartbeats 40000000 in
/-- The second layer's host operations do not write the first layer's output: it is the second layer's input. -/
theorem x2in_eq : x2in m ρ c = x1out m ρ c := by
  show W25 m ρ c (Proc.devRef .tc main_v95) = W14 m ρ c (Proc.devRef .tc main_v95)
  dsimp only [W25, hostOps2_10]
  after_results_simp

/-! ## In-edges -/

/-- The two row gathers after their range selects (the two factors of an edge's message), the selects' masks and fills. -/
abbrev selXIn2 : FVec Ideal S400000x200 .f32 := W25 m ρ c (Proc.devRef .tc main_v135)
abbrev selRIn2 : FVec Ideal S400000x200 .f32 := W25 m ρ c (Proc.devRef .tc main_v136)
abbrev mskXIn2 : IVec S400000x200 1 :=
  (TRef.of main_call7_v14 : TRef sig ⟨S400000x200, .i1⟩).ofBuf (W25 m ρ c (Proc.devRef .tc main_call7_v14))
abbrev mskRIn2 : IVec S400000x200 1 :=
  (TRef.of main_call8_v14 : TRef sig ⟨S400000x200, .i1⟩).ofBuf (W25 m ρ c (Proc.devRef .tc main_call8_v14))
abbrev fillXIn2 : FVec Ideal S400000x200 .f32 :=
  (TRef.of main_call7_v15 : TRef sig ⟨S400000x200, .f32⟩).ofBuf (W25 m ρ c (Proc.devRef .tc main_call7_v15))
abbrev fillRIn2 : FVec Ideal S400000x200 .f32 :=
  (TRef.of main_call8_v15 : TRef sig ⟨S400000x200, .f32⟩).ofBuf (W25 m ρ c (Proc.devRef .tc main_call8_v15))

set_option maxHeartbeats 40000000 in
/-- The aggregate is the scatter-add, onto zeros at the target rows, of the two selected gathers' product scaled by
    the edge's normalisation. -/
theorem stage_aggIn2 : (aggIn2 m ρ c : FVec Ideal S100000x200 .f32)
    = Host.scatterAdd (F := Ideal) scatter_S100000x200_S400000x1_S400000x200_1_0_0_1
        (broadcastInDim S100000x200 ![] bcast_S_S100000x200 (constant S_ .f32 0x00000000#32))
        (broadcastInDim S400000x1 ![0] bcast_S400000_S400000x1_0 (dstIn2 m ρ c))
        (mulf (F := Ideal) (mulf (F := Ideal) (selXIn2 m ρ c) (selRIn2 m ρ c))
          (broadcastInDim S400000x200 ![0, 1] bcast_S400000x1_S400000x200_0_1
            (broadcastInDim S400000x1 ![0] bcast_S400000_S400000x1_0 (nuIn2 m ρ c : FVec Ideal S400000 .f32)))) := by
  dsimp only [aggIn2, dstIn2, selXIn2, selRIn2, nuIn2, W25, hostOps2_10]
  after_results_simp

set_option maxHeartbeats 40000000 in
theorem stage_selXIn2 : selXIn2 m ρ c
    = (TRef.of main_v135 : TRef sig ⟨S400000x200, .f32⟩).toBuf
        (select (mskXIn2 m ρ c) ((TRef.of main_call7_v13 : TRef sig ⟨S400000x200, .f32⟩).ofBuf (xsIn2 m ρ c))
          (fillXIn2 m ρ c)) := by
  dsimp only [selXIn2, mskXIn2, xsIn2, fillXIn2, W25, hostOps2_10]
  after_results_simp

set_option maxHeartbeats 40000000 in
theorem stage_selRIn2 : selRIn2 m ρ c
    = (TRef.of main_v136 : TRef sig ⟨S400000x200, .f32⟩).toBuf
        (select (mskRIn2 m ρ c) ((TRef.of main_call8_v13 : TRef sig ⟨S400000x200, .f32⟩).ofBuf (rsIn2 m ρ c))
          (fillRIn2 m ρ c)) := by
  dsimp only [selRIn2, mskRIn2, rsIn2, fillRIn2, W25, hostOps2_10]
  after_results_simp

set_option maxHeartbeats 40000000 in
/-- Every source index lies in the node range, so the node gather's range mask is one everywhere. -/
theorem mskXIn2_one (hsrc : SrcInRange m c) (j : S400000x200.Idx) : mskXIn2 m ρ c j = 1#1 := by
  have h9 : (99999#32 : BitVec 32).toInt = 99999 := by decide
  have hb : ∀ i : S400000.Idx,
      0 ≤ (shapeCast S400000 (extractStridedSlice S1x400000 ![0, 0] (extractStridedSlice S2x400000 ![0, 0] (edgeIndex m c)
            slices_S2x800000_S2x400000_0_0) slices_S2x400000_S1x400000_0_0) shapeCasts_S1x400000_S400000 i).toInt
      ∧ (shapeCast S400000 (extractStridedSlice S1x400000 ![0, 0] (extractStridedSlice S2x400000 ![0, 0] (edgeIndex m c)
            slices_S2x800000_S2x400000_0_0) slices_S2x400000_S1x400000_0_0) shapeCasts_S1x400000_S400000 i).toInt
          ≤ (99999#32 : BitVec 32).toInt := fun i => by
    rw [half_row_apply (edgeIndex m c) 0 0 0 rfl (by decide)]
    have h := hsrc ⟨0 + (i 0).val, Nat.lt_of_lt_of_le (Nat.add_lt_add_left (i 0).isLt 0) (by decide)⟩
    exact ⟨h.1, by rw [h9]; omega⟩
  dsimp only [mskXIn2, W25, hostOps2_10]
  after_results_simp
  simp only [cast_cast, cast_eq]
  rw [W14_arg12 m ρ c]
  exact take_mask_ones _ _ _ _ _ _ _ _ _ _ _ (fun i => (hb i).1) (fun i => (hb i).2) j

set_option maxHeartbeats 40000000 in
/-- Every edge type lies in the relation table's range, so the relation gather's range mask is one everywhere. -/
theorem mskRIn2_one (het : TypeInRange m c) (j : S400000x200.Idx) : mskRIn2 m ρ c j = 1#1 := by
  have h4 : (400#32 : BitVec 32).toInt = 400 := by decide
  have hb : ∀ i : S400000.Idx,
      0 ≤ (extractStridedSlice S400000 ![0] (edgeType m c) slices_S800000_S400000_0 i).toInt
      ∧ (extractStridedSlice S400000 ![0] (edgeType m c) slices_S800000_S400000_0 i).toInt
          ≤ (400#32 : BitVec 32).toInt := fun i => by
    rw [half_vec_apply (edgeType m c) 0 (by decide)]
    have h := het ⟨0 + (i 0).val, Nat.lt_of_lt_of_le (Nat.add_lt_add_left (i 0).isLt 0) (by decide)⟩
    exact ⟨h.1, by rw [h4]; omega⟩
  dsimp only [mskRIn2, W25, hostOps2_10]
  after_results_simp
  simp only [cast_cast, cast_eq]
  rw [W14_arg13 m ρ c]
  exact take_mask_ones _ _ _ _ _ _ _ _ _ _ _ (fun i => (hb i).1) (fun i => (hb i).2) j

/-- With the masks at one, the selects are the gathered rows (the transports between a buffer's contents and its
    array are identities). -/
theorem selXIn2_apply (hsrc : SrcInRange m c) (j : S400000x200.Idx) : selXIn2 m ρ c j = xsIn2 m ρ c j := by
  rw [stage_selXIn2]
  have hm := mskXIn2_one m ρ c hsrc j
  simp only [cast_eq] at hm ⊢
  rw [select_apply, hm, select_one]

theorem selRIn2_apply (het : TypeInRange m c) (j : S400000x200.Idx) : selRIn2 m ρ c j = rsIn2 m ρ c j := by
  rw [stage_selRIn2]
  have hm := mskRIn2_one m ρ c het j
  simp only [cast_eq] at hm ⊢
  rw [select_apply, hm, select_one]

/-- **The in-edge aggregate at one entry**: row `n`, column `k` is the sum, over the edges whose target is `n`, of the
    gathered node entry times the gathered relation entry times the edge's normalisation. -/
theorem aggIn2_apply (hsrc : SrcInRange m c) (het : TypeInRange m c) (n : Fin 100000) (k : Fin 200) :
    aggIn2 m ρ c (ix2 n k)
      = ∑ e ∈ Finset.univ.filter (fun e : Fin 400000 => (dstIn2 m ρ c (ix1 e)).toInt = (n.val : ℤ)),
          xsIn2 m ρ c (ix2 e k) * rsIn2 m ρ c (ix2 e k) * nuIn2 m ρ c (ix1 e) := by
  rw [stage_aggIn2, ScatterRows.host_scatterAdd_ideal, ScatterRows.scatterAdd_rows_apply _ rfl rfl rfl rfl,
    broadcastInDim_scalar_apply, constant_apply, CompGcn.zero_f32, zero_add]
  refine Finset.sum_congr (Finset.filter_congr fun e _ => ?_) fun e _ => ?_
  · rw [bcast_col_apply (by decide)]
  · show selXIn2 m ρ c (ix2 e k) * selRIn2 m ρ c (ix2 e k) * _ = _
    rw [selXIn2_apply m ρ c hsrc, selRIn2_apply m ρ c het, bcast_rows_apply (by decide)]

/-! ## Out-edges

The second half of the edge list (columns 400000 onwards) and of the edge types, the same operations. -/

abbrev selXOut2 : FVec Ideal S400000x200 .f32 := W25 m ρ c (Proc.devRef .tc main_v176)
abbrev selROut2 : FVec Ideal S400000x200 .f32 := W25 m ρ c (Proc.devRef .tc main_v177)
abbrev mskXOut2 : IVec S400000x200 1 :=
  (TRef.of main_call10_v14 : TRef sig ⟨S400000x200, .i1⟩).ofBuf (W25 m ρ c (Proc.devRef .tc main_call10_v14))
abbrev mskROut2 : IVec S400000x200 1 :=
  (TRef.of main_call11_v14 : TRef sig ⟨S400000x200, .i1⟩).ofBuf (W25 m ρ c (Proc.devRef .tc main_call11_v14))
abbrev fillXOut2 : FVec Ideal S400000x200 .f32 :=
  (TRef.of main_call10_v15 : TRef sig ⟨S400000x200, .f32⟩).ofBuf (W25 m ρ c (Proc.devRef .tc main_call10_v15))
abbrev fillROut2 : FVec Ideal S400000x200 .f32 :=
  (TRef.of main_call11_v15 : TRef sig ⟨S400000x200, .f32⟩).ofBuf (W25 m ρ c (Proc.devRef .tc main_call11_v15))

set_option maxHeartbeats 40000000 in
theorem stage_aggOut2 : (aggOut2 m ρ c : FVec Ideal S100000x200 .f32)
    = Host.scatterAdd (F := Ideal) scatter_S100000x200_S400000x1_S400000x200_1_0_0_1
        (broadcastInDim S100000x200 ![] bcast_S_S100000x200 (constant S_ .f32 0x00000000#32))
        (broadcastInDim S400000x1 ![0] bcast_S400000_S400000x1_0 (dstOut2 m ρ c))
        (mulf (F := Ideal) (mulf (F := Ideal) (selXOut2 m ρ c) (selROut2 m ρ c))
          (broadcastInDim S400000x200 ![0, 1] bcast_S400000x1_S400000x200_0_1
            (broadcastInDim S400000x1 ![0] bcast_S400000_S400000x1_0 (nuOut2 m ρ c : FVec Ideal S400000 .f32)))) := by
  dsimp only [aggOut2, dstOut2, selXOut2, selROut2, nuOut2, W25, hostOps2_10]
  after_results_simp

set_option maxHeartbeats 40000000 in
theorem stage_selXOut2 : selXOut2 m ρ c
    = (TRef.of main_v176 : TRef sig ⟨S400000x200, .f32⟩).toBuf
        (select (mskXOut2 m ρ c) ((TRef.of main_call10_v13 : TRef sig ⟨S400000x200, .f32⟩).ofBuf (xsOut2 m ρ c))
          (fillXOut2 m ρ c)) := by
  dsimp only [selXOut2, mskXOut2, xsOut2, fillXOut2, W25, hostOps2_10]
  after_results_simp

set_option maxHeartbeats 40000000 in
theorem stage_selROut2 : selROut2 m ρ c
    = (TRef.of main_v177 : TRef sig ⟨S400000x200, .f32⟩).toBuf
        (select (mskROut2 m ρ c) ((TRef.of main_call11_v13 : TRef sig ⟨S400000x200, .f32⟩).ofBuf (rsOut2 m ρ c))
          (fillROut2 m ρ c)) := by
  dsimp only [selROut2, mskROut2, rsOut2, fillROut2, W25, hostOps2_10]
  after_results_simp

set_option maxHeartbeats 40000000 in
/-- The out-edges' source indices are columns 400000 onwards of the edge list's first row: in the node range too. -/
theorem mskXOut2_one (hsrc : SrcInRange m c) (j : S400000x200.Idx) : mskXOut2 m ρ c j = 1#1 := by
  have h9 : (99999#32 : BitVec 32).toInt = 99999 := by decide
  have hb : ∀ i : S400000.Idx,
      0 ≤ (shapeCast S400000 (extractStridedSlice S1x400000 ![0, 0] (extractStridedSlice S2x400000 ![0, 400000] (edgeIndex m c)
            slices_S2x800000_S2x400000_0_400000) slices_S2x400000_S1x400000_0_0) shapeCasts_S1x400000_S400000 i).toInt
      ∧ (shapeCast S400000 (extractStridedSlice S1x400000 ![0, 0] (extractStridedSlice S2x400000 ![0, 400000] (edgeIndex m c)
            slices_S2x800000_S2x400000_0_400000) slices_S2x400000_S1x400000_0_0) shapeCasts_S1x400000_S400000 i).toInt
          ≤ (99999#32 : BitVec 32).toInt := fun i => by
    rw [half_row_apply (edgeIndex m c) 400000 0 0 rfl (by decide)]
    have h := hsrc ⟨400000 + (i 0).val, Nat.lt_of_lt_of_le (Nat.add_lt_add_left (i 0).isLt 400000) (by decide)⟩
    exact ⟨h.1, by rw [h9]; omega⟩
  dsimp only [mskXOut2, W25, hostOps2_10]
  after_results_simp
  simp only [cast_cast, cast_eq]
  rw [W14_arg12 m ρ c]
  exact take_mask_ones _ _ _ _ _ _ _ _ _ _ _ (fun i => (hb i).1) (fun i => (hb i).2) j

set_option maxHeartbeats 40000000 in
/-- The out-edges' types are entries 400000 onwards of the edge types: in the relation table's range too. -/
theorem mskROut2_one (het : TypeInRange m c) (j : S400000x200.Idx) : mskROut2 m ρ c j = 1#1 := by
  have h4 : (400#32 : BitVec 32).toInt = 400 := by decide
  have hb : ∀ i : S400000.Idx,
      0 ≤ (extractStridedSlice S400000 ![400000] (edgeType m c) slices_S800000_S400000_400000 i).toInt
      ∧ (extractStridedSlice S400000 ![400000] (edgeType m c) slices_S800000_S400000_400000 i).toInt
          ≤ (400#32 : BitVec 32).toInt := fun i => by
    rw [half_vec_apply (edgeType m c) 400000 (by decide)]
    have h := het ⟨400000 + (i 0).val, Nat.lt_of_lt_of_le (Nat.add_lt_add_left (i 0).isLt 400000) (by decide)⟩
    exact ⟨h.1, by rw [h4]; omega⟩
  dsimp only [mskROut2, W25, hostOps2_10]
  after_results_simp
  simp only [cast_cast, cast_eq]
  rw [W14_arg13 m ρ c]
  exact take_mask_ones _ _ _ _ _ _ _ _ _ _ _ (fun i => (hb i).1) (fun i => (hb i).2) j

theorem selXOut2_apply (hsrc : SrcInRange m c) (j : S400000x200.Idx) : selXOut2 m ρ c j = xsOut2 m ρ c j := by
  rw [stage_selXOut2]
  have hm := mskXOut2_one m ρ c hsrc j
  simp only [cast_eq] at hm ⊢
  rw [select_apply, hm, select_one]

theorem selROut2_apply (het : TypeInRange m c) (j : S400000x200.Idx) : selROut2 m ρ c j = rsOut2 m ρ c j := by
  rw [stage_selROut2]
  have hm := mskROut2_one m ρ c het j
  simp only [cast_eq] at hm ⊢
  rw [select_apply, hm, select_one]

/-- **The out-edge aggregate at one entry**, as for the in-edges. -/
theorem aggOut2_apply (hsrc : SrcInRange m c) (het : TypeInRange m c) (n : Fin 100000) (k : Fin 200) :
    aggOut2 m ρ c (ix2 n k)
      = ∑ e ∈ Finset.univ.filter (fun e : Fin 400000 => (dstOut2 m ρ c (ix1 e)).toInt = (n.val : ℤ)),
          xsOut2 m ρ c (ix2 e k) * rsOut2 m ρ c (ix2 e k) * nuOut2 m ρ c (ix1 e) := by
  rw [stage_aggOut2, ScatterRows.host_scatterAdd_ideal, ScatterRows.scatterAdd_rows_apply _ rfl rfl rfl rfl,
    broadcastInDim_scalar_apply, constant_apply, CompGcn.zero_f32, zero_add]
  refine Finset.sum_congr (Finset.filter_congr fun e _ => ?_) fun e _ => ?_
  · rw [bcast_col_apply (by decide)]
  · show selXOut2 m ρ c (ix2 e k) * selROut2 m ρ c (ix2 e k) * _ = _
    rw [selXOut2_apply m ρ c hsrc, selROut2_apply m ρ c het, bcast_rows_apply (by decide)]

end Cert.KernelIdeal.KH2

end
-- ==== Proof.KHost2Fin.lean ====
/- The host operations of the second layer in the idealized kernel program, read for what the layer's join needs.

   Between the second and the third kernel region the host prepares the second layer's inputs: a second relation table
   (the first table times a weight matrix, its last row replaced by an argument row), the two edge normalisations
   (degree of the source node, counted by a scatter-add of ones, to the power -1/2 where positive and 0 elsewhere,
   gathered at both ends of every edge and multiplied), and the rows of the node array and of the relation table
   gathered for every edge. Read here: every gathered entry is an entry of the array it is gathered from (a gather reads
   its operand at a clamped index, whatever the index words are); every edge normalisation is a real number (sums,
   powers, selections, gathers and products of reals); the self-loop row is the table's last row; and the three weight
   matrices are argument arrays, untouched since the launch. (That the table's entries are reals is a companion module's.) -/
import proofs.«412919_j56298431316644_2_alg».proof.Proof.KNames
import proofs.«412919_j56298431316644_2_alg».proof.Proof.KMid1
import proofs.«412919_j56298431316644_2_alg».proof.Proof.LibScatterAddRows
import proofs.«412919_j56298431316644_2_alg».proof.Proof.BnEq
import proofs.«412919_j56298431316644_2_alg».proof.Proof.SpecDefs
import proofs.«412919_j56298431316644_2_alg».proof.Proof.CombEq
import Idealize.ShloMosaic.Lib.ValueIdx
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.KH2F

open Cert.KernelIdeal Cert.KernelIdeal.Gen Cert.KernelIdeal.KN Idealize.ShloMosaic Idealize.ShloMosaic.TcCoe Idealize.SL.Sem Idealize.ShloMosaic.StableHlo
open Idealize.ShloMosaic.ValueIdx
open CompGcn (IsReal)

/-! ## Real entries are kept by the host's operations -/

section Pure

/-- The word of +0.0 denotes the real 0. -/
theorem zero_real : IsReal (Ideal.ofBits .f32 0x00000000#32) := ⟨0, by rw [CompGcn.zero_f32]; rfl⟩

/-- The word of 1.0 denotes a real: its exponent field is not all ones. -/
theorem one_real : IsReal (Ideal.ofBits .f32 0x3F800000#32) := by
  show IsReal (Ideal.ieee 8 23 (0x3F800000#32 : BitVec 32))
  exact CompGcn.ieee_isReal 8 23 _ (by decide)

/-- The word of -0.5 denotes a real. -/
theorem neg_half_real : IsReal (Ideal.ofBits .f32 0xBF000000#32) := by
  show IsReal (Ideal.ieee 8 23 (0xBF000000#32 : BitVec 32))
  exact CompGcn.ieee_isReal 8 23 _ (by decide)

/-- A scalar constant laid over any shape reads the constant everywhere. -/
theorem splat_real {T : Shape} (h : (⟨0, ![]⟩ : Shape).BroadcastsInDim T ![]) (b : BitVec 32)
    (hb : IsReal (Ideal.ofBits .f32 b)) (j : T.Idx) :
    IsReal ((broadcastInDim T ![] h (constant (F := Ideal) ⟨0, ![]⟩ .f32 b) : FVec Ideal T .f32) j) := by
  rw [broadcastInDim_scalar_apply, constant_apply]; exact hb

/-- An accumulating scatter of reals onto reals: each entry is a real plus a finite sum of reals. -/
theorem scatterAdd_real {s si su : Shape} (d : ScatterDims s si su) {w : ℕ} (x : FVec Ideal s .f32) (idx : IVec si w)
    (u : FVec Ideal su .f32) (hx : ∀ i, IsReal (x i)) (hu : ∀ j, IsReal (u j)) (i : s.Idx) :
    IsReal (Host.scatterAdd d x idx u i) := by
  rw [ScatterRows.host_scatterAdd_ideal]
  exact ScatterRows.hostScatterAdd_real d x idx u i (hx i) hu

/-- A real to a real power is a real (the real power function, total on the reals). -/
theorem powf_real {s : Shape} (x y : FVec Ideal s .f32) (hx : ∀ i, IsReal (x i)) (hy : ∀ i, IsReal (y i)) (i : s.Idx) :
    IsReal (Host.powf x y i) := by
  show IsReal (Ideal.pow (x i) (y i))
  obtain ⟨a, ha⟩ := hx i
  obtain ⟨b, hb⟩ := hy i
  rw [ha, hb]
  exact ⟨Real.rpow a b, rfl⟩

/-- A selection between two reals is a real, whichever way the condition falls. -/
theorem select_real {s : Shape} (cnd : IVec s 1) (x y : FVec Ideal s .f32) (hx : ∀ i, IsReal (x i)) (hy : ∀ i, IsReal (y i))
    (i : s.Idx) : IsReal (select cnd x y i) := by
  show IsReal (Scalar.select (cnd i) (x i) (y i))
  unfold Scalar.select
  split
  · exact hx i
  · exact hy i

/-- A gathered entry is the operand at the (clamped) index the start indices name: real when the operand's entries are, -/
theorem gather_real {s si t : Shape} {w : ℕ} (d : GatherDims s si t) (x : s.Idx → EReal) (idx : IVec si w)
    (hx : ∀ i, IsReal (x i)) (j : t.Idx) : IsReal (Host.gather d x idx j) := hx _

/-- and in any case an entry of the operand. -/
theorem gather_entry {α : Type} {s si t : Shape} {w : ℕ} (d : GatherDims s si t) (x : s.Idx → α) (idx : IVec si w) (j : t.Idx) :
    ∃ i, Host.gather d x idx j = x i := ⟨_, rfl⟩

/-- An entry of a slice is an entry of the sliced array. -/
theorem slice_real {s t : Shape} (off : Fin s.rank → ℕ) (x : s.Idx → EReal) (h : s.Slices off t)
    (hx : ∀ i, IsReal (x i)) (j : t.Idx) : IsReal (extractStridedSlice t off x h j) := hx _

/-- An entry of a matrix product of real matrices is a finite sum of products of reals. -/
theorem dot_real {sl sr so : Shape} (d : DotDims sl sr so) (prec : Option ContractPrecision) (l : FVec Ideal sl .f32)
    (r : FVec Ideal sr .f32) (hl : ∀ i, IsReal (l i)) (hr : ∀ i, IsReal (r i)) (j : so.Idx) :
    IsReal (Host.dotGeneral d prec l r j) := by
  show IsReal (FloatOps.dotGeneral d prec .single l r j)
  rw [Ideal.dotGeneral_apply]
  exact CompGcn.IsReal.sum _ _ fun k _ => (hl _).mul (hr _)

/-- An entry of a concatenation is an entry of one of its pieces. -/
theorem concat_real {t : Shape} (a : Fin t.rank) (xs : List ((s : Shape) × (s.Idx → EReal)))
    (h : Shape.Concatenates (xs.map (·.1)) t a) (hx : ∀ p ∈ xs, ∀ i, IsReal (p.2 i)) (j : t.Idx) :
    IsReal (concatenate t a xs h j) := by
  unfold concatenate
  dsimp only
  exact hx _ (List.getElem_mem _) _

end Pure

variable (m : (ℓ : Loc nD τ sig) → Buf (Elt Ideal) ℓ) (ρ : Dev nD → PrngReg) (c : Dev nD)

/-! ## The edge normalisations -/

set_option maxHeartbeats 40000000 in
/-- The in-edges' normalisation of edge e, the product of (degree)^(-1/2) (0 where the degree is 0) at the edge's two
    ends, is a real number. -/
theorem hnuIn (e : Fin 400000) : IsReal (nuIn2 m ρ c (ix1 e)) := by
  dsimp only [nuIn2, W25, hostOps2_10]
  after_results_simp
  simp only [cast_cast, cast_eq, id_eq]
  rw [mulf_apply]
  refine CompGcn.IsReal.mul (gather_real _ _ _ (fun i => ?_) _) (gather_real _ _ _ (fun i => ?_) _)
  all_goals
    exact select_real _ _ _
      (fun i => powf_real _ _
        (fun i => scatterAdd_real _ _ _ _ (fun i => splat_real _ _ zero_real i) (fun i => splat_real _ _ one_real i) i)
        (fun i => splat_real _ _ neg_half_real i) i)
      (fun i => splat_real _ _ zero_real i) i

set_option maxHeartbeats 40000000 in
/-- The out-edges' normalisation, likewise. -/
theorem hnuOut (e : Fin 400000) : IsReal (nuOut2 m ρ c (ix1 e)) := by
  dsimp only [nuOut2, W25, hostOps2_10]
  after_results_simp
  simp only [cast_cast, cast_eq, id_eq]
  rw [mulf_apply]
  refine CompGcn.IsReal.mul (gather_real _ _ _ (fun i => ?_) _) (gather_real _ _ _ (fun i => ?_) _)
  all_goals
    exact select_real _ _ _
      (fun i => powf_real _ _
        (fun i => scatterAdd_real _ _ _ _ (fun i => splat_real _ _ zero_real i) (fun i => splat_real _ _ one_real i) i)
        (fun i => splat_real _ _ neg_half_real i) i)
      (fun i => splat_real _ _ zero_real i) i

/-! ## The gathered rows -/

set_option maxHeartbeats 40000000 in
/-- Every entry of the node rows gathered for the in-edges is an entry of the layer's input array. -/
theorem hxsIn (e : Fin 400000) (k : Fin 200) : ∃ i, xsIn2 m ρ c (ix2 e k) = x2in m ρ c i := by
  dsimp only [xsIn2, x2in, W25, hostOps2_10]
  after_results_simp
  simp only [cast_cast, cast_eq, id_eq]
  exact gather_entry _ _ _ _

set_option maxHeartbeats 40000000 in
/-- For the out-edges likewise. -/
theorem hxsOut (e : Fin 400000) (k : Fin 200) : ∃ i, xsOut2 m ρ c (ix2 e k) = x2in m ρ c i := by
  dsimp only [xsOut2, x2in, W25, hostOps2_10]
  after_results_simp
  simp only [cast_cast, cast_eq, id_eq]
  exact gather_entry _ _ _ _

set_option maxHeartbeats 40000000 in
/-- Every entry of the relation rows gathered for the in-edges is an entry of the second relation table. -/
theorem hrsIn (e : Fin 400000) (k : Fin 200) : ∃ i, rsIn2 m ρ c (ix2 e k) = rel2 m ρ c i := by
  dsimp only [rsIn2, rel2, W25, hostOps2_10]
  after_results_simp
  simp only [cast_cast, cast_eq, id_eq]
  exact gather_entry _ _ _ _

set_option maxHeartbeats 40000000 in
/-- For the out-edges likewise. -/
theorem hrsOut (e : Fin 400000) (k : Fin 200) : ∃ i, rsOut2 m ρ c (ix2 e k) = rel2 m ρ c i := by
  dsimp only [rsOut2, rel2, W25, hostOps2_10]
  after_results_simp
  simp only [cast_cast, cast_eq, id_eq]
  exact gather_entry _ _ _ _

/-! ## Arguments carried to the third region's entry -/

set_option maxHeartbeats 40000000 in
/-- No host operation before the first region writes these argument buffers. -/
theorem W11_arg5 : W11 m ρ c (Proc.devRef .tc main_arg5) = m ((c.tc : Thread nD τ).loc main_arg5) := by
  dsimp only [W11, hostOps0_10]; after_results_simp
set_option maxHeartbeats 40000000 in
theorem W11_arg7 : W11 m ρ c (Proc.devRef .tc main_arg7) = m ((c.tc : Thread nD τ).loc main_arg7) := by
  dsimp only [W11, hostOps0_10]; after_results_simp
set_option maxHeartbeats 40000000 in
theorem W11_arg8 : W11 m ρ c (Proc.devRef .tc main_arg8) = m ((c.tc : Thread nD τ).loc main_arg8) := by
  dsimp only [W11, hostOps0_10]; after_results_simp
set_option maxHeartbeats 40000000 in
theorem W11_arg9 : W11 m ρ c (Proc.devRef .tc main_arg9) = m ((c.tc : Thread nD τ).loc main_arg9) := by
  dsimp only [W11, hostOps0_10]; after_results_simp
set_option maxHeartbeats 40000000 in
theorem W11_arg11 : W11 m ρ c (Proc.devRef .tc main_arg11) = m ((c.tc : Thread nD τ).loc main_arg11) := by
  dsimp only [W11, hostOps0_10]; after_results_simp

set_option maxHeartbeats 40000000 in
/-- The second layer's in-edge weight matrix is the argument array, as launched: the host operations of the second
    layer do not write it, the first layer carries it, the host operations before the first region do not write it. -/
theorem hw7 : wIn2 m ρ c = m ((c.tc : Thread nD τ).loc main_arg7) := by
  have h1 : W25 m ρ c (Proc.devRef .tc main_arg7) = W14 m ρ c (Proc.devRef .tc main_arg7) := by
    dsimp only [W25, hostOps2_10]; after_results_simp
  exact h1.trans ((KM1.W14_keep_of_mem m ρ c main_arg7 (by decide)).trans (W11_arg7 m ρ c))

set_option maxHeartbeats 40000000 in
/-- The out-edge weight matrix likewise. -/
theorem hw8 : wOut2 m ρ c = m ((c.tc : Thread nD τ).loc main_arg8) := by
  have h1 : W25 m ρ c (Proc.devRef .tc main_arg8) = W14 m ρ c (Proc.devRef .tc main_arg8) := by
    dsimp only [W25, hostOps2_10]; after_results_simp
  exact h1.trans ((KM1.W14_keep_of_mem m ρ c main_arg8 (by decide)).trans (W11_arg8 m ρ c))

set_option maxHeartbeats 40000000 in
/-- The self-loop weight matrix likewise. -/
theorem hw9 : wLoop2 m ρ c = m ((c.tc : Thread nD τ).loc main_arg9) := by
  have h1 : W25 m ρ c (Proc.devRef .tc main_arg9) = W14 m ρ c (Proc.devRef .tc main_arg9) := by
    dsimp only [W25, hostOps2_10]; after_results_simp
  exact h1.trans ((KM1.W14_keep_of_mem m ρ c main_arg9 (by decide)).trans (W11_arg9 m ρ c))

/-! ## The second relation table -/

set_option maxHeartbeats 40000000 in
/-- The self-loop row is sliced out of the table at row 400. -/
theorem lrow2_eq : (lrow2 m ρ c : Vec Ideal S1x200 .f32)
    = extractStridedSlice S1x200 ![400, 0] (rel2 m ρ c : Vec Ideal S401x200 .f32) slices_S401x200_S1x200_400_0 := by
  dsimp only [lrow2, rel2, W25, hostOps2_10]; after_results_simp

/-- Column k of the self-loop row is the table at (400, k). -/
theorem hlrow (k : Fin 200) : lrow2 m ρ c (ix2 (0 : Fin 1) k) = rel2 m ρ c (ix2 (400 : Fin 401) k) := by
  rw [lrow2_eq]
  refine extractStridedSlice_apply _ _ _ _ _ fun a => ?_
  match a with
  | ⟨0, _⟩ => rfl
  | ⟨1, _⟩ => exact (Nat.zero_add _).symm

end Cert.KernelIdeal.KH2F

end
-- ==== Proof.KHost2Rel.lean ====
/- The second relation table of the idealized kernel program has real entries.

   The host computes it between the second and the third kernel region: the first table (401 rows of 200) times a
   200 x 200 weight matrix, of which rows 0 to 399 are kept, and under them one argument row. An entry of a row below
   400 is a finite sum of products of an entry of the first table and an entry of the weight matrix; an entry of row
   400 is an entry of the argument row. The first table, the weight matrix and the row reach this point unchanged (no
   kernel region has them among its arrays and no host operation in between writes them). -/
import proofs.«412919_j56298431316644_2_alg».proof.Proof.KHost2Fin

set_option maxRecDepth 16384

noncomputable section

namespace Cert.KernelIdeal.KH2F

open Cert.KernelIdeal Cert.KernelIdeal.Gen Cert.KernelIdeal.KN Idealize.ShloMosaic Idealize.ShloMosaic.TcCoe Idealize.SL.Sem Idealize.ShloMosaic.StableHlo
open Idealize.ShloMosaic.ValueIdx
open CompGcn (IsReal)

/-- The second relation table over any first table, weight matrix and last row: rows 0 to 399 of the product, then the row. -/
abbrev table2 (R1 : FVec Ideal S401x200 .f32) (W : FVec Ideal S200x200 .f32) (L : FVec Ideal S1x200 .f32) : FVec Ideal S401x200 .f32 :=
  concatenate S401x200 0
    [⟨S400x200, extractStridedSlice S400x200 ![0, 0]
        (Host.dotGeneral dot_S401x200_S200x200_S401x200_1_0_0_1_n_n none R1 W) slices_S401x200_S400x200_0_0⟩,
      ⟨S1x200, L⟩] concatenates_S400x200_S1x200_S401x200_d0

/-- Every entry of such a table is a real when the three arrays' entries are. -/
theorem table2_real (R1 : FVec Ideal S401x200 .f32) (W : FVec Ideal S200x200 .f32) (L : FVec Ideal S1x200 .f32)
    (hR : ∀ i, IsReal (R1 i)) (hW : ∀ i, IsReal (W i)) (hL : ∀ i, IsReal (L i)) (i : S401x200.Idx) :
    IsReal (table2 R1 W L i) := by
  refine concat_real _ _ _ (fun p hp => ?_) i
  simp only [List.mem_cons, List.not_mem_nil, or_false] at hp
  rcases hp with rfl | rfl
  · show ∀ i : S400x200.Idx, IsReal (extractStridedSlice S400x200 ![0, 0]
        (Host.dotGeneral dot_S401x200_S200x200_S401x200_1_0_0_1_n_n none R1 W) slices_S401x200_S400x200_0_0 i)
    exact fun i => slice_real _ _ _ (fun i => dot_real _ _ _ _ hR hW i) i
  · show ∀ i : S1x200.Idx, IsReal (L i)
    exact hL

variable (m : (ℓ : Loc nD τ sig) → Buf (Elt Ideal) ℓ) (ρ : Dev nD → PrngReg) (c : Dev nD)

set_option maxHeartbeats 40000000 in
/-- The second relation table, entry by entry, as the host computes it from what the second region left. -/
theorem rel2_apply (i : S401x200.Idx) : (rel2 m ρ c : FVec Ideal S401x200 .f32) i
    = table2 (W14 m ρ c (Proc.devRef .tc main_v0)) (W14 m ρ c (Proc.devRef .tc main_arg5)) (W14 m ρ c (Proc.devRef .tc main_arg11)) i := by
  dsimp only [rel2, table2, W25, hostOps2_10]; after_results_simp

/-- Every entry of the second relation table is a real: rows 0 to 399 are rows of the first table times the weight
    matrix, row 400 is the argument row. -/
theorem hrel2real (hrel1 : ∀ i, IsReal (rel1 m ρ c i))
    (h5 : ∀ i, IsReal (m ((c.tc : Thread nD τ).loc main_arg5) i))
    (h11 : ∀ i, IsReal (m ((c.tc : Thread nD τ).loc main_arg11) i)) : ∀ i, IsReal (rel2 m ρ c i) := by
  intro i
  have k0 : W14 m ρ c (Proc.devRef .tc main_v0) = W11 m ρ c (Proc.devRef .tc main_v0) :=
    KM1.W14_keep_of_mem m ρ c main_v0 (by repeat (first | exact List.mem_cons_self | apply List.mem_cons_of_mem))
  have k5 : W14 m ρ c (Proc.devRef .tc main_arg5) = m ((c.tc : Thread nD τ).loc main_arg5) :=
    (KM1.W14_keep_of_mem m ρ c main_arg5 (by repeat (first | exact List.mem_cons_self | apply List.mem_cons_of_mem))).trans (W11_arg5 m ρ c)
  have k11 : W14 m ρ c (Proc.devRef .tc main_arg11) = m ((c.tc : Thread nD τ).loc main_arg11) :=
    (KM1.W14_keep_of_mem m ρ c main_arg11 (by repeat (first | exact List.mem_cons_self | apply List.mem_cons_of_mem))).trans (W11_arg11 m ρ c)
  rw [rel2_apply, k0, k5, k11]
  exact table2_real _ _ _ hrel1 h5 h11 i

end Cert.KernelIdeal.KH2F

end
-- ==== Proof.RHost2.lean ====
/-
  The second layer of the idealized reference program, read at an index.  When @main returns, the layer's output at a
  node `n` and a column `j` is the batch normalisation (the column's mean taken off, divided by the square root of the
  mean squared deviation plus ε, then the hyperbolic tangent) of the combined message: the in-edges' and the out-edges'
  messages summed at the node — each edge's product of its source row and its relation row, multiplied by a weight
  matrix and scaled by the edge's degree normalisation — plus the node's own row times the loop relation's row times
  the third weight matrix, all divided by three.  The printed operations are read window by window, each named array
  over the arrays it is made from, and then at an index.
-/
import proofs.«412919_j56298431316644_2_alg».proof.Proof.RNames
import proofs.«412919_j56298431316644_2_alg».proof.Proof.SpecDefs
import proofs.«412919_j56298431316644_2_alg».proof.Proof.LibScatterAddRows
import proofs.«412919_j56298431316644_2_alg».proof.Proof.BnEq
import proofs.«412919_j56298431316644_2_alg».proof.Proof.RHost1
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

namespace Cert.ReferenceIdeal.RH2

open Cert.ReferenceIdeal Cert.ReferenceIdeal.Gen Cert.ReferenceIdeal.RRun Idealize.ShloMosaic Idealize.ShloMosaic.TcCoe Idealize.SL.Sem
  Idealize.ShloMosaic.StableHlo Idealize.ShloMosaic.ValueIdx
open scoped BigOperators

variable (m : (ℓ : Loc nD τ sig) → Buf (Elt Ideal) ℓ) (c : Dev nD)

/-! ## A buffer written before a window is read at that window's boundary -/

theorem R8_at5 {r : Ref sig .tc} (h5 : r ∉ W5) (h6 : r ∉ W6) (h7 : r ∉ W7) :
    R8 m c (Proc.devRef .tc r) = R5 m c (Proc.devRef .tc r) :=
  (keep_p7 (R7 m c) h7).trans ((keep_p6 (R6 m c) h6).trans (keep_p5 (R5 m c) h5))

theorem R8_at6 {r : Ref sig .tc} (h6 : r ∉ W6) (h7 : r ∉ W7) :
    R8 m c (Proc.devRef .tc r) = R6 m c (Proc.devRef .tc r) :=
  (keep_p7 (R7 m c) h7).trans (keep_p6 (R6 m c) h6)

theorem R8_at7 {r : Ref sig .tc} (h7 : r ∉ W7) :
    R8 m c (Proc.devRef .tc r) = R7 m c (Proc.devRef .tc r) :=
  keep_p7 (R7 m c) h7

/-! ## Names for the second layer's intermediate arrays when @main returns -/

/-- The in-edges' messages: every edge's product with the weights, scaled by the edge's normalisation. -/
abbrev msgIn2 : Vec Ideal S400000x200 .f32 := R8 m c (Proc.devRef .tc main_v233)
/-- The zero the in-edges' messages are summed onto. -/
abbrev zc2 : Vec Ideal S_ .f32 := R8 m c (Proc.devRef .tc main_cst_63)
/-- The in-edges' messages summed at their targets. -/
abbrev aggIn2 : Vec Ideal S100000x200 .f32 := R8 m c (Proc.devRef .tc main_v236)
/-- The out-edges' messages summed at their targets. -/
abbrev aggOut2 : Vec Ideal S100000x200 .f32 := R8 m c (Proc.devRef .tc main_v301)
/-- The self-loop product: every node's row times the loop relation's row. -/
abbrev loop2 : Vec Ideal S100000x200 .f32 := R8 m c (Proc.devRef .tc main_v306)
/-- The combined message before the normalisation. -/
abbrev comb2 : Vec Ideal S100000x200 .f32 := R8 m c (Proc.devRef .tc main_v311)
/-- The columns' means. -/
abbrev mu2 : Vec Ideal S200 .f32 := R8 m c (Proc.devRef .tc main_v314)
/-- The columns' mean squared deviations. -/
abbrev var2 : Vec Ideal S200 .f32 := R8 m c (Proc.devRef .tc main_v321)
/-- The deviations from the columns' means. -/
abbrev dev2 : Vec Ideal S100000x200 .f32 := R8 m c (Proc.devRef .tc main_v324)
/-- The columns' standard deviations (the square root of the mean squared deviation plus ε). -/
abbrev sd2 : Vec Ideal S200 .f32 := R8 m c (Proc.devRef .tc main_v327)

/-! ## What each window's statements leave -/

set_option maxRecDepth 8192 in
set_option maxHeartbeats 40000000 in
theorem S233 : msgIn2 m c = (mulf (φ := .f32) (Host.dotGeneral (φ₁ := .f32) (φ₂ := .f32) dot_S400000x200_S200x200_S400000x200_1_0_0_1_n_n none (mulf (φ := .f32) (RN.xsIn2 m c) (RN.rsIn2 m c)) (RN.wIn2 m c)) (broadcastInDim S400000x200 ![0, 1] bcast_S400000x1_S400000x200_0_1 (broadcastInDim S400000x1 ![0] bcast_S400000_S400000x1_0 (RN.nuIn2 m c))) : FVec Ideal S400000x200 .f32) := by
  dsimp only [msgIn2, RN.xsIn2, RN.rsIn2, RN.wIn2, RN.nuIn2]
  rw [R8_at5 m c (r := main_v233) (by decide) (by decide) (by decide),
    R8_at5 m c (r := main_v221) (by decide) (by decide) (by decide),
    R8_at5 m c (r := main_v228) (by decide) (by decide) (by decide),
    R8_at5 m c (r := main_arg7) (by decide) (by decide) (by decide),
    R8_at5 m c (r := main_v214) (by decide) (by decide) (by decide)]
  dsimp only [R5, ops_p4]
  after_results_simp <;> rfl

set_option maxRecDepth 8192 in
set_option maxHeartbeats 40000000 in
theorem S63 : zc2 m c = (constant S_ .f32 0x00000000#32 : FVec Ideal S_ .f32) := by
  dsimp only [zc2]
  rw [R8_at5 m c (r := main_cst_63) (by decide) (by decide) (by decide)]
  dsimp only [R5, ops_p4]
  after_results_simp <;> rfl

set_option maxRecDepth 8192 in
set_option maxHeartbeats 40000000 in
theorem S236 : aggIn2 m c = (Host.scatterAdd scatter_S100000x200_S400000x1_S400000x200_1_0_0_1 (broadcastInDim S100000x200 ![] bcast_S_S100000x200 (zc2 m c)) (broadcastInDim S400000x1 ![0] bcast_S400000_S400000x1_0 (RN.dstIn2 m c)) (msgIn2 m c) : FVec Ideal S100000x200 .f32) := by
  dsimp only [aggIn2, zc2, RN.dstIn2, msgIn2]
  rw [R8_at6 m c (r := main_v236) (by decide) (by decide),
    R8_at6 m c (r := main_cst_63) (by decide) (by decide),
    R8_at6 m c (r := main_v175) (by decide) (by decide),
    R8_at6 m c (r := main_v233) (by decide) (by decide)]
  dsimp only [R6, ops_p5]
  after_results_simp <;> rfl

set_option maxRecDepth 8192 in
set_option maxHeartbeats 40000000 in
/-- What the statements of the seventh window leave, each over the arrays it reads: one pass over the window's operations. -/
theorem stages6 :
    (aggOut2 m c = (Host.scatterAdd scatter_S100000x200_S400000x1_S400000x200_1_0_0_1 (broadcastInDim S100000x200 ![] bcast_S_S100000x200 (constant S_ .f32 0x00000000#32)) (broadcastInDim S400000x1 ![0] bcast_S400000_S400000x1_0 (RN.dstOut2 m c)) (mulf (φ := .f32) (Host.dotGeneral (φ₁ := .f32) (φ₂ := .f32) dot_S400000x200_S200x200_S400000x200_1_0_0_1_n_n none (mulf (φ := .f32) (RN.xsOut2 m c) (RN.rsOut2 m c)) (RN.wOut2 m c)) (broadcastInDim S400000x200 ![0, 1] bcast_S400000x1_S400000x200_0_1 (broadcastInDim S400000x1 ![0] bcast_S400000_S400000x1_0 (RN.nuOut2 m c)))) : FVec Ideal S100000x200 .f32))
    ∧ (loop2 m c = (mulf (RN.x1out m c) (broadcastInDim S100000x200 ![0, 1] bcast_S1x200_S100000x200_0_1 (broadcastInDim S1x200 ![1] bcast_S200_S1x200_1 (shapeCast S200 (extractStridedSlice S1x200 ![400, 0] (RN.rel2 m c) slices_S401x200_S1x200_400_0) shapeCasts_S1x200_S200))) : FVec Ideal S100000x200 .f32))
    ∧ (comb2 m c = (mulf (addf (addf (aggIn2 m c) (aggOut2 m c)) (Host.dotGeneral (φ₁ := .f32) (φ₂ := .f32) dot_S100000x200_S200x200_S100000x200_1_0_0_1_n_n none (loop2 m c) (RN.wLoop2 m c))) (broadcastInDim S100000x200 ![] bcast_S_S100000x200 (constant S_ .f32 0x3EAAAAAB#32)) : FVec Ideal S100000x200 .f32))
    ∧ (mu2 m c = (Host.divf (Host.reduceAdd (comb2 m c) (constant S_ .f32 0x00000000#32) reducesTo_S100000x200_S200_d0 h_S_) (broadcastInDim S200 ![] bcast_S_S200 (constant S_ .f32 0x47C35000#32)) : FVec Ideal S200 .f32))
    ∧ (var2 m c = (Host.divf (Host.reduceAdd (mulf (subf (comb2 m c) (broadcastInDim S100000x200 ![0, 1] bcast_S1x200_S100000x200_0_1 (broadcastInDim S1x200 ![1] bcast_S200_S1x200_1 (mu2 m c)))) (subf (comb2 m c) (broadcastInDim S100000x200 ![0, 1] bcast_S1x200_S100000x200_0_1 (broadcastInDim S1x200 ![1] bcast_S200_S1x200_1 (mu2 m c))))) (constant S_ .f32 0x00000000#32) reducesTo_S100000x200_S200_d0 h_S_) (broadcastInDim S200 ![] bcast_S_S200 (constant S_ .f32 0x47C35000#32)) : FVec Ideal S200 .f32))
    ∧ (dev2 m c = (subf (comb2 m c) (broadcastInDim S100000x200 ![0, 1] bcast_S1x200_S100000x200_0_1 (broadcastInDim S1x200 ![1] bcast_S200_S1x200_1 (mu2 m c))) : FVec Ideal S100000x200 .f32))
    ∧ (sd2 m c = (Host.sqrt (addf (var2 m c) (broadcastInDim S200 ![] bcast_S_S200 (constant S_ .f32 0x3727C5AC#32))) : FVec Ideal S200 .f32)) := by
  dsimp only [aggOut2, RN.dstOut2, RN.xsOut2, RN.rsOut2, RN.wOut2, RN.nuOut2, loop2, RN.x1out, RN.rel2, comb2, aggIn2, RN.wLoop2, mu2, var2, dev2, sd2]
  rw [R8_at7 m c (r := main_v301) (by decide),
    R8_at7 m c (r := main_v240) (by decide),
    R8_at7 m c (r := main_v286) (by decide),
    R8_at7 m c (r := main_v293) (by decide),
    R8_at7 m c (r := main_arg8) (by decide),
    R8_at7 m c (r := main_v279) (by decide),
    R8_at7 m c (r := main_v306) (by decide),
    R8_at7 m c (r := main_v164) (by decide),
    R8_at7 m c (r := main_v167) (by decide),
    R8_at7 m c (r := main_v311) (by decide),
    R8_at7 m c (r := main_v236) (by decide),
    R8_at7 m c (r := main_arg9) (by decide),
    R8_at7 m c (r := main_v314) (by decide),
    R8_at7 m c (r := main_v321) (by decide),
    R8_at7 m c (r := main_v324) (by decide),
    R8_at7 m c (r := main_v327) (by decide)]
  dsimp only [R7, ops_p6]
  after_results_simp
  all_goals (repeat' apply And.intro)
  all_goals first | rfl | exact trivial

theorem S301 : aggOut2 m c = (Host.scatterAdd scatter_S100000x200_S400000x1_S400000x200_1_0_0_1 (broadcastInDim S100000x200 ![] bcast_S_S100000x200 (constant S_ .f32 0x00000000#32)) (broadcastInDim S400000x1 ![0] bcast_S400000_S400000x1_0 (RN.dstOut2 m c)) (mulf (φ := .f32) (Host.dotGeneral (φ₁ := .f32) (φ₂ := .f32) dot_S400000x200_S200x200_S400000x200_1_0_0_1_n_n none (mulf (φ := .f32) (RN.xsOut2 m c) (RN.rsOut2 m c)) (RN.wOut2 m c)) (broadcastInDim S400000x200 ![0, 1] bcast_S400000x1_S400000x200_0_1 (broadcastInDim S400000x1 ![0] bcast_S400000_S400000x1_0 (RN.nuOut2 m c)))) : FVec Ideal S100000x200 .f32) := (stages6 m c).1
theorem S306 : loop2 m c = (mulf (RN.x1out m c) (broadcastInDim S100000x200 ![0, 1] bcast_S1x200_S100000x200_0_1 (broadcastInDim S1x200 ![1] bcast_S200_S1x200_1 (shapeCast S200 (extractStridedSlice S1x200 ![400, 0] (RN.rel2 m c) slices_S401x200_S1x200_400_0) shapeCasts_S1x200_S200))) : FVec Ideal S100000x200 .f32) := (stages6 m c).2.1
theorem S311 : comb2 m c = (mulf (addf (addf (aggIn2 m c) (aggOut2 m c)) (Host.dotGeneral (φ₁ := .f32) (φ₂ := .f32) dot_S100000x200_S200x200_S100000x200_1_0_0_1_n_n none (loop2 m c) (RN.wLoop2 m c))) (broadcastInDim S100000x200 ![] bcast_S_S100000x200 (constant S_ .f32 0x3EAAAAAB#32)) : FVec Ideal S100000x200 .f32) := (stages6 m c).2.2.1
theorem S314 : mu2 m c = (Host.divf (Host.reduceAdd (comb2 m c) (constant S_ .f32 0x00000000#32) reducesTo_S100000x200_S200_d0 h_S_) (broadcastInDim S200 ![] bcast_S_S200 (constant S_ .f32 0x47C35000#32)) : FVec Ideal S200 .f32) := (stages6 m c).2.2.2.1
theorem S321 : var2 m c = (Host.divf (Host.reduceAdd (mulf (subf (comb2 m c) (broadcastInDim S100000x200 ![0, 1] bcast_S1x200_S100000x200_0_1 (broadcastInDim S1x200 ![1] bcast_S200_S1x200_1 (mu2 m c)))) (subf (comb2 m c) (broadcastInDim S100000x200 ![0, 1] bcast_S1x200_S100000x200_0_1 (broadcastInDim S1x200 ![1] bcast_S200_S1x200_1 (mu2 m c))))) (constant S_ .f32 0x00000000#32) reducesTo_S100000x200_S200_d0 h_S_) (broadcastInDim S200 ![] bcast_S_S200 (constant S_ .f32 0x47C35000#32)) : FVec Ideal S200 .f32) := (stages6 m c).2.2.2.2.1
theorem S324 : dev2 m c = (subf (comb2 m c) (broadcastInDim S100000x200 ![0, 1] bcast_S1x200_S100000x200_0_1 (broadcastInDim S1x200 ![1] bcast_S200_S1x200_1 (mu2 m c))) : FVec Ideal S100000x200 .f32) := (stages6 m c).2.2.2.2.2.1
theorem S327 : sd2 m c = (Host.sqrt (addf (var2 m c) (broadcastInDim S200 ![] bcast_S_S200 (constant S_ .f32 0x3727C5AC#32))) : FVec Ideal S200 .f32) := (stages6 m c).2.2.2.2.2.2

set_option maxRecDepth 8192 in
set_option maxHeartbeats 40000000 in
theorem S331 : RN.x2out m c = (Host.tanh (Host.divf (dev2 m c) (broadcastInDim S100000x200 ![0, 1] bcast_S1x200_S100000x200_0_1 (broadcastInDim S1x200 ![1] bcast_S200_S1x200_1 (sd2 m c)))) : FVec Ideal S100000x200 .f32) := by
  dsimp only [RN.x2out, dev2, sd2]
  dsimp only [R8, ops_p7]
  after_results_simp <;> rfl

/-! ## The second layer read at an index -/

open Cert.ReferenceIdeal.RH1 (bc_col1 bc_rows bc_cols bcS_const dotE_apply dotN_apply colsum_apply agg_apply)

/-- An in-edge's message at a column. -/
theorem msgIn2_apply (e : Fin 400000) (j : Fin 200) : msgIn2 m c (ix2 e j)
    = (∑ k : Fin 200, (RN.xsIn2 m c (ix2 e k) * RN.rsIn2 m c (ix2 e k)) * RN.wIn2 m c (ix2 k j)) * RN.nuIn2 m c (ix1 e) := by
  rw [S233, mulf_apply, dotE_apply, bc_rows]
  rfl

/-- The in-edges' aggregate at a node and a column. -/
theorem aggIn2_apply (n : Fin 100000) (j : Fin 200) : aggIn2 m c (ix2 n j)
    = ∑ e ∈ Finset.univ.filter (fun e : Fin 400000 => (RN.dstIn2 m c (ix1 e)).toInt = (n.val : ℤ)),
        (∑ k : Fin 200, (RN.xsIn2 m c (ix2 e k) * RN.rsIn2 m c (ix2 e k)) * RN.wIn2 m c (ix2 k j)) * RN.nuIn2 m c (ix1 e) := by
  rw [S236, S63, agg_apply]
  refine Finset.sum_congr rfl fun e _ => ?_
  exact msgIn2_apply m c e j

/-- The out-edges' aggregate at a node and a column. -/
theorem aggOut2_apply (n : Fin 100000) (j : Fin 200) : aggOut2 m c (ix2 n j)
    = ∑ e ∈ Finset.univ.filter (fun e : Fin 400000 => (RN.dstOut2 m c (ix1 e)).toInt = (n.val : ℤ)),
        (∑ k : Fin 200, (RN.xsOut2 m c (ix2 e k) * RN.rsOut2 m c (ix2 e k)) * RN.wOut2 m c (ix2 k j)) * RN.nuOut2 m c (ix1 e) := by
  rw [S301, agg_apply]
  refine Finset.sum_congr rfl fun e _ => ?_
  rw [mulf_apply, dotE_apply, bc_rows]
  rfl

/-- The self-loop product at a node and a column: the node's entry times the loop relation's entry. -/
theorem loop2_apply (n : Fin 100000) (k : Fin 200) :
    loop2 m c (ix2 n k) = RN.x1out m c (ix2 n k) * RN.rel2 m c (ix2 (400 : Fin 401) k) := by
  rw [S306, mulf_apply, bc_cols, shapeCast_1a_a_apply,
    slice2_axis0_apply 400 _ slices_S401x200_S1x200_400_0 (0 : Fin 1) k (400 : Fin 401) rfl]

/-- The combined message at a node and a column, in the arrangement that multiplies by the weights before summing. -/
theorem comb2_apply (n : Fin 100000) (j : Fin 200) : comb2 m c (ix2 n j)
    = CompGcn.combR (fun n : Fin 100000 => Finset.univ.filter (fun e : Fin 400000 => (RN.dstIn2 m c (ix1 e)).toInt = (n.val : ℤ)))
      (fun n : Fin 100000 => Finset.univ.filter (fun e : Fin 400000 => (RN.dstOut2 m c (ix1 e)).toInt = (n.val : ℤ)))
      (fun e k => RN.xsIn2 m c (ix2 e k) * RN.rsIn2 m c (ix2 e k)) (fun e k => RN.xsOut2 m c (ix2 e k) * RN.rsOut2 m c (ix2 e k))
      (fun e => RN.nuIn2 m c (ix1 e)) (fun e => RN.nuOut2 m c (ix1 e))
      (fun n k => RN.x1out m c (ix2 n k) * RN.rel2 m c (ix2 (400 : Fin 401) k))
      (fun k j => RN.wIn2 m c (ix2 k j)) (fun k j => RN.wOut2 m c (ix2 k j)) (fun k j => RN.wLoop2 m c (ix2 k j))
      (Ideal.ofBits .f32 0x3EAAAAAB#32) n j := by
  rw [S311, mulf_apply, addf_apply, addf_apply, dotN_apply, bcS_const, aggIn2_apply, aggOut2_apply]
  have hl : (∑ k : Fin 200, loop2 m c (ix2 n k) * RN.wLoop2 m c (ix2 k j))
      = ∑ k : Fin 200, (RN.x1out m c (ix2 n k) * RN.rel2 m c (ix2 (400 : Fin 401) k)) * RN.wLoop2 m c (ix2 k j) :=
    Finset.sum_congr rfl fun k _ => by rw [loop2_apply]
  rw [hl]
  rfl

/-- A column's mean. -/
theorem mu2_apply (j : Fin 200) :
    mu2 m c (ix1 j) = Ideal.div (∑ n : Fin 100000, comb2 m c (ix2 n j)) (Ideal.ofBits .f32 0x47C35000#32) := by
  rw [S314, hostDivf_apply, colsum_apply, bcS_const]

/-- A column's mean squared deviation. -/
theorem var2_apply (j : Fin 200) :
    var2 m c (ix1 j) = Ideal.div (∑ n : Fin 100000, (comb2 m c (ix2 n j) - mu2 m c (ix1 j)) * (comb2 m c (ix2 n j) - mu2 m c (ix1 j))) (Ideal.ofBits .f32 0x47C35000#32) := by
  rw [S321, hostDivf_apply, colsum_apply, bcS_const]
  refine congrArg₂ Ideal.div (Finset.sum_congr rfl fun n _ => ?_) rfl
  rw [mulf_apply, subf_apply, bc_cols]

/-- A deviation from the column's mean. -/
theorem dev2_apply (n : Fin 100000) (j : Fin 200) : dev2 m c (ix2 n j) = comb2 m c (ix2 n j) - mu2 m c (ix1 j) := by
  rw [S324, subf_apply, bc_cols]

/-- A column's standard deviation. -/
theorem sd2_apply (j : Fin 200) : sd2 m c (ix1 j) = Ideal.sqrt (var2 m c (ix1 j) + Ideal.ofBits .f32 0x3727C5AC#32) := by
  rw [S327]
  show Ideal.sqrt (var2 m c (ix1 j) + _) = _
  rw [bcS_const]

/-- The layer's output at a node and a column, over the named arrays. -/
theorem x2out_apply (n : Fin 100000) (j : Fin 200) : RN.x2out m c (ix2 n j)
    = Ideal.tanh (Ideal.div (comb2 m c (ix2 n j) - mu2 m c (ix1 j)) (Ideal.sqrt (var2 m c (ix1 j) + (Ideal.ofBits .f32 0x3727C5AC#32)))) := by
  rw [S331]
  show Ideal.tanh (Ideal.div (dev2 m c (ix2 n j)) _) = _
  rw [bc_cols, dev2_apply, sd2_apply]

/-- **The second layer of the reference at an index**: the batch-normalised combined message. -/
theorem x2out_eq : ∀ (n : Fin 100000) (j : Fin 200), RN.x2out m c (ix2 n j)
    = CompGcn.bnR (CompGcn.combR (fun n : Fin 100000 => Finset.univ.filter (fun e : Fin 400000 => (RN.dstIn2 m c (ix1 e)).toInt = (n.val : ℤ)))
      (fun n : Fin 100000 => Finset.univ.filter (fun e : Fin 400000 => (RN.dstOut2 m c (ix1 e)).toInt = (n.val : ℤ)))
      (fun e k => RN.xsIn2 m c (ix2 e k) * RN.rsIn2 m c (ix2 e k)) (fun e k => RN.xsOut2 m c (ix2 e k) * RN.rsOut2 m c (ix2 e k))
      (fun e => RN.nuIn2 m c (ix1 e)) (fun e => RN.nuOut2 m c (ix1 e))
      (fun n k => RN.x1out m c (ix2 n k) * RN.rel2 m c (ix2 (400 : Fin 401) k))
      (fun k j => RN.wIn2 m c (ix2 k j)) (fun k j => RN.wOut2 m c (ix2 k j)) (fun k j => RN.wLoop2 m c (ix2 k j))
      (Ideal.ofBits .f32 0x3EAAAAAB#32)) (Ideal.ofBits .f32 0x47C35000#32) (Ideal.ofBits .f32 0x3727C5AC#32) n j := by
  intro n j
  have hC : (fun (n : Fin 100000) (j : Fin 200) => comb2 m c (ix2 n j)) = CompGcn.combR (fun n : Fin 100000 => Finset.univ.filter (fun e : Fin 400000 => (RN.dstIn2 m c (ix1 e)).toInt = (n.val : ℤ)))
      (fun n : Fin 100000 => Finset.univ.filter (fun e : Fin 400000 => (RN.dstOut2 m c (ix1 e)).toInt = (n.val : ℤ)))
      (fun e k => RN.xsIn2 m c (ix2 e k) * RN.rsIn2 m c (ix2 e k)) (fun e k => RN.xsOut2 m c (ix2 e k) * RN.rsOut2 m c (ix2 e k))
      (fun e => RN.nuIn2 m c (ix1 e)) (fun e => RN.nuOut2 m c (ix1 e))
      (fun n k => RN.x1out m c (ix2 n k) * RN.rel2 m c (ix2 (400 : Fin 401) k))
      (fun k j => RN.wIn2 m c (ix2 k j)) (fun k j => RN.wOut2 m c (ix2 k j)) (fun k j => RN.wLoop2 m c (ix2 k j))
      (Ideal.ofBits .f32 0x3EAAAAAB#32) :=
    funext fun n => funext fun j => comb2_apply m c n j
  rw [← hC, x2out_apply, var2_apply, mu2_apply]
  rfl

end Cert.ReferenceIdeal.RH2

end
-- ==== Proof.Cross2A.lean ====
/-
  The second layer's edge index arrays and degree normalisations agree across the two idealized programs.  Both
  programs compute them by the same host operations of the edge array, an argument that no earlier operation writes and
  that the kernel program's first two regions carry; started from memories that agree on the arguments, the buffers
  therefore hold equal contents.  Each equation reduces both reads to the composed term of the launch contents.
-/
import proofs.«412919_j56298431316644_2_alg».proof.Proof.KNames
import proofs.«412919_j56298431316644_2_alg».proof.Proof.RNames
import proofs.«412919_j56298431316644_2_alg».proof.Proof.KMid1

set_option maxRecDepth 16384

noncomputable section

namespace Cert.Cross2A

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The kernel program's side: what the second layer's host operations read at the first layer's exit is the launch memory's -/

set_option maxHeartbeats 40000000 in
/-- No host operation before the first region writes this argument, and both regions of the first layer carry it. -/
theorem K_arg12 : Cert.KernelIdeal.Gen.W14 m ρ c (Proc.devRef .tc Cert.KernelIdeal.main_arg12) = Cert.KernelIdeal.Gen.W0 m ρ c (Proc.devRef .tc Cert.KernelIdeal.main_arg12) := by
  rw [Cert.KernelIdeal.KM1.W14_keep_of_mem m ρ c Cert.KernelIdeal.main_arg12 (by decide)]
  dsimp only [Cert.KernelIdeal.Gen.W11, Cert.KernelIdeal.Gen.hostOps0_10]
  after_results_simp

/-! ## The equations -/

/- The two launch memories agree on the fifteen arguments. -/
variable (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
include hag

set_option maxHeartbeats 40000000 in
/-- The target node of every in-edge. -/
theorem dstIn2_eq : Cert.ReferenceIdeal.RN.dstIn2 m' c = Cert.KernelIdeal.KN.dstIn2 m ρ c := by
  obtain ⟨h0, h1, h2, h3, h4, h5, h6, h7, h8, h9, h10, h11, h12, h13, h14⟩ := hag
  have e12 : Cert.ReferenceIdeal.RRun.R0 m' c (Proc.devRef .tc Cert.ReferenceIdeal.main_arg12) = Cert.KernelIdeal.Gen.W0 m ρ c (Proc.devRef .tc Cert.KernelIdeal.main_arg12) := h12
  dsimp only [Cert.ReferenceIdeal.RN.dstIn2, Cert.KernelIdeal.KN.dstIn2]
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  dsimp only [Cert.ReferenceIdeal.RRun.R4, Cert.ReferenceIdeal.RRun.ops_p3, Cert.KernelIdeal.Gen.W25, Cert.KernelIdeal.Gen.hostOps2_10]
  after_results_simp
  rw [K_arg12 m ρ c]
  rw [e12]
  all_goals rfl

set_option maxHeartbeats 40000000 in
/-- The normalisation of every in-edge. -/
theorem nuIn2_eq : Cert.ReferenceIdeal.RN.nuIn2 m' c = Cert.KernelIdeal.KN.nuIn2 m ρ c := by
  obtain ⟨h0, h1, h2, h3, h4, h5, h6, h7, h8, h9, h10, h11, h12, h13, h14⟩ := hag
  have e12 : Cert.ReferenceIdeal.RRun.R0 m' c (Proc.devRef .tc Cert.ReferenceIdeal.main_arg12) = Cert.KernelIdeal.Gen.W0 m ρ c (Proc.devRef .tc Cert.KernelIdeal.main_arg12) := h12
  dsimp only [Cert.ReferenceIdeal.RN.nuIn2, Cert.KernelIdeal.KN.nuIn2]
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  dsimp only [Cert.ReferenceIdeal.RRun.R5, Cert.ReferenceIdeal.RRun.ops_p4, Cert.KernelIdeal.Gen.W25, Cert.KernelIdeal.Gen.hostOps2_10]
  after_results_simp
  rw [K_arg12 m ρ c]
  rw [e12]
  all_goals rfl

set_option maxHeartbeats 40000000 in
/-- The target node of every out-edge. -/
theorem dstOut2_eq : Cert.ReferenceIdeal.RN.dstOut2 m' c = Cert.KernelIdeal.KN.dstOut2 m ρ c := by
  obtain ⟨h0, h1, h2, h3, h4, h5, h6, h7, h8, h9, h10, h11, h12, h13, h14⟩ := hag
  have e12 : Cert.ReferenceIdeal.RRun.R0 m' c (Proc.devRef .tc Cert.ReferenceIdeal.main_arg12) = Cert.KernelIdeal.Gen.W0 m ρ c (Proc.devRef .tc Cert.KernelIdeal.main_arg12) := h12
  dsimp only [Cert.ReferenceIdeal.RN.dstOut2, Cert.KernelIdeal.KN.dstOut2]
  rw [Cert.ReferenceIdeal.RRun.R8, Cert.ReferenceIdeal.RRun.keep_p7 _ (by decide)]
  rw [Cert.ReferenceIdeal.RRun.R7, Cert.ReferenceIdeal.RRun.keep_p6 _ (by decide)]
  dsimp only [Cert.ReferenceIdeal.RRun.R6, Cert.ReferenceIdeal.RRun.ops_p5, Cert.KernelIdeal.Gen.W25, Cert.KernelIdeal.Gen.hostOps2_10]
  after_results_simp
  rw [K_arg12 m ρ c]
  rw [e12]
  all_goals rfl

set_option maxHeartbeats 40000000 in
/-- The normalisation of every out-edge. -/
theorem nuOut2_eq : Cert.ReferenceIdeal.RN.nuOut2 m' c = Cert.KernelIdeal.KN.nuOut2 m ρ c := by
  obtain ⟨h0, h1, h2, h3, h4, h5, h6, h7, h8, h9, h10, h11, h12, h13, h14⟩ := hag
  have e12 : Cert.ReferenceIdeal.RRun.R0 m' c (Proc.devRef .tc Cert.ReferenceIdeal.main_arg12) = Cert.KernelIdeal.Gen.W0 m ρ c (Proc.devRef .tc Cert.KernelIdeal.main_arg12) := h12
  dsimp only [Cert.ReferenceIdeal.RN.nuOut2, Cert.KernelIdeal.KN.nuOut2]
  rw [Cert.ReferenceIdeal.RRun.R8, Cert.ReferenceIdeal.RRun.keep_p7 _ (by decide)]
  dsimp only [Cert.ReferenceIdeal.RRun.R7, Cert.ReferenceIdeal.RRun.ops_p6, Cert.KernelIdeal.Gen.W25, Cert.KernelIdeal.Gen.hostOps2_10]
  after_results_simp
  rw [K_arg12 m ρ c]
  rw [e12]
  all_goals rfl

end Cert.Cross2A

end
-- ==== Proof.Cross2B.lean ====
/-
  The second layer's relation table and weight matrices agree across the two idealized programs.  The relation table
  is, in both programs, the first layer's table multiplied by a weight matrix, its relation rows kept and the
  second layer's self-loop row appended; the first layer's table is the concatenation of two arguments.  The weight
  matrices are arguments.  No operation writes an argument and the kernel program's first two regions carry what the
  second layer reads, so from memories that agree on the arguments the buffers hold equal contents.
-/
import proofs.«412919_j56298431316644_2_alg».proof.Proof.KNames
import proofs.«412919_j56298431316644_2_alg».proof.Proof.RNames
import proofs.«412919_j56298431316644_2_alg».proof.Proof.KMid1

set_option maxRecDepth 16384

noncomputable section

namespace Cert.Cross2B

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The kernel program's side: what the second layer's host operations read at the first layer's exit is the launch memory's -/

set_option maxHeartbeats 40000000 in
/-- No host operation before the first region writes this argument, and both regions of the first layer carry it. -/
theorem K_arg5 : Cert.KernelIdeal.Gen.W14 m ρ c (Proc.devRef .tc Cert.KernelIdeal.main_arg5) = Cert.KernelIdeal.Gen.W0 m ρ c (Proc.devRef .tc Cert.KernelIdeal.main_arg5) := by
  rw [Cert.KernelIdeal.KM1.W14_keep_of_mem m ρ c Cert.KernelIdeal.main_arg5 (by decide)]
  dsimp only [Cert.KernelIdeal.Gen.W11, Cert.KernelIdeal.Gen.hostOps0_10]
  after_results_simp

set_option maxHeartbeats 40000000 in
/-- No host operation before the first region writes this argument, and both regions of the first layer carry it. -/
theorem K_arg7 : Cert.KernelIdeal.Gen.W14 m ρ c (Proc.devRef .tc Cert.KernelIdeal.main_arg7) = Cert.KernelIdeal.Gen.W0 m ρ c (Proc.devRef .tc Cert.KernelIdeal.main_arg7) := by
  rw [Cert.KernelIdeal.KM1.W14_keep_of_mem m ρ c Cert.KernelIdeal.main_arg7 (by decide)]
  dsimp only [Cert.KernelIdeal.Gen.W11, Cert.KernelIdeal.Gen.hostOps0_10]
  after_results_simp

set_option maxHeartbeats 40000000 in
/-- No host operation before the first region writes this argument, and both regions of the first layer carry it. -/
theorem K_arg8 : Cert.KernelIdeal.Gen.W14 m ρ c (Proc.devRef .tc Cert.KernelIdeal.main_arg8) = Cert.KernelIdeal.Gen.W0 m ρ c (Proc.devRef .tc Cert.KernelIdeal.main_arg8) := by
  rw [Cert.KernelIdeal.KM1.W14_keep_of_mem m ρ c Cert.KernelIdeal.main_arg8 (by decide)]
  dsimp only [Cert.KernelIdeal.Gen.W11, Cert.KernelIdeal.Gen.hostOps0_10]
  after_results_simp

set_option maxHeartbeats 40000000 in
/-- No host operation before the first region writes this argument, and both regions of the first layer carry it. -/
theorem K_arg9 : Cert.KernelIdeal.Gen.W14 m ρ c (Proc.devRef .tc Cert.KernelIdeal.main_arg9) = Cert.KernelIdeal.Gen.W0 m ρ c (Proc.devRef .tc Cert.KernelIdeal.main_arg9) := by
  rw [Cert.KernelIdeal.KM1.W14_keep_of_mem m ρ c Cert.KernelIdeal.main_arg9 (by decide)]
  dsimp only [Cert.KernelIdeal.Gen.W11, Cert.KernelIdeal.Gen.hostOps0_10]
  after_results_simp

set_option maxHeartbeats 40000000 in
/-- No host operation before the first region writes this argument, and both regions of the first layer carry it. -/
theorem K_arg11 : Cert.KernelIdeal.Gen.W14 m ρ c (Proc.devRef .tc Cert.KernelIdeal.main_arg11) = Cert.KernelIdeal.Gen.W0 m ρ c (Proc.devRef .tc Cert.KernelIdeal.main_arg11) := by
  rw [Cert.KernelIdeal.KM1.W14_keep_of_mem m ρ c Cert.KernelIdeal.main_arg11 (by decide)]
  dsimp only [Cert.KernelIdeal.Gen.W11, Cert.KernelIdeal.Gen.hostOps0_10]
  after_results_simp

set_option maxHeartbeats 40000000 in
/-- The first layer's relation table, carried across the first layer's two regions, is the concatenation of two arguments. -/
theorem K_v0 : Cert.KernelIdeal.Gen.W14 m ρ c (Proc.devRef .tc Cert.KernelIdeal.main_v0)
    = concatenate Cert.KernelIdeal.S401x200 0 [⟨Cert.KernelIdeal.S400x200, Cert.KernelIdeal.Gen.W0 m ρ c (Proc.devRef .tc Cert.KernelIdeal.main_arg1)⟩, ⟨Cert.KernelIdeal.S1x200, Cert.KernelIdeal.Gen.W0 m ρ c (Proc.devRef .tc Cert.KernelIdeal.main_arg6)⟩] Cert.KernelIdeal.Gen.concatenates_S400x200_S1x200_S401x200_d0 := by
  rw [Cert.KernelIdeal.KM1.W14_keep_of_mem m ρ c Cert.KernelIdeal.main_v0 (by decide)]
  dsimp only [Cert.KernelIdeal.Gen.W11, Cert.KernelIdeal.Gen.hostOps0_10]
  after_results_simp

/-! ## A concatenation of two pieces with the pieces as plain arguments -/

/-- The concatenation of two arrays along an axis, the two arrays as plain arguments (in the list-of-pieces form a
    simplification pass does not reach the pieces). -/
def concat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concat2 t a s₁ s₂ h x₁ x₂ := rfl

/-- One pass that rewrites each operation's result at its own buffer to its function's value and at any other buffer to
    what was there, reaching into the two pieces of a concatenation. -/
local macro "results_simp" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_pair]))

/-! ## The equations -/

/- The two launch memories agree on the fifteen arguments. -/
variable (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
include hag

set_option maxHeartbeats 40000000 in
/-- The second layer's relation table with its self-loop row appended. -/
theorem rel2_eq : Cert.ReferenceIdeal.RN.rel2 m' c = Cert.KernelIdeal.KN.rel2 m ρ c := by
  obtain ⟨h0, h1, h2, h3, h4, h5, h6, h7, h8, h9, h10, h11, h12, h13, h14⟩ := hag
  have e1 : Cert.ReferenceIdeal.RRun.R0 m' c (Proc.devRef .tc Cert.ReferenceIdeal.main_arg1) = Cert.KernelIdeal.Gen.W0 m ρ c (Proc.devRef .tc Cert.KernelIdeal.main_arg1) := h1
  have e6 : Cert.ReferenceIdeal.RRun.R0 m' c (Proc.devRef .tc Cert.ReferenceIdeal.main_arg6) = Cert.KernelIdeal.Gen.W0 m ρ c (Proc.devRef .tc Cert.KernelIdeal.main_arg6) := h6
  have e5 : Cert.ReferenceIdeal.RRun.R0 m' c (Proc.devRef .tc Cert.ReferenceIdeal.main_arg5) = Cert.KernelIdeal.Gen.W0 m ρ c (Proc.devRef .tc Cert.KernelIdeal.main_arg5) := h5
  have e11 : Cert.ReferenceIdeal.RRun.R0 m' c (Proc.devRef .tc Cert.ReferenceIdeal.main_arg11) = Cert.KernelIdeal.Gen.W0 m ρ c (Proc.devRef .tc Cert.KernelIdeal.main_arg11) := h11
  dsimp only [Cert.ReferenceIdeal.RN.rel2, Cert.KernelIdeal.KN.rel2]
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  rw [Cert.ReferenceIdeal.RRun.R5, Cert.ReferenceIdeal.RRun.keep_p4 _ (by decide)]
  dsimp only [Cert.ReferenceIdeal.RRun.R4, Cert.ReferenceIdeal.RRun.ops_p3, Cert.KernelIdeal.Gen.W25, Cert.KernelIdeal.Gen.hostOps2_10]
  results_simp
  rw [K_v0 m ρ c, K_arg5 m ρ c, K_arg11 m ρ c]
  rw [e1, e6, e5, e11]
  all_goals rfl

set_option maxHeartbeats 40000000 in
/-- The in-edge weight matrix is the launched argument on both sides. -/
theorem wIn2_eq : Cert.ReferenceIdeal.RN.wIn2 m' c = Cert.KernelIdeal.KN.wIn2 m ρ c := by
  obtain ⟨h0, h1, h2, h3, h4, h5, h6, h7, h8, h9, h10, h11, h12, h13, h14⟩ := hag
  dsimp only [Cert.ReferenceIdeal.RN.wIn2, Cert.KernelIdeal.KN.wIn2]
  rw [Cert.ReferenceIdeal.RRun.R8_keep m' c (r := Cert.ReferenceIdeal.main_arg7) (by decide) (by decide) (by decide) (by decide) (by decide) (by decide) (by decide) (by decide)]
  dsimp only [Cert.KernelIdeal.Gen.W25, Cert.KernelIdeal.Gen.hostOps2_10]
  after_results_simp
  rw [K_arg7 m ρ c]
  exact h7

set_option maxHeartbeats 40000000 in
/-- The out-edge weight matrix is the launched argument on both sides. -/
theorem wOut2_eq : Cert.ReferenceIdeal.RN.wOut2 m' c = Cert.KernelIdeal.KN.wOut2 m ρ c := by
  obtain ⟨h0, h1, h2, h3, h4, h5, h6, h7, h8, h9, h10, h11, h12, h13, h14⟩ := hag
  dsimp only [Cert.ReferenceIdeal.RN.wOut2, Cert.KernelIdeal.KN.wOut2]
  rw [Cert.ReferenceIdeal.RRun.R8_keep m' c (r := Cert.ReferenceIdeal.main_arg8) (by decide) (by decide) (by decide) (by decide) (by decide) (by decide) (by decide) (by decide)]
  dsimp only [Cert.KernelIdeal.Gen.W25, Cert.KernelIdeal.Gen.hostOps2_10]
  after_results_simp
  rw [K_arg8 m ρ c]
  exact h8

set_option maxHeartbeats 40000000 in
/-- The self-loop weight matrix is the launched argument on both sides. -/
theorem wLoop2_eq : Cert.ReferenceIdeal.RN.wLoop2 m' c = Cert.KernelIdeal.KN.wLoop2 m ρ c := by
  obtain ⟨h0, h1, h2, h3, h4, h5, h6, h7, h8, h9, h10, h11, h12, h13, h14⟩ := hag
  dsimp only [Cert.ReferenceIdeal.RN.wLoop2, Cert.KernelIdeal.KN.wLoop2]
  rw [Cert.ReferenceIdeal.RRun.R8_keep m' c (r := Cert.ReferenceIdeal.main_arg9) (by decide) (by decide) (by decide) (by decide) (by decide) (by decide) (by decide) (by decide)]
  dsimp only [Cert.KernelIdeal.Gen.W25, Cert.KernelIdeal.Gen.hostOps2_10]
  after_results_simp
  rw [K_arg9 m ρ c]
  exact h9

end Cert.Cross2B

end
-- ==== Proof.Cross2C.lean ====
/-
  The second layer's gathered rows of the in-edges agree across the two idealized programs.  The rows of the layer's
  input are a gather of the first layer's output at an index array computed from the edge array; the rows of the
  relation table are a gather of the second layer's table at an index array computed from the edge types.  Each
  program's read is reduced one stage, to that gather; the operand is replaced by the equation of the first layer's
  outputs (of the tables), the index array by the equation of the index arrays, which reduces both to the composed
  term of the launch contents, and the two gathers coincide.
-/
import proofs.«412919_j56298431316644_2_alg».proof.Proof.KNames
import proofs.«412919_j56298431316644_2_alg».proof.Proof.RNames
import proofs.«412919_j56298431316644_2_alg».proof.Proof.KMid1

set_option maxRecDepth 16384
set_option Elab.async false

noncomputable section

namespace Cert.Cross2C

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The kernel program's side: what the second layer's host operations read at the first layer's exit is the launch memory's -/

set_option maxHeartbeats 40000000 in
/-- No host operation before the first region writes this argument, and both regions of the first layer carry it. -/
theorem K_arg12 : Cert.KernelIdeal.Gen.W14 m ρ c (Proc.devRef .tc Cert.KernelIdeal.main_arg12) = Cert.KernelIdeal.Gen.W0 m ρ c (Proc.devRef .tc Cert.KernelIdeal.main_arg12) := by
  rw [Cert.KernelIdeal.KM1.W14_keep_of_mem m ρ c Cert.KernelIdeal.main_arg12 (by decide)]
  dsimp only [Cert.KernelIdeal.Gen.W11, Cert.KernelIdeal.Gen.hostOps0_10]
  after_results_simp

set_option maxHeartbeats 40000000 in
/-- No host operation before the first region writes this argument, and both regions of the first layer carry it. -/
theorem K_arg13 : Cert.KernelIdeal.Gen.W14 m ρ c (Proc.devRef .tc Cert.KernelIdeal.main_arg13) = Cert.KernelIdeal.Gen.W0 m ρ c (Proc.devRef .tc Cert.KernelIdeal.main_arg13) := by
  rw [Cert.KernelIdeal.KM1.W14_keep_of_mem m ρ c Cert.KernelIdeal.main_arg13 (by decide)]
  dsimp only [Cert.KernelIdeal.Gen.W11, Cert.KernelIdeal.Gen.hostOps0_10]
  after_results_simp

/-! ## The index arrays, and each gathered array as one gather in the reference program -/

/-- The source-node index array of the in-edges, as a column, in the reference program. -/
abbrev srcIn2R : IVec Cert.ReferenceIdeal.S400000x1 32 := Cert.ReferenceIdeal.RRun.R8 m' c (Proc.devRef .tc Cert.ReferenceIdeal.main_v220)
/-- The same array in the kernel program. -/
abbrev srcIn2K : IVec Cert.KernelIdeal.S400000x1 32 := Cert.KernelIdeal.Gen.W25 m ρ c (Proc.devRef .tc Cert.KernelIdeal.main_call7_v5)
/-- The edge-type index array of the in-edges, as a column, in the reference program. -/
abbrev typIn2R : IVec Cert.ReferenceIdeal.S400000x1 32 := Cert.ReferenceIdeal.RRun.R8 m' c (Proc.devRef .tc Cert.ReferenceIdeal.main_v227)
/-- The same array in the kernel program. -/
abbrev typIn2K : IVec Cert.KernelIdeal.S400000x1 32 := Cert.KernelIdeal.Gen.W25 m ρ c (Proc.devRef .tc Cert.KernelIdeal.main_call8_v5)

/-- A buffer that the windows from the sixth on do not write is read at that window's entry. -/
theorem R8_at5 {r : Ref Cert.ReferenceIdeal.sig .tc} (h5 : r ∉ Cert.ReferenceIdeal.RRun.W5) (h6 : r ∉ Cert.ReferenceIdeal.RRun.W6) (h7 : r ∉ Cert.ReferenceIdeal.RRun.W7) :
    Cert.ReferenceIdeal.RRun.R8 m' c (Proc.devRef .tc r) = Cert.ReferenceIdeal.RRun.R5 m' c (Proc.devRef .tc r) :=
  (Cert.ReferenceIdeal.RRun.keep_p7 (Cert.ReferenceIdeal.RRun.R7 m' c) h7).trans ((Cert.ReferenceIdeal.RRun.keep_p6 (Cert.ReferenceIdeal.RRun.R6 m' c) h6).trans (Cert.ReferenceIdeal.RRun.keep_p5 (Cert.ReferenceIdeal.RRun.R5 m' c) h5))

/-- A buffer that the windows from the fifth on do not write is read at that window's entry. -/
theorem R8_at4 {r : Ref Cert.ReferenceIdeal.sig .tc} (h4 : r ∉ Cert.ReferenceIdeal.RRun.W4) (h5 : r ∉ Cert.ReferenceIdeal.RRun.W5) (h6 : r ∉ Cert.ReferenceIdeal.RRun.W6) (h7 : r ∉ Cert.ReferenceIdeal.RRun.W7) :
    Cert.ReferenceIdeal.RRun.R8 m' c (Proc.devRef .tc r) = Cert.ReferenceIdeal.RRun.R4 m' c (Proc.devRef .tc r) :=
  (Cert.ReferenceIdeal.RRun.keep_p7 (Cert.ReferenceIdeal.RRun.R7 m' c) h7).trans ((Cert.ReferenceIdeal.RRun.keep_p6 (Cert.ReferenceIdeal.RRun.R6 m' c) h6).trans ((Cert.ReferenceIdeal.RRun.keep_p5 (Cert.ReferenceIdeal.RRun.R5 m' c) h5).trans (Cert.ReferenceIdeal.RRun.keep_p4 (Cert.ReferenceIdeal.RRun.R4 m' c) h4)))

set_option maxHeartbeats 40000000 in
/-- In the reference program the gathered rows of the layer's input are the gather of the first layer's output at the source index array. -/
theorem xsIn2_stage : Cert.ReferenceIdeal.RN.xsIn2 m' c
    = Host.gather Cert.ReferenceIdeal.gather_S100000x200_S400000x1_S400000x200_1_0_n_n_0_1_1200 (Cert.ReferenceIdeal.RN.x1out m' c) (srcIn2R m' c) := by
  dsimp only [Cert.ReferenceIdeal.RN.xsIn2, Cert.ReferenceIdeal.RN.x1out, srcIn2R]
  rw [R8_at5 m' c (r := Cert.ReferenceIdeal.main_v221) (by decide) (by decide) (by decide),
    R8_at5 m' c (r := Cert.ReferenceIdeal.main_v220) (by decide) (by decide) (by decide),
    R8_at4 m' c (r := Cert.ReferenceIdeal.main_v164) (by decide) (by decide) (by decide) (by decide)]
  dsimp only [Cert.ReferenceIdeal.RRun.R5, Cert.ReferenceIdeal.RRun.ops_p4]
  generalize Cert.ReferenceIdeal.RRun.R4 m' c = V
  after_results_simp

set_option maxHeartbeats 40000000 in
/-- In the reference program the gathered rows of the relation table are the gather of the second layer's table at the type index array. -/
theorem rsIn2_stage : Cert.ReferenceIdeal.RN.rsIn2 m' c
    = Host.gather Cert.ReferenceIdeal.gather_S401x200_S400000x1_S400000x200_1_0_n_n_0_1_1200 (Cert.ReferenceIdeal.RN.rel2 m' c) (typIn2R m' c) := by
  dsimp only [Cert.ReferenceIdeal.RN.rsIn2, Cert.ReferenceIdeal.RN.rel2, typIn2R]
  rw [R8_at5 m' c (r := Cert.ReferenceIdeal.main_v228) (by decide) (by decide) (by decide),
    R8_at5 m' c (r := Cert.ReferenceIdeal.main_v227) (by decide) (by decide) (by decide),
    R8_at4 m' c (r := Cert.ReferenceIdeal.main_v167) (by decide) (by decide) (by decide) (by decide)]
  dsimp only [Cert.ReferenceIdeal.RRun.R5, Cert.ReferenceIdeal.RRun.ops_p4]
  generalize Cert.ReferenceIdeal.RRun.R4 m' c = V
  after_results_simp

/-! ## Each gathered array as one gather in the kernel program -/

set_option maxHeartbeats 40000000 in
/-- In the kernel program the gathered rows of the layer's input are the gather of the first layer's output at the
    source index array: the contents at the first layer's exit enter only as an unknown. -/
theorem xsIn2K_stage : Cert.KernelIdeal.KN.xsIn2 m ρ c
    = Host.gather Cert.KernelIdeal.gather_S100000x200_S400000x1_S400000x200_1_0_n_n_0_1_1200 (Cert.KernelIdeal.KN.x1out m ρ c) (srcIn2K m ρ c) := by
  dsimp only [Cert.KernelIdeal.KN.xsIn2, Cert.KernelIdeal.KN.x1out, srcIn2K, Cert.KernelIdeal.Gen.W25, Cert.KernelIdeal.Gen.W24, Cert.KernelIdeal.Gen.W23, Cert.KernelIdeal.Gen.W22, Cert.KernelIdeal.Gen.W21, Cert.KernelIdeal.Gen.W20, Cert.KernelIdeal.Gen.W19, Cert.KernelIdeal.Gen.W18, Cert.KernelIdeal.Gen.W17, Cert.KernelIdeal.Gen.W16, Cert.KernelIdeal.Gen.W15]
  generalize Cert.KernelIdeal.Gen.W14 m ρ c = Z
  after_results_simp
  simp only [cast_cast, cast_eq]

set_option maxHeartbeats 40000000 in
/-- In the kernel program the gathered rows of the relation table are the gather of the second layer's table at the
    type index array. -/
theorem rsIn2K_stage : Cert.KernelIdeal.KN.rsIn2 m ρ c
    = Host.gather Cert.KernelIdeal.gather_S401x200_S400000x1_S400000x200_1_0_n_n_0_1_1200 (Cert.KernelIdeal.KN.rel2 m ρ c) (typIn2K m ρ c) := by
  dsimp only [Cert.KernelIdeal.KN.rsIn2, Cert.KernelIdeal.KN.rel2, typIn2K, Cert.KernelIdeal.Gen.W25, Cert.KernelIdeal.Gen.W24, Cert.KernelIdeal.Gen.W23, Cert.KernelIdeal.Gen.W22, Cert.KernelIdeal.Gen.W21, Cert.KernelIdeal.Gen.W20, Cert.KernelIdeal.Gen.W19, Cert.KernelIdeal.Gen.W18, Cert.KernelIdeal.Gen.W17, Cert.KernelIdeal.Gen.W16, Cert.KernelIdeal.Gen.W15]
  generalize Cert.KernelIdeal.Gen.W14 m ρ c = Z
  after_results_simp
  simp only [cast_cast, cast_eq]

/-- The two programs' row gathers of a 100000-row array are the same function: their dimension records hold the same
    literals. -/
theorem gatherX_same (X : Vec Ideal Cert.KernelIdeal.S100000x200 .f32) (I : IVec Cert.KernelIdeal.S400000x1 32) :
    (Host.gather Cert.ReferenceIdeal.gather_S100000x200_S400000x1_S400000x200_1_0_n_n_0_1_1200 X I : Vec Ideal Cert.ReferenceIdeal.S400000x200 .f32) = Host.gather Cert.KernelIdeal.gather_S100000x200_S400000x1_S400000x200_1_0_n_n_0_1_1200 X I := rfl

/-- The two programs' row gathers of a 401-row table are the same function. -/
theorem gatherR_same (X : Vec Ideal Cert.KernelIdeal.S401x200 .f32) (I : IVec Cert.KernelIdeal.S400000x1 32) :
    (Host.gather Cert.ReferenceIdeal.gather_S401x200_S400000x1_S400000x200_1_0_n_n_0_1_1200 X I : Vec Ideal Cert.ReferenceIdeal.S400000x200 .f32) = Host.gather Cert.KernelIdeal.gather_S401x200_S400000x1_S400000x200_1_0_n_n_0_1_1200 X I := rfl

/-! ## The equations -/

/- The two launch memories agree on the fifteen arguments. -/
variable (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
include hag

set_option maxHeartbeats 40000000 in
/-- The source-node index arrays agree: both are the same host operations of the edge array. -/
theorem srcIn2_eq : srcIn2R m' c = srcIn2K m ρ c := by
  obtain ⟨h0, h1, h2, h3, h4, h5, h6, h7, h8, h9, h10, h11, h12, h13, h14⟩ := hag
  have e12 : Cert.ReferenceIdeal.RRun.R0 m' c (Proc.devRef .tc Cert.ReferenceIdeal.main_arg12) = Cert.KernelIdeal.Gen.W0 m ρ c (Proc.devRef .tc Cert.KernelIdeal.main_arg12) := h12
  dsimp only [srcIn2R, srcIn2K]
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  dsimp only [Cert.ReferenceIdeal.RRun.R5, Cert.ReferenceIdeal.RRun.ops_p4, Cert.KernelIdeal.Gen.W25, Cert.KernelIdeal.Gen.hostOps2_10]
  after_results_simp
  rw [K_arg12 m ρ c]
  rw [e12]
  all_goals rfl

set_option maxHeartbeats 40000000 in
/-- The edge-type index arrays agree: both are the same host operations of the edge-type array. -/
theorem typIn2_eq : typIn2R m' c = typIn2K m ρ c := by
  obtain ⟨h0, h1, h2, h3, h4, h5, h6, h7, h8, h9, h10, h11, h12, h13, h14⟩ := hag
  have e13 : Cert.ReferenceIdeal.RRun.R0 m' c (Proc.devRef .tc Cert.ReferenceIdeal.main_arg13) = Cert.KernelIdeal.Gen.W0 m ρ c (Proc.devRef .tc Cert.KernelIdeal.main_arg13) := h13
  dsimp only [typIn2R, typIn2K]
  rw [Cert.ReferenceIdeal.RRun.R8, Cert.ReferenceIdeal.RRun.keep_p7 _ (by decide)]
  rw [Cert.ReferenceIdeal.RRun.R7, Cert.ReferenceIdeal.RRun.keep_p6 _ (by decide)]
  rw [Cert.ReferenceIdeal.RRun.R6, Cert.ReferenceIdeal.RRun.keep_p5 _ (by decide)]
  dsimp only [Cert.ReferenceIdeal.RRun.R5, Cert.ReferenceIdeal.RRun.ops_p4, Cert.KernelIdeal.Gen.W25, Cert.KernelIdeal.Gen.hostOps2_10]
  after_results_simp
  rw [K_arg13 m ρ c]
  rw [e13]
  all_goals rfl

/-- The rows of the first layer's output gathered by the in-edges' source nodes, given that the first layer's
    outputs agree. -/
theorem xsIn2_eq (hx1 : Cert.ReferenceIdeal.RN.x1out m' c = Cert.KernelIdeal.KN.x1out m ρ c) : Cert.ReferenceIdeal.RN.xsIn2 m' c = Cert.KernelIdeal.KN.xsIn2 m ρ c := by
  rw [xsIn2_stage m' c, hx1, srcIn2_eq m ρ m' c hag, xsIn2K_stage m ρ c]
  exact gatherX_same _ _

/-- The rows of the second layer's relation table gathered by the in-edges' types, given that the two programs'
    tables agree. -/
theorem rsIn2_eq (hrel2 : Cert.ReferenceIdeal.RN.rel2 m' c = Cert.KernelIdeal.KN.rel2 m ρ c) : Cert.ReferenceIdeal.RN.rsIn2 m' c = Cert.KernelIdeal.KN.rsIn2 m ρ c := by
  rw [rsIn2_stage m' c, hrel2, typIn2_eq m ρ m' c hag, rsIn2K_stage m ρ c]
  exact gatherR_same _ _

end Cert.Cross2C

end
-- ==== Proof.Cross2D.lean ====
/-
  The second layer's gathered rows of the out-edges agree across the two idealized programs.  The rows of the layer's
  input are a gather of the first layer's output at an index array computed from the edge array; the rows of the
  relation table are a gather of the second layer's table at an index array computed from the edge types.  Each
  program's read is reduced one stage, to that gather, the contents below the stage entering only as an unknown; the
  operand is replaced by the equation of the first layer's outputs (of the tables), the index array by the equation of
  the index arrays, which reduces both to the composed term of the launch contents, and the two gathers are the same
  function, their dimension records holding the same literals.
-/
import proofs.«412919_j56298431316644_2_alg».proof.Proof.KNames
import proofs.«412919_j56298431316644_2_alg».proof.Proof.RNames
import proofs.«412919_j56298431316644_2_alg».proof.Proof.KMid1

set_option maxRecDepth 16384
set_option Elab.async false

noncomputable section

namespace Cert.Cross2D

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The kernel program's side: what the second layer's host operations read at the first layer's exit is the launch memory's -/

set_option maxHeartbeats 40000000 in
/-- No host operation before the first region writes this argument, and both regions of the first layer carry it. -/
theorem K_arg12 : Cert.KernelIdeal.Gen.W14 m ρ c (Proc.devRef .tc Cert.KernelIdeal.main_arg12) = Cert.KernelIdeal.Gen.W0 m ρ c (Proc.devRef .tc Cert.KernelIdeal.main_arg12) := by
  rw [Cert.KernelIdeal.KM1.W14_keep_of_mem m ρ c Cert.KernelIdeal.main_arg12 (by decide)]
  dsimp only [Cert.KernelIdeal.Gen.W11, Cert.KernelIdeal.Gen.hostOps0_10]
  after_results_simp

set_option maxHeartbeats 40000000 in
/-- No host operation before the first region writes this argument, and both regions of the first layer carry it. -/
theorem K_arg13 : Cert.KernelIdeal.Gen.W14 m ρ c (Proc.devRef .tc Cert.KernelIdeal.main_arg13) = Cert.KernelIdeal.Gen.W0 m ρ c (Proc.devRef .tc Cert.KernelIdeal.main_arg13) := by
  rw [Cert.KernelIdeal.KM1.W14_keep_of_mem m ρ c Cert.KernelIdeal.main_arg13 (by decide)]
  dsimp only [Cert.KernelIdeal.Gen.W11, Cert.KernelIdeal.Gen.hostOps0_10]
  after_results_simp

/-! ## The index arrays, and each gathered array as one gather in the reference program -/

/-- The source-node index array of the out-edges, as a column, in the reference program. -/
abbrev srcOut2R : IVec Cert.ReferenceIdeal.S400000x1 32 := Cert.ReferenceIdeal.RRun.R8 m' c (Proc.devRef .tc Cert.ReferenceIdeal.main_v285)
/-- The same array in the kernel program. -/
abbrev srcOut2K : IVec Cert.KernelIdeal.S400000x1 32 := Cert.KernelIdeal.Gen.W25 m ρ c (Proc.devRef .tc Cert.KernelIdeal.main_call10_v5)
/-- The edge-type index array of the out-edges, as a column, in the reference program. -/
abbrev typOut2R : IVec Cert.ReferenceIdeal.S400000x1 32 := Cert.ReferenceIdeal.RRun.R8 m' c (Proc.devRef .tc Cert.ReferenceIdeal.main_v292)
/-- The same array in the kernel program. -/
abbrev typOut2K : IVec Cert.KernelIdeal.S400000x1 32 := Cert.KernelIdeal.Gen.W25 m ρ c (Proc.devRef .tc Cert.KernelIdeal.main_call11_v5)

/-- A buffer that the windows from the eighth on do not write is read at that window's entry. -/
theorem R8_at7 {r : Ref Cert.ReferenceIdeal.sig .tc} (h7 : r ∉ Cert.ReferenceIdeal.RRun.W7) :
    Cert.ReferenceIdeal.RRun.R8 m' c (Proc.devRef .tc r) = Cert.ReferenceIdeal.RRun.R7 m' c (Proc.devRef .tc r) :=
  Cert.ReferenceIdeal.RRun.keep_p7 (Cert.ReferenceIdeal.RRun.R7 m' c) h7

/-- A buffer that the windows from the seventh on do not write is read at that window's entry. -/
theorem R8_at6 {r : Ref Cert.ReferenceIdeal.sig .tc} (h6 : r ∉ Cert.ReferenceIdeal.RRun.W6) (h7 : r ∉ Cert.ReferenceIdeal.RRun.W7) :
    Cert.ReferenceIdeal.RRun.R8 m' c (Proc.devRef .tc r) = Cert.ReferenceIdeal.RRun.R6 m' c (Proc.devRef .tc r) :=
  (Cert.ReferenceIdeal.RRun.keep_p7 (Cert.ReferenceIdeal.RRun.R7 m' c) h7).trans (Cert.ReferenceIdeal.RRun.keep_p6 (Cert.ReferenceIdeal.RRun.R6 m' c) h6)

set_option maxHeartbeats 40000000 in
/-- In the reference program the gathered rows of the layer's input are the gather of the first layer's output at the source index array. -/
theorem xsOut2_stage : Cert.ReferenceIdeal.RN.xsOut2 m' c
    = Host.gather Cert.ReferenceIdeal.gather_S100000x200_S400000x1_S400000x200_1_0_n_n_0_1_1200 (Cert.ReferenceIdeal.RN.x1out m' c) (srcOut2R m' c) := by
  dsimp only [Cert.ReferenceIdeal.RN.xsOut2, Cert.ReferenceIdeal.RN.x1out, srcOut2R]
  rw [R8_at7 m' c (r := Cert.ReferenceIdeal.main_v286) (by decide),
    R8_at7 m' c (r := Cert.ReferenceIdeal.main_v285) (by decide),
    R8_at6 m' c (r := Cert.ReferenceIdeal.main_v164) (by decide) (by decide)]
  dsimp only [Cert.ReferenceIdeal.RRun.R7, Cert.ReferenceIdeal.RRun.ops_p6]
  generalize Cert.ReferenceIdeal.RRun.R6 m' c = V
  after_results_simp

set_option maxHeartbeats 40000000 in
/-- In the reference program the gathered rows of the relation table are the gather of the second layer's table at the type index array. -/
theorem rsOut2_stage : Cert.ReferenceIdeal.RN.rsOut2 m' c
    = Host.gather Cert.ReferenceIdeal.gather_S401x200_S400000x1_S400000x200_1_0_n_n_0_1_1200 (Cert.ReferenceIdeal.RN.rel2 m' c) (typOut2R m' c) := by
  dsimp only [Cert.ReferenceIdeal.RN.rsOut2, Cert.ReferenceIdeal.RN.rel2, typOut2R]
  rw [R8_at7 m' c (r := Cert.ReferenceIdeal.main_v293) (by decide),
    R8_at7 m' c (r := Cert.ReferenceIdeal.main_v292) (by decide),
    R8_at6 m' c (r := Cert.ReferenceIdeal.main_v167) (by decide) (by decide)]
  dsimp only [Cert.ReferenceIdeal.RRun.R7, Cert.ReferenceIdeal.RRun.ops_p6]
  generalize Cert.ReferenceIdeal.RRun.R6 m' c = V
  after_results_simp

/-! ## Each gathered array as one gather in the kernel program -/

set_option maxHeartbeats 40000000 in
/-- In the kernel program the gathered rows of the layer's input are the gather of the first layer's output at the
    source index array: the contents at the first layer's exit enter only as an unknown. -/
theorem xsOut2K_stage : Cert.KernelIdeal.KN.xsOut2 m ρ c
    = Host.gather Cert.KernelIdeal.gather_S100000x200_S400000x1_S400000x200_1_0_n_n_0_1_1200 (Cert.KernelIdeal.KN.x1out m ρ c) (srcOut2K m ρ c) := by
  dsimp only [Cert.KernelIdeal.KN.xsOut2, Cert.KernelIdeal.KN.x1out, srcOut2K, Cert.KernelIdeal.Gen.W25, Cert.KernelIdeal.Gen.W24, Cert.KernelIdeal.Gen.W23, Cert.KernelIdeal.Gen.W22, Cert.KernelIdeal.Gen.W21, Cert.KernelIdeal.Gen.W20, Cert.KernelIdeal.Gen.W19, Cert.KernelIdeal.Gen.W18, Cert.KernelIdeal.Gen.W17, Cert.KernelIdeal.Gen.W16, Cert.KernelIdeal.Gen.W15]
  generalize Cert.KernelIdeal.Gen.W14 m ρ c = Z
  after_results_simp
  simp only [cast_cast, cast_eq]

set_option maxHeartbeats 40000000 in
/-- In the kernel program the gathered rows of the relation table are the gather of the second layer's table at the
    type index array. -/
theorem rsOut2K_stage : Cert.KernelIdeal.KN.rsOut2 m ρ c
    = Host.gather Cert.KernelIdeal.gather_S401x200_S400000x1_S400000x200_1_0_n_n_0_1_1200 (Cert.KernelIdeal.KN.rel2 m ρ c) (typOut2K m ρ c) := by
  dsimp only [Cert.KernelIdeal.KN.rsOut2, Cert.KernelIdeal.KN.rel2, typOut2K, Cert.KernelIdeal.Gen.W25, Cert.KernelIdeal.Gen.W24, Cert.KernelIdeal.Gen.W23, Cert.KernelIdeal.Gen.W22, Cert.KernelIdeal.Gen.W21, Cert.KernelIdeal.Gen.W20, Cert.KernelIdeal.Gen.W19, Cert.KernelIdeal.Gen.W18, Cert.KernelIdeal.Gen.W17, Cert.KernelIdeal.Gen.W16, Cert.KernelIdeal.Gen.W15]
  generalize Cert.KernelIdeal.Gen.W14 m ρ c = Z
  after_results_simp
  simp only [cast_cast, cast_eq]

/-- The two programs' row gathers of a 100000-row array are the same function: their dimension records hold the same
    literals. -/
theorem gatherX_same (X : Vec Ideal Cert.KernelIdeal.S100000x200 .f32) (I : IVec Cert.KernelIdeal.S400000x1 32) :
    (Host.gather Cert.ReferenceIdeal.gather_S100000x200_S400000x1_S400000x200_1_0_n_n_0_1_1200 X I : Vec Ideal Cert.ReferenceIdeal.S400000x200 .f32) = Host.gather Cert.KernelIdeal.gather_S100000x200_S400000x1_S400000x200_1_0_n_n_0_1_1200 X I := rfl

/-- The two programs' row gathers of a 401-row table are the same function. -/
theorem gatherR_same (X : Vec Ideal Cert.KernelIdeal.S401x200 .f32) (I : IVec Cert.KernelIdeal.S400000x1 32) :
    (Host.gather Cert.ReferenceIdeal.gather_S401x200_S400000x1_S400000x200_1_0_n_n_0_1_1200 X I : Vec Ideal Cert.ReferenceIdeal.S400000x200 .f32) = Host.gather Cert.KernelIdeal.gather_S401x200_S400000x1_S400000x200_1_0_n_n_0_1_1200 X I := rfl

/-! ## The equations -/

/- The two launch memories agree on the fifteen arguments. -/
variable (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
include hag

set_option maxHeartbeats 40000000 in
/-- The source-node index arrays agree: both are the same host operations of the edge array. -/
theorem srcOut2_eq : srcOut2R m' c = srcOut2K m ρ c := by
  obtain ⟨h0, h1, h2, h3, h4, h5, h6, h7, h8, h9, h10, h11, h12, h13, h14⟩ := hag
  have e12 : Cert.ReferenceIdeal.RRun.R0 m' c (Proc.devRef .tc Cert.ReferenceIdeal.main_arg12) = Cert.KernelIdeal.Gen.W0 m ρ c (Proc.devRef .tc Cert.KernelIdeal.main_arg12) := h12
  dsimp only [srcOut2R, srcOut2K]
  rw [Cert.ReferenceIdeal.RRun.R8, Cert.ReferenceIdeal.RRun.keep_p7 _ (by decide)]
  dsimp only [Cert.ReferenceIdeal.RRun.R7, Cert.ReferenceIdeal.RRun.ops_p6, Cert.KernelIdeal.Gen.W25, Cert.KernelIdeal.Gen.hostOps2_10]
  after_results_simp
  rw [K_arg12 m ρ c]
  rw [e12]
  all_goals rfl

set_option maxHeartbeats 40000000 in
/-- The edge-type index arrays agree: both are the same host operations of the edge-type array. -/
theorem typOut2_eq : typOut2R m' c = typOut2K m ρ c := by
  obtain ⟨h0, h1, h2, h3, h4, h5, h6, h7, h8, h9, h10, h11, h12, h13, h14⟩ := hag
  have e13 : Cert.ReferenceIdeal.RRun.R0 m' c (Proc.devRef .tc Cert.ReferenceIdeal.main_arg13) = Cert.KernelIdeal.Gen.W0 m ρ c (Proc.devRef .tc Cert.KernelIdeal.main_arg13) := h13
  dsimp only [typOut2R, typOut2K]
  rw [Cert.ReferenceIdeal.RRun.R8, Cert.ReferenceIdeal.RRun.keep_p7 _ (by decide)]
  dsimp only [Cert.ReferenceIdeal.RRun.R7, Cert.ReferenceIdeal.RRun.ops_p6, Cert.KernelIdeal.Gen.W25, Cert.KernelIdeal.Gen.hostOps2_10]
  after_results_simp
  rw [K_arg13 m ρ c]
  rw [e13]
  all_goals rfl

set_option maxHeartbeats 40000000 in
/-- The rows of the first layer's output gathered by the out-edges' source nodes, given that the first layer's
    outputs agree: each program's array is one gather, of equal operands at equal index arrays. -/
theorem xsOut2_eq (hx1 : Cert.ReferenceIdeal.RN.x1out m' c = Cert.KernelIdeal.KN.x1out m ρ c) : Cert.ReferenceIdeal.RN.xsOut2 m' c = Cert.KernelIdeal.KN.xsOut2 m ρ c := by
  rw [xsOut2_stage m' c, hx1, srcOut2_eq m ρ m' c hag, xsOut2K_stage m ρ c]
  exact gatherX_same _ _

set_option maxHeartbeats 40000000 in
/-- The rows of the second layer's relation table gathered by the out-edges' types, given that the two programs'
    tables agree. -/
theorem rsOut2_eq (hrel2 : Cert.ReferenceIdeal.RN.rel2 m' c = Cert.KernelIdeal.KN.rel2 m ρ c) : Cert.ReferenceIdeal.RN.rsOut2 m' c = Cert.KernelIdeal.KN.rsOut2 m ρ c := by
  rw [rsOut2_stage m' c, hrel2, typOut2_eq m ρ m' c hag, rsOut2K_stage m ρ c]
  exact gatherR_same _ _

end Cert.Cross2D

end
-- ==== Proof.Cross2.lean ====
/-
  The second layer's host-side buffers agree across the two idealized programs: the equations of the four parts,
  gathered under one name each.  The gathered rows of the layer's input take the equation of the first layer's outputs as
  a hypothesis; the gathered rows of the relation table use the equation of the two programs' tables.
-/
import proofs.«412919_j56298431316644_2_alg».proof.Proof.Cross2A
import proofs.«412919_j56298431316644_2_alg».proof.Proof.Cross2B
import proofs.«412919_j56298431316644_2_alg».proof.Proof.Cross2C
import proofs.«412919_j56298431316644_2_alg».proof.Proof.Cross2D

noncomputable section

namespace Cert.Cross2

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/- The two launch memories agree on the fifteen arguments. -/
variable (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
include hag

theorem dstIn2_eq : Cert.ReferenceIdeal.RN.dstIn2 m' c = Cert.KernelIdeal.KN.dstIn2 m ρ c :=
  Cert.Cross2A.dstIn2_eq m ρ m' c hag

theorem nuIn2_eq : Cert.ReferenceIdeal.RN.nuIn2 m' c = Cert.KernelIdeal.KN.nuIn2 m ρ c :=
  Cert.Cross2A.nuIn2_eq m ρ m' c hag

theorem dstOut2_eq : Cert.ReferenceIdeal.RN.dstOut2 m' c = Cert.KernelIdeal.KN.dstOut2 m ρ c :=
  Cert.Cross2A.dstOut2_eq m ρ m' c hag

theorem nuOut2_eq : Cert.ReferenceIdeal.RN.nuOut2 m' c = Cert.KernelIdeal.KN.nuOut2 m ρ c :=
  Cert.Cross2A.nuOut2_eq m ρ m' c hag

theorem rel2_eq : Cert.ReferenceIdeal.RN.rel2 m' c = Cert.KernelIdeal.KN.rel2 m ρ c :=
  Cert.Cross2B.rel2_eq m ρ m' c hag

theorem wIn2_eq : Cert.ReferenceIdeal.RN.wIn2 m' c = Cert.KernelIdeal.KN.wIn2 m ρ c :=
  Cert.Cross2B.wIn2_eq m ρ m' c hag

theorem wOut2_eq : Cert.ReferenceIdeal.RN.wOut2 m' c = Cert.KernelIdeal.KN.wOut2 m ρ c :=
  Cert.Cross2B.wOut2_eq m ρ m' c hag

theorem wLoop2_eq : Cert.ReferenceIdeal.RN.wLoop2 m' c = Cert.KernelIdeal.KN.wLoop2 m ρ c :=
  Cert.Cross2B.wLoop2_eq m ρ m' c hag

theorem xsIn2_eq (hx1 : Cert.ReferenceIdeal.RN.x1out m' c = Cert.KernelIdeal.KN.x1out m ρ c) : Cert.ReferenceIdeal.RN.xsIn2 m' c = Cert.KernelIdeal.KN.xsIn2 m ρ c :=
  Cert.Cross2C.xsIn2_eq m ρ m' c hag hx1

theorem rsIn2_eq : Cert.ReferenceIdeal.RN.rsIn2 m' c = Cert.KernelIdeal.KN.rsIn2 m ρ c :=
  Cert.Cross2C.rsIn2_eq m ρ m' c hag (Cert.Cross2B.rel2_eq m ρ m' c hag)

theorem xsOut2_eq (hx1 : Cert.ReferenceIdeal.RN.x1out m' c = Cert.KernelIdeal.KN.x1out m ρ c) : Cert.ReferenceIdeal.RN.xsOut2 m' c = Cert.KernelIdeal.KN.xsOut2 m ρ c :=
  Cert.Cross2D.xsOut2_eq m ρ m' c hag hx1

theorem rsOut2_eq : Cert.ReferenceIdeal.RN.rsOut2 m' c = Cert.KernelIdeal.KN.rsOut2 m ρ c :=
  Cert.Cross2D.rsOut2_eq m ρ m' c hag (Cert.Cross2B.rel2_eq m ρ m' c hag)

end Cert.Cross2

end
-- ==== Proof.Layer2Inst.lean ====
/-
  The second layer of the two idealized programs, put together as the first was.  Its input array is the first layer's
  output (a hyperbolic tangent in every entry, hence a real number again, and equal across the two programs by the first
  layer's theorem); its relation table is the first table times a weight matrix with the second self-loop row appended.
-/
import proofs.«412919_j56298431316644_2_alg».proof.Proof.Layer2
import proofs.«412919_j56298431316644_2_alg».proof.Proof.Layer1Inst
import proofs.«412919_j56298431316644_2_alg».proof.Proof.Region2Value
import proofs.«412919_j56298431316644_2_alg».proof.Proof.Region3Value
import proofs.«412919_j56298431316644_2_alg».proof.Proof.KMid2
import proofs.«412919_j56298431316644_2_alg».proof.Proof.KHost2
import proofs.«412919_j56298431316644_2_alg».proof.Proof.KHost2Fin
import proofs.«412919_j56298431316644_2_alg».proof.Proof.KHost2Rel
import proofs.«412919_j56298431316644_2_alg».proof.Proof.RHost2
import proofs.«412919_j56298431316644_2_alg».proof.Proof.Cross2

noncomputable section

namespace Cert.Layer2Inst

open Cert.KernelIdeal Idealize.ShloMosaic Idealize.ShloMosaic.TcCoe Idealize.SL.Sem Idealize.ShloMosaic.ValueIdx

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ) (c : Dev nD)

/-- The third region's combined array, entry by entry, is the region's arithmetic of the arrays it is entered with. -/
theorem comb_entry (n : Fin 100000) (j : Fin 200) : KM2.comb2 m ρ c (ix2 n j) = KVal2.combAt (Gen.V25 m ρ) c n j :=
  KVal2.region2_comb (Gen.V25 m ρ) c n j

/-- The second layer's output on the kernel side: the normalisation of the third region's combined array. -/
theorem x2out_kernel : ∀ (n : Fin 100000) (j : Fin 200), KN.x2out m ρ c (ix2 n j)
    = CompGcn.bnK (fun n j => Cert.Layer2.comb2 m ρ c (ix2 n j)) (Ideal.ofBits .f32 0x47C35000#32) (Ideal.ofBits .f32 0x3727C5AC#32) n j :=
  KM2.x2out_eq m ρ c (fun V c n j => KVal3.region3_value V c n j)
    (fun j => by
      have h := KVal2.region2_sum (Gen.V25 m ρ) c j
      simp only [← comb_entry m ρ c] at h
      exact h)
    (fun j => by
      have h := KVal2.region2_sumsq (Gen.V25 m ρ) c j
      simp only [← comb_entry m ρ c] at h
      exact h)

theorem layer2 (hpre : Cert.Pre_KernelIdeal m)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)) :
    (∀ (n : Fin 100000) (j : Fin 200), KN.x2out m ρ c (ix2 n j) = Cert.ReferenceIdeal.RN.x2out m' c (ix2 n j))
      ∧ (∀ (n : Fin 100000) (j : Fin 200), CompGcn.IsReal (KN.x2out m ρ c (ix2 n j))) := by
  have L1 := Cert.Layer1Inst.layer1 m ρ m' c hpre hag
  have hx1 : Cert.ReferenceIdeal.RN.x1out m' c = KN.x1out m ρ c := by
    funext i
    obtain ⟨n, j, rfl⟩ : ∃ (n : Fin 100000) (j : Fin 200), i = ix2 n j := ⟨i 0, i 1, eq_ix2 i⟩
    exact (L1.1 n j).symm
  have hrel1 : ∀ i, CompGcn.IsReal (KN.rel1 m ρ c i) :=
    KH1F.rel1_isReal m ρ c (Cert.PreDecode.real1 (hpre c)) (Cert.PreDecode.real6 (hpre c))
  exact Cert.Layer2.layer2_of m ρ m' c hpre
    (fun n j => (KVal2.region2_comb (Gen.V25 m ρ) c n j).trans (by unfold KVal2.combAt; rfl))
    (x2out_kernel m ρ c)
    (KH2.aggIn2_apply m ρ c (fun e => Cert.PreDecode.src_range (hpre c) e) (fun e => Cert.PreDecode.et_range (hpre c) e))
    (KH2.aggOut2_apply m ρ c (fun e => Cert.PreDecode.src_range (hpre c) e) (fun e => Cert.PreDecode.et_range (hpre c) e))
    (KH2F.hxsIn m ρ c) (KH2F.hxsOut m ρ c) (KH2F.hrsIn m ρ c) (KH2F.hrsOut m ρ c)
    (KH2F.hnuIn m ρ c) (KH2F.hnuOut m ρ c)
    (KH2.x2in_eq m ρ c) L1.2
    (KH2F.hw7 m ρ c) (KH2F.hw8 m ρ c) (KH2F.hw9 m ρ c)
    (KH2F.hrel2real m ρ c hrel1 (Cert.PreDecode.real5 (hpre c)) (Cert.PreDecode.real11 (hpre c)))
    (KH2F.hlrow m ρ c)
    (Cert.ReferenceIdeal.RH2.x2out_eq m' c)
    (Cert.Cross2.dstIn2_eq m ρ m' c hag) (Cert.Cross2.xsIn2_eq m ρ m' c hag hx1) (Cert.Cross2.rsIn2_eq m ρ m' c hag) (Cert.Cross2.nuIn2_eq m ρ m' c hag)
    (Cert.Cross2.dstOut2_eq m ρ m' c hag) (Cert.Cross2.xsOut2_eq m ρ m' c hag hx1) (Cert.Cross2.rsOut2_eq m ρ m' c hag) (Cert.Cross2.nuOut2_eq m ρ m' c hag)
    (hx1.trans (KH2.x2in_eq m ρ c).symm) (Cert.Cross2.rel2_eq m ρ m' c hag)
    (Cert.Cross2.wIn2_eq m ρ m' c hag) (Cert.Cross2.wOut2_eq m ρ m' c hag) (Cert.Cross2.wLoop2_eq m ρ m' c hag)

end Cert.Layer2Inst

end
-- ==== Proof.KFinal.lean ====
import proofs.«412919_j56298431316644_2_alg».proof.Proof.KNames
import Idealize.ShloMosaic.Lib.ValueIdx
import Idealize.ShloMosaic.Lib.StableHlo.Predicate
import Idealize.ShloMosaic.Lib.ReduceAll

/-!
The last statement of the kernel program's @main picks 8192 rows of the second layer's output by the query indices:
a negative index is wrapped by +100000, the row at the index (read signed, clamped into [0, 99999]) is gathered, and a row
whose index fails 0 ≤ index ≤ 99999 is replaced by a fill value. For indices in [0, 100000) nothing is wrapped, the
test passes, and the result's row q is the output's row at index q.
-/

set_option maxRecDepth 16384

noncomputable section

namespace Cert.KernelIdeal.KFin

open Cert.KernelIdeal Cert.KernelIdeal.Gen Idealize.ShloMosaic Idealize.ShloMosaic.TcCoe Idealize.SL.Sem Idealize.ShloMosaic.StableHlo
open Idealize.ShloMosaic.ValueIdx

/-! ## A row gather read at an index -/

/-- The dimension numbers of a row gather: operand [N, D], start indices [n, 1], result [n, D]; the result's axis 1 is the
    offset axis, the operand's axis 0 is collapsed and start-indexed, the index vector is on axis 1, slices are [1, D]. -/
abbrev rowDims (N D n : Nat) (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- THE ROW GATHER READ AT (q, j): the operand at row "start index q, read signed and clamped into [0, N − 1]", column j. -/
theorem gather_row_apply {α : Type} {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (q : Fin n) (j : Fin D) :
    Host.gather (rowDims N D n wf) x idx (ix2 q j)
      = x (ix2 (⟨min (idx (ix2 q (0 : Fin 1))).toInt.toNat (N - 1), by omega⟩ : Fin N) j) := by
  show x ((rowDims N D n wf).operandIdx (ix2 q j) idx) = x _
  congr 1
  funext a
  refine Fin.ext ?_
  match a with
  | ⟨0, _⟩ =>
    show (rowDims N D n wf).start (ix2 q j) idx 0 + (rowDims N D n wf).batchCoord (ix2 q j) 0
      + (rowDims N D n wf).offCoord (ix2 q j) 0 = min (idx (ix2 q (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    show (rowDims N D n wf).start (ix2 q j) idx 0 = min (idx (ix2 q (0 : Fin 1))).toInt.toNat (N - 1)
    delta GatherDims.start
    rw [dif_pos (show (0 : Fin 2) ∈ (rowDims N D n wf).startIndexMap from List.mem_singleton.mpr rfl)]
    have hsi : (rowDims N D n wf).siIdx (ix2 q j) ⟨List.idxOf (0 : Fin 2) (rowDims N D n wf).startIndexMap,
        List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl
  | ⟨1, _⟩ =>
    show (rowDims N D n wf).start (ix2 q j) idx 1 + (rowDims N D n wf).batchCoord (ix2 q j) 1
      + (rowDims N D n wf).offCoord (ix2 q j) 1 = j.val
    have h10 : (1 : Fin 2) ∉ ([0] : List (Fin 2)) := by decide
    have hs : (rowDims N D n wf).start (ix2 q j) idx 1 = 0 := by
      delta GatherDims.start
      exact dif_neg h10
    have hk : (1 : Fin 2) ∈ (rowDims N D n wf).sKept := (GatherDims.mem_sKept _ _).2 ⟨h10, List.not_mem_nil⟩
    rw [GatherDims.batchCoord_eq_zero _ _ _ List.not_mem_nil, hs]
    show 0 + 0 + (rowDims N D n wf).offCoord (ix2 q j) 1 = j.val
    simp only [Nat.zero_add]
    delta GatherDims.offCoord
    rw [dif_pos hk]
    rfl

/-! ## Words and folds -/

theorem toInt_zero : (0#32 : BitVec 32).toInt = 0 := by decide
theorem toInt_99999 : (99999#32 : BitVec 32).toInt = 99999 := by decide

/-- A non-negative word is left alone by "add 100000 if negative". -/
theorem wrap_id (w : BitVec 32) (h0 : 0 ≤ w.toInt) :
    Scalar.select (IntOp.cmpi .slt w 0#32) (IntOp.addi w 100000#32) w = w := by
  have hz : IntOp.cmpi .slt w 0#32 = 0#1 :=
    eq_zero_of_ne_one (fun h => by have h' := IntOp.cmpi_slt.1 h; rw [toInt_zero] at h'; omega)
  rw [hz]
  exact select_zero _ _

/-- A word with value in [0, 100000) passes the test 0 ≤ w ≤ 99999. -/
theorem inrange_one (w : BitVec 32) (h : 0 ≤ w.toInt ∧ w.toInt < 100000) :
    IntOp.andi (IntOp.cmpi .sge w 0#32) (IntOp.cmpi .sle w 99999#32) = 1#1 :=
  IntOp.andi_eq_one.2 ⟨IntOp.cmpi_sge.2 (by rw [toInt_zero]; exact h.1), IntOp.cmpi_sle.2 (by rw [toInt_99999]; omega)⟩

theorem andi_one_one : IntOp.andi 1#1 1#1 = 1#1 := by decide

/-- A left fold by "and" from 1 over one-bit words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    show l.foldl (fun r n => IntOp.andi r (f n)) (IntOp.andi 1#1 (f a)) = 1#1
    rw [h a List.mem_cons_self, andi_one_one]
    exact foldl_andi_one f l (fun n hn => h n (List.mem_cons_of_mem _ hn))

/-- An and-reduction from 1 of an array of ones is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ (fun i _ => hx i)

/-! ## The take, composed -/

/-- The indices with negatives wrapped by +100000. -/
def wrapIdx (idx : IVec S8192 32) : IVec S8192 32 :=
  select (cmpi .slt idx (broadcastInDim S8192 ![] bcast_S_S8192 (constantI S_ 32 0#32)))
    (addi idx (broadcastInDim S8192 ![] bcast_S_S8192 (constantI S_ 32 100000#32))) idx
/-- … as an [8192, 1] column of start indices. -/
def colIdx (idx : IVec S8192 32) : IVec S8192x1 32 := broadcastInDim S8192x1 ![0] bcast_S8192_S8192x1_0 (wrapIdx idx)
/-- The test 0 ≤ index ≤ 99999 of every start index, and-reduced over the column's one entry per row. -/
def inRange (idx : IVec S8192 32) : IVec S8192 1 :=
  Host.reduce IntOp.andi
    (andi (cmpi .sge (colIdx idx) (broadcastInDim S8192x1 ![] bcast_S_S8192x1 (constantI S_ 32 0#32)))
      (cmpi .sle (colIdx idx) (broadcastInDim S8192x1 ![0, 1] bcast_S1x1_S8192x1_0_1
        (broadcastInDim S1x1 ![1] bcast_S1_S1x1_1 (constantI S1 32 99999#32)))))
    (constantI S_ 1 1#1) reducesTo_S8192x1_S8192_d1 h_S_
/-- The rows of x gathered at the start indices, a row failing the test replaced by the fill value. -/
def takeFn (x : FVec Ideal S100000x200 .f32) (idx : IVec S8192 32) : FVec Ideal S8192x200 .f32 :=
  select (broadcastInDim S8192x200 ![0] bcast_S8192_S8192x200_0 (inRange idx))
    (Host.gather gather_S100000x200_S8192x1_S8192x200_1_0_n_n_0_1_1200 x (colIdx idx))
    (broadcastInDim S8192x200 ![] bcast_S_S8192x200 (constant (F := Ideal) S_ .f32 0x7FC00000#32))

/-! ## The take at an index -/

/-- A vector laid along the rows of an [8192, 200] rectangle reads, at (q, j), the vector at q. -/
theorem bcast_row_apply {α : Type} (v : S8192.Idx → α) (q : Fin 8192) (j : Fin 200) :
    broadcastInDim S8192x200 ![0] bcast_S8192_S8192x200_0 v (ix2 q j) = v (ix1 q) := by
  show v _ = v _
  congr 1
  funext a
  match a with
  | ⟨0, _⟩ => rfl
/-- A vector as an [8192, 1] column reads, at any (i₀, i₁), the vector at i₀. -/
theorem bcast_col_apply {α : Type} (v : S8192.Idx → α) (i : S8192x1.Idx) :
    broadcastInDim S8192x1 ![0] bcast_S8192_S8192x1_0 v i = v (ix1 (i 0)) := by
  show v _ = v _
  congr 1
  funext a
  match a with
  | ⟨0, _⟩ => rfl

variable (x : FVec Ideal S100000x200 .f32) (idx : IVec S8192 32)

/-- Indices in [0, 100000) are not wrapped. -/
theorem wrapIdx_apply (hidx : ∀ k : S8192.Idx, 0 ≤ (idx k).toInt ∧ (idx k).toInt < 100000) (k : S8192.Idx) :
    wrapIdx idx k = idx k :=
  wrap_id (idx k) (hidx k).1

theorem colIdx_apply (hidx : ∀ k : S8192.Idx, 0 ≤ (idx k).toInt ∧ (idx k).toInt < 100000) (i : S8192x1.Idx) :
    colIdx idx i = idx (ix1 (i 0)) :=
  (bcast_col_apply (wrapIdx idx) i).trans (wrapIdx_apply idx hidx _)

/-- … and every one passes the test. -/
theorem inRange_apply (hidx : ∀ k : S8192.Idx, 0 ≤ (idx k).toInt ∧ (idx k).toInt < 100000) (k : S8192.Idx) :
    inRange idx k = 1#1 := by
  refine reduce_andi_one _ _ reducesTo_S8192x1_S8192_d1 h_S_ rfl (fun i => ?_) k
  show IntOp.andi (IntOp.cmpi .sge (colIdx idx i) 0#32) (IntOp.cmpi .sle (colIdx idx i) 99999#32) = 1#1
  rw [colIdx_apply idx hidx i]
  exact inrange_one _ (hidx _)

/-- THE TAKE AT (q, j), for indices in [0, 100000): row "index q" of x, column j. -/
theorem takeFn_apply (hidx : ∀ k : S8192.Idx, 0 ≤ (idx k).toInt ∧ (idx k).toInt < 100000) (q : Fin 8192) (j : Fin 200) :
    takeFn x idx (ix2 q j) = x (ix2 (⟨min (idx (ix1 q)).toInt.toNat 99999, by omega⟩ : Fin 100000) j) := by
  show Scalar.select (broadcastInDim S8192x200 ![0] bcast_S8192_S8192x200_0 (inRange idx) (ix2 q j))
    (Host.gather gather_S100000x200_S8192x1_S8192x200_1_0_n_n_0_1_1200 x (colIdx idx) (ix2 q j)) _ = _
  rw [bcast_row_apply, inRange_apply idx hidx, select_one]
  refine (gather_row_apply (N := 100000) (D := 200) (n := 8192) (by decide)
    gather_S100000x200_S8192x1_S8192x200_1_0_n_n_0_1_1200_wf x (colIdx idx) q j).trans ?_
  have hc : colIdx idx (ix2 q (0 : Fin 1)) = idx (ix1 q) := colIdx_apply idx hidx _
  have hN : (100000 - 1 : Nat) = 99999 := rfl
  refine congrArg (fun r : Fin 100000 => x (ix2 r j)) (Fin.ext ?_)
  show min (colIdx idx (ix2 q (0 : Fin 1))).toInt.toNat (100000 - 1) = min (idx (ix1 q)).toInt.toNat 99999
  rw [hc, hN]

/-! ## The program's two results -/

variable (m : (ℓ : Loc nD τ sig) → Buf (Elt Ideal) ℓ) (ρ : Dev nD → PrngReg) (c : Dev nD)

set_option maxHeartbeats 4000000 in
/-- What the last host stretch leaves in the take's result buffer: the composed take of what the region before it left in
    the output buffer and in the query-index buffer. -/
theorem res0_stage : KN.res0 m ρ c = takeFn (W28 m ρ c (Proc.devRef .tc main_v193)) (W28 m ρ c (Proc.devRef .tc main_arg14)) := by
  dsimp only [KN.res0, W30, hostOps4_1]
  after_results_simp
  simp only [cast_cast, cast_eq]
  delta takeFn inRange colIdx wrapIdx
  rfl

set_option maxHeartbeats 4000000 in
/-- The output buffer is not written by the last two host stretches. -/
theorem res1_eq : KN.res1 m ρ c = KN.x2out m ρ c := by
  dsimp only [KN.res1, KN.x2out, W30, W29, hostOps4_1, hostOps4]
  after_results_simp

set_option maxHeartbeats 4000000 in
/-- Nor is the query-index buffer. -/
theorem arg14_stage : W30 m ρ c (Proc.devRef .tc main_arg14) = W28 m ρ c (Proc.devRef .tc main_arg14) := by
  dsimp only [W30, W29, hostOps4_1, hostOps4]
  after_results_simp

/-- THE FIRST RESULT, for query indices in [0, 100000): its row q is the second result's row at index q. -/
theorem res0_eq
    (horg : ∀ e : Fin 8192, 0 ≤ ((m ((c : Thread nD τ).loc main_arg14) : IVec S8192 32) (ix1 e)).toInt
      ∧ ((m ((c : Thread nD τ).loc main_arg14) : IVec S8192 32) (ix1 e)).toInt < 100000) :
    ∀ (q : Fin 8192) (j : Fin 200), KN.res0 m ρ c (ix2 q j)
      = KN.res1 m ρ c (ix2 (⟨min ((m ((c : Thread nD τ).loc main_arg14) : IVec S8192 32) (ix1 q)).toInt.toNat 99999,
          by omega⟩ : Fin 100000) j) := by
  intro q j
  have harg : W28 m ρ c (Proc.devRef .tc main_arg14) = m ((c : Thread nD τ).loc main_arg14) :=
    (arg14_stage m ρ c).symm.trans (W30_main_arg14 m ρ c)
  rw [res1_eq m ρ c]
  refine (congrFun (res0_stage m ρ c) (ix2 q j)).trans ?_
  rw [harg]
  exact takeFn_apply (KN.x2out m ρ c) (m ((c : Thread nD τ).loc main_arg14))
    (fun k => by rw [eq_ix1 k]; exact horg (k 0)) q j

end Cert.KernelIdeal.KFin

end
-- ==== Proof.RFinal.lean ====
import proofs.«412919_j56298431316644_2_alg».proof.Proof.RNames
import Idealize.ShloMosaic.Lib.ValueIdx
import Idealize.ShloMosaic.Lib.Affine

/-!
The last statements of the reference program's @main pick 8192 rows of the second layer's output by the query indices:
a negative index is wrapped by +100000 and the row at the index (read signed, clamped into [0, 99999]) is gathered.
For indices in [0, 100000) nothing is wrapped and the result's row q is the output's row at index q.
-/

set_option maxRecDepth 16384

noncomputable section

namespace Cert.ReferenceIdeal.RFin

open Cert.ReferenceIdeal Cert.ReferenceIdeal.Gen Cert.ReferenceIdeal.RRun Idealize.ShloMosaic Idealize.ShloMosaic.TcCoe Idealize.SL.Sem Idealize.ShloMosaic.StableHlo
open Idealize.ShloMosaic.ValueIdx

/-! ## A row gather read at an index -/

/-- The dimension numbers of a row gather: operand [N, D], start indices [n, 1], result [n, D]; the result's axis 1 is the
    offset axis, the operand's axis 0 is collapsed and start-indexed, the index vector is on axis 1, slices are [1, D]. -/
abbrev rowDims (N D n : Nat) (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- THE ROW GATHER READ AT (q, j): the operand at row "start index q, read signed and clamped into [0, N − 1]", column j. -/
theorem gather_row_apply {α : Type} {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (q : Fin n) (j : Fin D) :
    Host.gather (rowDims N D n wf) x idx (ix2 q j)
      = x (ix2 (⟨min (idx (ix2 q (0 : Fin 1))).toInt.toNat (N - 1), by omega⟩ : Fin N) j) := by
  show x ((rowDims N D n wf).operandIdx (ix2 q j) idx) = x _
  congr 1
  funext a
  refine Fin.ext ?_
  match a with
  | ⟨0, _⟩ =>
    show (rowDims N D n wf).start (ix2 q j) idx 0 + (rowDims N D n wf).batchCoord (ix2 q j) 0
      + (rowDims N D n wf).offCoord (ix2 q j) 0 = min (idx (ix2 q (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    show (rowDims N D n wf).start (ix2 q j) idx 0 = min (idx (ix2 q (0 : Fin 1))).toInt.toNat (N - 1)
    delta GatherDims.start
    rw [dif_pos (show (0 : Fin 2) ∈ (rowDims N D n wf).startIndexMap from List.mem_singleton.mpr rfl)]
    have hsi : (rowDims N D n wf).siIdx (ix2 q j) ⟨List.idxOf (0 : Fin 2) (rowDims N D n wf).startIndexMap,
        List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl
  | ⟨1, _⟩ =>
    show (rowDims N D n wf).start (ix2 q j) idx 1 + (rowDims N D n wf).batchCoord (ix2 q j) 1
      + (rowDims N D n wf).offCoord (ix2 q j) 1 = j.val
    have h10 : (1 : Fin 2) ∉ ([0] : List (Fin 2)) := by decide
    have hs : (rowDims N D n wf).start (ix2 q j) idx 1 = 0 := by
      delta GatherDims.start
      exact dif_neg h10
    have hk : (1 : Fin 2) ∈ (rowDims N D n wf).sKept := (GatherDims.mem_sKept _ _).2 ⟨h10, List.not_mem_nil⟩
    rw [GatherDims.batchCoord_eq_zero _ _ _ List.not_mem_nil, hs]
    show 0 + 0 + (rowDims N D n wf).offCoord (ix2 q j) 1 = j.val
    simp only [Nat.zero_add]
    delta GatherDims.offCoord
    rw [dif_pos hk]
    rfl

/-! ## Words -/

theorem toInt_zero : (0#32 : BitVec 32).toInt = 0 := by decide

/-- A non-negative word is left alone by "add 100000 if negative". -/
theorem wrap_id (w : BitVec 32) (h0 : 0 ≤ w.toInt) :
    Scalar.select (IntOp.cmpi .slt w 0#32) (IntOp.addi w 100000#32) w = w := by
  have hz : IntOp.cmpi .slt w 0#32 = 0#1 :=
    eq_zero_of_ne_one (fun h => by have h' := IntOp.cmpi_slt.1 h; rw [toInt_zero] at h'; omega)
  rw [hz]
  exact select_zero _ _

/-! ## The take, composed -/

/-- The indices with negatives wrapped by +100000. -/
def wrapIdx (idx : IVec S8192 32) : IVec S8192 32 :=
  select (cmpi .slt idx (broadcastInDim S8192 ![] bcast_S_S8192 (constantI S_ 32 0#32)))
    (addi idx (broadcastInDim S8192 ![] bcast_S_S8192 (constantI S_ 32 100000#32))) idx
/-- … as an [8192, 1] column of start indices. -/
def colIdx (idx : IVec S8192 32) : IVec S8192x1 32 := broadcastInDim S8192x1 ![0] bcast_S8192_S8192x1_0 (wrapIdx idx)
/-- The rows of x gathered at the start indices. -/
def takeFn (x : FVec Ideal S100000x200 .f32) (idx : IVec S8192 32) : FVec Ideal S8192x200 .f32 :=
  Host.gather gather_S100000x200_S8192x1_S8192x200_1_0_n_n_0_1_1200 x (colIdx idx)

/-! ## The take at an index -/

/-- A vector as an [8192, 1] column reads, at any (i₀, i₁), the vector at i₀. -/
theorem bcast_col_apply {α : Type} (v : S8192.Idx → α) (i : S8192x1.Idx) :
    broadcastInDim S8192x1 ![0] bcast_S8192_S8192x1_0 v i = v (ix1 (i 0)) := by
  show v _ = v _
  congr 1
  funext a
  match a with
  | ⟨0, _⟩ => rfl

variable (x : FVec Ideal S100000x200 .f32) (idx : IVec S8192 32)

/-- Indices in [0, 100000) are not wrapped. -/
theorem wrapIdx_apply (hidx : ∀ k : S8192.Idx, 0 ≤ (idx k).toInt ∧ (idx k).toInt < 100000) (k : S8192.Idx) :
    wrapIdx idx k = idx k :=
  wrap_id (idx k) (hidx k).1

theorem colIdx_apply (hidx : ∀ k : S8192.Idx, 0 ≤ (idx k).toInt ∧ (idx k).toInt < 100000) (i : S8192x1.Idx) :
    colIdx idx i = idx (ix1 (i 0)) :=
  (bcast_col_apply (wrapIdx idx) i).trans (wrapIdx_apply idx hidx _)

/-- THE TAKE AT (q, j), for indices in [0, 100000): row "index q" of x, column j. -/
theorem takeFn_apply (hidx : ∀ k : S8192.Idx, 0 ≤ (idx k).toInt ∧ (idx k).toInt < 100000) (q : Fin 8192) (j : Fin 200) :
    takeFn x idx (ix2 q j) = x (ix2 (⟨min (idx (ix1 q)).toInt.toNat 99999, by omega⟩ : Fin 100000) j) := by
  refine (gather_row_apply (N := 100000) (D := 200) (n := 8192) (by decide)
    gather_S100000x200_S8192x1_S8192x200_1_0_n_n_0_1_1200_wf x (colIdx idx) q j).trans ?_
  have hc : colIdx idx (ix2 q (0 : Fin 1)) = idx (ix1 q) := colIdx_apply idx hidx _
  have hN : (100000 - 1 : Nat) = 99999 := rfl
  refine congrArg (fun r : Fin 100000 => x (ix2 r j)) (Fin.ext ?_)
  show min (colIdx idx (ix2 q (0 : Fin 1))).toInt.toNat (100000 - 1) = min (idx (ix1 q)).toInt.toNat 99999
  rw [hc, hN]

/-! ## The program's first result -/

variable (m : (ℓ : Loc nD τ sig) → Buf (Elt Ideal) ℓ) (c : Dev nD)

set_option maxHeartbeats 4000000 in
/-- @main's last statements, over ANY contents V before them: what they leave in the first result's buffer is the
    composed take of what they leave in the second layer's output buffer and in the query-index buffer. -/
theorem stage_gen (V : Valuation τ sig (Elt Ideal)) :
    StableHlo.after ops_p7 V (Proc.devRef .tc main_v340)
      = takeFn (StableHlo.after ops_p7 V (Proc.devRef .tc main_v331)) (StableHlo.after ops_p7 V (Proc.devRef .tc main_arg14)) := by
  dsimp only [ops_p7]
  after_results_simp
  delta takeFn colIdx wrapIdx
  rfl

/-- … at the contents the statements before them leave. -/
theorem res0_stage : RN.res0 m c = takeFn (RN.x2out m c) (R8 m c (Proc.devRef .tc main_arg14)) :=
  stage_gen (R7 m c)

/-- The query-index buffer is never written. -/
theorem arg14_eq : R8 m c (Proc.devRef .tc main_arg14) = m ((c : Thread nD τ).loc main_arg14) :=
  R8_keep m c (by decide) (by decide) (by decide) (by decide) (by decide) (by decide) (by decide) (by decide)

/-- THE FIRST RESULT, for query indices in [0, 100000): its row q is the second layer's output row at index q. -/
theorem res0_eq
    (horg : ∀ e : Fin 8192, 0 ≤ ((m ((c : Thread nD τ).loc main_arg14) : IVec S8192 32) (ix1 e)).toInt
      ∧ ((m ((c : Thread nD τ).loc main_arg14) : IVec S8192 32) (ix1 e)).toInt < 100000) :
    ∀ (q : Fin 8192) (j : Fin 200), RN.res0 m c (ix2 q j)
      = RN.x2out m c (ix2 (⟨min ((m ((c : Thread nD τ).loc main_arg14) : IVec S8192 32) (ix1 q)).toInt.toNat 99999,
          by omega⟩ : Fin 100000) j) := by
  intro q j
  refine (congrFun (res0_stage m c) (ix2 q j)).trans ?_
  rw [arg14_eq m c]
  exact takeFn_apply (RN.x2out m c) (m ((c : Thread nD τ).loc main_arg14))
    (fun k => by rw [eq_ix1 k]; exact horg (k 0)) q j

end Cert.ReferenceIdeal.RFin

end
-- ==== Proof.lean ====
/-
  Two layers of a relational graph convolution, a batch normalisation and a hyperbolic tangent after each, and a final
  gather of rows: the kernel program aggregates the per-edge products over the edges of every node BEFORE it multiplies
  by the layer's weight matrices (inside two tiled kernels per layer, the first accumulating the column sums and sums of
  squares for the normalisation, the second normalising by mean and (mean of squares − mean²) through a reciprocal
  square root), the reference multiplies every edge's product by the weights first, aggregates afterwards, and
  normalises by the mean of the squared deviations through a square root and a quotient.

  On the extended reals the two agree when every float input is finite (distributivity and cancellation need it; the
  outputs of the first layer are hyperbolic tangents, hence finite again) and when the gather indices are in range (the
  kernel's gather fills out-of-range rows with a NaN, the reference's clamps the index: the added conjuncts of the
  precondition).  The frames are the generated ones (the reference's from its run), `preserves` is empty, and the value
  claim pairs the kernel program's run — the generated launch read once more with the results named — with the
  reference's run, the two results equal index by index (modules `Layer1`, `Layer2` and the final gather).
-/
import proofs.«412919_j56298431316644_2_alg».proof.Defs
import proofs.«412919_j56298431316644_2_alg».proof.Proof.Gen.Kernel
import proofs.«412919_j56298431316644_2_alg».proof.Proof.Gen.Kernel.Frame
import proofs.«412919_j56298431316644_2_alg».proof.Proof.Gen.KernelIdeal
import proofs.«412919_j56298431316644_2_alg».proof.Proof.Gen.KernelIdeal.Frame
import proofs.«412919_j56298431316644_2_alg».proof.Proof.Gen.ReferenceIdeal
import proofs.«412919_j56298431316644_2_alg».proof.Proof.Gen.Pre_finite_inputs
import proofs.«412919_j56298431316644_2_alg».proof.Proof.KernelRun
import proofs.«412919_j56298431316644_2_alg».proof.Proof.RefRun
import proofs.«412919_j56298431316644_2_alg».proof.Proof.KNames
import proofs.«412919_j56298431316644_2_alg».proof.Proof.RNames
import proofs.«412919_j56298431316644_2_alg».proof.Proof.Layer2Inst
import proofs.«412919_j56298431316644_2_alg».proof.Proof.KFinal
import proofs.«412919_j56298431316644_2_alg».proof.Proof.RFinal
import proofs.«412919_j56298431316644_2_alg».proof.Proof.PreDecode
import Idealize.ShloMosaic.Adequacy
import Idealize.ShloMosaic.Init

noncomputable section

namespace Cert.Proof

open Idealize.ShloMosaic Idealize.SL.Sem

/-- The row of the second layer's output that query `q` picks: the query's index word, read signed and clamped into the array. -/
def pickedRow (a : IVec ⟨1, ![8192]⟩ 32) (q : Fin 8192) : Fin 100000 :=
  ⟨min (a (ValueIdx.ix1 q)).toInt.toNat 99999, by omega⟩

/-- The second result: the reference's second-layer output is the kernel program's, as whole arrays. -/
theorem res1_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.RN.x2out m' c = Cert.KernelIdeal.KN.res1 m ρ c := by
  have L2 := Cert.Layer2Inst.layer2 m ρ m' c hpre hag
  rw [Cert.KernelIdeal.KFin.res1_eq m ρ c]
  funext i
  obtain ⟨n, j, rfl⟩ : ∃ (n : Fin 100000) (j : Fin 200), i = ValueIdx.ix2 n j := ⟨i 0, i 1, ValueIdx.eq_ix2 i⟩
  exact (L2.1 n j).symm

/-- The first result: the rows picked by the query indices.  Both programs read, for query `q`, the row of the second
    layer's output at the query's index word (in range by the precondition, so the kernel program's fill never shows). -/
theorem res0_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.RN.res0 m' c = Cert.KernelIdeal.KN.res0 m ρ c := by
  have L2 := Cert.Layer2Inst.layer2 m ρ m' c hpre hag
  have h14 : m' ((c.tc : Thread Cert.ReferenceIdeal.nD Cert.ReferenceIdeal.τ).loc Cert.ReferenceIdeal.main_arg14)
      = m ((c.tc : Thread Cert.KernelIdeal.nD Cert.KernelIdeal.τ).loc Cert.KernelIdeal.main_arg14) :=
    hag.2.2.2.2.2.2.2.2.2.2.2.2.2.2
  have horg := Cert.PreDecode.org_range (hpre c)
  have hrow : ∀ q : Fin 8192, pickedRow (m' ((c.tc : Thread Cert.ReferenceIdeal.nD Cert.ReferenceIdeal.τ).loc Cert.ReferenceIdeal.main_arg14)) q
      = pickedRow (m ((c.tc : Thread Cert.KernelIdeal.nD Cert.KernelIdeal.τ).loc Cert.KernelIdeal.main_arg14)) q := fun q => by rw [h14]
  funext i
  obtain ⟨q, j, rfl⟩ : ∃ (q : Fin 8192) (j : Fin 200), i = ValueIdx.ix2 q j := ⟨i 0, i 1, ValueIdx.eq_ix2 i⟩
  have hR := Cert.ReferenceIdeal.RFin.res0_eq m' c (by rw [h14]; exact horg) q j
  have hK := Cert.KernelIdeal.KFin.res0_eq m ρ c horg q j
  rw [Cert.KernelIdeal.KFin.res1_eq m ρ c] at hK
  refine hR.trans (Eq.trans ?_ hK.symm)
  show Cert.ReferenceIdeal.RN.x2out m' c (ValueIdx.ix2 (pickedRow (m' ((c.tc : Thread Cert.ReferenceIdeal.nD Cert.ReferenceIdeal.τ).loc Cert.ReferenceIdeal.main_arg14)) q) j)
    = Cert.KernelIdeal.KN.x2out m ρ c (ValueIdx.ix2 (pickedRow (m ((c.tc : Thread Cert.KernelIdeal.nD Cert.KernelIdeal.τ).loc Cert.KernelIdeal.main_arg14)) q) j)
  rw [hrow q]
  exact (L2.1 _ j).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.RRun.run (F := Ideal) m ρ),
  trivial,
  fun m ρ m' ρ' hpre hag =>
    ⟨fun c => Cert.KernelIdeal.KN.res0 m ρ c, fun c => Cert.KernelIdeal.KN.res1 m ρ c,
      Cert.KernelIdeal.KRun.run_results (F := Ideal) m ρ,
      (θ_run Cert.ReferenceIdeal.defs _ _).mono
        (fun _ h c => ⟨(h c).1.trans (res0_eq m ρ m' hpre c (hag c)), (h c).2.1.trans (res1_eq m ρ m' hpre c (hag c)), (h c).2.2⟩)
        (Cert.ReferenceIdeal.RRun.run (F := Ideal) m' ρ')⟩⟩

end Cert.Proof

end
